-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_32000" .f32 0x3803126F#32 ((1 / 32000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v38)) (v3 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_v36) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x2048 : Shape := ⟨3, ![4, 1024, 2048]⟩
abbrev S32000x2048 : Shape := ⟨2, ![32000, 2048]⟩
abbrev S4x1024 : Shape := ⟨2, ![4, 1024]⟩
abbrev S4 : Shape := ⟨1, ![4]⟩
abbrev S_ : Shape := ⟨0, ![]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S4x1024 : S_.BroadcastsInDim S4x1024 (![] : Fin 0 → Fin S4x1024.rank)
  reducesTo_S4x1024_S_d0_1 : S4x1024.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_v28 : IVec S_ 1) (main_v33 : IVec S4x1024 1) : IVec S_ 1 :=
  let main_c_12 : IVec S_ 1 := constantI S_ 1 1#1
  let main_v34 : IVec S_ 1 := (fun x v => Host.reduce IntOp.andi x v reducesTo_S4x1024_S_d0_1 h_S_) main_v33 main_c_12
  let main_v35 : IVec S_ 1 := andi main_v28 main_v34
  main_v35

def fn_part1 {F : FTy → Type} [FloatOps F] (main_arg4 : IVec S4x1024 32) (main_arg5 : FVec F S4x1024 .f32) (main_arg6 : FVec F S4 .f32) (main_v13 : IVec S_ 1) (main_v16 : IVec S4x1024x2048 1) : IVec S_ 1 :=
  let main_c_5 : IVec S_ 1 := constantI S_ 1 1#1
  let main_v17 : IVec S_ 1 := (fun x v => Host.reduce IntOp.andi x v reducesTo_S4x1024x2048_S_d0_1_2 h_S_) main_v16 main_c_5
  let main_v18 : IVec S_ 1 := andi main_v13 main_v17
  let main_v19 : FVec F S4x1024 .f32 := Host.absf main_arg5
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_c_10 : IVec S_ 32 := constantI S_ 32 0#32
  let main_v29 : IVec S4x1024 32 := broadcastInDim S4x1024 ![] bcast_S_S4x1024 main_c_10
  let main_v30 : IVec S4x1024 1 := cmpi .sge main_arg4 main_v29
  let main_c_11 : IVec S_ 32 := constantI S_ 32 32000#32
  let main_v31 : IVec S4x1024 32 := broadcastInDim S4x1024 ![] bcast_S_S4x1024 main_c_11
  let main_v32 : IVec S4x1024 1 := cmpi .slt main_arg4 main_v31
  let main_v33 : IVec S4x1024 1 := andi main_v30 main_v32
  fn_part2 (F := F) main_v28 main_v33

def fn {F : FTy → Type} [FloatOps F] (main_arg0 : FVec F S4x1024x2048 .f32) (main_arg1 : FVec F S32000x2048 .f32) (main_arg2 : FVec F S32000x2048 .f32) (main_arg3 : FVec F S4x1024x2048 .f32) (main_arg4 : IVec S4x1024 32) (main_arg5 : FVec F S4x1024 .f32) (main_arg6 : FVec F S4 .f32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : FVec F S32000x2048 .f32 := Host.absf main_arg2
  let main_cst_2 : FVec F S_ .f32 := constant S_ .f32 0x7F800000#32
  let main_v10 : FVec F S32000x2048 .f32 := broadcastInDim S32000x2048 ![] bcast_S_S32000x2048 main_cst_2
  let main_v11 : IVec S32000x2048 1 := cmpf .olt main_v9 main_v10
  let main_c_3 : IVec S_ 1 := constantI S_ 1 1#1
  let main_v12 : IVec S_ 1 := (fun x v => Host.reduce IntOp.andi x v reducesTo_S32000x2048_S_d0_1 h_S_) main_v11 main_c_3
  let main_v13 : IVec S_ 1 := andi main_v8 main_v12
  let main_v14 : FVec F S4x1024x2048 .f32 := Host.absf main_arg3
  let main_cst_4 : FVec F S_ .f32 := constant S_ .f32 0x7F800000#32
  let main_v15 : FVec F S4x1024x2048 .f32 := broadcastInDim S4x1024x2048 ![] bcast_S_S4x1024x2048 main_cst_4
  let main_v16 : IVec S4x1024x2048 1 := cmpf .olt main_v14 main_v15
  fn_part1 (F := F) main_arg4 main_arg5 main_arg6 main_v13 main_v16
-- ==== Kernel.lean ====
abbrev S4x1024x2048 : Shape := ⟨3, ![4, 1024, 2048]⟩
abbrev S32000x2048 : Shape := ⟨2, ![32000, 2048]⟩
abbrev S4x1024 : Shape := ⟨2, ![4, 1024]⟩
abbrev S4 : Shape := ⟨1, ![4]⟩
abbrev S4x1024x1 : Shape := ⟨3, ![4, 1024, 1]⟩
abbrev S4x256x2048 : Shape := ⟨3, ![4, 256, 2048]⟩
abbrev S1280x2048 : Shape := ⟨2, ![1280, 2048]⟩
abbrev S4x256x1 : Shape := ⟨3, ![4, 256, 1]⟩
abbrev S4x256 : Shape := ⟨2, ![4, 256]⟩
abbrev S1024x2048 : Shape := ⟨2, ![1024, 2048]⟩
abbrev S1024x1280 : Shape := ⟨2, ![1024, 1280]⟩
abbrev S4x256x1280 : Shape := ⟨3, ![4, 256, 1280]⟩
abbrev S1x1x1280 : Shape := ⟨3, ![1, 1, 1280]⟩
abbrev S_ : Shape := ⟨0, ![]⟩
abbrev S4x1 : Shape := ⟨2, ![4, 1]⟩

abbrev nBuf : Space → Nat
  | .hbm => 73
  | .vmem => 25
  | .smem => 0
  | _ => 0

abbrev bufTy : (tb : Table) → Fin (tcTables nBuf tb) → BufTy
  | .hbm, ⟨0, _⟩ => ⟨S4x1024x2048, .f32⟩
  | .hbm, ⟨1, _⟩ => ⟨S32000x2048, .f32⟩
  | .hbm, ⟨2, _⟩ => ⟨S32000x2048, .f32⟩
  | .hbm, ⟨3, _⟩ => ⟨S4x1024x2048, .f32⟩
  | .hbm, ⟨4, _⟩ => ⟨S4x1024, .i32⟩
  | .hbm, ⟨5, _⟩ => ⟨S4x1024, .f32⟩
  | .hbm, ⟨6, _⟩ => ⟨S4, .f32⟩
  | .hbm, ⟨7, _⟩ => ⟨S4x1024x1, .i32⟩
  | .hbm, ⟨8, _⟩ => ⟨S4x1024x2048, .bf16⟩
  | .hbm, ⟨9, _⟩ => ⟨S32000x2048, .bf16⟩
  | .hbm, ⟨10, _⟩ => ⟨S4x1024, .f32⟩
  | .hbm, ⟨11, _⟩ => ⟨S4x1024, .f32⟩
  | .hbm, ⟨12, _⟩ => ⟨S4x1024x2048, .bf16⟩
  | .hbm, ⟨13, _⟩ => ⟨S32000x2048, .bf16⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1, .f32⟩
  | .hbm, ⟨26, _⟩ => ⟨S4x1024, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S4x1024, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S4x1024, .f32⟩
  | .hbm, ⟨35, _⟩ => ⟨S_, .f32⟩
  | .hbm, ⟨36, _⟩ => ⟨S4x1024, .f32⟩
  | .hbm, ⟨37, _⟩ => ⟨S4x1024, .f32⟩
  | .hbm, ⟨38, _⟩ => ⟨S_, .f32⟩
  | .hbm, ⟨39, _⟩ => ⟨S4x1024, .f32⟩
  | .hbm, ⟨40, _⟩ => ⟨S4x1024, .f32⟩
  | .hbm, ⟨41, _⟩ => ⟨S4x1024, .f32⟩
  | .hbm, ⟨42, _⟩ => ⟨S4x1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4x1024, .f32⟩
  | .hbm, ⟨52, _⟩ => ⟨S_, .f32⟩
  | .hbm, ⟨53, _⟩ => ⟨S4, .f32⟩
  | .hbm, ⟨54, _⟩ => ⟨S_, .f32⟩
  | .hbm, ⟨55, _⟩ => ⟨S4, .f32⟩
  | .hbm, ⟨56, _⟩ => ⟨S_, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .local _ .vmem, ⟨0, _⟩ => ⟨S4x256x2048, .bf16⟩
  | .local _ .vmem, ⟨1, _⟩ => ⟨S4x256x2048, .bf16⟩
  | .local _ .vmem, ⟨2, _⟩ => ⟨S1280x2048, .bf16⟩
  | .local _ .vmem, ⟨3, _⟩ => ⟨S1280x2048, .bf16⟩
  | .local _ .vmem, ⟨4, _⟩ => ⟨S4x256x1, .i32⟩
  | .local _ .vmem, ⟨5, _⟩ => ⟨S4x256x1, .i32⟩
  | .local _ .vmem, ⟨6, _⟩ => ⟨S4x256, .f32⟩
  | .local _ .vmem, ⟨7, _⟩ => ⟨S4x256, .f32⟩
  | .local _ .vmem, ⟨8, _⟩ => ⟨S4x256, .f32⟩
  | .local _ .vmem, ⟨9, _⟩ => ⟨S4x256, .f32⟩
  | .local _ .vmem, ⟨10, _⟩ => ⟨S4x256x1, .f32⟩
  | .local _ .vmem, ⟨11, _⟩ => ⟨S4x256x1, .f32⟩
  | .local _ .vmem, ⟨12, _⟩ => ⟨S4x256x1, .f32⟩
  | .local _ .vmem, ⟨13, _⟩ => ⟨S4x256x1, .f32⟩
  | .local _ .vmem, ⟨14, _⟩ => ⟨S4x256x2048, .bf16⟩
  | .local _ .vmem, ⟨15, _⟩ => ⟨S4x256x2048, .bf16⟩
  | .local _ .vmem, ⟨16, _⟩ => ⟨S1280x2048, .bf16⟩
  | .local _ .vmem, ⟨17, _⟩ => ⟨S1280x2048, .bf16⟩
  | .local _ .vmem, ⟨18, _⟩ => ⟨S4x256x1, .i32⟩
  | .local _ .vmem, ⟨19, _⟩ => ⟨S4x256x1, .i32⟩
  | .local _ .vmem, ⟨20, _⟩ => ⟨S4x256, .f32⟩
  | .local _ .vmem, ⟨21, _⟩ => ⟨S4x256, .f32⟩
  | .local _ .vmem, ⟨22, _⟩ => ⟨S4x256x1, .f32⟩
  | .local _ .vmem, ⟨23, _⟩ => ⟨S4x256x1, .f32⟩
  | .local _ .vmem, ⟨24, _⟩ => ⟨S4x256x1, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_cst_5 : Ref sig .tc := ⟨.hbm, 47, rfl⟩
abbrev main_call1_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_cst_8 : Ref sig .tc := ⟨.hbm, 56, rfl⟩
abbrev main_call2_v0 : Ref sig .tc := ⟨.hbm, 57, rfl⟩
abbrev main_call2_v1 : Ref sig .tc := ⟨.hbm, 58, rfl⟩
abbrev main_v33 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_cst_11 : Ref sig .tc := ⟨.hbm, 65, rfl⟩
abbrev main_v37 : Ref sig .tc := ⟨.hbm, 66, rfl⟩
abbrev main_cst_12 : Ref sig .tc := ⟨.hbm, 67, rfl⟩
abbrev main_v38 : Ref sig .tc := ⟨.hbm, 68, rfl⟩
abbrev main_cst_13 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v56 : BitVec 1 := Scalar.cmpi .eq arg1 c24_i32
  let v57 : BitVec 32 := Scalar.extui v56
  let c0_i32_40 : BitVec 32 := 0#32
  let v58 : BitVec 1 := Scalar.cmpi .ne v57 c0_i32_40
  v58

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 25], ![false, false]⟩

def k1_cond2 (i : grid1.Coords) : BitVec 1 :=
  let arg1 : BitVec 32 := BitVec.ofNat 32 (i 1).val
  let c24_i32 : BitVec 32 := 24#32
  let v49 : BitVec 1 := Scalar.cmpi .eq arg1 c24_i32
  let v50 : BitVec 32 := Scalar.extui v49
  let c0_i32_33 : BitVec 32 := 0#32
  let v51 : BitVec 1 := Scalar.cmpi .ne v50 c0_i32_33
  v51

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1280x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x256x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S4x1024_S4x1024x1_0_1 : S4x1024.BroadcastsInDim S4x1024x1 (![0, 1] : Fin 2 → Fin S4x1024x1.rank)
  bitsLt_bf16_f32 : FTy.bits .bf16 < FTy.bits .f32
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  inb_S4x256x2048_S4x256x2048_0_0_0 : ∀ a, (![0, 0, 0] : Fin 3 → Nat) a + S4x256x2048.size a ≤ S4x256x2048.size a
  h_S4x256x2048 : 0 < S4x256x2048.numel
  shapeCasts_S4x256x2048_S4x256x2048 : S4x256x2048.ShapeCasts S4x256x2048
  shapeCasts_S4x256x2048_S1024x2048 : S4x256x2048.ShapeCasts S1024x2048
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  shapeCasts_S1024x1280_S4x256x1280 : S1024x1280.ShapeCasts S4x256x1280
  iota_S1x1x1280_d2_w32 : S1x1x1280.Iotas .tc 32 [2]
  broadcasts_S1x1x1280_S4x256x1280 : S1x1x1280.Broadcasts S4x256x1280
  broadcasts_S4x256x1_S4x256x1280 : S4x256x1.Broadcasts S4x256x1280
  reduces_S4x256x1280_S4x256 : S4x256x1280.Reduces [2] S4x256
  shapeCasts_S4x256_S4x256x1 : S4x256.ShapeCasts S4x256x1
  shapeCasts_S4x256x1_S4x256 : S4x256x1.ShapeCasts S4x256
  inb_S4x256_S4x256_0_0 : ∀ a, (![0, 0] : Fin 2 → Nat) a + S4x256.size a ≤ S4x256.size a
  h_S4x256 : 0 < S4x256.numel
  bcast_S_S4x1024 : S_.BroadcastsInDim S4x1024 (![] : Fin 0 → Fin S4x1024.rank)
  bcast_S4_S4x1_0 : S4.BroadcastsInDim S4x1 (![0] : Fin 1 → Fin S4x1.rank)
  bcast_S4x1_S4x1024_0_1 : S4x1.BroadcastsInDim S4x1024 (![0, 1] : Fin 2 → Fin S4x1024.rank)
  reducesTo_S4x1024_S_d0_1 : S4x1024.ReducesTo [0, 1] S_
  h_S_ : 0 < S_.numel
  reducesTo_S4x1024_S4_d1 : S4x1024.ReducesTo [1] S4
  bcast_S_S4 : S_.BroadcastsInDim S4 (![] : Fin 0 → Fin S4.rank)
  reducesTo_S4_S_d0 : S4.ReducesTo [0] S_
  dot_S1024x2048_S1280x2048_S1024x1280_1_1_0_0_n_n_wf : DotDims.WF S1024x2048 S1280x2048 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x2048.size a ≤ S4x1024x2048.size a
  hwx0_0 : ∀ i : grid0.Coords, EltTy.bits .bf16 = 32 ∨ (Rect.block (s := S4x1024x2048) S4x256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .bf16 = 32 ∨ (Rect.block (s := S32000x2048) S1280x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x1.size a ≤ S4x1024x1.size a
  hwx0_2 : ∀ i : grid0.Coords, EltTy.bits .i32 = 32 ∨ (Rect.block (s := S4x1024x1) S4x256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256.size a ≤ S4x1024.size a
  hwx0_3 : ∀ i : grid0.Coords, EltTy.bits .f32 = 32 ∨ (Rect.block (s := S4x1024) S4x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256.size a ≤ S4x1024.size a
  hwx0_4 : ∀ i : grid0.Coords, EltTy.bits .f32 = 32 ∨ (Rect.block (s := S4x1024) S4x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x2048.size a ≤ S4x1024x2048.size a
  hwx1_0 : ∀ i : grid1.Coords, EltTy.bits .bf16 = 32 ∨ (Rect.block (s := S4x1024x2048) S4x256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x2048.size a ≤ S32000x2048.size a
  hwx1_1 : ∀ i : grid1.Coords, EltTy.bits .bf16 = 32 ∨ (Rect.block (s := S32000x2048) S1280x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x256x1.size a ≤ S4x1024x1.size a
  hwx1_2 : ∀ i : grid1.Coords, EltTy.bits .i32 = 32 ∨ (Rect.block (s := S4x1024x1) S4x256x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x256.size a ≤ S4x1024.size a
  hwx1_3 : ∀ i : grid1.Coords, EltTy.bits .f32 = 32 ∨ (Rect.block (s := S4x1024) S4x256.size (cc1_transform_3 i) (hinb1_3 i)).WholeWords (EltTy.packing .f32)

variable [Facts₀]

def dot_S1024x2048_S1280x2048_S1024x1280_1_1_0_0_n_n : DotDims S1024x2048 S1280x2048 S1024x1280 where
  lhsContracting := [1]
  rhsContracting := [1]
  lhsNonContracting := [0]
  rhsNonContracting := [0]
  lhsBatch := []
  rhsBatch := []
  wf := dot_S1024x2048_S1280x2048_S1024x1280_1_1_0_0_n_n_wf

abbrev win0_0 : Pipeline.Window sig grid0 :=
  Pipeline.Window.ofSpec (Memref.whole main_v1) S4x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S4x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S4x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v4) S4x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1280x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S4x256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S4x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x1024x2048 : Shape := ⟨3, ![4, 1024, 2048]⟩
abbrev S32000x2048 : Shape := ⟨2, ![32000, 2048]⟩
abbrev S4x1024 : Shape := ⟨2, ![4, 1024]⟩
abbrev S4 : Shape := ⟨1, ![4]⟩
abbrev S4x1024x32000 : Shape := ⟨3, ![4, 1024, 32000]⟩
abbrev S_ : Shape := ⟨0, ![]⟩
abbrev S4x1024x1 : Shape := ⟨3, ![4, 1024, 1]⟩
abbrev S4x1024x1x1 : Shape := ⟨4, ![4, 1024, 1, 1]⟩
abbrev S1 : Shape := ⟨1, ![1]⟩
abbrev S1x1x1x1 : Shape := ⟨4, ![1, 1, 1, 1]⟩
abbrev S4x1 : Shape := ⟨2, ![4, 1]⟩

abbrev nBuf : Space → Nat
  | .hbm => 149
  | .vmem => 0
  | .smem => 0
  | _ => 0

abbrev hbmTy0_0 (i : Nat) : BufTy := match i % 128 with
  | 0 => ⟨S4x1024x2048, .f32⟩
  | 1 => ⟨S32000x2048, .f32⟩
  | 2 => ⟨S32000x2048, .f32⟩
  | 3 => ⟨S4x1024x2048, .f32⟩
  | 4 => ⟨S4x1024, .i32⟩
  | 5 => ⟨S4x1024, .f32⟩
  | 6 => ⟨S4, .f32⟩
  | 7 => ⟨S4x1024x32000, .f32⟩
  | 8 => ⟨S_, .f32⟩
  | 9 => ⟨S4x1024, .f32⟩
  | 10 => ⟨S_, .f32⟩
  | 11 => ⟨S4x1024, .f32⟩
  | 12 => ⟨S4x1024, .f32⟩
  | 13 => ⟨S4x1024x1, .f32⟩
  | 14 => ⟨S4x1024x32000, .f32⟩
  | 15 => ⟨S4x1024x32000, .f32⟩
  | 16 => ⟨S4x1024x32000, .f32⟩
  | 17 => ⟨S_, .f32⟩
  | 18 => ⟨S4x1024, .f32⟩
  | 19 => ⟨S4x1024x1, .f32⟩
  | 20 => ⟨S4x1024x1, .f32⟩
  | 21 => ⟨S4x1024x32000, .f32⟩
  | 22 => ⟨S4x1024x32000, .f32⟩
  | 23 => ⟨S4x1024x1, .i32⟩
  | 24 => ⟨S_, .i32⟩
  | 25 => ⟨S4x1024x1, .i32⟩
  | 26 => ⟨S4x1024x1, .i1⟩
  | 27 => ⟨S_, .i32⟩
  | 28 => ⟨S4x1024x1, .i32⟩
  | 29 => ⟨S4x1024x1, .i32⟩
  | 30 => ⟨S4x1024x1, .i32⟩
  | 31 => ⟨S4x1024x1x1, .i32⟩
  | 32 => ⟨S1, .i32⟩
  | 33 => ⟨S_, .i32⟩
  | 34 => ⟨S4x1024x1x1, .i32⟩
  | 35 => ⟨S4x1024x1x1, .i1⟩
  | 36 => ⟨S1x1x1x1, .i32⟩
  | 37 => ⟨S4x1024x1x1, .i32⟩
  | 38 => ⟨S4x1024x1x1, .i1⟩
  | 39 => ⟨S4x1024x1x1, .i1⟩
  | 40 => ⟨S_, .i1⟩
  | 41 => ⟨S4x1024x1, .i1⟩
  | 42 => ⟨S4x1024x1, .f32⟩
  | 43 => ⟨S_, .f32⟩
  | 44 => ⟨S4x1024x1, .f32⟩
  | 45 => ⟨S4x1024x1, .f32⟩
  | 46 => ⟨S4x1024, .f32⟩
  | 47 => ⟨S_, .f32⟩
  | 48 => ⟨S_, .f32⟩
  | 49 => ⟨S_, .f32⟩
  | 50 => ⟨S_, .f32⟩
  | 51 => ⟨S4x1024x32000, .f32⟩
  | 52 => ⟨S_, .f32⟩
  | 53 => ⟨S4x1024, .f32⟩
  | 54 => ⟨S_, .f32⟩
  | 55 => ⟨S4x1024, .f32⟩
  | 56 => ⟨S4x1024, .f32⟩
  | 57 => ⟨S4x1024x1, .f32⟩
  | 58 => ⟨S4x1024x32000, .f32⟩
  | 59 => ⟨S4x1024x32000, .f32⟩
  | 60 => ⟨S4x1024x32000, .f32⟩
  | 61 => ⟨S_, .f32⟩
  | 62 => ⟨S4x1024, .f32⟩
  | 63 => ⟨S4x1024x1, .f32⟩
  | 64 => ⟨S4x1024x1, .f32⟩
  | 65 => ⟨S4x1024x32000, .f32⟩
  | 66 => ⟨S4x1024x32000, .f32⟩
  | 67 => ⟨S4x1024x1, .i32⟩
  | 68 => ⟨S_, .i32⟩
  | 69 => ⟨S4x1024x1, .i32⟩
  | 70 => ⟨S4x1024x1, .i1⟩
  | 71 => ⟨S_, .i32⟩
  | 72 => ⟨S4x1024x1, .i32⟩
  | 73 => ⟨S4x1024x1, .i32⟩
  | 74 => ⟨S4x1024x1, .i32⟩
  | 75 => ⟨S4x1024x1x1, .i32⟩
  | 76 => ⟨S1, .i32⟩
  | 77 => ⟨S_, .i32⟩
  | 78 => ⟨S4x1024x1x1, .i32⟩
  | 79 => ⟨S4x1024x1x1, .i1⟩
  | 80 => ⟨S1x1x1x1, .i32⟩
  | 81 => ⟨S4x1024x1x1, .i32⟩
  | 82 => ⟨S4x1024x1x1, .i1⟩
  | 83 => ⟨S4x1024x1x1, .i1⟩
  | 84 => ⟨S_, .i1⟩
  | 85 => ⟨S4x1024x1, .i1⟩
  | 86 => ⟨S4x1024x1, .f32⟩
  | 87 => ⟨S_, .f32⟩
  | 88 => ⟨S4x1024x1, .f32⟩
  | 89 => ⟨S4x1024x1, .f32⟩
  | 90 => ⟨S4x1024, .f32⟩
  | 91 => ⟨S_, .f32⟩
  | 92 => ⟨S_, .f32⟩
  | 93 => ⟨S_, .f32⟩
  | 94 => ⟨S_, .f32⟩
  | 95 => ⟨S4x1024, .f32⟩
  | 96 => ⟨S4x1024, .f32⟩
  | 97 => ⟨S_, .f32⟩
  | 98 => ⟨S_, .f32⟩
  | 99 => ⟨S_, .f32⟩
  | 100 => ⟨S4x1024, .f32⟩
  | 101 => ⟨S4x1024, .f32⟩
  | 102 => ⟨S_, .f32⟩
  | 103 => ⟨S4x1024, .f32⟩
  | 104 => ⟨S4x1024, .f32⟩
  | 105 => ⟨S4x1, .f32⟩
  | 106 => ⟨S4x1024, .f32⟩
  | 107 => ⟨S4x1024, .f32⟩
  | 108 => ⟨S4x1024, .f32⟩
  | 109 => ⟨S4x1024, .f32⟩
  | 110 => ⟨S4x1024, .f32⟩
  | 111 => ⟨S4x1024, .f32⟩
  | 112 => ⟨S4x1024, .f32⟩
  | 113 => ⟨S4x1024, .f32⟩
  | 114 => ⟨S4x1024, .f32⟩
  | 115 => ⟨S_, .f32⟩
  | 116 => ⟨S4x1024, .f32⟩
  | 117 => ⟨S4x1024, .f32⟩
  | 118 => ⟨S_, .f32⟩
  | 119 => ⟨S4x1024, .f32⟩
  | 120 => ⟨S4x1024, .f32⟩
  | 121 => ⟨S4x1024, .f32⟩
  | 122 => ⟨S4x1024, .f32⟩
  | 123 => ⟨S_, .f32⟩
  | 124 => ⟨S_, .f32⟩
  | 125 => ⟨S_, .f32⟩
  | 126 => ⟨S_, .f32⟩
  | 127 => ⟨S_, .f32⟩
  | _ => ⟨S4x1024x2048, .f32⟩

abbrev hbmTy0_1 (i : Nat) : BufTy := match i % 128 with
  | 0 => ⟨S_, .f32⟩
  | 1 => ⟨S_, .f32⟩
  | 2 => ⟨S_, .f32⟩
  | 3 => ⟨S4x1024, .f32⟩
  | 4 => ⟨S_, .f32⟩
  | 5 => ⟨S4, .f32⟩
  | 6 => ⟨S_, .f32⟩
  | 7 => ⟨S4, .f32⟩
  | 8 => ⟨S_, .f32⟩
  | 9 => ⟨S_, .f32⟩
  | 10 => ⟨S4, .f32⟩
  | 11 => ⟨S4, .f32⟩
  | 12 => ⟨S4, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | _ => ⟨S4x1024x2048, .f32⟩

abbrev hbmTy (i : Nat) : BufTy := match i / 128 with
  | 0 => hbmTy0_0 i
  | 1 => hbmTy0_1 i
  | _ => ⟨S4x1024x2048, .f32⟩

abbrev bufTy : (tb : Table) → Fin (tcTables nBuf tb) → BufTy
  | .hbm, ⟨i, _⟩ => hbmTy i
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v1 : Ref sig .tc := ⟨.hbm, 22, rfl⟩
abbrev main_v2 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_cst : Ref sig .tc := ⟨.hbm, 47, rfl⟩
abbrev main_v5 : Ref sig .tc := ⟨.hbm, 48, rfl⟩
abbrev main_cst_0 : Ref sig .tc := ⟨.hbm, 49, rfl⟩
abbrev main_v6 : Ref sig .tc := ⟨.hbm, 50, rfl⟩
abbrev main_v7 : Ref sig .tc := ⟨.hbm, 51, rfl⟩
abbrev main_call2_cst : Ref sig .tc := ⟨.hbm, 52, rfl⟩
abbrev main_call2_v0 : Ref sig .tc := ⟨.hbm, 53, rfl⟩
abbrev main_call2_cst_0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_cst_1 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_v8 : Ref sig .tc := ⟨.hbm, 66, rfl⟩
abbrev main_v9 : Ref sig .tc := ⟨.hbm, 67, rfl⟩
abbrev main_call3_c : Ref sig .tc := ⟨.hbm, 68, rfl⟩
abbrev main_call3_v0 : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_c_1 : Ref sig .tc := ⟨.hbm, 76, rfl⟩
abbrev main_call3_c_2 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_3 : Ref sig .tc := ⟨.hbm, 84, rfl⟩
abbrev main_call3_v12 : Ref sig .tc := ⟨.hbm, 85, rfl⟩
abbrev main_call3_v13 : Ref sig .tc := ⟨.hbm, 86, rfl⟩
abbrev main_call3_cst : Ref sig .tc := ⟨.hbm, 87, rfl⟩
abbrev main_call3_v14 : Ref sig .tc := ⟨.hbm, 88, rfl⟩
abbrev main_v10 : Ref sig .tc := ⟨.hbm, 89, rfl⟩
abbrev main_v11 : Ref sig .tc := ⟨.hbm, 90, rfl⟩
abbrev main_cst_1 : Ref sig .tc := ⟨.hbm, 91, rfl⟩
abbrev main_v12 : Ref sig .tc := ⟨.hbm, 92, rfl⟩
abbrev main_cst_2 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_cst_3 : Ref sig .tc := ⟨.hbm, 97, rfl⟩
abbrev main_cst_4 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_v16 : Ref sig .tc := ⟨.hbm, 104, rfl⟩
abbrev main_v17 : Ref sig .tc := ⟨.hbm, 105, rfl⟩
abbrev main_v18 : Ref sig .tc := ⟨.hbm, 106, rfl⟩
abbrev main_v19 : Ref sig .tc := ⟨.hbm, 107, rfl⟩
abbrev main_v20 : Ref sig .tc := ⟨.hbm, 108, rfl⟩
abbrev main_v21 : Ref sig .tc := ⟨.hbm, 109, rfl⟩
abbrev main_v22 : Ref sig .tc := ⟨.hbm, 110, rfl⟩
abbrev main_v23 : Ref sig .tc := ⟨.hbm, 111, rfl⟩
abbrev main_v24 : Ref sig .tc := ⟨.hbm, 112, rfl⟩
abbrev main_v25 : Ref sig .tc := ⟨.hbm, 113, rfl⟩
abbrev main_v26 : Ref sig .tc := ⟨.hbm, 114, rfl⟩
abbrev main_cst_5 : Ref sig .tc := ⟨.hbm, 115, rfl⟩
abbrev main_v27 : Ref sig .tc := ⟨.hbm, 116, rfl⟩
abbrev main_v28 : Ref sig .tc := ⟨.hbm, 117, rfl⟩
abbrev main_cst_6 : Ref sig .tc := ⟨.hbm, 118, rfl⟩
abbrev main_v29 : Ref sig .tc := ⟨.hbm, 119, rfl⟩
abbrev main_v30 : Ref sig .tc := ⟨.hbm, 120, rfl⟩
abbrev main_v31 : Ref sig .tc := ⟨.hbm, 121, rfl⟩
abbrev main_v32 : Ref sig .tc := ⟨.hbm, 122, rfl⟩
abbrev main_cst_7 : Ref sig .tc := ⟨.hbm, 123, rfl⟩
abbrev main_v33 : Ref sig .tc := ⟨.hbm, 124, rfl⟩
abbrev main_cst_8 : Ref sig .tc := ⟨.hbm, 125, rfl⟩
abbrev main_v34 : Ref sig .tc := ⟨.hbm, 126, rfl⟩
abbrev main_cst_9 : Ref sig .tc := ⟨.hbm, 127, rfl⟩
abbrev main_call5_v0 : Ref sig .tc := ⟨.hbm, 128, rfl⟩
abbrev main_v35 : Ref sig .tc := ⟨.hbm, 129, rfl⟩
abbrev main_v36 : Ref sig .tc := ⟨.hbm, 130, rfl⟩
abbrev main_v37 : Ref sig .tc := ⟨.hbm, 131, rfl⟩
abbrev main_cst_10 : Ref sig .tc := ⟨.hbm, 132, rfl⟩
abbrev main_v38 : Ref sig .tc := ⟨.hbm, 133, rfl⟩
abbrev main_cst_11 : Ref sig .tc := ⟨.hbm, 134, rfl⟩
abbrev main_v39 : Ref sig .tc := ⟨.hbm, 135, rfl⟩
abbrev main_cst_12 : Ref sig .tc := ⟨.hbm, 136, rfl⟩
abbrev main_call6_v0 : Ref sig .tc := ⟨.hbm, 137, rfl⟩
abbrev main_call6_v1 : Ref sig .tc := ⟨.hbm, 138, rfl⟩
abbrev main_v40 : Ref sig .tc := ⟨.hbm, 139, rfl⟩
abbrev main_v41 : Ref sig .tc := ⟨.hbm, 140, rfl⟩
abbrev main_cst_13 : Ref sig .tc := ⟨.hbm, 141, rfl⟩
abbrev main_v42 : Ref sig .tc := ⟨.hbm, 142, rfl⟩
abbrev main_cst_14 : Ref sig .tc := ⟨.hbm, 143, rfl⟩
abbrev main_v43 : Ref sig .tc := ⟨.hbm, 144, rfl⟩
abbrev main_cst_15 : Ref sig .tc := ⟨.hbm, 145, rfl⟩
abbrev main_v44 : Ref sig .tc := ⟨.hbm, 146, rfl⟩
abbrev main_cst_16 : Ref sig .tc := ⟨.hbm, 147, rfl⟩
abbrev main_v45 : Ref sig .tc := ⟨.hbm, 148, rfl⟩

abbrev nD : Nat := 1
abbrev τ : Topo := Topo.v7x

variable {F : FTy → Type} [FloatOps F]

class Facts₀ : Prop where
  reducesTo_S4x1024x32000_S4x1024_d2 : S4x1024x32000.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x32000_0_1_2 : S4x1024x1.BroadcastsInDim S4x1024x32000 (![0, 1, 2] : Fin 3 → Fin S4x1024x32000.rank)
  bcast_S_S4x1024x1 : S_.BroadcastsInDim S4x1024x1 (![] : Fin 0 → Fin S4x1024x1.rank)
  shapeCasts_S4x1024x1_S4x1024x1x1 : S4x1024x1.ShapeCasts S4x1024x1x1
  bcast_S_S4x1024x1x1 : S_.BroadcastsInDim S4x1024x1x1 (![] : Fin 0 → Fin S4x1024x1x1.rank)
  bcast_S1_S1x1x1x1_3 : S1.BroadcastsInDim S1x1x1x1 (![3] : Fin 1 → Fin S1x1x1x1.rank)
  bcast_S1x1x1x1_S4x1024x1x1_0_1_2_3 : S1x1x1x1.BroadcastsInDim S4x1024x1x1 (![0, 1, 2, 3] : Fin 4 → Fin S4x1024x1x1.rank)
  reducesTo_S4x1024x1x1_S4x1024x1_d3 : S4x1024x1x1.ReducesTo [3] S4x1024x1
  shapeCasts_S4x1024x1_S4x1024 : S4x1024x1.ShapeCasts S4x1024
  reducesTo_S4x1024x32000_S_d0_1_2 : S4x1024x32000.ReducesTo [0, 1, 2] S_
  bcast_S4_S4x1_0 : S4.BroadcastsInDim S4x1 (![0] : Fin 1 → Fin S4x1.rank)
  bcast_S4x1_S4x1024_0_1 : S4x1.BroadcastsInDim S4x1024 (![0, 1] : Fin 2 → Fin S4x1024.rank)
  reducesTo_S4x1024_S_d0_1 : S4x1024.ReducesTo [0, 1] S_
  reducesTo_S4x1024_S4_d1 : S4x1024.ReducesTo [1] S4
  bcast_S_S4 : S_.BroadcastsInDim S4 (![] : Fin 0 → Fin S4.rank)
  reducesTo_S4_S_d0 : S4.ReducesTo [0] S_
  dot_S4x1024x2048_S32000x2048_S4x1024x32000_2_1_01_0_n_n_wf : DotDims.WF S4x1024x2048 S32000x2048 S4x1024x32000 [2] [1] [0, 1] [0] [] []
  gather_S4x1024x32000_S4x1024x1x1_S4x1024x1_n_2_01_01_2_3_111_wf : GatherDims.WF S4x1024x32000 S4x1024x1x1 S4x1024x1 [] [2] [0, 1] [2] [0, 1] 3 ![1, 1, 1]

variable [Facts₀]

def dot_S4x1024x2048_S32000x2048_S4x1024x32000_2_1_01_0_n_n : DotDims S4x1024x2048 S32000x2048 S4x1024x32000 where
  lhsContracting := [2]
  rhsContracting := [1]
  lhsNonContracting := [0, 1]
  rhsNonContracting := [0]
  lhsBatch := []
  rhsBatch := []
  wf := dot_S4x1024x2048_S32000x2048_S4x1024x32000_2_1_01_0_n_n_wf
def gather_S4x1024x32000_S4x1024x1x1_S4x1024x1_n_2_01_01_2_3_111 : GatherDims S4x1024x32000 S4x1024x1x1 S4x1024x1 where
  offsetDims := []
  collapsedSliceDims := [2]
  operandBatchingDims := [0, 1]
  startIndicesBatchingDims := [0, 1]
  startIndexMap := [2]
  indexVectorDim := 3
  sliceSizes := ![1, 1, 1]
  wf := gather_S4x1024x32000_S4x1024x1x1_S4x1024x1_n_2_01_01_2_3_111_wf

class Facts : Prop extends Facts₀ where

variable [Facts]
-- ==== Proof.K.R0Runs.lean ====
import proofs.«417562_j59090160058697_3_alg».proof.Proof.Gen.Kernel.Launch
import proofs.«417562_j59090160058697_3_alg».proof.Proof.Gen.Kernel.Skeleton
import proofs.«417562_j59090160058697_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 0 is entered: everything below is stated at this parameter
variable (V : (c : Dev nD) → (b : Ref sig .tc) → Buf (Elt F) ((c : Thread nD τ).loc b))

/-! # Region 0 (custom_call 0, `cc0__logps_kernel_full`, pipeline 0) at the entry contents `V`: what its three case runs share -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s (`hA`) and whose body leaves the block in place (`hafter`): where the window is not fetched
    its block index has not moved since the point before, and the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s (`hA`) and whose body leaves the block in place (`hafter`): where the window is not fetched
    its block index has not moved since the point before, and the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s (`hA`) and whose body leaves the block in place (`hafter`): where the window is not fetched
    its block index has not moved since the point before, and the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the 4 x 25 grid -/

/-- The condition of the body's first conditional (`k0_h1`): the vocabulary-tile coordinate is 0, as the kernel
    computes it from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 25): the first vocabulary tile of each token tile. -/
theorem hcond0_0 : ∀ t : Fin cfg0.N, cond0_0 (grid0.coords t) ↔ t.val % 25 = 0 :=
  (by decide +kernel : ∀ t : Fin grid0.N, cond0_0 (grid0.coords t) ↔ t.val % 25 = 0)

/-- The condition of the body's second conditional (`k0_h2`): the vocabulary-tile coordinate is 24. -/
abbrev cond0_1 (i : grid0.Coords) : Prop := k0_cond2 i = 1#1
/-- It holds exactly at the points ≡ 24 (mod 25): the last vocabulary tile of each token tile. -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle

Three cases meet points: A (first conditional taken, second not: reset, then update), B (neither: update), C (second
taken, first not: update, then store the two outputs). Both taken meets no point. -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the points of case A output window 3 is idle (the case stores nothing into it) and its block is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- The same at the points of case B. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- At the points of case C output window 3 is live: the case stores its whole block. -/
theorem liveAt0_3_C : ∀ t : Fin cfg0.N, ¬cond0_0 (grid0.coords t) → cond0_1 (grid0.coords t) → cfg0.idle 3 (grid0.coords t) = false := by decide +kernel
/-- At the points of case A output window 4 is idle (the case stores nothing into it) and its block is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- The same at the points of case B. -/
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- At the points of case C output window 4 is live: the case stores its whole block. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of each output window, through which its contents are stated (a covering list of pieces reads
    back the same through any view of the shape, so the choice does not matter). -/
abbrev VO0_3 : View sig .tc .vmem S4x256 .f32 := (Memref.whole cc0_stg3_0 : Memref sig .tc .vmem S4x256 .f32).view
abbrev VO0_4 : View sig .tc .vmem S4x256 .f32 := (Memref.whole cc0_stg4_0 : Memref sig .tc .vmem S4x256 .f32).view

/-- Each window's current staging memref at point `t`, spelled as the pipeline passes it to the body, and its wholeness. -/
abbrev ms0_0 (t : Fin cfg0.N) : Memref sig .tc .vmem S4x256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x256x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x256 .f32 := win0_4.stage (cfg0.slots t 4)
abbrev hs0_4 (t : Fin cfg0.N) : (ms0_4 t).IsWhole := hstage0_4 ((cfg0.slots t 4).cast nbuf0_4)

/-- The four scratch operands (running maximum, sum of exponentials, sum of logits, selected logit): whole scoped
    buffers of the kernel's own, passed beside the windows and carried from point to point. -/
abbrev scM0_0 : Memref sig .tc .vmem S4x256x1 .f32 := Memref.whole cc0_scratch0
abbrev scM0_1 : Memref sig .tc .vmem S4x256x1 .f32 := Memref.whole cc0_scratch1
abbrev scM0_2 : Memref sig .tc .vmem S4x256x1 .f32 := Memref.whole cc0_scratch2
abbrev scM0_3 : Memref sig .tc .vmem S4x256x1 .f32 := Memref.whole cc0_scratch3
/-- The same as views: what each holds is stated through its view. -/
abbrev VS0_0 : View sig .tc .vmem S4x256x1 .f32 := scM0_0.view
abbrev VS0_1 : View sig .tc .vmem S4x256x1 .f32 := scM0_1.view
abbrev VS0_2 : View sig .tc .vmem S4x256x1 .f32 := scM0_2.view
abbrev VS0_3 : View sig .tc .vmem S4x256x1 .f32 := scM0_3.view

/-! ## The region's invariant, with the scratch operands named -/

/-- The core's scoped buffers that are neither a staging buffer nor a scratch operand of this region (the other
    region's staging buffers and scratch), each whole at some contents: the body never touches them, so they pass
    through every point as they are. -/
def restS0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ (∃ f : Buf (Elt F) ((c : Thread nD τ).loc cc1_scratch2), ((c : Thread nD τ).loc cc1_scratch2) ↦{fullShare} f))

/-- The region's invariant (the scoped rest and the generator register) with the four scratch operands as memrefs owned
    at some contents, the untouched rest beside them: what the body obligation hands a run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d) ∗ restS0 (F := F) c)
        ∗ (∃ r, prngReg c r)) := by
  unfold Pipeline.ΦA restS0; rw [scopedRest0_eq]; simp only [scM0_0, scM0_1, scM0_2, scM0_3, owns_whole]; try rfl

end Cert.Kernel.Hand

end
-- ==== Proof.K.R0RunA.lean ====
import proofs.«417562_j59090160058697_3_alg».proof.Proof.K.R0Runs

-- membership of an index in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0's body, run whole, in case A -/

-- (the run's proof term is large: closing the definition walks it past the default budget)
set_option maxHeartbeats 4000000 in
/-- What the body's stores leave in each buffer it stores into, as lists of pieces (last store first), IN CASE A — the first conditional taken and the second not (points ≡ 0 mod 25): every scratch operand is reset whole and then updated, the outputs are left alone —
    together with the proof that on whole memrefs the body runs to its continuation: the inputs' buffers at their contents `x·`
    and handed back as they were; the two outputs' buffers at any contents `xi·`, handed back untouched (no pieces);
    each scratch operand at anything (its old contents are read and discarded before the reset), handed back with its pieces `LS·` written. The lists are
    the witness the run itself produces: nothing of the body is restated here. -/
noncomputable def kernelRun0_A (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) :
    Σ' (L3 : List (View.Piece (Elt F) S4x256 .f32)) (L4 : List (View.Piece (Elt F) S4x256 .f32))
       (LS0 : List (View.Piece (Elt F) S4x256x1 .f32)) (LS1 : List (View.Piece (Elt F) S4x256x1 .f32)) (LS2 : List (View.Piece (Elt F) S4x256x1 .f32)),
      { LS3 : List (View.Piece (Elt F) S4x256x1 .f32) //
      ∀ (xi3 xi4 : Vec F S4x256 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi3
            ∗ owns (c : Thread nD τ) arg6 fullShare xi4
            ∗ (∃ d, owns (c : Thread nD τ) arg7 fullShare d)
            ∗ (∃ d, owns (c : Thread nD τ) arg8 fullShare d)
            ∗ (∃ d, owns (c : Thread nD τ) arg9 fullShare d)
            ∗ (∃ d, owns (c : Thread nD τ) arg10 fullShare d)
            ∗ (iprop(owns (c : Thread nD τ) arg2 fullShare x0
              ∗ owns (c : Thread nD τ) arg3 fullShare x1
              ∗ owns (c : Thread nD τ) arg4 fullShare x2
              ∗ owns (c : Thread nD τ) arg5 fullShare xi3
              ∗ owns (c : Thread nD τ) arg6 fullShare xi4
              ∗ (∃ f, arg7.view.loc (c : Thread nD τ) ↦[arg7.view.set]{fullShare} arg7.view.writes (Elt F) f LS0)
              ∗ (∃ f, arg8.view.loc (c : Thread nD τ) ↦[arg8.view.set]{fullShare} arg8.view.writes (Elt F) f LS1)
              ∗ (∃ f, arg9.view.loc (c : Thread nD τ) ↦[arg9.view.set]{fullShare} arg9.view.writes (Elt F) f LS2)
              ∗ (∃ f, arg10.view.loc (c : Thread nD τ) ↦[arg10.view.set]{fullShare} arg10.view.writes (Elt F) f LS3)) -∗ K ⟨⟩))
          ⊢ wp frame (wpE (defs₀ (F := F)) Variants.none c none) E (cc0__logps_kernel_full i arg2 harg2 arg3 harg3 arg4 harg4 arg5 harg5 arg6 harg6 arg7 harg7 arg8 harg8 arg9 harg9 arg10 harg10) K } := by
  refine ⟨[], [], ?_, ?_, ?_, ?_, fun xi3 xi4 E K => ?run⟩
  case run =>
    simp only [cc0__logps_kernel_full_eq_skeleton]; unfold cc0__logps_kernel_full_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.K.R0RunB.lean ====
import proofs.«417562_j59090160058697_3_alg».proof.Proof.K.R0Runs

-- membership of an index in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0's body, run whole, in case B -/

-- (the run's proof term is large: closing the definition walks it past the default budget)
set_option maxHeartbeats 4000000 in
/-- What the body's stores leave in each buffer it stores into, as lists of pieces (last store first), IN CASE B — neither conditional taken (points ≡ 1..23 mod 25): every scratch operand is updated from what the point before left, the outputs are left alone —
    together with the proof that on whole memrefs the body runs to its continuation: the inputs' buffers at their contents `x·`
    and handed back as they were; the two outputs' buffers at any contents `xi·`, handed back untouched (no pieces);
    each scratch operand at the contents `xs·` the point before left, handed back with its pieces `LS·` written. The lists are
    the witness the run itself produces: nothing of the body is restated here. -/
noncomputable def kernelRun0_B (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) :
    Σ' (L3 : List (View.Piece (Elt F) S4x256 .f32)) (L4 : List (View.Piece (Elt F) S4x256 .f32))
       (LS0 : List (View.Piece (Elt F) S4x256x1 .f32)) (LS1 : List (View.Piece (Elt F) S4x256x1 .f32)) (LS2 : List (View.Piece (Elt F) S4x256x1 .f32)),
      { LS3 : List (View.Piece (Elt F) S4x256x1 .f32) //
      ∀ (xi3 xi4 : Vec F S4x256 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi3
            ∗ owns (c : Thread nD τ) arg6 fullShare xi4
            ∗ owns (c : Thread nD τ) arg7 fullShare xs0
            ∗ owns (c : Thread nD τ) arg8 fullShare xs1
            ∗ owns (c : Thread nD τ) arg9 fullShare xs2
            ∗ owns (c : Thread nD τ) arg10 fullShare xs3
            ∗ (iprop(owns (c : Thread nD τ) arg2 fullShare x0
              ∗ owns (c : Thread nD τ) arg3 fullShare x1
              ∗ owns (c : Thread nD τ) arg4 fullShare x2
              ∗ owns (c : Thread nD τ) arg5 fullShare xi3
              ∗ owns (c : Thread nD τ) arg6 fullShare xi4
              ∗ (∃ f, arg7.view.loc (c : Thread nD τ) ↦[arg7.view.set]{fullShare} arg7.view.writes (Elt F) f LS0)
              ∗ (∃ f, arg8.view.loc (c : Thread nD τ) ↦[arg8.view.set]{fullShare} arg8.view.writes (Elt F) f LS1)
              ∗ (∃ f, arg9.view.loc (c : Thread nD τ) ↦[arg9.view.set]{fullShare} arg9.view.writes (Elt F) f LS2)
              ∗ (∃ f, arg10.view.loc (c : Thread nD τ) ↦[arg10.view.set]{fullShare} arg10.view.writes (Elt F) f LS3)) -∗ K ⟨⟩))
          ⊢ wp frame (wpE (defs₀ (F := F)) Variants.none c none) E (cc0__logps_kernel_full i arg2 harg2 arg3 harg3 arg4 harg4 arg5 harg5 arg6 harg6 arg7 harg7 arg8 harg8 arg9 harg9 arg10 harg10) K } := by
  refine ⟨[], [], ?_, ?_, ?_, ?_, fun xi3 xi4 E K => ?run⟩
  case run =>
    simp only [cc0__logps_kernel_full_eq_skeleton]; unfold cc0__logps_kernel_full_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.K.R0RunC.lean ====
import proofs.«417562_j59090160058697_3_alg».proof.Proof.K.R0Runs

-- membership of an index in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0's body, run whole, in case C -/

-- (the run's proof term is large: closing the definition walks it past the default budget)
set_option maxHeartbeats 4000000 in
/-- What the body's stores leave in each buffer it stores into, as lists of pieces (last store first), IN CASE C — the second conditional taken and the first not (points ≡ 24 mod 25): every scratch operand is updated from what the point before left, then both outputs are stored whole from the scratch —
    together with the proof that on whole memrefs the body runs to its continuation: the inputs' buffers at their contents `x·`
    and handed back as they were; the two outputs' buffers at anything, handed back with their pieces `L3`, `L4` written;
    each scratch operand at the contents `xs·` the point before left, handed back with its pieces `LS·` written. The lists are
    the witness the run itself produces: nothing of the body is restated here. -/
noncomputable def kernelRun0_C (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) :
    Σ' (L3 : List (View.Piece (Elt F) S4x256 .f32)) (L4 : List (View.Piece (Elt F) S4x256 .f32))
       (LS0 : List (View.Piece (Elt F) S4x256x1 .f32)) (LS1 : List (View.Piece (Elt F) S4x256x1 .f32)) (LS2 : List (View.Piece (Elt F) S4x256x1 .f32)),
      { LS3 : List (View.Piece (Elt F) S4x256x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ (∃ d, owns (c : Thread nD τ) arg6 fullShare d)
            ∗ owns (c : Thread nD τ) arg7 fullShare xs0
            ∗ owns (c : Thread nD τ) arg8 fullShare xs1
            ∗ owns (c : Thread nD τ) arg9 fullShare xs2
            ∗ owns (c : Thread nD τ) arg10 fullShare xs3
            ∗ (iprop(owns (c : Thread nD τ) arg2 fullShare x0
              ∗ owns (c : Thread nD τ) arg3 fullShare x1
              ∗ owns (c : Thread nD τ) arg4 fullShare x2
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)
              ∗ (∃ f, arg7.view.loc (c : Thread nD τ) ↦[arg7.view.set]{fullShare} arg7.view.writes (Elt F) f LS0)
              ∗ (∃ f, arg8.view.loc (c : Thread nD τ) ↦[arg8.view.set]{fullShare} arg8.view.writes (Elt F) f LS1)
              ∗ (∃ f, arg9.view.loc (c : Thread nD τ) ↦[arg9.view.set]{fullShare} arg9.view.writes (Elt F) f LS2)
              ∗ (∃ f, arg10.view.loc (c : Thread nD τ) ↦[arg10.view.set]{fullShare} arg10.view.writes (Elt F) f LS3)) -∗ K ⟨⟩))
          ⊢ wp frame (wpE (defs₀ (F := F)) Variants.none c none) E (cc0__logps_kernel_full i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__logps_kernel_full_eq_skeleton]; unfold cc0__logps_kernel_full_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    isplitl [HS1]; · iexists _; iexact HS1
    isplitl [HS2]; · iexists _; iexact HS2
    iexists _; iexact HS3

end Cert.Kernel.Hand

end
-- ==== Proof.K.R0Frame.lean ====
import proofs.«417562_j59090160058697_3_alg».proof.Proof.K.R0RunA
import proofs.«417562_j59090160058697_3_alg».proof.Proof.K.R0RunB
import proofs.«417562_j59090160058697_3_alg».proof.Proof.K.R0RunC

-- membership of an index in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 0 is entered: everything below is stated at this parameter
variable (V : (c : Dev nD) → (b : Ref sig .tc) → Buf (Elt F) ((c : Thread nD τ).loc b))

/-! # Region 0 (custom_call 0, `cc0__logps_kernel_full`, pipeline 0) at the entry contents `V`: its frame half -/

/-! ## Case A: what the run's pieces leave in each buffer -/

/-- Case A stores nothing into output window 3 (idle at its points and not written back there): no pieces. A placeholder
    that nothing consults, since at these points the window's buffer is neither written back nor read by the next point. -/
def out0_A_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) : Vec F S4x256 .f32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 hc0 hc1 x0 x1 x2).1)

/-- Case A stores nothing into output window 4 (idle at its points and not written back there): no pieces. A placeholder
    that nothing consults, since at these points the window's buffer is neither written back nor read by the next point. -/
def out0_A_4 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) : Vec F S4x256 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 hc0 hc1 x0 x1 x2).2.1)

/-- Case A's pieces for scratch operand 0 (the running maximum) cover it: the whole reset and the whole update. -/
theorem scover0_A_0 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) (y : S4x256x1.Idx) :
    ∃ pc ∈ (kernelRun0_A c i arg2 harg2 arg3 harg3 arg4 harg4 arg5 harg5 arg6 harg6 arg7 harg7 arg8 harg8 arg9 harg9 arg10 harg10 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).2.2.1 S4x256x1.size (by sl_kernel_rfl) y

/-- What case A leaves in scratch operand 0: its pieces read back. -/
def sout0_A_0 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) : Vec F S4x256x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2).2.2.1)

/-- Case A's pieces for scratch operand 1 (the running sum of exponentials) cover it: the whole reset and the whole update. -/
theorem scover0_A_1 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) (y : S4x256x1.Idx) :
    ∃ pc ∈ (kernelRun0_A c i arg2 harg2 arg3 harg3 arg4 harg4 arg5 harg5 arg6 harg6 arg7 harg7 arg8 harg8 arg9 harg9 arg10 harg10 hc0 hc1 x0 x1 x2).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).2.2.2.1 S4x256x1.size (by sl_kernel_rfl) y

/-- What case A leaves in scratch operand 1: its pieces read back. -/
def sout0_A_1 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) : Vec F S4x256x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2).2.2.2.1)

/-- Case A's pieces for scratch operand 2 (the running sum of logits) cover it: the whole reset and the whole update. -/
theorem scover0_A_2 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) (y : S4x256x1.Idx) :
    ∃ pc ∈ (kernelRun0_A c i arg2 harg2 arg3 harg3 arg4 harg4 arg5 harg5 arg6 harg6 arg7 harg7 arg8 harg8 arg9 harg9 arg10 harg10 hc0 hc1 x0 x1 x2).2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).2.2.2.2.1 S4x256x1.size (by sl_kernel_rfl) y

/-- What case A leaves in scratch operand 2: its pieces read back. -/
def sout0_A_2 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) : Vec F S4x256x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2).2.2.2.2.1)

/-- Case A's pieces for scratch operand 3 (the selected logit) cover it: the whole reset and the whole update. -/
theorem scover0_A_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) (y : S4x256x1.Idx) :
    ∃ pc ∈ (kernelRun0_A c i arg2 harg2 arg3 harg3 arg4 harg4 arg5 harg5 arg6 harg6 arg7 harg7 arg8 harg8 arg9 harg9 arg10 harg10 hc0 hc1 x0 x1 x2).2.2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).2.2.2.2.2.1 S4x256x1.size (by sl_kernel_rfl) y

/-- What case A leaves in scratch operand 3: its pieces read back. -/
def sout0_A_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) : Vec F S4x256x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 hc0 hc1 x0 x1 x2).2.2.2.2.2.1)

/-! ## Case B: what the run's pieces leave in each buffer -/

/-- Case B stores nothing into output window 3 (idle at its points and not written back there): no pieces. A placeholder
    that nothing consults, since at these points the window's buffer is neither written back nor read by the next point. -/
def out0_B_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) : Vec F S4x256 .f32 :=
  VO0_3.read (Elt F) (VO0_3.writes (Elt F) VO0_3.junk (kernelRun0_B c i arg2 harg2 arg3 harg3 arg4 harg4 arg5 harg5 arg6 harg6 arg7 harg7 arg8 harg8 arg9 harg9 arg10 harg10 hc0 hc1 x0 x1 x2 xs0 xs1 xs2 xs3).1)

/-- Case B stores nothing into output window 4 (idle at its points and not written back there): no pieces. A placeholder
    that nothing consults, since at these points the window's buffer is neither written back nor read by the next point. -/
def out0_B_4 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) : Vec F S4x256 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 hc0 hc1 x0 x1 x2 xs0 xs1 xs2 xs3).2.1)

/-- Case B's pieces for scratch operand 0 (the running maximum) cover it: the whole update. -/
theorem scover0_B_0 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) (y : S4x256x1.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2 xs3).2.2.1 S4x256x1.size (by sl_kernel_rfl) y

/-- What case B leaves in scratch operand 0: its pieces read back. -/
def sout0_B_0 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) : Vec F S4x256x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 xs0 xs1 xs2 xs3).2.2.1)

/-- Case B's pieces for scratch operand 1 (the running sum of exponentials) cover it: the whole update. -/
theorem scover0_B_1 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) (y : S4x256x1.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2 xs3).2.2.2.1 S4x256x1.size (by sl_kernel_rfl) y

/-- What case B leaves in scratch operand 1: its pieces read back. -/
def sout0_B_1 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) : Vec F S4x256x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 xs0 xs1 xs2 xs3).2.2.2.1)

/-- Case B's pieces for scratch operand 2 (the running sum of logits) cover it: the whole update. -/
theorem scover0_B_2 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) (y : S4x256x1.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2 xs3).2.2.2.2.1 S4x256x1.size (by sl_kernel_rfl) y

/-- What case B leaves in scratch operand 2: its pieces read back. -/
def sout0_B_2 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) : Vec F S4x256x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 x1 x2 xs0 xs1 xs2 xs3).2.2.2.2.1)

/-- Case B's pieces for scratch operand 3 (the selected logit) cover it: the whole update. -/
theorem scover0_B_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) (y : S4x256x1.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2 xs3).2.2.2.2.2.1 S4x256x1.size (by sl_kernel_rfl) y

/-- What case B leaves in scratch operand 3: its pieces read back. -/
def sout0_B_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) : Vec F S4x256x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 hc0 hc1 x0 x1 x2 xs0 xs1 xs2 xs3).2.2.2.2.2.1)

/-! ## Case C: what the run's pieces leave in each buffer -/

/-- Case C's pieces for output window 3 cover its block: one whole-block store (decided by evaluating the tiling check on the run's list). -/
theorem cover0_C_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) (y : S4x256.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).1 S4x256.size (by sl_kernel_rfl) y

/-- What case C leaves in output window 3's staging buffer: its pieces read back. -/
def out0_C_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) : Vec F S4x256 .f32 :=
  VO0_3.read (Elt F) (VO0_3.writes (Elt F) VO0_3.junk (kernelRun0_C c i arg2 harg2 arg3 harg3 arg4 harg4 arg5 harg5 arg6 harg6 arg7 harg7 arg8 harg8 arg9 harg9 arg10 harg10 hc0 hc1 x0 x1 x2 xs0 xs1 xs2 xs3).1)

/-- Case C's pieces for output window 4 cover its block: one whole-block store (decided by evaluating the tiling check on the run's list). -/
theorem cover0_C_4 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) (y : S4x256.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).2.1 S4x256.size (by sl_kernel_rfl) y

/-- What case C leaves in output window 4's staging buffer: its pieces read back. -/
def out0_C_4 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) : Vec F S4x256 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 xs0 xs1 xs2 xs3).2.1)

/-- Case C's pieces for scratch operand 0 (the running maximum) cover it: the whole update. -/
theorem scover0_C_0 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) (y : S4x256x1.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).2.2.1 S4x256x1.size (by sl_kernel_rfl) y

/-- What case C leaves in scratch operand 0: its pieces read back. -/
def sout0_C_0 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) : Vec F S4x256x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 xs0 xs1 xs2 xs3).2.2.1)

/-- Case C's pieces for scratch operand 1 (the running sum of exponentials) cover it: the whole update. -/
theorem scover0_C_1 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) (y : S4x256x1.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).2.2.2.1 S4x256x1.size (by sl_kernel_rfl) y

/-- What case C leaves in scratch operand 1: its pieces read back. -/
def sout0_C_1 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) : Vec F S4x256x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 xs0 xs1 xs2 xs3).2.2.2.1)

/-- Case C's pieces for scratch operand 2 (the running sum of logits) cover it: the whole update. -/
theorem scover0_C_2 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) (y : S4x256x1.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).2.2.2.2.1 S4x256x1.size (by sl_kernel_rfl) y

/-- What case C leaves in scratch operand 2: its pieces read back. -/
def sout0_C_2 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) : Vec F S4x256x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 hc0 hc1 x0 x1 x2 xs0 xs1 xs2 xs3).2.2.2.2.1)

/-- Case C's pieces for scratch operand 3 (the selected logit) cover it: the whole update. -/
theorem scover0_C_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) (y : S4x256x1.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).2.2.2.2.2.1 S4x256x1.size (by sl_kernel_rfl) y

/-- What case C leaves in scratch operand 3: its pieces read back. -/
def sout0_C_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) : Vec F S4x256x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 hc0 hc1 x0 x1 x2 xs0 xs1 xs2 xs3).2.2.2.2.2.1)

/-! ## What the outputs and the scratch hold after each point -/

/-- THE ACCUMULATION. What the two outputs' staging buffers and the four scratch operands hold after the body at position `n`
    (a tuple: the outputs in window order, then the scratch 0..3): the case the closed forms select at `n`, run at the
    point's memrefs and input blocks, the scratch operands (in cases B and C) at what this leaves at `n - 1`. Both
    conditions at once meet no point of the grid. -/
def outsAt0 (c : Dev nD) : (n : ℕ) → n < cfg0.N → Vec F S4x256 .f32 × Vec F S4x256 .f32 × Vec F S4x256x1 .f32 × Vec F S4x256x1 .f32 × Vec F S4x256x1 .f32 × Vec F S4x256x1 .f32
  | 0, hn =>
      (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 25 = 0 then
      if h1 : (n + 1) % 25 = 24 then
        False.elim (by have hN : n + 1 < 100 := lt_of_lt_of_eq hn (show cfg0.N = 100 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 25 = 24 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 25 = 0) (h1 : ¬t.val % 25 = 24) :
    outsAt0 V c t.val t.isLt =
      (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point of case B: that case's contents, over what the point before left in the scratch. -/
theorem outsAt0_B (c : Dev nD) (t : Fin cfg0.N) (h0 : ¬t.val % 25 = 0) (h1 : ¬t.val % 25 = 24) :
    outsAt0 V c t.val t.isLt =
      (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the scratch. -/
theorem outsAt0_C (c : Dev nD) (t : Fin cfg0.N) (h0 : ¬t.val % 25 = 0) (h1 : t.val % 25 = 24) :
    outsAt0 V c t.val t.isLt =
      (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- The invariant before position `n`: before the first point the region's own (every scratch operand at anything); afterwards
    each scratch operand at what the point before left in it (`outsAt0`'s scratch components), the untouched scoped rest, and
    the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1)
        ∗ owns (c : Thread nD τ) scM0_1 fullShare ((outsAt0 V c n hn).2.2.2.1)
        ∗ owns (c : Thread nD τ) scM0_2 fullShare ((outsAt0 V c n hn).2.2.2.2.1)
        ∗ owns (c : Thread nD τ) scM0_3 fullShare ((outsAt0 V c n hn).2.2.2.2.2)
        ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch at that point's contents. -/
theorem PhiS0_succ (c : Dev nD) (n : ℕ) (hn : n < cfg0.N) :
    PhiS0 V c (n + 1) hn = iprop(iprop(owns (c : Thread nD τ) scM0_0 fullShare ((outsAt0 V c n hn).2.2.1)
        ∗ owns (c : Thread nD τ) scM0_1 fullShare ((outsAt0 V c n hn).2.2.2.1)
        ∗ owns (c : Thread nD τ) scM0_2 fullShare ((outsAt0 V c n hn).2.2.2.2.1)
        ∗ owns (c : Thread nD τ) scM0_3 fullShare ((outsAt0 V c n hn).2.2.2.2.2)
        ∗ restS0 (F := F) c) ∗ (∃ r, prngReg c r)) := rfl

/-- Before a point that is not the first: the scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1)
        ∗ owns (c : Thread nD τ) scM0_1 fullShare ((outsAt0 V c (n - 1) (by omega)).2.2.2.1)
        ∗ owns (c : Thread nD τ) scM0_2 fullShare ((outsAt0 V c (n - 1) (by omega)).2.2.2.2.1)
        ∗ owns (c : Thread nD τ) scM0_3 fullShare ((outsAt0 V c (n - 1) (by omega)).2.2.2.2.2)
        ∗ restS0 (F := F) c) ∗ (∃ r, prngReg c r)) := by
  cases n with
  | zero => exact absurd rfl hz
  | succ n => rfl

/-! ## The pipeline's proof data -/

/-- The proof data of pipeline 0 on core `c`: the arrays as the region finds them (`V`); after the body at point `t` each
    input's buffer at its block and the two outputs' at `outsAt0`'s first two components; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 16000000 in
/-- The body at any point. The inputs' memrefs hold their blocks (`before0_w`); the closed forms say which case the point is in;
    the case's run applies: the invariant hands the body each scratch operand at what the point before left (at anything at the
    grid's first point), the untouched scoped rest and the generator register, and takes each scratch operand back at this point's
    contents (its pieces cover it); an output the case leaves idle goes back as it came, one it stores whole goes back at its
    pieces read back; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 100 := lt_of_lt_of_eq t.isLt (show cfg0.N = 100 from N_0)
  by_cases h0 : t.val % 25 = 0
  · by_cases h1 : t.val % 25 = 24
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0 sout0_A_1 sout0_A_2 sout0_A_3; (try dsimp only)
      by_cases hz : t.val = 0
      · rw [PhiS0_castSucc V c t, PhiS0_zero V c _ _ hz, PhiA0_eq]
        iintro ⟨⟨⟨HS0, HS1, HS2, HS3, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t)).2.2.2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4
      · rw [PhiS0_castSucc V c t, PhiS0_pos V c _ _ hz]
        iintro ⟨⟨⟨HS0, HS1, HS2, HS3, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t)).2.2.2.2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, ⟨%es0, HS0⟩, ⟨%es1, HS1⟩, ⟨%es2, HS2⟩, ⟨%es3, HS3⟩⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 25 = 24
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_3 out0_C_4 sout0_C_0 sout0_C_1 sout0_C_2 sout0_C_3; (try dsimp only)
      by_cases hz : t.val = 0
      · exfalso; have hN : t.val < 100 := lt_of_lt_of_eq t.isLt (show cfg0.N = 100 from N_0); omega
      · rw [PhiS0_castSucc V c t, PhiS0_pos V c _ _ hz]
        iintro ⟨⟨⟨HS0, HS1, HS2, HS3, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) _ _ _ _).2.2.2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        isplitl [HS2]; · iexact HS2
        isplitl [HS3]; · iexact HS3
        iintro ⟨H0, H1, H2, ⟨%e3, H3⟩, ⟨%e4, H4⟩, ⟨%es0, HS0⟩, ⟨%es1, HS1⟩, ⟨%es2, HS2⟩, ⟨%es3, HS3⟩⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0 sout0_B_1 sout0_B_2 sout0_B_3; (try dsimp only)
      by_cases hz : t.val = 0
      · exfalso; have hN : t.val < 100 := lt_of_lt_of_eq t.isLt (show cfg0.N = 100 from N_0); omega
      · rw [PhiS0_castSucc V c t, PhiS0_pos V c _ _ hz]
        iintro ⟨⟨⟨HS0, HS1, HS2, HS3, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) _ _ _ _).2.2.2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the region's own back: the scratch operands' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, HR⟩, Hg⟩
  isplitl [HS0 HS1 HS2 HS3 HR]
  · isplitl [HS0]; · iexists _; iexact HS0
    isplitl [HS1]; · iexists _; iexact HS1
    isplitl [HS2]; · iexists _; iexact HS2
    isplitl [HS3]; · iexists _; iexact HS3
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 100 := N_0; omega)

end Cert.Kernel.Hand

end
-- ==== Proof.K.R1Runs.lean ====
import proofs.«417562_j59090160058697_3_alg».proof.Proof.Gen.Kernel.Launch
import proofs.«417562_j59090160058697_3_alg».proof.Proof.Gen.Kernel.Skeleton
import proofs.«417562_j59090160058697_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 (`cc1__logps_kernel_simple`, pipeline 1), at the entry contents `V`: what its runs share -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The printed functions as their skeletons, at any arguments -/

/-- The kernel function is its skeleton at any arguments. -/
theorem kernel1_eq_skel (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) :
    cc1__logps_kernel_simple (F := F) i arg2 harg2 arg3 harg3 arg4 harg4 arg5 harg5 arg6 harg6 arg7 harg7 arg8 harg8 = cc1__logps_kernel_simple_skel (F := F) i arg2 harg2 arg3 harg3 arg4 harg4 arg5 harg5 arg6 harg6 arg7 harg7 arg8 harg8 := by
  simp only [cc1__logps_kernel_simple_eq_skeleton]

/-- Its first part is that part's skeleton at any arguments. -/
theorem part1_eq_skel (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) :
    k1_part1 (F := F) i arg2 harg2 arg3 harg3 arg4 harg4 arg5 harg5 arg6 harg6 arg7 harg7 arg8 harg8 = k1_part1_skel (F := F) i arg2 harg2 arg3 harg3 arg4 harg4 arg5 harg5 arg6 harg6 arg7 harg7 arg8 harg8 := by
  simp only [k1_part1_eq_skeleton]

/-! ## The body's branch conditions -/

/-- The condition of the body's first conditional (the V-tile is the first one), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 25). -/
theorem hcond1_0 : ∀ t : Fin cfg1.N, cond1_0 (grid1.coords t) ↔ t.val % 25 = 0 :=
  (by decide +kernel : ∀ t : Fin grid1.N, cond1_0 (grid1.coords t) ↔ t.val % 25 = 0)

/-- The condition of the body's last conditional (the V-tile is the last one), from the grid coordinates. -/
abbrev cond1_1 (i : grid1.Coords) : Prop := k1_cond2 i = 1#1
/-- It holds at the points ≡ 24 (mod 25). -/
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- At the points of case A (first V-tile) output 3 is idle: the case stores nothing into it. -/
theorem idleAt1_3_A : ∀ t : Fin cfg1.N, cond1_0 (grid1.coords t) → ¬cond1_1 (grid1.coords t) → cfg1.idle 3 (grid1.coords t) = true := by decide +kernel
/-- At the points of case A output 3's block is not written back. -/
theorem noFlush1_3_A : ∀ t : Fin cfg1.N, cond1_0 (grid1.coords t) → ¬cond1_1 (grid1.coords t) → (cfg1.win 3).flush t = false := by decide +kernel
/-- At the points of case B (a middle V-tile) output 3 is idle: the case stores nothing into it. -/
theorem idleAt1_3_B : ∀ t : Fin cfg1.N, ¬cond1_0 (grid1.coords t) → ¬cond1_1 (grid1.coords t) → cfg1.idle 3 (grid1.coords t) = true := by decide +kernel
/-- At the points of case B output 3's block is not written back. -/
theorem noFlush1_3_B : ∀ t : Fin cfg1.N, ¬cond1_0 (grid1.coords t) → ¬cond1_1 (grid1.coords t) → (cfg1.win 3).flush t = false := by decide +kernel
/-- At the points of case C (last V-tile) output 3 is live: the case stores into it. -/
theorem liveAt1_3_C : ∀ t : Fin cfg1.N, ¬cond1_0 (grid1.coords t) → cond1_1 (grid1.coords t) → cfg1.idle 3 (grid1.coords t) = false := by decide +kernel

/-! ## The staging and scratch memrefs the body is called with -/

/-- One staging buffer of output window 3, through which its contents are stated (the choice does not matter). -/
abbrev VO1_3 : View sig .tc .vmem S4x256 .f32 := (Memref.whole cc1_stg3_0 : Memref sig .tc .vmem S4x256 .f32).view
/-- Each window's current staging memref at point `t`, spelled as the pipeline passes it, and its wholeness. -/
abbrev ms1_0 (t : Fin cfg1.N) : Memref sig .tc .vmem S4x256x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x256x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x256 .f32 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows (the running maximum, the
    running sum of exponentials, the selected logit). -/
abbrev scM1_0 : Memref sig .tc .vmem S4x256x1 .f32 := Memref.whole cc1_scratch0
abbrev scM1_1 : Memref sig .tc .vmem S4x256x1 .f32 := Memref.whole cc1_scratch1
abbrev scM1_2 : Memref sig .tc .vmem S4x256x1 .f32 := Memref.whole cc1_scratch2
/-- Each scratch the kernel carries between points, as a view: what it holds is stated through it. -/
abbrev VS1_0 : View sig .tc .vmem S4x256x1 .f32 := scM1_0.view
abbrev VS1_1 : View sig .tc .vmem S4x256x1 .f32 := scM1_1.view
abbrev VS1_2 : View sig .tc .vmem S4x256x1 .f32 := scM1_2.view

/-- The launch's invariant for region 1 with the scratch operands as memrefs owned at some contents, the core's other
    scoped buffers whole at some contents, and the generator register at some state: what the body obligation hands
    the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.K.R1RunA.lean ====
import proofs.«417562_j59090160058697_3_alg».proof.Proof.K.R1Runs

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: closing the definition walks it past the default budget)
set_option maxHeartbeats 4000000 in
/-- What the body's stores leave in the output's staging memref and in each scratch, as pieces (last first), in case A (the
    first conditional taken, the last not: the points ≡ 0 mod 25), with the proof that on whole memrefs — the inputs' at
    their contents, the output's (idle here: no store) at contents `xi3` handed back untouched, each scratch at anything (the
    case resets it whole before it reads it) — the body runs to the continuation holding the inputs' and the output's as they
    were and each scratch with its pieces written. The pieces are found by the run itself. -/
noncomputable def kernelRun1_A (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) :
    Σ' (L3 : List (View.Piece (Elt F) S4x256 .f32)), Σ' (LS0 : List (View.Piece (Elt F) S4x256x1 .f32)), Σ' (LS1 : List (View.Piece (Elt F) S4x256x1 .f32)), { LS2 : List (View.Piece (Elt F) S4x256x1 .f32) //
      ∀ (xi3 : Vec F S4x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__logps_kernel_simple i arg2 harg2 arg3 harg3 arg4 harg4 arg5 harg5 arg6 harg6 arg7 harg7 arg8 harg8) K } := by
  refine ⟨[], ?_, ?_, ?_, fun xi3 E K => ?run⟩
  case run =>
    simp only [cc1__logps_kernel_simple_eq_skeleton]; unfold cc1__logps_kernel_simple_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.K.R1RunB.lean ====
import proofs.«417562_j59090160058697_3_alg».proof.Proof.K.R1Runs

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: closing the definition walks it past the default budget)
set_option maxHeartbeats 4000000 in
/-- What the body's stores leave in the output's staging memref and in each scratch, as pieces (last first), in case B
    (neither conditional taken: the points ≢ 0, 24 mod 25), with the proof that on whole memrefs — the inputs' at their
    contents, the output's (idle here: no store) at contents `xi3` handed back untouched, each scratch at the contents `xs·`
    the point before left — the body runs to the continuation holding the inputs' and the output's as they were and each
    scratch with its pieces written. The pieces are found by the run itself. -/
noncomputable def kernelRun1_B (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) :
    Σ' (L3 : List (View.Piece (Elt F) S4x256 .f32)), Σ' (LS0 : List (View.Piece (Elt F) S4x256x1 .f32)), Σ' (LS1 : List (View.Piece (Elt F) S4x256x1 .f32)), { LS2 : List (View.Piece (Elt F) S4x256x1 .f32) //
      ∀ (xi3 : Vec F S4x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__logps_kernel_simple i arg2 harg2 arg3 harg3 arg4 harg4 arg5 harg5 arg6 harg6 arg7 harg7 arg8 harg8) K } := by
  refine ⟨[], ?_, ?_, ?_, fun xi3 E K => ?run⟩
  case run =>
    simp only [cc1__logps_kernel_simple_eq_skeleton]; unfold cc1__logps_kernel_simple_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.K.R1RunC.lean ====
import proofs.«417562_j59090160058697_3_alg».proof.Proof.K.R1Runs

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: closing the definition walks it past the default budget)
set_option maxHeartbeats 4000000 in
/-- What the body's stores leave in the output's staging memref and in each scratch, as pieces (last first), in case C (the
    first conditional not taken, the last taken: the points ≡ 24 mod 25), with the proof that on whole memrefs — the inputs'
    at their contents, the output's at anything, each scratch at the contents `xs·` the point before left — the body runs to
    the continuation holding the inputs' as they were and the output's and each scratch with its pieces written. The pieces
    are found by the run itself. -/
noncomputable def kernelRun1_C (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) :
    Σ' (L3 : List (View.Piece (Elt F) S4x256 .f32)), Σ' (LS0 : List (View.Piece (Elt F) S4x256x1 .f32)), Σ' (LS1 : List (View.Piece (Elt F) S4x256x1 .f32)), { LS2 : List (View.Piece (Elt F) S4x256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__logps_kernel_simple i arg2 harg2 arg3 harg3 arg4 harg4 arg5 harg5 arg6 harg6 arg7 harg7 arg8 harg8) K } := by
  refine ⟨?_, ?_, ?_, ?_, fun E K => ?run⟩
  case run =>
    simp only [cc1__logps_kernel_simple_eq_skeleton]; unfold cc1__logps_kernel_simple_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.K.R1Frame.lean ====
import proofs.«417562_j59090160058697_3_alg».proof.Proof.K.R1RunA
import proofs.«417562_j59090160058697_3_alg».proof.Proof.K.R1RunB
import proofs.«417562_j59090160058697_3_alg».proof.Proof.K.R1RunC

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 (`cc1__logps_kernel_simple`, pipeline 1), at the entry contents `V`: what each point leaves, the proof
    data, the body obligation -/

/-! ## What each case leaves in the output's buffer and in the scratch -/

/-- Case A (a first V-tile) stores nothing into output 3 (the window is idle at its points and not written back there): no
    pieces — a placeholder that nothing consults, since at these points the window is neither written back nor read at
    the next point. -/
def out1_A_3 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) : Vec F S4x256 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- In case A (a first V-tile) the pieces stored into scratch 0 (the running maximum) cover it: whole-buffer stores. -/
theorem scover1_A_0 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) (y : S4x256x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S4x256x1.size (by sl_kernel_rfl) y

/-- What case A (a first V-tile) leaves in scratch 0: its pieces read back over junk. -/
def sout1_A_0 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) : Vec F S4x256x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- In case A (a first V-tile) the pieces stored into scratch 1 (the running sum of exponentials) cover it: whole-buffer stores. -/
theorem scover1_A_1 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) (y : S4x256x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S4x256x1.size (by sl_kernel_rfl) y

/-- What case A (a first V-tile) leaves in scratch 1: its pieces read back over junk. -/
def sout1_A_1 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) : Vec F S4x256x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- In case A (a first V-tile) the pieces stored into scratch 2 (the selected logit) cover it: whole-buffer stores. -/
theorem scover1_A_2 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) (y : S4x256x1.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S4x256x1.size (by sl_kernel_rfl) y

/-- What case A (a first V-tile) leaves in scratch 2: its pieces read back over junk. -/
def sout1_A_2 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) : Vec F S4x256x1 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- Case B (a middle V-tile) stores nothing into output 3 (the window is idle at its points and not written back there): no
    pieces — a placeholder that nothing consults, since at these points the window is neither written back nor read at
    the next point. -/
def out1_B_3 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) : Vec F S4x256 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

/-- In case B (a middle V-tile) the pieces stored into scratch 0 (the running maximum) cover it: whole-buffer stores. -/
theorem scover1_B_0 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) (y : S4x256x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S4x256x1.size (by sl_kernel_rfl) y

/-- What case B (a middle V-tile) leaves in scratch 0: its pieces read back over junk. -/
def sout1_B_0 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) : Vec F S4x256x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- In case B (a middle V-tile) the pieces stored into scratch 1 (the running sum of exponentials) cover it: whole-buffer stores. -/
theorem scover1_B_1 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) (y : S4x256x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S4x256x1.size (by sl_kernel_rfl) y

/-- What case B (a middle V-tile) leaves in scratch 1: its pieces read back over junk. -/
def sout1_B_1 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) : Vec F S4x256x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- In case B (a middle V-tile) the pieces stored into scratch 2 (the selected logit) cover it: whole-buffer stores. -/
theorem scover1_B_2 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) (y : S4x256x1.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S4x256x1.size (by sl_kernel_rfl) y

/-- What case B (a middle V-tile) leaves in scratch 2: its pieces read back over junk. -/
def sout1_B_2 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) : Vec F S4x256x1 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- In case C (a last V-tile) the pieces stored into output 3 tile its block (one whole-block store), so they cover it. -/
theorem cover1_C_3 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) (y : S4x256.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S4x256.size (by sl_kernel_rfl) y

/-- What case C (a last V-tile) leaves in output 3's staging buffer: its pieces read back over junk. -/
def out1_C_3 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) : Vec F S4x256 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- In case C (a last V-tile) the pieces stored into scratch 0 (the running maximum) cover it: whole-buffer stores. -/
theorem scover1_C_0 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) (y : S4x256x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S4x256x1.size (by sl_kernel_rfl) y

/-- What case C (a last V-tile) leaves in scratch 0: its pieces read back over junk. -/
def sout1_C_0 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) : Vec F S4x256x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- In case C (a last V-tile) the pieces stored into scratch 1 (the running sum of exponentials) cover it: whole-buffer stores. -/
theorem scover1_C_1 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) (y : S4x256x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S4x256x1.size (by sl_kernel_rfl) y

/-- What case C (a last V-tile) leaves in scratch 1: its pieces read back over junk. -/
def sout1_C_1 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) : Vec F S4x256x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- In case C (a last V-tile) the pieces stored into scratch 2 (the selected logit) cover it: whole-buffer stores. -/
theorem scover1_C_2 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) (y : S4x256x1.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S4x256x1.size (by sl_kernel_rfl) y

/-- What case C (a last V-tile) leaves in scratch 2: its pieces read back over junk. -/
def sout1_C_2 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) : Vec F S4x256x1 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-! ## What the output's buffer and the scratch hold after each point -/

/-- The accumulation. What output 3's staging buffer and the three scratch buffers hold after the body at position `n` (a
    tuple: the output, then scratch 0, 1, 2): the case the closed forms select at `n`, run at the point's memrefs and input
    blocks; cases B and C, which read every scratch before storing into it, at what this leaves at `n - 1`. The first and
    the last conditional both taken is no point's case. -/
def outsAt1 (c : Dev nD) : (n : ℕ) → n < cfg1.N → Vec F S4x256 .f32 × Vec F S4x256x1 .f32 × Vec F S4x256x1 .f32 × Vec F S4x256x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 25 = 0 then
      if h1 : (n + 1) % 25 = 24 then
        False.elim (by have hN : n + 1 < 100 := lt_of_lt_of_eq hn (show cfg1.N = 100 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 25 = 24 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 25 = 0) (h1 : ¬t.val % 25 = 24) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 25 = 0) (h1 : ¬t.val % 25 = 24) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 25 = 0) (h1 : t.val % 25 = 24) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer that is no staging
    buffer of this region at anything, the generator register at some state); afterwards the same with each scratch at what
    the point before left in it (`outsAt1`'s scratch components). -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): each scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: each scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and the output's at `outsAt1`'s first component; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents (the definition projected, so that `V` is never unfolded). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
/-- The body at any point: the inputs' memrefs hold their blocks (`before1_w`); the closed forms say which case the point is
    in; so that case's run applies. The invariant hands the body each scratch at what the point before left (at anything at
    the first point) and the core's other scoped buffers and the generator register untouched, and takes each scratch back at
    this point's contents (its pieces cover it); at the points of cases A and B the output's buffer is handed back as found,
    in case C at its pieces read back; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  by_cases h0 : t.val % 25 = 0
  · by_cases h1 : t.val % 25 = 24
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨HR0, HR1, HR2, HR3, HR4, HR5, HR6, HR7, HR8, HR9, HR10, HR11, HR12, HR13, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR0 HR1 HR2 HR3 HR4 HR5 HR6 HR7 HR8 HR9 HR10 HR11 HR12 HR13 HS0 HS1 HS2 Hg]
        · isplitl [HR0 HR1 HR2 HR3 HR4 HR5 HR6 HR7 HR8 HR9 HR10 HR11 HR12 HR13 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HS0]
            · unfold owns; iexists _; isplitr
              swap; · iexact HS0
              ipureintro; exact View.read_writes_of_cover _ _ _ _ _ (scover1_A_0 _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _)
            unfold owns; iexists _; isplitr
            swap; · iexact HS2
            ipureintro; exact View.read_writes_of_cover _ _ _ _ _ (scover1_A_2 _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HR0, HR1, HR2, HR3, HR4, HR5, HR6, HR7, HR8, HR9, HR10, HR11, HR12, HR13, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HR0 HR1 HR2 HR3 HR4 HR5 HR6 HR7 HR8 HR9 HR10 HR11 HR12 HR13 HS0 HS1 HS2 Hg]
        · isplitl [HR0 HR1 HR2 HR3 HR4 HR5 HR6 HR7 HR8 HR9 HR10 HR11 HR12 HR13 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HS0]
            · unfold owns; iexists _; isplitr
              swap; · iexact HS0
              ipureintro; exact View.read_writes_of_cover _ _ _ _ _ (scover1_A_0 _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _)
            unfold owns; iexists _; isplitr
            swap; · iexact HS2
            ipureintro; exact View.read_writes_of_cover _ _ _ _ _ (scover1_A_2 _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 25 = 24
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      by_cases hz : t.val = 0
      · exfalso; have hN : t.val < 100 := lt_of_lt_of_eq t.isLt (show cfg1.N = 100 from N_1); omega
      · rw [PhiS1_castSucc V c t, PhiS1_pos V c _ _ hz]
        iintro ⟨⟨⟨HR0, HR1, HR2, HR3, HR4, HR5, HR6, HR7, HR8, HR9, HR10, HR11, HR12, HR13, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR0 HR1 HR2 HR3 HR4 HR5 HR6 HR7 HR8 HR9 HR10 HR11 HR12 HR13 HS0 HS1 HS2 Hg]
        · isplitl [HR0 HR1 HR2 HR3 HR4 HR5 HR6 HR7 HR8 HR9 HR10 HR11 HR12 HR13 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HS0]
            · unfold owns; iexists _; isplitr
              swap; · iexact HS0
              ipureintro; exact View.read_writes_of_cover _ _ _ _ _ (scover1_C_0 _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 _ _ _ _ _ _ _ _ _ _ _ _ _ _ _ _ _ _ _ _ _ _ _ _)
            unfold owns; iexists _; isplitr
            swap; · iexact HS2
            ipureintro; exact View.read_writes_of_cover _ _ _ _ _ (scover1_C_2 _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; have hN : t.val < 100 := lt_of_lt_of_eq t.isLt (show cfg1.N = 100 from N_1); omega
      · rw [PhiS1_castSucc V c t, PhiS1_pos V c _ _ hz]
        iintro ⟨⟨⟨HR0, HR1, HR2, HR3, HR4, HR5, HR6, HR7, HR8, HR9, HR10, HR11, HR12, HR13, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR0 HR1 HR2 HR3 HR4 HR5 HR6 HR7 HR8 HR9 HR10 HR11 HR12 HR13 HS0 HS1 HS2 Hg]
        · isplitl [HR0 HR1 HR2 HR3 HR4 HR5 HR6 HR7 HR8 HR9 HR10 HR11 HR12 HR13 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HS0]
            · unfold owns; iexists _; isplitr
              swap; · iexact HS0
              ipureintro; exact View.read_writes_of_cover _ _ _ _ _ (scover1_B_0 _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 _ _ _ _ _ _ _ _ _ _ _ _ _ _ _ _ _ _ _ _ _ _ _ _)
            unfold owns; iexists _; isplitr
            swap; · iexact HS2
            ipureintro; exact View.read_writes_of_cover _ _ _ _ _ (scover1_B_2 _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HR11, HR12, HR13, HS0, HS1, HS2⟩, Hg⟩
  isplitl [HR0 HR1 HR2 HR3 HR4 HR5 HR6 HR7 HR8 HR9 HR10 HR11 HR12 HR13 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 100 := N_1; omega)

end Cert.Kernel.Hand

end
-- ==== Proof.K.Regs.lean ====
import proofs.«417562_j59090160058697_3_alg».proof.Proof.Gen.Kernel.Regions
import proofs.«417562_j59090160058697_3_alg».proof.Proof.K.R0Frame
import proofs.«417562_j59090160058697_3_alg».proof.Proof.K.R1Frame
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffers' contents the regions are entered from, and what they leave -/

/-- Region 0's entry contents: the launch memory after the first host stretch, read at the TensorCore's references. -/
abbrev Vr1 : (c : Dev nD) → (b : Ref sig .tc) → Buf (Elt F) ((c : Thread nD τ).loc b) := fun c b => Gen.V1 m c (Proc.devRef .tc b)

/-- What region 0 leaves: each of its arrays at what the pipeline's write-backs fold to after the last point (an input
    as entered), every other buffer as entered; the same at every item index. -/
def outs0 : Gen.Outs (F := F) := fun _ r c =>
  Pipeline.withArrays spec0 c (Gen.V1 m c) (fun w => (dat0 (Vr1 m) c).arrAt w cfg0.N) (Proc.devRef .tc r)

theorem outs0_arr (J : ℕ) (c : Dev nD) (w : Fin cfg0.W) :
    outs0 m J (Pipeline.arrRef spec0 w) c = (dat0 (Vr1 m) c).arrAt w cfg0.N := by
  unfold outs0; exact Pipeline.withArrays_arr spec0 launch0.win.arr_inj c _ _ w

/-- Region 1's entry contents: the second host stretch run from what region 0 left. -/
abbrev Vr3 : (c : Dev nD) → (b : Ref sig .tc) → Buf (Elt F) ((c : Thread nD τ).loc b) := fun c b => Gen.V3 m (outs0 m) c (Proc.devRef .tc b)

/-- What region 1 leaves, likewise. -/
def outs1 : Gen.Outs (F := F) := fun _ r c =>
  Pipeline.withArrays spec1 c (Gen.V3 m (outs0 m) c) (fun w => (dat1 (Vr3 m) c).arrAt w cfg1.N) (Proc.devRef .tc r)

theorem outs1_arr (J : ℕ) (c : Dev nD) (w : Fin cfg1.W) :
    outs1 m J (Pipeline.arrRef spec1 w) c = (dat1 (Vr3 m) c).arrAt w cfg1.N := by
  unfold outs1; exact Pipeline.withArrays_arr spec1 launch1.win.arr_inj c _ _ w

/-- What the two regions leave: after item 3 what region 1 leaves, before that what region 0 leaves. -/
def outsK : Gen.Outs (F := F) := fun J r c => if J = 4 then outs1 m J r c else outs0 m J r c

theorem outsK_v3_0 (c : Dev nD) : outsK m 2 main_v3_0 c = (dat0 (Vr1 m) c).arrAt 3 cfg0.N := outs0_arr m 2 c 3
theorem outsK_v3_1 (c : Dev nD) : outsK m 2 main_v3_1 c = (dat0 (Vr1 m) c).arrAt 4 cfg0.N := outs0_arr m 2 c 4
theorem outsK_v6 (c : Dev nD) : outsK m 4 main_v6 c = (dat1 (Vr3 m) c).arrAt 3 cfg1.N := outs1_arr m 4 c 3

/-- The valuations up to region 1's entry read only what region 0 left. -/
theorem V2_outsK (c : Dev nD) : Gen.V2 m (outsK m) c = Gen.V2 m (outs0 m) c := rfl
theorem V3_outsK (c : Dev nD) : Gen.V3 m (outsK m) c = Gen.V3 m (outs0 m) c := rfl

/-- Region 0's exit contents, read at the TensorCore's references: region 0's entry contents but for its two outputs. -/
abbrev Vr2 : (c : Dev nD) → (b : Ref sig .tc) → Buf (Elt F) ((c : Thread nD τ).loc b) := fun c b => Gen.V2 m (outsK m) c (Proc.devRef .tc b)
/-- Region 1's exit contents, likewise: its entry contents but for its output. -/
abbrev Vr4 : (c : Dev nD) → (b : Ref sig .tc) → Buf (Elt F) ((c : Thread nD τ).loc b) := fun c b => Gen.V4 m (outsK m) c (Proc.devRef .tc b)

/-- At region 0's exit each of its arrays holds what the pipeline leaves: an input what it held at entry (no input is
    written back, and no region changes it), the two outputs what `outsK` names. -/
theorem hF0 (c : Dev nD) : ∀ w : Fin cfg0.W, (dat0 (Vr1 m) c).arrAt w cfg0.N = Vr2 m c (Pipeline.arrRef spec0 w)
  | ⟨0, _⟩ => (((dat0 (Vr1 m) c).arrAt_in 0 rfl _).trans (A_eq0 (Vr1 m) c 0)).trans (Gen.V2_of m (outsK m) c main_v1 (by decide)).symm
  | ⟨1, _⟩ => (((dat0 (Vr1 m) c).arrAt_in 1 rfl _).trans (A_eq0 (Vr1 m) c 1)).trans (Gen.V2_of m (outsK m) c main_v2 (by decide)).symm
  | ⟨2, _⟩ => (((dat0 (Vr1 m) c).arrAt_in 2 rfl _).trans (A_eq0 (Vr1 m) c 2)).trans (Gen.V2_of m (outsK m) c main_v0 (by decide)).symm
  | ⟨3, _⟩ => (outsK_v3_0 m c).symm.trans (by
      simp only [Gen.V2, Function.update_of_ne (StableHlo.devRef_ne_of_ne (by decide) : (Proc.devRef .tc main_v3_0 : DevRef τ sig) ≠ Proc.devRef .tc main_v3_1), Function.update_self])
  | ⟨4, _⟩ => (outsK_v3_1 m c).symm.trans (by
      simp only [Gen.V2, Function.update_self])

/-- and every other buffer what it held at entry. -/
theorem hrest0 (c : Dev nD) : ∀ b, b ∉ Finset.univ.image (Pipeline.arrRef spec0) → Vr2 m c b = Vr1 m c b := fun b hb =>
  Gen.V2_of m (outsK m) c b fun h => by
    rcases List.mem_cons.mp h with rfl | h
    · exact hb (Finset.mem_image.mpr ⟨3, Finset.mem_univ _, rfl⟩)
    · rcases List.mem_cons.mp h with rfl | h
      · exact hb (Finset.mem_image.mpr ⟨4, Finset.mem_univ _, rfl⟩)
      · exact absurd h (List.not_mem_nil)

/-- At region 1's exit each of its arrays holds what the pipeline leaves, -/
theorem hF1 (c : Dev nD) : ∀ w : Fin cfg1.W, (dat1 (Vr3 m) c).arrAt w cfg1.N = Vr4 m c (Pipeline.arrRef spec1 w)
  | ⟨0, _⟩ => (((dat1 (Vr3 m) c).arrAt_in 0 rfl _).trans (A_eq1 (Vr3 m) c 0)).trans (Gen.V4_of m (outsK m) c main_v4 (by decide)).symm
  | ⟨1, _⟩ => (((dat1 (Vr3 m) c).arrAt_in 1 rfl _).trans (A_eq1 (Vr3 m) c 1)).trans (Gen.V4_of m (outsK m) c main_v5 (by decide)).symm
  | ⟨2, _⟩ => (((dat1 (Vr3 m) c).arrAt_in 2 rfl _).trans (A_eq1 (Vr3 m) c 2)).trans (Gen.V4_of m (outsK m) c main_v0 (by decide)).symm
  | ⟨3, _⟩ => (outsK_v6 m c).symm.trans (by
      simp only [Gen.V4, Function.update_self])

/-- and every other buffer what it held at entry. -/
theorem hrest1 (c : Dev nD) : ∀ b, b ∉ Finset.univ.image (Pipeline.arrRef spec1) → Vr4 m c b = Vr3 m c b := fun b hb =>
  Gen.V4_of m (outsK m) c b fun h => by
    rcases List.mem_cons.mp h with rfl | h
    · exact hb (Finset.mem_image.mpr ⟨3, Finset.mem_univ _, rfl⟩)
    · exact absurd h (List.not_mem_nil)

/-! # The proof data family and the thread state -/

/-- Every pipeline's proof data, each at its region's entry contents (a literal `match`, so that the pinned
    configuration at a numeral reduces to the printed one). -/
def pdats : (p : Fin 2) → (c : Dev nD) → Dat τ (Elt F) Unit ℕ (UR sig nD τ) ℕ (cfgs p) c
  | ⟨0, _⟩ => fun c => dat0 (Vr1 m) c
  | ⟨1, _⟩ => fun c => dat1 (Vr3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the unscoped buffers through every item: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- The same between any two items. -/
abbrev E : Fin 3 → Dev nD → sProp 𝕄 := fun _ c => R (F := F) c

/-! # The regions as segments -/

-- a library lemma stated over the pinned configuration unifies with the printed one only when unification may unfold
-- plain definitions in a metavariable's type
set_option backward.isDefEq.respectTransparency.types false in
/-- REGION 0 (custom_call 0) over the thread state: entered from every unscoped buffer at `Gen.V1 m`, left at
    `Gen.V2 m (outsK m)`. Its arrays split out of the unscoped buffers and put back at the exit contents; the generator
    register and the scoped buffers no window stages go into the region's own invariant at the first point (`hin0`)
    and come back out of it at the last (`hout0`); nothing owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vr1 m c) fun w => A_eq0 (Vr1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr1 m) c)
    unfold Pipeline.ΦA
    iintro ⟨Hp, -, Hr⟩
    isplitl [Hr]; · iexact Hr
    iexact Hp
  hout c := by
    refine (hout0 (Vr1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 (custom_call 1) over the thread state: entered from every unscoped buffer at `Gen.V3 m (outs0 m)`, left at
    `Gen.V4 m (outsK m)`. Its arrays split out of the unscoped buffers and put back at the exit contents; the generator
    register and the scoped buffers no window stages go into the region's own invariant at the first point (`hin1`)
    and come back out of it at the last (`hout1`); nothing owed; no semaphore of the kernel's own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr3 m) c).loose
  hwaits := Pipeline.hwaits_of_owed_zero _ _ _ _ L lv 1 fun _ _ => rfl
  pre c := iprop(StableHlo.held (c : Thread nD τ) (Pipeline.ucRefs τ sig) (Gen.V3 m (outs0 m) c) ∗ R c)
  post c := iprop(StableHlo.held (c : Thread nD τ) (Pipeline.ucRefs τ sig) (Gen.V4 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vr3 m c) fun w => A_eq1 (Vr3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr3 m) c)
    unfold Pipeline.ΦA
    iintro ⟨Hp, -, Hr⟩
    isplitl [Hr]; · iexact Hr
    iexact Hp
  hout c := by
    refine (hout1 (Vr3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vr3 m c) (Vr4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The launch -/

/-- The launch element is the pipeline library's own, and no core needs a ghost resource beside it. -/
theorem hu₀K : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides beside the buffers is made on every core from what the launch deals it: the generator register at its
    launch state, the `owes` at nothing with no pair recorded. -/
theorem hE0K (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- and ends owing nothing. -/
theorem hE2K (c : Dev nD) : E (F := F) 2 c ⊢ (iprop(∃ W, owes (c : Thread nD τ) (0 : CellTallies nD τ sig Unit) W) : sProp 𝕄) := by
  iintro ⟨-, HO⟩; iexact HO

/-- Region 1's record is entered from the thread state the second host stretch leaves: its contents read only what
    region 0 left. -/
theorem hpre1K (c : Dev nD) :
    iprop(StableHlo.held (c : Thread nD τ) (Pipeline.ucRefs τ sig) (Gen.V3 m (outsK m) c) ∗ E (F := F) 1 c) ⊢ (reg1 m).pre c := by
  rw [V3_outsK]; exact .rfl

-- the launch theorem's implicit arguments are found by unifying its conclusion with this one, which takes unfolding
-- plain definitions in a metavariable's type
set_option backward.isDefEq.respectTransparency.types false in
/-- THE FRAME: at the compiled mesh, from any memory with zero counters, every weakly fair execution of @main on the
    TensorCores terminates, nothing faulting, and every final memory holds each argument array as launched: the
    conditional frame of the program at the two regions' records. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m emb₁ () 𝒱₀ L lv (fun _ _ => rfl) ρ (outsK m) (pdats m) 0 (fun _ => iprop(emp))
    (initOf (Pipeline.cells cfgs cellOf_inj) (Pipeline.launchToks cfgs cellOf_inj)) hu₀K E (hE0K ρ) hE2K
    (reg0 m) (fun _ => .rfl) (fun _ => .rfl)
    (reg1 m) (hpre1K m) (fun _ => .rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- as for `frame`
set_option backward.isDefEq.respectTransparency.types false in
/-- THE RUN'S VALUES: the same launch, read at every unscoped buffer — every final memory holds, at each of them, the
    last valuation of the fold through @main's items at what the regions leave (`outsK`). The launch over the program's
    segment list at the two regions' records; the last thread state, every unscoped buffer held at that valuation, read
    against the final state. -/
theorem run_vals (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = Gen.V11 m (outsK m) c b) := by
  refine Pipeline.θ_run_regions_kit_dev (pcfgs (F := F)) Gen.adm (pdats m) () cellOf_inj emb₁ defs₀ 𝒱₀ L lv m ρ main
    (Gen.segs m (outsK m) 𝒱₀ L lv E () (pdats m) (reg0 m) (reg1 m))
    (fun c Q => by
      rewrite [main_chain c, Pipeline.Seg.run_eq_chain,
        show (Gen.segs m (outsK m) 𝒱₀ L lv E () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [Gen.segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj)) hu₀K
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V11 m (outsK m) c))
    (hch := fun c => ⟨.rfl, .rfl, .rfl, hpre1K m c, .rfl, .rfl, .rfl, .rfl, .rfl, .rfl, .rfl, sep_mono .rfl (hE2K c)⟩)
    (hinit := ?_)
    (QY := fun c s => ∀ b ∈ Pipeline.ucRefs τ sig, s.mem ((c : Thread nD τ).1, b) = Gen.V11 m (outsK m) c b)
    (hfin := fun c s' => ?_) (hQ := fun _ h => h)
  · -- the launch: the unscoped buffers are held at the launch memory; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅
                ∗ Pipeline.launchCred (0 : Dev nD → CellTallies nD τ sig Unit) c ∗ prngReg c (ρ c) ∗ (BI.emp : sProp 𝕄)))
            : sProp 𝕄) := by
      rw [← bigSep_sep']
      exact bigSep_mono fun c _ => by
        rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0K ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (E (F := F) 0)]
    isplitl [Hh]; · iexact Hh
    iexact HE
  · -- the end: every unscoped buffer read off the last thread state
    unfold StableHlo.held
    iintro ⟨Hh, HSI⟩
    imodintro
    iapply (pointsTo_read_all (Pipeline.ucRefs τ sig) (fun b => ((c : Thread nD τ).1, b)) (Gen.V11 m (outsK m) c) s')
    isplitl [Hh] <;> iassumption

end Cert.Kernel.Hand

end
-- ==== Proof.KI.R0Runs.lean ====
import proofs.«417562_j59090160058697_3_alg».proof.Proof.Gen.KernelIdeal.Launch
import proofs.«417562_j59090160058697_3_alg».proof.Proof.Gen.KernelIdeal.Skeleton
import proofs.«417562_j59090160058697_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when region 0 is entered: everything below is stated at this parameter
variable (V : (c : Dev nD) → (b : Ref sig .tc) → Buf (Elt F) ((c : Thread nD τ).loc b))

/-! # Region 0 (custom_call 0, `cc0__logps_kernel_full`, pipeline 0) at the entry contents `V`: what its three case runs share -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s (`hA`) and whose body leaves the block in place (`hafter`): where the window is not fetched
    its block index has not moved since the point before, and the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s (`hA`) and whose body leaves the block in place (`hafter`): where the window is not fetched
    its block index has not moved since the point before, and the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s (`hA`) and whose body leaves the block in place (`hafter`): where the window is not fetched
    its block index has not moved since the point before, and the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the 4 x 25 grid -/

/-- The condition of the body's first conditional (`k0_h1`): the vocabulary-tile coordinate is 0, as the kernel
    computes it from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 25): the first vocabulary tile of each token tile. -/
theorem hcond0_0 : ∀ t : Fin cfg0.N, cond0_0 (grid0.coords t) ↔ t.val % 25 = 0 :=
  (by decide +kernel : ∀ t : Fin grid0.N, cond0_0 (grid0.coords t) ↔ t.val % 25 = 0)

/-- The condition of the body's second conditional (`k0_h2`): the vocabulary-tile coordinate is 24. -/
abbrev cond0_1 (i : grid0.Coords) : Prop := k0_cond2 i = 1#1
/-- It holds exactly at the points ≡ 24 (mod 25): the last vocabulary tile of each token tile. -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle

Three cases meet points: A (first conditional taken, second not: reset, then update), B (neither: update), C (second
taken, first not: update, then store the two outputs). Both taken meets no point. -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the points of case A output window 3 is idle (the case stores nothing into it) and its block is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- The same at the points of case B. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- At the points of case C output window 3 is live: the case stores its whole block. -/
theorem liveAt0_3_C : ∀ t : Fin cfg0.N, ¬cond0_0 (grid0.coords t) → cond0_1 (grid0.coords t) → cfg0.idle 3 (grid0.coords t) = false := by decide +kernel
/-- At the points of case A output window 4 is idle (the case stores nothing into it) and its block is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- The same at the points of case B. -/
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- At the points of case C output window 4 is live: the case stores its whole block. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of each output window, through which its contents are stated (a covering list of pieces reads
    back the same through any view of the shape, so the choice does not matter). -/
abbrev VO0_3 : View sig .tc .vmem S4x256 .f32 := (Memref.whole cc0_stg3_0 : Memref sig .tc .vmem S4x256 .f32).view
abbrev VO0_4 : View sig .tc .vmem S4x256 .f32 := (Memref.whole cc0_stg4_0 : Memref sig .tc .vmem S4x256 .f32).view

/-- Each window's current staging memref at point `t`, spelled as the pipeline passes it to the body, and its wholeness. -/
abbrev ms0_0 (t : Fin cfg0.N) : Memref sig .tc .vmem S4x256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x256x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x256 .f32 := win0_4.stage (cfg0.slots t 4)
abbrev hs0_4 (t : Fin cfg0.N) : (ms0_4 t).IsWhole := hstage0_4 ((cfg0.slots t 4).cast nbuf0_4)

/-- The four scratch operands (running maximum, sum of exponentials, sum of logits, selected logit): whole scoped
    buffers of the kernel's own, passed beside the windows and carried from point to point. -/
abbrev scM0_0 : Memref sig .tc .vmem S4x256x1 .f32 := Memref.whole cc0_scratch0
abbrev scM0_1 : Memref sig .tc .vmem S4x256x1 .f32 := Memref.whole cc0_scratch1
abbrev scM0_2 : Memref sig .tc .vmem S4x256x1 .f32 := Memref.whole cc0_scratch2
abbrev scM0_3 : Memref sig .tc .vmem S4x256x1 .f32 := Memref.whole cc0_scratch3
/-- The same as views: what each holds is stated through its view. -/
abbrev VS0_0 : View sig .tc .vmem S4x256x1 .f32 := scM0_0.view
abbrev VS0_1 : View sig .tc .vmem S4x256x1 .f32 := scM0_1.view
abbrev VS0_2 : View sig .tc .vmem S4x256x1 .f32 := scM0_2.view
abbrev VS0_3 : View sig .tc .vmem S4x256x1 .f32 := scM0_3.view

/-! ## The region's invariant, with the scratch operands named -/

/-- The core's scoped buffers that are neither a staging buffer nor a scratch operand of this region (the other
    region's staging buffers and scratch), each whole at some contents: the body never touches them, so they pass
    through every point as they are. -/
def restS0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ (∃ f : Buf (Elt F) ((c : Thread nD τ).loc cc1_scratch2), ((c : Thread nD τ).loc cc1_scratch2) ↦{fullShare} f))

/-- The region's invariant (the scoped rest and the generator register) with the four scratch operands as memrefs owned
    at some contents, the untouched rest beside them: what the body obligation hands a run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d) ∗ restS0 (F := F) c)
        ∗ (∃ r, prngReg c r)) := by
  unfold Pipeline.ΦA restS0; rw [scopedRest0_eq]; simp only [scM0_0, scM0_1, scM0_2, scM0_3, owns_whole]; try rfl

end Cert.KernelIdeal.Hand

end
-- ==== Proof.KI.R0RunA.lean ====
import proofs.«417562_j59090160058697_3_alg».proof.Proof.KI.R0Runs

-- membership of an index in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 0's body, run whole, in case A -/

-- (the run's proof term is large: closing the definition walks it past the default budget)
set_option maxHeartbeats 4000000 in
/-- What the body's stores leave in each buffer it stores into, as lists of pieces (last store first), IN CASE A — the first conditional taken and the second not (points ≡ 0 mod 25): every scratch operand is reset whole and then updated, the outputs are left alone —
    together with the proof that on whole memrefs the body runs to its continuation: the inputs' buffers at their contents `x·`
    and handed back as they were; the two outputs' buffers at any contents `xi·`, handed back untouched (no pieces);
    each scratch operand at anything (its old contents are read and discarded before the reset), handed back with its pieces `LS·` written. The lists are
    the witness the run itself produces: nothing of the body is restated here. -/
noncomputable def kernelRun0_A (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) :
    Σ' (L3 : List (View.Piece (Elt F) S4x256 .f32)) (L4 : List (View.Piece (Elt F) S4x256 .f32))
       (LS0 : List (View.Piece (Elt F) S4x256x1 .f32)) (LS1 : List (View.Piece (Elt F) S4x256x1 .f32)) (LS2 : List (View.Piece (Elt F) S4x256x1 .f32)),
      { LS3 : List (View.Piece (Elt F) S4x256x1 .f32) //
      ∀ (xi3 xi4 : Vec F S4x256 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi3
            ∗ owns (c : Thread nD τ) arg6 fullShare xi4
            ∗ (∃ d, owns (c : Thread nD τ) arg7 fullShare d)
            ∗ (∃ d, owns (c : Thread nD τ) arg8 fullShare d)
            ∗ (∃ d, owns (c : Thread nD τ) arg9 fullShare d)
            ∗ (∃ d, owns (c : Thread nD τ) arg10 fullShare d)
            ∗ (iprop(owns (c : Thread nD τ) arg2 fullShare x0
              ∗ owns (c : Thread nD τ) arg3 fullShare x1
              ∗ owns (c : Thread nD τ) arg4 fullShare x2
              ∗ owns (c : Thread nD τ) arg5 fullShare xi3
              ∗ owns (c : Thread nD τ) arg6 fullShare xi4
              ∗ (∃ f, arg7.view.loc (c : Thread nD τ) ↦[arg7.view.set]{fullShare} arg7.view.writes (Elt F) f LS0)
              ∗ (∃ f, arg8.view.loc (c : Thread nD τ) ↦[arg8.view.set]{fullShare} arg8.view.writes (Elt F) f LS1)
              ∗ (∃ f, arg9.view.loc (c : Thread nD τ) ↦[arg9.view.set]{fullShare} arg9.view.writes (Elt F) f LS2)
              ∗ (∃ f, arg10.view.loc (c : Thread nD τ) ↦[arg10.view.set]{fullShare} arg10.view.writes (Elt F) f LS3)) -∗ K ⟨⟩))
          ⊢ wp frame (wpE (defs₀ (F := F)) Variants.none c none) E (cc0__logps_kernel_full i arg2 harg2 arg3 harg3 arg4 harg4 arg5 harg5 arg6 harg6 arg7 harg7 arg8 harg8 arg9 harg9 arg10 harg10) K } := by
  refine ⟨[], [], ?_, ?_, ?_, ?_, fun xi3 xi4 E K => ?run⟩
  case run =>
    simp only [cc0__logps_kernel_full_eq_skeleton]; unfold cc0__logps_kernel_full_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KI.R0RunB.lean ====
import proofs.«417562_j59090160058697_3_alg».proof.Proof.KI.R0Runs

-- membership of an index in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 0's body, run whole, in case B -/

-- (the run's proof term is large: closing the definition walks it past the default budget)
set_option maxHeartbeats 4000000 in
/-- What the body's stores leave in each buffer it stores into, as lists of pieces (last store first), IN CASE B — neither conditional taken (points ≡ 1..23 mod 25): every scratch operand is updated from what the point before left, the outputs are left alone —
    together with the proof that on whole memrefs the body runs to its continuation: the inputs' buffers at their contents `x·`
    and handed back as they were; the two outputs' buffers at any contents `xi·`, handed back untouched (no pieces);
    each scratch operand at the contents `xs·` the point before left, handed back with its pieces `LS·` written. The lists are
    the witness the run itself produces: nothing of the body is restated here. -/
noncomputable def kernelRun0_B (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) :
    Σ' (L3 : List (View.Piece (Elt F) S4x256 .f32)) (L4 : List (View.Piece (Elt F) S4x256 .f32))
       (LS0 : List (View.Piece (Elt F) S4x256x1 .f32)) (LS1 : List (View.Piece (Elt F) S4x256x1 .f32)) (LS2 : List (View.Piece (Elt F) S4x256x1 .f32)),
      { LS3 : List (View.Piece (Elt F) S4x256x1 .f32) //
      ∀ (xi3 xi4 : Vec F S4x256 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi3
            ∗ owns (c : Thread nD τ) arg6 fullShare xi4
            ∗ owns (c : Thread nD τ) arg7 fullShare xs0
            ∗ owns (c : Thread nD τ) arg8 fullShare xs1
            ∗ owns (c : Thread nD τ) arg9 fullShare xs2
            ∗ owns (c : Thread nD τ) arg10 fullShare xs3
            ∗ (iprop(owns (c : Thread nD τ) arg2 fullShare x0
              ∗ owns (c : Thread nD τ) arg3 fullShare x1
              ∗ owns (c : Thread nD τ) arg4 fullShare x2
              ∗ owns (c : Thread nD τ) arg5 fullShare xi3
              ∗ owns (c : Thread nD τ) arg6 fullShare xi4
              ∗ (∃ f, arg7.view.loc (c : Thread nD τ) ↦[arg7.view.set]{fullShare} arg7.view.writes (Elt F) f LS0)
              ∗ (∃ f, arg8.view.loc (c : Thread nD τ) ↦[arg8.view.set]{fullShare} arg8.view.writes (Elt F) f LS1)
              ∗ (∃ f, arg9.view.loc (c : Thread nD τ) ↦[arg9.view.set]{fullShare} arg9.view.writes (Elt F) f LS2)
              ∗ (∃ f, arg10.view.loc (c : Thread nD τ) ↦[arg10.view.set]{fullShare} arg10.view.writes (Elt F) f LS3)) -∗ K ⟨⟩))
          ⊢ wp frame (wpE (defs₀ (F := F)) Variants.none c none) E (cc0__logps_kernel_full i arg2 harg2 arg3 harg3 arg4 harg4 arg5 harg5 arg6 harg6 arg7 harg7 arg8 harg8 arg9 harg9 arg10 harg10) K } := by
  refine ⟨[], [], ?_, ?_, ?_, ?_, fun xi3 xi4 E K => ?run⟩
  case run =>
    simp only [cc0__logps_kernel_full_eq_skeleton]; unfold cc0__logps_kernel_full_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KI.R0RunC.lean ====
import proofs.«417562_j59090160058697_3_alg».proof.Proof.KI.R0Runs

-- membership of an index in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 0's body, run whole, in case C -/

-- (the run's proof term is large: closing the definition walks it past the default budget)
set_option maxHeartbeats 4000000 in
/-- What the body's stores leave in each buffer it stores into, as lists of pieces (last store first), IN CASE C — the second conditional taken and the first not (points ≡ 24 mod 25): every scratch operand is updated from what the point before left, then both outputs are stored whole from the scratch —
    together with the proof that on whole memrefs the body runs to its continuation: the inputs' buffers at their contents `x·`
    and handed back as they were; the two outputs' buffers at anything, handed back with their pieces `L3`, `L4` written;
    each scratch operand at the contents `xs·` the point before left, handed back with its pieces `LS·` written. The lists are
    the witness the run itself produces: nothing of the body is restated here. -/
noncomputable def kernelRun0_C (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) :
    Σ' (L3 : List (View.Piece (Elt F) S4x256 .f32)) (L4 : List (View.Piece (Elt F) S4x256 .f32))
       (LS0 : List (View.Piece (Elt F) S4x256x1 .f32)) (LS1 : List (View.Piece (Elt F) S4x256x1 .f32)) (LS2 : List (View.Piece (Elt F) S4x256x1 .f32)),
      { LS3 : List (View.Piece (Elt F) S4x256x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ (∃ d, owns (c : Thread nD τ) arg6 fullShare d)
            ∗ owns (c : Thread nD τ) arg7 fullShare xs0
            ∗ owns (c : Thread nD τ) arg8 fullShare xs1
            ∗ owns (c : Thread nD τ) arg9 fullShare xs2
            ∗ owns (c : Thread nD τ) arg10 fullShare xs3
            ∗ (iprop(owns (c : Thread nD τ) arg2 fullShare x0
              ∗ owns (c : Thread nD τ) arg3 fullShare x1
              ∗ owns (c : Thread nD τ) arg4 fullShare x2
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)
              ∗ (∃ f, arg7.view.loc (c : Thread nD τ) ↦[arg7.view.set]{fullShare} arg7.view.writes (Elt F) f LS0)
              ∗ (∃ f, arg8.view.loc (c : Thread nD τ) ↦[arg8.view.set]{fullShare} arg8.view.writes (Elt F) f LS1)
              ∗ (∃ f, arg9.view.loc (c : Thread nD τ) ↦[arg9.view.set]{fullShare} arg9.view.writes (Elt F) f LS2)
              ∗ (∃ f, arg10.view.loc (c : Thread nD τ) ↦[arg10.view.set]{fullShare} arg10.view.writes (Elt F) f LS3)) -∗ K ⟨⟩))
          ⊢ wp frame (wpE (defs₀ (F := F)) Variants.none c none) E (cc0__logps_kernel_full i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__logps_kernel_full_eq_skeleton]; unfold cc0__logps_kernel_full_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Hand

end
-- ==== Proof.KI.R0Frame.lean ====
import proofs.«417562_j59090160058697_3_alg».proof.Proof.KI.R0RunA
import proofs.«417562_j59090160058697_3_alg».proof.Proof.KI.R0RunB
import proofs.«417562_j59090160058697_3_alg».proof.Proof.KI.R0RunC

-- membership of an index in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when region 0 is entered: everything below is stated at this parameter
variable (V : (c : Dev nD) → (b : Ref sig .tc) → Buf (Elt F) ((c : Thread nD τ).loc b))

/-! # Region 0 (custom_call 0, `cc0__logps_kernel_full`, pipeline 0) at the entry contents `V`: its frame half -/

/-! ## Case A: what the run's pieces leave in each buffer -/

/-- Case A stores nothing into output window 3 (idle at its points and not written back there): no pieces. A placeholder
    that nothing consults, since at these points the window's buffer is neither written back nor read by the next point. -/
def out0_A_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) : Vec F S4x256 .f32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 hc0 hc1 x0 x1 x2).1)

/-- Case A stores nothing into output window 4 (idle at its points and not written back there): no pieces. A placeholder
    that nothing consults, since at these points the window's buffer is neither written back nor read by the next point. -/
def out0_A_4 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) : Vec F S4x256 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 hc0 hc1 x0 x1 x2).2.1)

/-- Case A's pieces for scratch operand 0 (the running maximum) cover it: the whole reset and the whole update. -/
theorem scover0_A_0 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) (y : S4x256x1.Idx) :
    ∃ pc ∈ (kernelRun0_A c i arg2 harg2 arg3 harg3 arg4 harg4 arg5 harg5 arg6 harg6 arg7 harg7 arg8 harg8 arg9 harg9 arg10 harg10 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).2.2.1 S4x256x1.size (by sl_kernel_rfl) y

/-- What case A leaves in scratch operand 0: its pieces read back. -/
def sout0_A_0 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) : Vec F S4x256x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2).2.2.1)

/-- Case A's pieces for scratch operand 1 (the running sum of exponentials) cover it: the whole reset and the whole update. -/
theorem scover0_A_1 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) (y : S4x256x1.Idx) :
    ∃ pc ∈ (kernelRun0_A c i arg2 harg2 arg3 harg3 arg4 harg4 arg5 harg5 arg6 harg6 arg7 harg7 arg8 harg8 arg9 harg9 arg10 harg10 hc0 hc1 x0 x1 x2).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).2.2.2.1 S4x256x1.size (by sl_kernel_rfl) y

/-- What case A leaves in scratch operand 1: its pieces read back. -/
def sout0_A_1 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) : Vec F S4x256x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2).2.2.2.1)

/-- Case A's pieces for scratch operand 2 (the running sum of logits) cover it: the whole reset and the whole update. -/
theorem scover0_A_2 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) (y : S4x256x1.Idx) :
    ∃ pc ∈ (kernelRun0_A c i arg2 harg2 arg3 harg3 arg4 harg4 arg5 harg5 arg6 harg6 arg7 harg7 arg8 harg8 arg9 harg9 arg10 harg10 hc0 hc1 x0 x1 x2).2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).2.2.2.2.1 S4x256x1.size (by sl_kernel_rfl) y

/-- What case A leaves in scratch operand 2: its pieces read back. -/
def sout0_A_2 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) : Vec F S4x256x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2).2.2.2.2.1)

/-- Case A's pieces for scratch operand 3 (the selected logit) cover it: the whole reset and the whole update. -/
theorem scover0_A_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) (y : S4x256x1.Idx) :
    ∃ pc ∈ (kernelRun0_A c i arg2 harg2 arg3 harg3 arg4 harg4 arg5 harg5 arg6 harg6 arg7 harg7 arg8 harg8 arg9 harg9 arg10 harg10 hc0 hc1 x0 x1 x2).2.2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).2.2.2.2.2.1 S4x256x1.size (by sl_kernel_rfl) y

/-- What case A leaves in scratch operand 3: its pieces read back. -/
def sout0_A_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) : Vec F S4x256x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 hc0 hc1 x0 x1 x2).2.2.2.2.2.1)

/-! ## Case B: what the run's pieces leave in each buffer -/

/-- Case B stores nothing into output window 3 (idle at its points and not written back there): no pieces. A placeholder
    that nothing consults, since at these points the window's buffer is neither written back nor read by the next point. -/
def out0_B_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) : Vec F S4x256 .f32 :=
  VO0_3.read (Elt F) (VO0_3.writes (Elt F) VO0_3.junk (kernelRun0_B c i arg2 harg2 arg3 harg3 arg4 harg4 arg5 harg5 arg6 harg6 arg7 harg7 arg8 harg8 arg9 harg9 arg10 harg10 hc0 hc1 x0 x1 x2 xs0 xs1 xs2 xs3).1)

/-- Case B stores nothing into output window 4 (idle at its points and not written back there): no pieces. A placeholder
    that nothing consults, since at these points the window's buffer is neither written back nor read by the next point. -/
def out0_B_4 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) : Vec F S4x256 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 hc0 hc1 x0 x1 x2 xs0 xs1 xs2 xs3).2.1)

/-- Case B's pieces for scratch operand 0 (the running maximum) cover it: the whole update. -/
theorem scover0_B_0 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) (y : S4x256x1.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2 xs3).2.2.1 S4x256x1.size (by sl_kernel_rfl) y

/-- What case B leaves in scratch operand 0: its pieces read back. -/
def sout0_B_0 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) : Vec F S4x256x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 xs0 xs1 xs2 xs3).2.2.1)

/-- Case B's pieces for scratch operand 1 (the running sum of exponentials) cover it: the whole update. -/
theorem scover0_B_1 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) (y : S4x256x1.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2 xs3).2.2.2.1 S4x256x1.size (by sl_kernel_rfl) y

/-- What case B leaves in scratch operand 1: its pieces read back. -/
def sout0_B_1 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) : Vec F S4x256x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 xs0 xs1 xs2 xs3).2.2.2.1)

/-- Case B's pieces for scratch operand 2 (the running sum of logits) cover it: the whole update. -/
theorem scover0_B_2 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) (y : S4x256x1.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2 xs3).2.2.2.2.1 S4x256x1.size (by sl_kernel_rfl) y

/-- What case B leaves in scratch operand 2: its pieces read back. -/
def sout0_B_2 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) : Vec F S4x256x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 x1 x2 xs0 xs1 xs2 xs3).2.2.2.2.1)

/-- Case B's pieces for scratch operand 3 (the selected logit) cover it: the whole update. -/
theorem scover0_B_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) (y : S4x256x1.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2 xs3).2.2.2.2.2.1 S4x256x1.size (by sl_kernel_rfl) y

/-- What case B leaves in scratch operand 3: its pieces read back. -/
def sout0_B_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) : Vec F S4x256x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 hc0 hc1 x0 x1 x2 xs0 xs1 xs2 xs3).2.2.2.2.2.1)

/-! ## Case C: what the run's pieces leave in each buffer -/

/-- Case C's pieces for output window 3 cover its block: one whole-block store (decided by evaluating the tiling check on the run's list). -/
theorem cover0_C_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) (y : S4x256.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).1 S4x256.size (by sl_kernel_rfl) y

/-- What case C leaves in output window 3's staging buffer: its pieces read back. -/
def out0_C_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) : Vec F S4x256 .f32 :=
  VO0_3.read (Elt F) (VO0_3.writes (Elt F) VO0_3.junk (kernelRun0_C c i arg2 harg2 arg3 harg3 arg4 harg4 arg5 harg5 arg6 harg6 arg7 harg7 arg8 harg8 arg9 harg9 arg10 harg10 hc0 hc1 x0 x1 x2 xs0 xs1 xs2 xs3).1)

/-- Case C's pieces for output window 4 cover its block: one whole-block store (decided by evaluating the tiling check on the run's list). -/
theorem cover0_C_4 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) (y : S4x256.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).2.1 S4x256.size (by sl_kernel_rfl) y

/-- What case C leaves in output window 4's staging buffer: its pieces read back. -/
def out0_C_4 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) : Vec F S4x256 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 xs0 xs1 xs2 xs3).2.1)

/-- Case C's pieces for scratch operand 0 (the running maximum) cover it: the whole update. -/
theorem scover0_C_0 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) (y : S4x256x1.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).2.2.1 S4x256x1.size (by sl_kernel_rfl) y

/-- What case C leaves in scratch operand 0: its pieces read back. -/
def sout0_C_0 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) : Vec F S4x256x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 xs0 xs1 xs2 xs3).2.2.1)

/-- Case C's pieces for scratch operand 1 (the running sum of exponentials) cover it: the whole update. -/
theorem scover0_C_1 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) (y : S4x256x1.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).2.2.2.1 S4x256x1.size (by sl_kernel_rfl) y

/-- What case C leaves in scratch operand 1: its pieces read back. -/
def sout0_C_1 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) : Vec F S4x256x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 xs0 xs1 xs2 xs3).2.2.2.1)

/-- Case C's pieces for scratch operand 2 (the running sum of logits) cover it: the whole update. -/
theorem scover0_C_2 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) (y : S4x256x1.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).2.2.2.2.1 S4x256x1.size (by sl_kernel_rfl) y

/-- What case C leaves in scratch operand 2: its pieces read back. -/
def sout0_C_2 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) : Vec F S4x256x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 hc0 hc1 x0 x1 x2 xs0 xs1 xs2 xs3).2.2.2.2.1)

/-- Case C's pieces for scratch operand 3 (the selected logit) cover it: the whole update. -/
theorem scover0_C_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) (y : S4x256x1.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).2.2.2.2.2.1 S4x256x1.size (by sl_kernel_rfl) y

/-- What case C leaves in scratch operand 3: its pieces read back. -/
def sout0_C_3 (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) : Vec F S4x256x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 hc0 hc1 x0 x1 x2 xs0 xs1 xs2 xs3).2.2.2.2.2.1)

/-! ## What the outputs and the scratch hold after each point -/

/-- THE ACCUMULATION. What the two outputs' staging buffers and the four scratch operands hold after the body at position `n`
    (a tuple: the outputs in window order, then the scratch 0..3): the case the closed forms select at `n`, run at the
    point's memrefs and input blocks, the scratch operands (in cases B and C) at what this leaves at `n - 1`. Both
    conditions at once meet no point of the grid. -/
def outsAt0 (c : Dev nD) : (n : ℕ) → n < cfg0.N → Vec F S4x256 .f32 × Vec F S4x256 .f32 × Vec F S4x256x1 .f32 × Vec F S4x256x1 .f32 × Vec F S4x256x1 .f32 × Vec F S4x256x1 .f32
  | 0, hn =>
      (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 25 = 0 then
      if h1 : (n + 1) % 25 = 24 then
        False.elim (by have hN : n + 1 < 100 := lt_of_lt_of_eq hn (show cfg0.N = 100 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 25 = 24 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 25 = 0) (h1 : ¬t.val % 25 = 24) :
    outsAt0 V c t.val t.isLt =
      (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point of case B: that case's contents, over what the point before left in the scratch. -/
theorem outsAt0_B (c : Dev nD) (t : Fin cfg0.N) (h0 : ¬t.val % 25 = 0) (h1 : ¬t.val % 25 = 24) :
    outsAt0 V c t.val t.isLt =
      (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the scratch. -/
theorem outsAt0_C (c : Dev nD) (t : Fin cfg0.N) (h0 : ¬t.val % 25 = 0) (h1 : t.val % 25 = 24) :
    outsAt0 V c t.val t.isLt =
      (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- The invariant before position `n`: before the first point the region's own (every scratch operand at anything); afterwards
    each scratch operand at what the point before left in it (`outsAt0`'s scratch components), the untouched scoped rest, and
    the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1)
        ∗ owns (c : Thread nD τ) scM0_1 fullShare ((outsAt0 V c n hn).2.2.2.1)
        ∗ owns (c : Thread nD τ) scM0_2 fullShare ((outsAt0 V c n hn).2.2.2.2.1)
        ∗ owns (c : Thread nD τ) scM0_3 fullShare ((outsAt0 V c n hn).2.2.2.2.2)
        ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch at that point's contents. -/
theorem PhiS0_succ (c : Dev nD) (n : ℕ) (hn : n < cfg0.N) :
    PhiS0 V c (n + 1) hn = iprop(iprop(owns (c : Thread nD τ) scM0_0 fullShare ((outsAt0 V c n hn).2.2.1)
        ∗ owns (c : Thread nD τ) scM0_1 fullShare ((outsAt0 V c n hn).2.2.2.1)
        ∗ owns (c : Thread nD τ) scM0_2 fullShare ((outsAt0 V c n hn).2.2.2.2.1)
        ∗ owns (c : Thread nD τ) scM0_3 fullShare ((outsAt0 V c n hn).2.2.2.2.2)
        ∗ restS0 (F := F) c) ∗ (∃ r, prngReg c r)) := rfl

/-- Before a point that is not the first: the scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1)
        ∗ owns (c : Thread nD τ) scM0_1 fullShare ((outsAt0 V c (n - 1) (by omega)).2.2.2.1)
        ∗ owns (c : Thread nD τ) scM0_2 fullShare ((outsAt0 V c (n - 1) (by omega)).2.2.2.2.1)
        ∗ owns (c : Thread nD τ) scM0_3 fullShare ((outsAt0 V c (n - 1) (by omega)).2.2.2.2.2)
        ∗ restS0 (F := F) c) ∗ (∃ r, prngReg c r)) := by
  cases n with
  | zero => exact absurd rfl hz
  | succ n => rfl

/-! ## The pipeline's proof data -/

/-- The proof data of pipeline 0 on core `c`: the arrays as the region finds them (`V`); after the body at point `t` each
    input's buffer at its block and the two outputs' at `outsAt0`'s first two components; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 16000000 in
/-- The body at any point. The inputs' memrefs hold their blocks (`before0_w`); the closed forms say which case the point is in;
    the case's run applies: the invariant hands the body each scratch operand at what the point before left (at anything at the
    grid's first point), the untouched scoped rest and the generator register, and takes each scratch operand back at this point's
    contents (its pieces cover it); an output the case leaves idle goes back as it came, one it stores whole goes back at its
    pieces read back; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 100 := lt_of_lt_of_eq t.isLt (show cfg0.N = 100 from N_0)
  by_cases h0 : t.val % 25 = 0
  · by_cases h1 : t.val % 25 = 24
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0 sout0_A_1 sout0_A_2 sout0_A_3; (try dsimp only)
      by_cases hz : t.val = 0
      · rw [PhiS0_castSucc V c t, PhiS0_zero V c _ _ hz, PhiA0_eq]
        iintro ⟨⟨⟨HS0, HS1, HS2, HS3, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t)).2.2.2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4
      · rw [PhiS0_castSucc V c t, PhiS0_pos V c _ _ hz]
        iintro ⟨⟨⟨HS0, HS1, HS2, HS3, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t)).2.2.2.2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, ⟨%es0, HS0⟩, ⟨%es1, HS1⟩, ⟨%es2, HS2⟩, ⟨%es3, HS3⟩⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 25 = 24
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_3 out0_C_4 sout0_C_0 sout0_C_1 sout0_C_2 sout0_C_3; (try dsimp only)
      by_cases hz : t.val = 0
      · exfalso; have hN : t.val < 100 := lt_of_lt_of_eq t.isLt (show cfg0.N = 100 from N_0); omega
      · rw [PhiS0_castSucc V c t, PhiS0_pos V c _ _ hz]
        iintro ⟨⟨⟨HS0, HS1, HS2, HS3, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) _ _ _ _).2.2.2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        isplitl [HS2]; · iexact HS2
        isplitl [HS3]; · iexact HS3
        iintro ⟨H0, H1, H2, ⟨%e3, H3⟩, ⟨%e4, H4⟩, ⟨%es0, HS0⟩, ⟨%es1, HS1⟩, ⟨%es2, HS2⟩, ⟨%es3, HS3⟩⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0 sout0_B_1 sout0_B_2 sout0_B_3; (try dsimp only)
      by_cases hz : t.val = 0
      · exfalso; have hN : t.val < 100 := lt_of_lt_of_eq t.isLt (show cfg0.N = 100 from N_0); omega
      · rw [PhiS0_castSucc V c t, PhiS0_pos V c _ _ hz]
        iintro ⟨⟨⟨HS0, HS1, HS2, HS3, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) _ _ _ _).2.2.2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the region's own back: the scratch operands' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, HR⟩, Hg⟩
  isplitl [HS0 HS1 HS2 HS3 HR]
  · isplitl [HS0]; · iexists _; iexact HS0
    isplitl [HS1]; · iexists _; iexact HS1
    isplitl [HS2]; · iexists _; iexact HS2
    isplitl [HS3]; · iexists _; iexact HS3
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 100 := N_0; omega)

end Cert.KernelIdeal.Hand

end
-- ==== Proof.KI.R1Runs.lean ====
import proofs.«417562_j59090160058697_3_alg».proof.Proof.Gen.KernelIdeal.Launch
import proofs.«417562_j59090160058697_3_alg».proof.Proof.Gen.KernelIdeal.Skeleton
import proofs.«417562_j59090160058697_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 (`cc1__logps_kernel_simple`, pipeline 1), at the entry contents `V`: what its runs share -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The printed functions as their skeletons, at any arguments -/

/-- The kernel function is its skeleton at any arguments. -/
theorem kernel1_eq_skel (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) :
    cc1__logps_kernel_simple (F := F) i arg2 harg2 arg3 harg3 arg4 harg4 arg5 harg5 arg6 harg6 arg7 harg7 arg8 harg8 = cc1__logps_kernel_simple_skel (F := F) i arg2 harg2 arg3 harg3 arg4 harg4 arg5 harg5 arg6 harg6 arg7 harg7 arg8 harg8 := by
  simp only [cc1__logps_kernel_simple_eq_skeleton]

/-- Its first part is that part's skeleton at any arguments. -/
theorem part1_eq_skel (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) :
    k1_part1 (F := F) i arg2 harg2 arg3 harg3 arg4 harg4 arg5 harg5 arg6 harg6 arg7 harg7 arg8 harg8 = k1_part1_skel (F := F) i arg2 harg2 arg3 harg3 arg4 harg4 arg5 harg5 arg6 harg6 arg7 harg7 arg8 harg8 := by
  simp only [k1_part1_eq_skeleton]

/-! ## The body's branch conditions -/

/-- The condition of the body's first conditional (the V-tile is the first one), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 25). -/
theorem hcond1_0 : ∀ t : Fin cfg1.N, cond1_0 (grid1.coords t) ↔ t.val % 25 = 0 :=
  (by decide +kernel : ∀ t : Fin grid1.N, cond1_0 (grid1.coords t) ↔ t.val % 25 = 0)

/-- The condition of the body's last conditional (the V-tile is the last one), from the grid coordinates. -/
abbrev cond1_1 (i : grid1.Coords) : Prop := k1_cond2 i = 1#1
/-- It holds at the points ≡ 24 (mod 25). -/
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- At the points of case A (first V-tile) output 3 is idle: the case stores nothing into it. -/
theorem idleAt1_3_A : ∀ t : Fin cfg1.N, cond1_0 (grid1.coords t) → ¬cond1_1 (grid1.coords t) → cfg1.idle 3 (grid1.coords t) = true := by decide +kernel
/-- At the points of case A output 3's block is not written back. -/
theorem noFlush1_3_A : ∀ t : Fin cfg1.N, cond1_0 (grid1.coords t) → ¬cond1_1 (grid1.coords t) → (cfg1.win 3).flush t = false := by decide +kernel
/-- At the points of case B (a middle V-tile) output 3 is idle: the case stores nothing into it. -/
theorem idleAt1_3_B : ∀ t : Fin cfg1.N, ¬cond1_0 (grid1.coords t) → ¬cond1_1 (grid1.coords t) → cfg1.idle 3 (grid1.coords t) = true := by decide +kernel
/-- At the points of case B output 3's block is not written back. -/
theorem noFlush1_3_B : ∀ t : Fin cfg1.N, ¬cond1_0 (grid1.coords t) → ¬cond1_1 (grid1.coords t) → (cfg1.win 3).flush t = false := by decide +kernel
/-- At the points of case C (last V-tile) output 3 is live: the case stores into it. -/
theorem liveAt1_3_C : ∀ t : Fin cfg1.N, ¬cond1_0 (grid1.coords t) → cond1_1 (grid1.coords t) → cfg1.idle 3 (grid1.coords t) = false := by decide +kernel

/-! ## The staging and scratch memrefs the body is called with -/

/-- One staging buffer of output window 3, through which its contents are stated (the choice does not matter). -/
abbrev VO1_3 : View sig .tc .vmem S4x256 .f32 := (Memref.whole cc1_stg3_0 : Memref sig .tc .vmem S4x256 .f32).view
/-- Each window's current staging memref at point `t`, spelled as the pipeline passes it, and its wholeness. -/
abbrev ms1_0 (t : Fin cfg1.N) : Memref sig .tc .vmem S4x256x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x256x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x256 .f32 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows (the running maximum, the
    running sum of exponentials, the selected logit). -/
abbrev scM1_0 : Memref sig .tc .vmem S4x256x1 .f32 := Memref.whole cc1_scratch0
abbrev scM1_1 : Memref sig .tc .vmem S4x256x1 .f32 := Memref.whole cc1_scratch1
abbrev scM1_2 : Memref sig .tc .vmem S4x256x1 .f32 := Memref.whole cc1_scratch2
/-- Each scratch the kernel carries between points, as a view: what it holds is stated through it. -/
abbrev VS1_0 : View sig .tc .vmem S4x256x1 .f32 := scM1_0.view
abbrev VS1_1 : View sig .tc .vmem S4x256x1 .f32 := scM1_1.view
abbrev VS1_2 : View sig .tc .vmem S4x256x1 .f32 := scM1_2.view

/-- The launch's invariant for region 1 with the scratch operands as memrefs owned at some contents, the core's other
    scoped buffers whole at some contents, and the generator register at some state: what the body obligation hands
    the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KI.R1RunA.lean ====
import proofs.«417562_j59090160058697_3_alg».proof.Proof.KI.R1Runs

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: closing the definition walks it past the default budget)
set_option maxHeartbeats 4000000 in
/-- What the body's stores leave in the output's staging memref and in each scratch, as pieces (last first), in case A (the
    first conditional taken, the last not: the points ≡ 0 mod 25), with the proof that on whole memrefs — the inputs' at
    their contents, the output's (idle here: no store) at contents `xi3` handed back untouched, each scratch at anything (the
    case resets it whole before it reads it) — the body runs to the continuation holding the inputs' and the output's as they
    were and each scratch with its pieces written. The pieces are found by the run itself. -/
noncomputable def kernelRun1_A (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) :
    Σ' (L3 : List (View.Piece (Elt F) S4x256 .f32)), Σ' (LS0 : List (View.Piece (Elt F) S4x256x1 .f32)), Σ' (LS1 : List (View.Piece (Elt F) S4x256x1 .f32)), { LS2 : List (View.Piece (Elt F) S4x256x1 .f32) //
      ∀ (xi3 : Vec F S4x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__logps_kernel_simple i arg2 harg2 arg3 harg3 arg4 harg4 arg5 harg5 arg6 harg6 arg7 harg7 arg8 harg8) K } := by
  refine ⟨[], ?_, ?_, ?_, fun xi3 E K => ?run⟩
  case run =>
    simp only [cc1__logps_kernel_simple_eq_skeleton]; unfold cc1__logps_kernel_simple_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.R1RunB.lean ====
import proofs.«417562_j59090160058697_3_alg».proof.Proof.KI.R1Runs

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: closing the definition walks it past the default budget)
set_option maxHeartbeats 4000000 in
/-- What the body's stores leave in the output's staging memref and in each scratch, as pieces (last first), in case B
    (neither conditional taken: the points ≢ 0, 24 mod 25), with the proof that on whole memrefs — the inputs' at their
    contents, the output's (idle here: no store) at contents `xi3` handed back untouched, each scratch at the contents `xs·`
    the point before left — the body runs to the continuation holding the inputs' and the output's as they were and each
    scratch with its pieces written. The pieces are found by the run itself. -/
noncomputable def kernelRun1_B (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) :
    Σ' (L3 : List (View.Piece (Elt F) S4x256 .f32)), Σ' (LS0 : List (View.Piece (Elt F) S4x256x1 .f32)), Σ' (LS1 : List (View.Piece (Elt F) S4x256x1 .f32)), { LS2 : List (View.Piece (Elt F) S4x256x1 .f32) //
      ∀ (xi3 : Vec F S4x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__logps_kernel_simple i arg2 harg2 arg3 harg3 arg4 harg4 arg5 harg5 arg6 harg6 arg7 harg7 arg8 harg8) K } := by
  refine ⟨[], ?_, ?_, ?_, fun xi3 E K => ?run⟩
  case run =>
    simp only [cc1__logps_kernel_simple_eq_skeleton]; unfold cc1__logps_kernel_simple_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.R1RunC.lean ====
import proofs.«417562_j59090160058697_3_alg».proof.Proof.KI.R1Runs

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: closing the definition walks it past the default budget)
set_option maxHeartbeats 4000000 in
/-- What the body's stores leave in the output's staging memref and in each scratch, as pieces (last first), in case C (the
    first conditional not taken, the last taken: the points ≡ 24 mod 25), with the proof that on whole memrefs — the inputs'
    at their contents, the output's at anything, each scratch at the contents `xs·` the point before left — the body runs to
    the continuation holding the inputs' as they were and the output's and each scratch with its pieces written. The pieces
    are found by the run itself. -/
noncomputable def kernelRun1_C (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) :
    Σ' (L3 : List (View.Piece (Elt F) S4x256 .f32)), Σ' (LS0 : List (View.Piece (Elt F) S4x256x1 .f32)), Σ' (LS1 : List (View.Piece (Elt F) S4x256x1 .f32)), { LS2 : List (View.Piece (Elt F) S4x256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__logps_kernel_simple i arg2 harg2 arg3 harg3 arg4 harg4 arg5 harg5 arg6 harg6 arg7 harg7 arg8 harg8) K } := by
  refine ⟨?_, ?_, ?_, ?_, fun E K => ?run⟩
  case run =>
    simp only [cc1__logps_kernel_simple_eq_skeleton]; unfold cc1__logps_kernel_simple_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.R1Frame.lean ====
import proofs.«417562_j59090160058697_3_alg».proof.Proof.KI.R1RunA
import proofs.«417562_j59090160058697_3_alg».proof.Proof.KI.R1RunB
import proofs.«417562_j59090160058697_3_alg».proof.Proof.KI.R1RunC

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 (`cc1__logps_kernel_simple`, pipeline 1), at the entry contents `V`: what each point leaves, the proof
    data, the body obligation -/

/-! ## What each case leaves in the output's buffer and in the scratch -/

/-- Case A (a first V-tile) stores nothing into output 3 (the window is idle at its points and not written back there): no
    pieces — a placeholder that nothing consults, since at these points the window is neither written back nor read at
    the next point. -/
def out1_A_3 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) : Vec F S4x256 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- In case A (a first V-tile) the pieces stored into scratch 0 (the running maximum) cover it: whole-buffer stores. -/
theorem scover1_A_0 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) (y : S4x256x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S4x256x1.size (by sl_kernel_rfl) y

/-- What case A (a first V-tile) leaves in scratch 0: its pieces read back over junk. -/
def sout1_A_0 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) : Vec F S4x256x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- In case A (a first V-tile) the pieces stored into scratch 1 (the running sum of exponentials) cover it: whole-buffer stores. -/
theorem scover1_A_1 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) (y : S4x256x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S4x256x1.size (by sl_kernel_rfl) y

/-- What case A (a first V-tile) leaves in scratch 1: its pieces read back over junk. -/
def sout1_A_1 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) : Vec F S4x256x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- In case A (a first V-tile) the pieces stored into scratch 2 (the selected logit) cover it: whole-buffer stores. -/
theorem scover1_A_2 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) (y : S4x256x1.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S4x256x1.size (by sl_kernel_rfl) y

/-- What case A (a first V-tile) leaves in scratch 2: its pieces read back over junk. -/
def sout1_A_2 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) : Vec F S4x256x1 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- Case B (a middle V-tile) stores nothing into output 3 (the window is idle at its points and not written back there): no
    pieces — a placeholder that nothing consults, since at these points the window is neither written back nor read at
    the next point. -/
def out1_B_3 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) : Vec F S4x256 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

/-- In case B (a middle V-tile) the pieces stored into scratch 0 (the running maximum) cover it: whole-buffer stores. -/
theorem scover1_B_0 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) (y : S4x256x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S4x256x1.size (by sl_kernel_rfl) y

/-- What case B (a middle V-tile) leaves in scratch 0: its pieces read back over junk. -/
def sout1_B_0 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) : Vec F S4x256x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- In case B (a middle V-tile) the pieces stored into scratch 1 (the running sum of exponentials) cover it: whole-buffer stores. -/
theorem scover1_B_1 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) (y : S4x256x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S4x256x1.size (by sl_kernel_rfl) y

/-- What case B (a middle V-tile) leaves in scratch 1: its pieces read back over junk. -/
def sout1_B_1 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) : Vec F S4x256x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- In case B (a middle V-tile) the pieces stored into scratch 2 (the selected logit) cover it: whole-buffer stores. -/
theorem scover1_B_2 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) (y : S4x256x1.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S4x256x1.size (by sl_kernel_rfl) y

/-- What case B (a middle V-tile) leaves in scratch 2: its pieces read back over junk. -/
def sout1_B_2 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) : Vec F S4x256x1 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- In case C (a last V-tile) the pieces stored into output 3 tile its block (one whole-block store), so they cover it. -/
theorem cover1_C_3 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) (y : S4x256.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S4x256.size (by sl_kernel_rfl) y

/-- What case C (a last V-tile) leaves in output 3's staging buffer: its pieces read back over junk. -/
def out1_C_3 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) : Vec F S4x256 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- In case C (a last V-tile) the pieces stored into scratch 0 (the running maximum) cover it: whole-buffer stores. -/
theorem scover1_C_0 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) (y : S4x256x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S4x256x1.size (by sl_kernel_rfl) y

/-- What case C (a last V-tile) leaves in scratch 0: its pieces read back over junk. -/
def sout1_C_0 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) : Vec F S4x256x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- In case C (a last V-tile) the pieces stored into scratch 1 (the running sum of exponentials) cover it: whole-buffer stores. -/
theorem scover1_C_1 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) (y : S4x256x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S4x256x1.size (by sl_kernel_rfl) y

/-- What case C (a last V-tile) leaves in scratch 1: its pieces read back over junk. -/
def sout1_C_1 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) : Vec F S4x256x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- In case C (a last V-tile) the pieces stored into scratch 2 (the selected logit) cover it: whole-buffer stores. -/
theorem scover1_C_2 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) (y : S4x256x1.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S4x256x1.size (by sl_kernel_rfl) y

/-- What case C (a last V-tile) leaves in scratch 2: its pieces read back over junk. -/
def sout1_C_2 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) : Vec F S4x256x1 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-! ## What the output's buffer and the scratch hold after each point -/

/-- The accumulation. What output 3's staging buffer and the three scratch buffers hold after the body at position `n` (a
    tuple: the output, then scratch 0, 1, 2): the case the closed forms select at `n`, run at the point's memrefs and input
    blocks; cases B and C, which read every scratch before storing into it, at what this leaves at `n - 1`. The first and
    the last conditional both taken is no point's case. -/
def outsAt1 (c : Dev nD) : (n : ℕ) → n < cfg1.N → Vec F S4x256 .f32 × Vec F S4x256x1 .f32 × Vec F S4x256x1 .f32 × Vec F S4x256x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 25 = 0 then
      if h1 : (n + 1) % 25 = 24 then
        False.elim (by have hN : n + 1 < 100 := lt_of_lt_of_eq hn (show cfg1.N = 100 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 25 = 24 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 25 = 0) (h1 : ¬t.val % 25 = 24) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 25 = 0) (h1 : ¬t.val % 25 = 24) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 25 = 0) (h1 : t.val % 25 = 24) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer that is no staging
    buffer of this region at anything, the generator register at some state); afterwards the same with each scratch at what
    the point before left in it (`outsAt1`'s scratch components). -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): each scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: each scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and the output's at `outsAt1`'s first component; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents (the definition projected, so that `V` is never unfolded). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
/-- The body at any point: the inputs' memrefs hold their blocks (`before1_w`); the closed forms say which case the point is
    in; so that case's run applies. The invariant hands the body each scratch at what the point before left (at anything at
    the first point) and the core's other scoped buffers and the generator register untouched, and takes each scratch back at
    this point's contents (its pieces cover it); at the points of cases A and B the output's buffer is handed back as found,
    in case C at its pieces read back; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  by_cases h0 : t.val % 25 = 0
  · by_cases h1 : t.val % 25 = 24
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨HR0, HR1, HR2, HR3, HR4, HR5, HR6, HR7, HR8, HR9, HR10, HR11, HR12, HR13, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR0 HR1 HR2 HR3 HR4 HR5 HR6 HR7 HR8 HR9 HR10 HR11 HR12 HR13 HS0 HS1 HS2 Hg]
        · isplitl [HR0 HR1 HR2 HR3 HR4 HR5 HR6 HR7 HR8 HR9 HR10 HR11 HR12 HR13 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HS0]
            · unfold owns; iexists _; isplitr
              swap; · iexact HS0
              ipureintro; exact View.read_writes_of_cover _ _ _ _ _ (scover1_A_0 _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _)
            unfold owns; iexists _; isplitr
            swap; · iexact HS2
            ipureintro; exact View.read_writes_of_cover _ _ _ _ _ (scover1_A_2 _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HR0, HR1, HR2, HR3, HR4, HR5, HR6, HR7, HR8, HR9, HR10, HR11, HR12, HR13, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HR0 HR1 HR2 HR3 HR4 HR5 HR6 HR7 HR8 HR9 HR10 HR11 HR12 HR13 HS0 HS1 HS2 Hg]
        · isplitl [HR0 HR1 HR2 HR3 HR4 HR5 HR6 HR7 HR8 HR9 HR10 HR11 HR12 HR13 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HS0]
            · unfold owns; iexists _; isplitr
              swap; · iexact HS0
              ipureintro; exact View.read_writes_of_cover _ _ _ _ _ (scover1_A_0 _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _)
            unfold owns; iexists _; isplitr
            swap; · iexact HS2
            ipureintro; exact View.read_writes_of_cover _ _ _ _ _ (scover1_A_2 _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 25 = 24
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      by_cases hz : t.val = 0
      · exfalso; have hN : t.val < 100 := lt_of_lt_of_eq t.isLt (show cfg1.N = 100 from N_1); omega
      · rw [PhiS1_castSucc V c t, PhiS1_pos V c _ _ hz]
        iintro ⟨⟨⟨HR0, HR1, HR2, HR3, HR4, HR5, HR6, HR7, HR8, HR9, HR10, HR11, HR12, HR13, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR0 HR1 HR2 HR3 HR4 HR5 HR6 HR7 HR8 HR9 HR10 HR11 HR12 HR13 HS0 HS1 HS2 Hg]
        · isplitl [HR0 HR1 HR2 HR3 HR4 HR5 HR6 HR7 HR8 HR9 HR10 HR11 HR12 HR13 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HS0]
            · unfold owns; iexists _; isplitr
              swap; · iexact HS0
              ipureintro; exact View.read_writes_of_cover _ _ _ _ _ (scover1_C_0 _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 _ _ _ _ _ _ _ _ _ _ _ _ _ _ _ _ _ _ _ _ _ _ _ _)
            unfold owns; iexists _; isplitr
            swap; · iexact HS2
            ipureintro; exact View.read_writes_of_cover _ _ _ _ _ (scover1_C_2 _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; have hN : t.val < 100 := lt_of_lt_of_eq t.isLt (show cfg1.N = 100 from N_1); omega
      · rw [PhiS1_castSucc V c t, PhiS1_pos V c _ _ hz]
        iintro ⟨⟨⟨HR0, HR1, HR2, HR3, HR4, HR5, HR6, HR7, HR8, HR9, HR10, HR11, HR12, HR13, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR0 HR1 HR2 HR3 HR4 HR5 HR6 HR7 HR8 HR9 HR10 HR11 HR12 HR13 HS0 HS1 HS2 Hg]
        · isplitl [HR0 HR1 HR2 HR3 HR4 HR5 HR6 HR7 HR8 HR9 HR10 HR11 HR12 HR13 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HS0]
            · unfold owns; iexists _; isplitr
              swap; · iexact HS0
              ipureintro; exact View.read_writes_of_cover _ _ _ _ _ (scover1_B_0 _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 _ _ _ _ _ _ _ _ _ _ _ _ _ _ _ _ _ _ _ _ _ _ _ _)
            unfold owns; iexists _; isplitr
            swap; · iexact HS2
            ipureintro; exact View.read_writes_of_cover _ _ _ _ _ (scover1_B_2 _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HR11, HR12, HR13, HS0, HS1, HS2⟩, Hg⟩
  isplitl [HR0 HR1 HR2 HR3 HR4 HR5 HR6 HR7 HR8 HR9 HR10 HR11 HR12 HR13 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 100 := N_1; omega)

end Cert.KernelIdeal.Hand

end
-- ==== Proof.KI.Regs.lean ====
import proofs.«417562_j59090160058697_3_alg».proof.Proof.Gen.KernelIdeal.Regions
import proofs.«417562_j59090160058697_3_alg».proof.Proof.KI.R0Frame
import proofs.«417562_j59090160058697_3_alg».proof.Proof.KI.R1Frame
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! # The buffers' contents the regions are entered from, and what they leave -/

/-- Region 0's entry contents: the launch memory after the first host stretch, read at the TensorCore's references. -/
abbrev Vr1 : (c : Dev nD) → (b : Ref sig .tc) → Buf (Elt F) ((c : Thread nD τ).loc b) := fun c b => Gen.V1 m c (Proc.devRef .tc b)

/-- What region 0 leaves: each of its arrays at what the pipeline's write-backs fold to after the last point (an input
    as entered), every other buffer as entered; the same at every item index. -/
def outs0 : Gen.Outs (F := F) := fun _ r c =>
  Pipeline.withArrays spec0 c (Gen.V1 m c) (fun w => (dat0 (Vr1 m) c).arrAt w cfg0.N) (Proc.devRef .tc r)

theorem outs0_arr (J : ℕ) (c : Dev nD) (w : Fin cfg0.W) :
    outs0 m J (Pipeline.arrRef spec0 w) c = (dat0 (Vr1 m) c).arrAt w cfg0.N := by
  unfold outs0; exact Pipeline.withArrays_arr spec0 launch0.win.arr_inj c _ _ w

/-- Region 1's entry contents: the second host stretch run from what region 0 left. -/
abbrev Vr3 : (c : Dev nD) → (b : Ref sig .tc) → Buf (Elt F) ((c : Thread nD τ).loc b) := fun c b => Gen.V3 m (outs0 m) c (Proc.devRef .tc b)

/-- What region 1 leaves, likewise. -/
def outs1 : Gen.Outs (F := F) := fun _ r c =>
  Pipeline.withArrays spec1 c (Gen.V3 m (outs0 m) c) (fun w => (dat1 (Vr3 m) c).arrAt w cfg1.N) (Proc.devRef .tc r)

theorem outs1_arr (J : ℕ) (c : Dev nD) (w : Fin cfg1.W) :
    outs1 m J (Pipeline.arrRef spec1 w) c = (dat1 (Vr3 m) c).arrAt w cfg1.N := by
  unfold outs1; exact Pipeline.withArrays_arr spec1 launch1.win.arr_inj c _ _ w

/-- What the two regions leave: after item 3 what region 1 leaves, before that what region 0 leaves. -/
def outsK : Gen.Outs (F := F) := fun J r c => if J = 4 then outs1 m J r c else outs0 m J r c

theorem outsK_v3_0 (c : Dev nD) : outsK m 2 main_v3_0 c = (dat0 (Vr1 m) c).arrAt 3 cfg0.N := outs0_arr m 2 c 3
theorem outsK_v3_1 (c : Dev nD) : outsK m 2 main_v3_1 c = (dat0 (Vr1 m) c).arrAt 4 cfg0.N := outs0_arr m 2 c 4
theorem outsK_v6 (c : Dev nD) : outsK m 4 main_v6 c = (dat1 (Vr3 m) c).arrAt 3 cfg1.N := outs1_arr m 4 c 3

/-- The valuations up to region 1's entry read only what region 0 left. -/
theorem V2_outsK (c : Dev nD) : Gen.V2 m (outsK m) c = Gen.V2 m (outs0 m) c := rfl
theorem V3_outsK (c : Dev nD) : Gen.V3 m (outsK m) c = Gen.V3 m (outs0 m) c := rfl

/-- Region 0's exit contents, read at the TensorCore's references: region 0's entry contents but for its two outputs. -/
abbrev Vr2 : (c : Dev nD) → (b : Ref sig .tc) → Buf (Elt F) ((c : Thread nD τ).loc b) := fun c b => Gen.V2 m (outsK m) c (Proc.devRef .tc b)
/-- Region 1's exit contents, likewise: its entry contents but for its output. -/
abbrev Vr4 : (c : Dev nD) → (b : Ref sig .tc) → Buf (Elt F) ((c : Thread nD τ).loc b) := fun c b => Gen.V4 m (outsK m) c (Proc.devRef .tc b)

/-- At region 0's exit each of its arrays holds what the pipeline leaves: an input what it held at entry (no input is
    written back, and no region changes it), the two outputs what `outsK` names. -/
theorem hF0 (c : Dev nD) : ∀ w : Fin cfg0.W, (dat0 (Vr1 m) c).arrAt w cfg0.N = Vr2 m c (Pipeline.arrRef spec0 w)
  | ⟨0, _⟩ => (((dat0 (Vr1 m) c).arrAt_in 0 rfl _).trans (A_eq0 (Vr1 m) c 0)).trans (Gen.V2_of m (outsK m) c main_v1 (by decide)).symm
  | ⟨1, _⟩ => (((dat0 (Vr1 m) c).arrAt_in 1 rfl _).trans (A_eq0 (Vr1 m) c 1)).trans (Gen.V2_of m (outsK m) c main_v2 (by decide)).symm
  | ⟨2, _⟩ => (((dat0 (Vr1 m) c).arrAt_in 2 rfl _).trans (A_eq0 (Vr1 m) c 2)).trans (Gen.V2_of m (outsK m) c main_v0 (by decide)).symm
  | ⟨3, _⟩ => (outsK_v3_0 m c).symm.trans (by
      simp only [Gen.V2, Function.update_of_ne (StableHlo.devRef_ne_of_ne (by decide) : (Proc.devRef .tc main_v3_0 : DevRef τ sig) ≠ Proc.devRef .tc main_v3_1), Function.update_self])
  | ⟨4, _⟩ => (outsK_v3_1 m c).symm.trans (by
      simp only [Gen.V2, Function.update_self])

/-- and every other buffer what it held at entry. -/
theorem hrest0 (c : Dev nD) : ∀ b, b ∉ Finset.univ.image (Pipeline.arrRef spec0) → Vr2 m c b = Vr1 m c b := fun b hb =>
  Gen.V2_of m (outsK m) c b fun h => by
    rcases List.mem_cons.mp h with rfl | h
    · exact hb (Finset.mem_image.mpr ⟨3, Finset.mem_univ _, rfl⟩)
    · rcases List.mem_cons.mp h with rfl | h
      · exact hb (Finset.mem_image.mpr ⟨4, Finset.mem_univ _, rfl⟩)
      · exact absurd h (List.not_mem_nil)

/-- At region 1's exit each of its arrays holds what the pipeline leaves, -/
theorem hF1 (c : Dev nD) : ∀ w : Fin cfg1.W, (dat1 (Vr3 m) c).arrAt w cfg1.N = Vr4 m c (Pipeline.arrRef spec1 w)
  | ⟨0, _⟩ => (((dat1 (Vr3 m) c).arrAt_in 0 rfl _).trans (A_eq1 (Vr3 m) c 0)).trans (Gen.V4_of m (outsK m) c main_v4 (by decide)).symm
  | ⟨1, _⟩ => (((dat1 (Vr3 m) c).arrAt_in 1 rfl _).trans (A_eq1 (Vr3 m) c 1)).trans (Gen.V4_of m (outsK m) c main_v5 (by decide)).symm
  | ⟨2, _⟩ => (((dat1 (Vr3 m) c).arrAt_in 2 rfl _).trans (A_eq1 (Vr3 m) c 2)).trans (Gen.V4_of m (outsK m) c main_v0 (by decide)).symm
  | ⟨3, _⟩ => (outsK_v6 m c).symm.trans (by
      simp only [Gen.V4, Function.update_self])

/-- and every other buffer what it held at entry. -/
theorem hrest1 (c : Dev nD) : ∀ b, b ∉ Finset.univ.image (Pipeline.arrRef spec1) → Vr4 m c b = Vr3 m c b := fun b hb =>
  Gen.V4_of m (outsK m) c b fun h => by
    rcases List.mem_cons.mp h with rfl | h
    · exact hb (Finset.mem_image.mpr ⟨3, Finset.mem_univ _, rfl⟩)
    · exact absurd h (List.not_mem_nil)

/-! # The proof data family and the thread state -/

/-- Every pipeline's proof data, each at its region's entry contents (a literal `match`, so that the pinned
    configuration at a numeral reduces to the printed one). -/
def pdats : (p : Fin 2) → (c : Dev nD) → Dat τ (Elt F) Unit ℕ (UR sig nD τ) ℕ (cfgs p) c
  | ⟨0, _⟩ => fun c => dat0 (Vr1 m) c
  | ⟨1, _⟩ => fun c => dat1 (Vr3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the unscoped buffers through every item: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- The same between any two items. -/
abbrev E : Fin 3 → Dev nD → sProp 𝕄 := fun _ c => R (F := F) c

/-! # The regions as segments -/

-- a library lemma stated over the pinned configuration unifies with the printed one only when unification may unfold
-- plain definitions in a metavariable's type
set_option backward.isDefEq.respectTransparency.types false in
/-- REGION 0 (custom_call 0) over the thread state: entered from every unscoped buffer at `Gen.V1 m`, left at
    `Gen.V2 m (outsK m)`. Its arrays split out of the unscoped buffers and put back at the exit contents; the generator
    register and the scoped buffers no window stages go into the region's own invariant at the first point (`hin0`)
    and come back out of it at the last (`hout0`); nothing owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vr1 m c) fun w => A_eq0 (Vr1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr1 m) c)
    unfold Pipeline.ΦA
    iintro ⟨Hp, -, Hr⟩
    isplitl [Hr]; · iexact Hr
    iexact Hp
  hout c := by
    refine (hout0 (Vr1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 (custom_call 1) over the thread state: entered from every unscoped buffer at `Gen.V3 m (outs0 m)`, left at
    `Gen.V4 m (outsK m)`. Its arrays split out of the unscoped buffers and put back at the exit contents; the generator
    register and the scoped buffers no window stages go into the region's own invariant at the first point (`hin1`)
    and come back out of it at the last (`hout1`); nothing owed; no semaphore of the kernel's own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr3 m) c).loose
  hwaits := Pipeline.hwaits_of_owed_zero _ _ _ _ L lv 1 fun _ _ => rfl
  pre c := iprop(StableHlo.held (c : Thread nD τ) (Pipeline.ucRefs τ sig) (Gen.V3 m (outs0 m) c) ∗ R c)
  post c := iprop(StableHlo.held (c : Thread nD τ) (Pipeline.ucRefs τ sig) (Gen.V4 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vr3 m c) fun w => A_eq1 (Vr3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr3 m) c)
    unfold Pipeline.ΦA
    iintro ⟨Hp, -, Hr⟩
    isplitl [Hr]; · iexact Hr
    iexact Hp
  hout c := by
    refine (hout1 (Vr3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vr3 m c) (Vr4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The launch -/

/-- The launch element is the pipeline library's own, and no core needs a ghost resource beside it. -/
theorem hu₀K : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides beside the buffers is made on every core from what the launch deals it: the generator register at its
    launch state, the `owes` at nothing with no pair recorded. -/
theorem hE0K (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- and ends owing nothing. -/
theorem hE2K (c : Dev nD) : E (F := F) 2 c ⊢ (iprop(∃ W, owes (c : Thread nD τ) (0 : CellTallies nD τ sig Unit) W) : sProp 𝕄) := by
  iintro ⟨-, HO⟩; iexact HO

/-- Region 1's record is entered from the thread state the second host stretch leaves: its contents read only what
    region 0 left. -/
theorem hpre1K (c : Dev nD) :
    iprop(StableHlo.held (c : Thread nD τ) (Pipeline.ucRefs τ sig) (Gen.V3 m (outsK m) c) ∗ E (F := F) 1 c) ⊢ (reg1 m).pre c := by
  rw [V3_outsK]; exact .rfl

-- the launch theorem's implicit arguments are found by unifying its conclusion with this one, which takes unfolding
-- plain definitions in a metavariable's type
set_option backward.isDefEq.respectTransparency.types false in
/-- THE FRAME: at the compiled mesh, from any memory with zero counters, every weakly fair execution of @main on the
    TensorCores terminates, nothing faulting, and every final memory holds each argument array as launched: the
    conditional frame of the program at the two regions' records. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m emb₁ () 𝒱₀ L lv (fun _ _ => rfl) ρ (outsK m) (pdats m) 0 (fun _ => iprop(emp))
    (initOf (Pipeline.cells cfgs cellOf_inj) (Pipeline.launchToks cfgs cellOf_inj)) hu₀K E (hE0K ρ) hE2K
    (reg0 m) (fun _ => .rfl) (fun _ => .rfl)
    (reg1 m) (hpre1K m) (fun _ => .rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- as for `frame`
set_option backward.isDefEq.respectTransparency.types false in
/-- THE RUN'S VALUES: the same launch, read at every unscoped buffer — every final memory holds, at each of them, the
    last valuation of the fold through @main's items at what the regions leave (`outsK`). The launch over the program's
    segment list at the two regions' records; the last thread state, every unscoped buffer held at that valuation, read
    against the final state. -/
theorem run_vals (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = Gen.V11 m (outsK m) c b) := by
  refine Pipeline.θ_run_regions_kit_dev (pcfgs (F := F)) Gen.adm (pdats m) () cellOf_inj emb₁ defs₀ 𝒱₀ L lv m ρ main
    (Gen.segs m (outsK m) 𝒱₀ L lv E () (pdats m) (reg0 m) (reg1 m))
    (fun c Q => by
      rewrite [main_chain c, Pipeline.Seg.run_eq_chain,
        show (Gen.segs m (outsK m) 𝒱₀ L lv E () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [Gen.segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj)) hu₀K
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V11 m (outsK m) c))
    (hch := fun c => ⟨.rfl, .rfl, .rfl, hpre1K m c, .rfl, .rfl, .rfl, .rfl, .rfl, .rfl, .rfl, sep_mono .rfl (hE2K c)⟩)
    (hinit := ?_)
    (QY := fun c s => ∀ b ∈ Pipeline.ucRefs τ sig, s.mem ((c : Thread nD τ).1, b) = Gen.V11 m (outsK m) c b)
    (hfin := fun c s' => ?_) (hQ := fun _ h => h)
  · -- the launch: the unscoped buffers are held at the launch memory; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅
                ∗ Pipeline.launchCred (0 : Dev nD → CellTallies nD τ sig Unit) c ∗ prngReg c (ρ c) ∗ (BI.emp : sProp 𝕄)))
            : sProp 𝕄) := by
      rw [← bigSep_sep']
      exact bigSep_mono fun c _ => by
        rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0K ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (E (F := F) 0)]
    isplitl [Hh]; · iexact Hh
    iexact HE
  · -- the end: every unscoped buffer read off the last thread state
    unfold StableHlo.held
    iintro ⟨Hh, HSI⟩
    imodintro
    iapply (pointsTo_read_all (Pipeline.ucRefs τ sig) (fun b => ((c : Thread nD τ).1, b)) (Gen.V11 m (outsK m) c) s')
    isplitl [Hh] <;> iassumption

end Cert.KernelIdeal.Hand

end
-- ==== Proof.KI.Blk0.lean ====
/-
  The three input blocks of the first kernel at a grid point, read at coordinates of their arrays: point `t` of the
  4 x 25 grid sees rows `256 (t / 25) .. + 255` of every batch of the activations and of the selected entries, and
  rows `1280 (t % 25) .. + 1279` of the projection matrix.
-/
import proofs.«417562_j59090160058697_3_alg».proof.Proof.KI.R0Runs
import Idealize.ShloMosaic.Lib.ValueIdx

noncomputable section

namespace Cert.KernelIdeal.Hand.R0

open Cert.KernelIdeal Cert.KernelIdeal.Gen Idealize.ShloMosaic Idealize.ShloMosaic.TcCoe Idealize.ShloMosaic.ValueIdx
open Idealize.SL Idealize.SL.Sem

variable {F : FTy → Type} [FloatOps F] [Named F]
variable (V : (c : Dev nD) → (b : Ref sig .tc) → Buf (Elt F) ((c : Thread nD τ).loc b))

/-- The three arrays the region reads, and the blocks of them a point sees, by their literal types. -/
abbrev xarr (c : Dev nD) : Vec F S4x1024x2048 .bf16 := V c main_v1
abbrev warr (c : Dev nD) : Vec F S32000x2048 .bf16 := V c main_v2
abbrev idarr (c : Dev nD) : Vec F S4x1024x1 .i32 := V c main_v0
abbrev xblk (c : Dev nD) (t : Fin cfg0.N) : Vec F S4x256x2048 .bf16 := iblk0 V c 0 t
abbrev wblk (c : Dev nD) (t : Fin cfg0.N) : Vec F S1280x2048 .bf16 := iblk0 V c 1 t
abbrev idblk (c : Dev nD) (t : Fin cfg0.N) : Vec F S4x256x1 .i32 := iblk0 V c 2 t

theorem lt100 (t : Fin cfg0.N) : t.val < 100 := lt_of_lt_of_eq t.isLt N_0

/-- The row of the arrays that row `r` of a block is at point `t`. -/
abbrev rowOf (t : Fin cfg0.N) (r : Fin 256) : Fin 1024 :=
  ⟨256 * (t.val / 25) + r.val, by have := lt100 t; have := r.isLt; omega⟩

/-- The vocabulary entry that lane `k` of a tile is at point `t`. -/
abbrev vocOf (t : Fin cfg0.N) (k : Fin 1280) : Fin 32000 :=
  ⟨1280 * (t.val % 25) + k.val, by have := k.isLt; omega⟩

/-- The block indices of the five windows and the vocabulary-tile coordinate, decided over the grid. -/
theorem idx_facts0 : ∀ t : Fin cfg0.N,
    win0_0.index t (0 : Fin 3) = 0 ∧ win0_0.index t (1 : Fin 3) = t.val / 25 ∧ win0_0.index t (2 : Fin 3) = 0
    ∧ win0_1.index t (0 : Fin 2) = t.val % 25 ∧ win0_1.index t (1 : Fin 2) = 0
    ∧ win0_2.index t (0 : Fin 3) = 0 ∧ win0_2.index t (1 : Fin 3) = t.val / 25 ∧ win0_2.index t (2 : Fin 3) = 0
    ∧ win0_3.index t (0 : Fin 2) = 0 ∧ win0_3.index t (1 : Fin 2) = t.val / 25
    ∧ win0_4.index t (0 : Fin 2) = 0 ∧ win0_4.index t (1 : Fin 2) = t.val / 25
    ∧ (grid0.coords t 1).val = t.val % 25 :=
  (by decide +kernel : ∀ t : Fin grid0.N, _)

theorem xblk_apply (c : Dev nD) (t : Fin cfg0.N) (b : Fin 4) (r : Fin 256) (h : Fin 2048) :
    xblk V c t (ix3 b r h) = xarr V c (ix3 b (rowOf t r) h) := by
  obtain ⟨e0, e1, e2, -⟩ := idx_facts0 t
  show V c main_v1 (((cfg0.win 0).blk t).view.emb (ix3 b r h)) = V c main_v1 (ix3 b (rowOf t r) h)
  refine congrArg (V c main_v1) (funext fun a => Fin.ext ?_)
  match a with
  | ⟨0, _⟩ => show win0_0.index t (0 : Fin 3) * 4 + 1 * b.val = b.val; omega
  | ⟨1, _⟩ => show win0_0.index t (1 : Fin 3) * 256 + 1 * r.val = 256 * (t.val / 25) + r.val; omega
  | ⟨2, _⟩ => show win0_0.index t (2 : Fin 3) * 2048 + 1 * h.val = h.val; omega

theorem wblk_apply (c : Dev nD) (t : Fin cfg0.N) (k : Fin 1280) (h : Fin 2048) :
    wblk V c t (ix2 k h) = warr V c (ix2 (vocOf t k) h) := by
  obtain ⟨-, -, -, e0, e1, -⟩ := idx_facts0 t
  show V c main_v2 (((cfg0.win 1).blk t).view.emb (ix2 k h)) = V c main_v2 (ix2 (vocOf t k) h)
  refine congrArg (V c main_v2) (funext fun a => Fin.ext ?_)
  match a with
  | ⟨0, _⟩ => show win0_1.index t (0 : Fin 2) * 1280 + 1 * k.val = 1280 * (t.val % 25) + k.val; omega
  | ⟨1, _⟩ => show win0_1.index t (1 : Fin 2) * 2048 + 1 * h.val = h.val; omega

theorem idblk_apply (c : Dev nD) (t : Fin cfg0.N) (b : Fin 4) (r : Fin 256) :
    idblk V c t (ix3 b r 0) = idarr V c (ix3 b (rowOf t r) 0) := by
  obtain ⟨-, -, -, -, -, e0, e1, e2, -⟩ := idx_facts0 t
  show V c main_v0 (((cfg0.win 2).blk t).view.emb (ix3 b r 0)) = V c main_v0 (ix3 b (rowOf t r) 0)
  refine congrArg (V c main_v0) (funext fun a => Fin.ext ?_)
  match a with
  | ⟨0, _⟩ => show win0_2.index t (0 : Fin 3) * 4 + 1 * b.val = b.val; omega
  | ⟨1, _⟩ => show win0_2.index t (1 : Fin 3) * 256 + 1 * r.val = 256 * (t.val / 25) + r.val; omega
  | ⟨2, _⟩ => show win0_2.index t (2 : Fin 3) * 1 + 1 * 0 = 0; omega

end Cert.KernelIdeal.Hand.R0

end
-- ==== Proof.KI.Val0a.lean ====
/-
  What the first kernel's run leaves, case by case, in its four scratch operands and (at the last vocabulary tile) in
  its two output blocks, as the payloads of one grid point applied to the point's input blocks and to what the point
  before left in the scratch.
-/
import proofs.«417562_j59090160058697_3_alg».proof.Proof.KI.R0Frame
import proofs.«417562_j59090160058697_3_alg».proof.Proof.KI.Blk0
import Idealize.ShloMosaic.Lib.Pipeline.Value

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.SL Idealize.SL.Sem

variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## The pieces each case's run found, as payloads -/

/-- Case A, the running maximum: what the run's pieces leave is the point's payload. -/
theorem sout0_A_0_eq (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) :
    sout0_A_0 c i arg2 harg2 arg3 harg3 arg4 harg4 arg5 harg5 arg6 harg6 arg7 harg7 arg8 harg8 arg9 harg9 arg10 harg10 hc0 hc1 x0 x1 x2
      = k0_pay2 (k0_pay14 x0 x1 k0_pay8) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S4x256x1) hz3]
  simp only [View.readAt_eq_ld, harg2.read_unread, harg3.read_unread, harg4.read_unread, harg5.read_unread, harg6.read_unread, harg7.read_unread, harg8.read_unread, harg9.read_unread, harg10.read_unread, View.ld_unit_zero (S := S4x256x1) hz3, View.ld_unit_zero (S := S4x256x2048) hz3, View.ld_unit_zero (S := S1280x2048) hz2, View.ld_unit_zero (S := S4x256) hz2, View.readCov_unit_zero (S := S4x256x1) _ hz3]

/-- Case A, the running sum of exponentials: what the run's pieces leave is the point's payload. -/
theorem sout0_A_1_eq (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) :
    sout0_A_1 c i arg2 harg2 arg3 harg3 arg4 harg4 arg5 harg5 arg6 harg6 arg7 harg7 arg8 harg8 arg9 harg9 arg10 harg10 hc0 hc1 x0 x1 x2
      = k0_pay1 (k0_pay12 x0 x1) (k0_pay15 x0 x1 k0_pay8 k0_pay8 k0_pay9) (k0_pay16 x0 x1 k0_pay8) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S4x256x1) hz3]
  simp only [View.readAt_eq_ld, harg2.read_unread, harg3.read_unread, harg4.read_unread, harg5.read_unread, harg6.read_unread, harg7.read_unread, harg8.read_unread, harg9.read_unread, harg10.read_unread, View.ld_unit_zero (S := S4x256x1) hz3, View.ld_unit_zero (S := S4x256x2048) hz3, View.ld_unit_zero (S := S1280x2048) hz2, View.ld_unit_zero (S := S4x256) hz2, View.readCov_unit_zero (S := S4x256x1) _ hz3]

/-- Case A, the running sum of logits: what the run's pieces leave is the point's payload. -/
theorem sout0_A_2_eq (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) :
    sout0_A_2 c i arg2 harg2 arg3 harg3 arg4 harg4 arg5 harg5 arg6 harg6 arg7 harg7 arg8 harg8 arg9 harg9 arg10 harg10 hc0 hc1 x0 x1 x2
      = k0_pay3 (k0_pay12 x0 x1) k0_pay10 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S4x256x1) hz3]
  simp only [View.readAt_eq_ld, harg2.read_unread, harg3.read_unread, harg4.read_unread, harg5.read_unread, harg6.read_unread, harg7.read_unread, harg8.read_unread, harg9.read_unread, harg10.read_unread, View.ld_unit_zero (S := S4x256x1) hz3, View.ld_unit_zero (S := S4x256x2048) hz3, View.ld_unit_zero (S := S1280x2048) hz2, View.ld_unit_zero (S := S4x256) hz2, View.readCov_unit_zero (S := S4x256x1) _ hz3]

/-- Case A, the running selected logit: what the run's pieces leave is the point's payload. -/
theorem sout0_A_3_eq (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : cond0_0 i) (hc1 : ¬cond0_1 i)
    (x0 : Vec F S4x256x2048 .bf16) (x1 : Vec F S1280x2048 .bf16) (x2 : Vec F S4x256x1 .i32) :
    sout0_A_3 c i arg2 harg2 arg3 harg3 arg4 harg4 arg5 harg5 arg6 harg6 arg7 harg7 arg8 harg8 arg9 harg9 arg10 harg10 hc0 hc1 x0 x1 x2
      = k0_pay4 (k0_pay13 i x0 x1 x2) k0_pay11 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S4x256x1) hz3]
  simp only [View.readAt_eq_ld, harg2.read_unread, harg3.read_unread, harg4.read_unread, harg5.read_unread, harg6.read_unread, harg7.read_unread, harg8.read_unread, harg9.read_unread, harg10.read_unread, View.ld_unit_zero (S := S4x256x1) hz3, View.ld_unit_zero (S := S4x256x2048) hz3, View.ld_unit_zero (S := S1280x2048) hz2, View.ld_unit_zero (S := S4x256) hz2, View.readCov_unit_zero (S := S4x256x1) _ hz3]

/-- Case B, the running maximum: what the run's pieces leave is the point's payload. -/
theorem sout0_B_0_eq (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) :
    sout0_B_0 c i arg2 harg2 arg3 harg3 arg4 harg4 arg5 harg5 arg6 harg6 arg7 harg7 arg8 harg8 arg9 harg9 arg10 harg10 hc0 hc1 x0 x1 x2 xs0 xs1 xs2 xs3
      = k0_pay2 (k0_pay14 x0 x1 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4x256x1) hz3, View.ld_unit_zero (S := S4x256x2048) hz3, View.ld_unit_zero (S := S1280x2048) hz2, View.ld_unit_zero (S := S4x256) hz2]

/-- Case B, the running sum of exponentials: what the run's pieces leave is the point's payload. -/
theorem sout0_B_1_eq (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) :
    sout0_B_1 c i arg2 harg2 arg3 harg3 arg4 harg4 arg5 harg5 arg6 harg6 arg7 harg7 arg8 harg8 arg9 harg9 arg10 harg10 hc0 hc1 x0 x1 x2 xs0 xs1 xs2 xs3
      = k0_pay1 (k0_pay12 x0 x1) (k0_pay15 x0 x1 xs0 xs0 xs1) (k0_pay16 x0 x1 xs0) := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4x256x1) hz3, View.ld_unit_zero (S := S4x256x2048) hz3, View.ld_unit_zero (S := S1280x2048) hz2, View.ld_unit_zero (S := S4x256) hz2]

/-- Case B, the running sum of logits: what the run's pieces leave is the point's payload. -/
theorem sout0_B_2_eq (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) :
    sout0_B_2 c i arg2 harg2 arg3 harg3 arg4 harg4 arg5 harg5 arg6 harg6 arg7 harg7 arg8 harg8 arg9 harg9 arg10 harg10 hc0 hc1 x0 x1 x2 xs0 xs1 xs2 xs3
      = k0_pay3 (k0_pay12 x0 x1) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4x256x1) hz3, View.ld_unit_zero (S := S4x256x2048) hz3, View.ld_unit_zero (S := S1280x2048) hz2, View.ld_unit_zero (S := S4x256) hz2]

/-- Case B, the running selected logit: what the run's pieces leave is the point's payload. -/
theorem sout0_B_3_eq (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : ¬cond0_1 i)
    (x0 : Vec F S4x256x2048 .bf16) (x1 : Vec F S1280x2048 .bf16) (x2 : Vec F S4x256x1 .i32) (xs0 xs1 xs2 xs3 : Vec F S4x256x1 .f32) :
    sout0_B_3 c i arg2 harg2 arg3 harg3 arg4 harg4 arg5 harg5 arg6 harg6 arg7 harg7 arg8 harg8 arg9 harg9 arg10 harg10 hc0 hc1 x0 x1 x2 xs0 xs1 xs2 xs3
      = k0_pay4 (k0_pay13 i x0 x1 x2) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4x256x1) hz3, View.ld_unit_zero (S := S4x256x2048) hz3, View.ld_unit_zero (S := S1280x2048) hz2, View.ld_unit_zero (S := S4x256) hz2]

/-- Case C, the first result block: what the run's pieces leave is the point's payload. -/
theorem out0_C_3_eq (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) :
    out0_C_3 c i arg2 harg2 arg3 harg3 arg4 harg4 arg5 harg5 arg6 harg6 arg7 harg7 arg8 harg8 arg9 harg9 arg10 harg10 hc0 hc1 x0 x1 x2 xs0 xs1 xs2 xs3
      = k0_pay6 (k0_pay2 (k0_pay14 x0 x1 xs0)) (k0_pay1 (k0_pay12 x0 x1) (k0_pay15 x0 x1 xs0 xs0 xs1) (k0_pay16 x0 x1 xs0)) (k0_pay4 (k0_pay13 i x0 x1 x2) xs3) := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S4x256x1) hz3, View.ld_unit_zero (S := S4x256x2048) hz3, View.ld_unit_zero (S := S1280x2048) hz2, View.ld_unit_zero (S := S4x256) hz2, View.readCov_unit_zero (S := S4x256x1) _ hz3]

/-- Case C, the second result block: what the run's pieces leave is the point's payload. -/
theorem out0_C_4_eq (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) :
    out0_C_4 c i arg2 harg2 arg3 harg3 arg4 harg4 arg5 harg5 arg6 harg6 arg7 harg7 arg8 harg8 arg9 harg9 arg10 harg10 hc0 hc1 x0 x1 x2 xs0 xs1 xs2 xs3
      = k0_pay7 (k0_pay2 (k0_pay14 x0 x1 xs0)) (k0_pay1 (k0_pay12 x0 x1) (k0_pay15 x0 x1 xs0 xs0 xs1) (k0_pay16 x0 x1 xs0)) (k0_pay3 (k0_pay12 x0 x1) xs2) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S4x256x1) hz3, View.ld_unit_zero (S := S4x256x2048) hz3, View.ld_unit_zero (S := S1280x2048) hz2, View.ld_unit_zero (S := S4x256) hz2, View.readCov_unit_zero (S := S4x256x1) _ hz3]

/-- Case C, the running maximum: what the run's pieces leave is the point's payload. -/
theorem sout0_C_0_eq (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) :
    sout0_C_0 c i arg2 harg2 arg3 harg3 arg4 harg4 arg5 harg5 arg6 harg6 arg7 harg7 arg8 harg8 arg9 harg9 arg10 harg10 hc0 hc1 x0 x1 x2 xs0 xs1 xs2 xs3
      = k0_pay2 (k0_pay14 x0 x1 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4x256x1) hz3, View.ld_unit_zero (S := S4x256x2048) hz3, View.ld_unit_zero (S := S1280x2048) hz2, View.ld_unit_zero (S := S4x256) hz2, View.readCov_unit_zero (S := S4x256x1) _ hz3]

/-- Case C, the running sum of exponentials: what the run's pieces leave is the point's payload. -/
theorem sout0_C_1_eq (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) :
    sout0_C_1 c i arg2 harg2 arg3 harg3 arg4 harg4 arg5 harg5 arg6 harg6 arg7 harg7 arg8 harg8 arg9 harg9 arg10 harg10 hc0 hc1 x0 x1 x2 xs0 xs1 xs2 xs3
      = k0_pay1 (k0_pay12 x0 x1) (k0_pay15 x0 x1 xs0 xs0 xs1) (k0_pay16 x0 x1 xs0) := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4x256x1) hz3, View.ld_unit_zero (S := S4x256x2048) hz3, View.ld_unit_zero (S := S1280x2048) hz2, View.ld_unit_zero (S := S4x256) hz2, View.readCov_unit_zero (S := S4x256x1) _ hz3]

/-- Case C, the running sum of logits: what the run's pieces leave is the point's payload. -/
theorem sout0_C_2_eq (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) :
    sout0_C_2 c i arg2 harg2 arg3 harg3 arg4 harg4 arg5 harg5 arg6 harg6 arg7 harg7 arg8 harg8 arg9 harg9 arg10 harg10 hc0 hc1 x0 x1 x2 xs0 xs1 xs2 xs3
      = k0_pay3 (k0_pay12 x0 x1) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4x256x1) hz3, View.ld_unit_zero (S := S4x256x2048) hz3, View.ld_unit_zero (S := S1280x2048) hz2, View.ld_unit_zero (S := S4x256) hz2, View.readCov_unit_zero (S := S4x256x1) _ hz3]

/-- Case C, the running selected logit: what the run's pieces leave is the point's payload. -/
theorem sout0_C_3_eq (c : Dev nD) (i : grid0.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1 .f32) (harg10 : arg10.IsWhole) (hc0 : ¬cond0_0 i) (hc1 : cond0_1 i)
    (x0 : Vec F S4x256x2048 .bf16) (x1 : Vec F S1280x2048 .bf16) (x2 : Vec F S4x256x1 .i32) (xs0 xs1 xs2 xs3 : Vec F S4x256x1 .f32) :
    sout0_C_3 c i arg2 harg2 arg3 harg3 arg4 harg4 arg5 harg5 arg6 harg6 arg7 harg7 arg8 harg8 arg9 harg9 arg10 harg10 hc0 hc1 x0 x1 x2 xs0 xs1 xs2 xs3
      = k0_pay4 (k0_pay13 i x0 x1 x2) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4x256x1) hz3, View.ld_unit_zero (S := S4x256x2048) hz3, View.ld_unit_zero (S := S1280x2048) hz2, View.ld_unit_zero (S := S4x256) hz2, View.readCov_unit_zero (S := S4x256x1) _ hz3]

/-! ## The accumulation, case by case -/

variable (V : (c : Dev nD) → (b : Ref sig .tc) → Buf (Elt F) ((c : Thread nD τ).loc b))

/-- What the scratch operands hold after a point at a first vocabulary tile (reset, then update), as payloads of the point's blocks. -/
theorem outsAt0_A_eq (c : Dev nD) (t : Fin cfg0.N) (h0 : t.val % 25 = 0) (h1 : ¬t.val % 25 = 24) :
    (outsAt0 V c t.val t.isLt).2.2.1 = k0_pay2 (k0_pay14 (iblk0 V c 0 t) (iblk0 V c 1 t) k0_pay8)
    ∧ (outsAt0 V c t.val t.isLt).2.2.2.1 = k0_pay1 (k0_pay12 (iblk0 V c 0 t) (iblk0 V c 1 t)) (k0_pay15 (iblk0 V c 0 t) (iblk0 V c 1 t) k0_pay8 k0_pay8 k0_pay9) (k0_pay16 (iblk0 V c 0 t) (iblk0 V c 1 t) k0_pay8)
    ∧ (outsAt0 V c t.val t.isLt).2.2.2.2.1 = k0_pay3 (k0_pay12 (iblk0 V c 0 t) (iblk0 V c 1 t)) k0_pay10
    ∧ (outsAt0 V c t.val t.isLt).2.2.2.2.2 = k0_pay4 (k0_pay13 (grid0.coords t) (iblk0 V c 0 t) (iblk0 V c 1 t) (iblk0 V c 2 t)) k0_pay11 := by
  rw [outsAt0_A V c t h0 h1]
  dsimp only
  exact ⟨sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
    sout0_A_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
    sout0_A_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
    sout0_A_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t)⟩

/-- What the scratch operands hold after a point at a middle vocabulary tile (update), as payloads of the point's blocks and of what the point before left. -/
theorem outsAt0_B_eq (c : Dev nD) (t : Fin cfg0.N) (h0 : ¬t.val % 25 = 0) (h1 : ¬t.val % 25 = 24) :
    (outsAt0 V c t.val t.isLt).2.2.1 = k0_pay2 (k0_pay14 (iblk0 V c 0 t) (iblk0 V c 1 t) (outsAt0 V c (t.val - 1) (Nat.lt_of_le_of_lt (Nat.sub_le _ _) t.isLt)).2.2.1)
    ∧ (outsAt0 V c t.val t.isLt).2.2.2.1 = k0_pay1 (k0_pay12 (iblk0 V c 0 t) (iblk0 V c 1 t)) (k0_pay15 (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.1 (outsAt0 V c (t.val - 1) (Nat.lt_of_le_of_lt (Nat.sub_le _ _) t.isLt)).2.2.2.1) (k0_pay16 (iblk0 V c 0 t) (iblk0 V c 1 t) (outsAt0 V c (t.val - 1) (Nat.lt_of_le_of_lt (Nat.sub_le _ _) t.isLt)).2.2.1)
    ∧ (outsAt0 V c t.val t.isLt).2.2.2.2.1 = k0_pay3 (k0_pay12 (iblk0 V c 0 t) (iblk0 V c 1 t)) (outsAt0 V c (t.val - 1) (Nat.lt_of_le_of_lt (Nat.sub_le _ _) t.isLt)).2.2.2.2.1
    ∧ (outsAt0 V c t.val t.isLt).2.2.2.2.2 = k0_pay4 (k0_pay13 (grid0.coords t) (iblk0 V c 0 t) (iblk0 V c 1 t) (iblk0 V c 2 t)) (outsAt0 V c (t.val - 1) (Nat.lt_of_le_of_lt (Nat.sub_le _ _) t.isLt)).2.2.2.2.2 := by
  rw [outsAt0_B V c t h0 h1]
  dsimp only
  exact ⟨sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
    sout0_B_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
    sout0_B_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
    sout0_B_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2⟩

/-- What the scratch operands and the two output blocks hold after a point at the last vocabulary tile (update, then the two results), as payloads of the point's blocks and of what the point before left. -/
theorem outsAt0_C_eq (c : Dev nD) (t : Fin cfg0.N) (h0 : ¬t.val % 25 = 0) (h1 : t.val % 25 = 24) :
    (outsAt0 V c t.val t.isLt).1 = k0_pay6 (k0_pay2 (k0_pay14 (iblk0 V c 0 t) (iblk0 V c 1 t) (outsAt0 V c (t.val - 1) (Nat.lt_of_le_of_lt (Nat.sub_le _ _) t.isLt)).2.2.1)) (k0_pay1 (k0_pay12 (iblk0 V c 0 t) (iblk0 V c 1 t)) (k0_pay15 (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.1 (outsAt0 V c (t.val - 1) (Nat.lt_of_le_of_lt (Nat.sub_le _ _) t.isLt)).2.2.2.1) (k0_pay16 (iblk0 V c 0 t) (iblk0 V c 1 t) (outsAt0 V c (t.val - 1) (Nat.lt_of_le_of_lt (Nat.sub_le _ _) t.isLt)).2.2.1)) (k0_pay4 (k0_pay13 (grid0.coords t) (iblk0 V c 0 t) (iblk0 V c 1 t) (iblk0 V c 2 t)) (outsAt0 V c (t.val - 1) (Nat.lt_of_le_of_lt (Nat.sub_le _ _) t.isLt)).2.2.2.2.2)
    ∧ (outsAt0 V c t.val t.isLt).2.1 = k0_pay7 (k0_pay2 (k0_pay14 (iblk0 V c 0 t) (iblk0 V c 1 t) (outsAt0 V c (t.val - 1) (Nat.lt_of_le_of_lt (Nat.sub_le _ _) t.isLt)).2.2.1)) (k0_pay1 (k0_pay12 (iblk0 V c 0 t) (iblk0 V c 1 t)) (k0_pay15 (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.1 (outsAt0 V c (t.val - 1) (Nat.lt_of_le_of_lt (Nat.sub_le _ _) t.isLt)).2.2.2.1) (k0_pay16 (iblk0 V c 0 t) (iblk0 V c 1 t) (outsAt0 V c (t.val - 1) (Nat.lt_of_le_of_lt (Nat.sub_le _ _) t.isLt)).2.2.1)) (k0_pay3 (k0_pay12 (iblk0 V c 0 t) (iblk0 V c 1 t)) (outsAt0 V c (t.val - 1) (Nat.lt_of_le_of_lt (Nat.sub_le _ _) t.isLt)).2.2.2.2.1)
    ∧ (outsAt0 V c t.val t.isLt).2.2.1 = k0_pay2 (k0_pay14 (iblk0 V c 0 t) (iblk0 V c 1 t) (outsAt0 V c (t.val - 1) (Nat.lt_of_le_of_lt (Nat.sub_le _ _) t.isLt)).2.2.1)
    ∧ (outsAt0 V c t.val t.isLt).2.2.2.1 = k0_pay1 (k0_pay12 (iblk0 V c 0 t) (iblk0 V c 1 t)) (k0_pay15 (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.1 (outsAt0 V c (t.val - 1) (Nat.lt_of_le_of_lt (Nat.sub_le _ _) t.isLt)).2.2.2.1) (k0_pay16 (iblk0 V c 0 t) (iblk0 V c 1 t) (outsAt0 V c (t.val - 1) (Nat.lt_of_le_of_lt (Nat.sub_le _ _) t.isLt)).2.2.1)
    ∧ (outsAt0 V c t.val t.isLt).2.2.2.2.1 = k0_pay3 (k0_pay12 (iblk0 V c 0 t) (iblk0 V c 1 t)) (outsAt0 V c (t.val - 1) (Nat.lt_of_le_of_lt (Nat.sub_le _ _) t.isLt)).2.2.2.2.1
    ∧ (outsAt0 V c t.val t.isLt).2.2.2.2.2 = k0_pay4 (k0_pay13 (grid0.coords t) (iblk0 V c 0 t) (iblk0 V c 1 t) (iblk0 V c 2 t)) (outsAt0 V c (t.val - 1) (Nat.lt_of_le_of_lt (Nat.sub_le _ _) t.isLt)).2.2.2.2.2 := by
  rw [outsAt0_C V c t h0 h1]
  dsimp only
  exact ⟨out0_C_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
    out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
    sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
    sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
    sout0_C_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
    sout0_C_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2⟩

end Cert.KernelIdeal.Hand.R0

end
-- ==== Proof.KI.Pay0.lean ====
/-
  The arithmetic of one grid point of the first kernel, read entry by entry over the extended reals: the block of
  logits as inner products, the sums and the maximum over the 1280 lanes of a tile, the one-hot selection of the
  row's selected vocabulary entry, and the updates of the four running quantities a row carries from tile to tile
  (maximum, sum of exponentials, sum of logits, selected logit), and the two results formed after the last tile.
-/
import proofs.«417562_j59090160058697_3_alg».proof.Proof.Gen.KernelIdeal.Skeleton
import Idealize.ShloMosaic.PureOps.IdealRules
import Idealize.ShloMosaic.Lib.Affine
import Idealize.ShloMosaic.Lib.Pipeline.Value
import Idealize.ShloMosaic.Lib.ValueIdx
import Idealize.ShloMosaic.PureOps.Ideal.Laws

noncomputable section

namespace Cert.KernelIdeal.Hand.R0

open Cert.KernelIdeal Cert.KernelIdeal.Gen Idealize.ShloMosaic Idealize.ShloMosaic.ValueIdx

theorem lhsK_0 (i : S1024x1280.Idx) (q : dot_S1024x2048_S1280x2048_S1024x1280_1_1_0_0_n_n.contr.Idx) :
    (dot_S1024x2048_S1280x2048_S1024x1280_1_1_0_0_n_n.lhsIdx i q 0).val = (i 0).val := by
  unfold DotDims.lhsIdx
  rw [dif_neg (show ¬(0 : Fin S1024x2048.rank) ∈ dot_S1024x2048_S1280x2048_S1024x1280_1_1_0_0_n_n.lhsBatch by decide), dif_pos (show (0 : Fin S1024x2048.rank) ∈ dot_S1024x2048_S1280x2048_S1024x1280_1_1_0_0_n_n.lhsNonContracting by decide)]
  rfl
theorem lhsK_1 (i : S1024x1280.Idx) (q : dot_S1024x2048_S1280x2048_S1024x1280_1_1_0_0_n_n.contr.Idx) :
    (dot_S1024x2048_S1280x2048_S1024x1280_1_1_0_0_n_n.lhsIdx i q 1).val = (q ⟨0, by decide⟩).val :=
  dot_S1024x2048_S1280x2048_S1024x1280_1_1_0_0_n_n.lhsIdx_val_of_single rfl i q
theorem rhsK_0 (i : S1024x1280.Idx) (q : dot_S1024x2048_S1280x2048_S1024x1280_1_1_0_0_n_n.contr.Idx) :
    (dot_S1024x2048_S1280x2048_S1024x1280_1_1_0_0_n_n.rhsIdx i q 0).val = (i 1).val := by
  unfold DotDims.rhsIdx
  rw [dif_neg (show ¬(0 : Fin S1280x2048.rank) ∈ dot_S1024x2048_S1280x2048_S1024x1280_1_1_0_0_n_n.rhsBatch by decide), dif_pos (show (0 : Fin S1280x2048.rank) ∈ dot_S1024x2048_S1280x2048_S1024x1280_1_1_0_0_n_n.rhsNonContracting by decide)]
  rfl
theorem rhsK_1 (i : S1024x1280.Idx) (q : dot_S1024x2048_S1280x2048_S1024x1280_1_1_0_0_n_n.contr.Idx) :
    (dot_S1024x2048_S1280x2048_S1024x1280_1_1_0_0_n_n.rhsIdx i q 1).val = (q ⟨0, by decide⟩).val :=
  dot_S1024x2048_S1280x2048_S1024x1280_1_1_0_0_n_n.rhsIdx_val_of_single rfl i q

/-- Row `256 b + r` of the flattened activations block. -/
abbrev flatRow (b : Fin 4) (r : Fin 256) : Fin 1024 := ⟨256 * b.val + r.val, by have := b.isLt; have := r.isLt; omega⟩

/-- The product of the flattened block with the matrix tile, at row `p` and column `k`. -/
theorem matmul_entry (xf : FVec Ideal S1024x2048 .bf16) (w : FVec Ideal S1280x2048 .bf16) (p : Fin 1024) (k : Fin 1280) :
    matmul dot_S1024x2048_S1280x2048_S1024x1280_1_1_0_0_n_n none xf w (constant (F := Ideal) S1024x1280 .f32 0x00000000#32) (ix2 p k)
      = ∑ h : Fin 2048, xf (ix2 p h) * w (ix2 k h) := by
  simp only [matmul]
  rw [Ideal.matmul_constant_zero_apply, ← Equiv.sum_comp (ValueIdx.contrEquiv1 dot_S1024x2048_S1280x2048_S1024x1280_1_1_0_0_n_n 2048 rfl rfl).symm]
  refine Finset.sum_congr rfl fun h _ => ?_
  have hk := ValueIdx.contrEquiv1_symm_val dot_S1024x2048_S1280x2048_S1024x1280_1_1_0_0_n_n 2048 rfl rfl h
  have el : dot_S1024x2048_S1280x2048_S1024x1280_1_1_0_0_n_n.lhsIdx (ix2 p k) ((ValueIdx.contrEquiv1 dot_S1024x2048_S1280x2048_S1024x1280_1_1_0_0_n_n 2048 rfl rfl).symm h) = ix2 p h := funext fun a => Fin.ext (by
    match a with
    | ⟨0, _⟩ => exact lhsK_0 _ _
    | ⟨1, _⟩ => exact (lhsK_1 _ _).trans hk)
  have er : dot_S1024x2048_S1280x2048_S1024x1280_1_1_0_0_n_n.rhsIdx (ix2 p k) ((ValueIdx.contrEquiv1 dot_S1024x2048_S1280x2048_S1024x1280_1_1_0_0_n_n 2048 rfl rfl).symm h) = ix2 k h := funext fun a => Fin.ext (by
    match a with
    | ⟨0, _⟩ => exact rhsK_0 _ _
    | ⟨1, _⟩ => exact (rhsK_1 _ _).trans hk)
  rw [el, er]

/-- The logits of the block: entry `(b, r, k)` is the inner product of row `(b, r)` of the activations block with row
    `k` of the matrix tile. -/
theorem pay12_apply (x : Vec Ideal S4x256x2048 .bf16) (w : Vec Ideal S1280x2048 .bf16) (b : Fin 4) (r : Fin 256) (k : Fin 1280) :
    k0_pay12 (F := Ideal) x w (ix3 b r k) = ∑ h : Fin 2048, x (ix3 b r h) * w (ix2 k h) := by
  unfold k0_pay12
  simp only [shapeCast_self]
  refine (shapeCast_apply _ shapeCasts_S1024x1280_S4x256x1280 (ix3 b r k) (ix2 (flatRow b r) k) ?_).trans ?_
  · rw [Shape.rowMajor_val_two, Shape.rowMajor_val_three]
    show (256 * b.val + r.val) * 1280 + k.val = (b.val * 256 + r.val) * 1280 + k.val
    omega
  refine (matmul_entry _ _ (flatRow b r) k).trans ?_
  refine Finset.sum_congr rfl fun h _ => ?_
  congr 1
  refine shapeCast_apply _ shapeCasts_S4x256x2048_S1024x2048 (ix2 (flatRow b r) h) (ix3 b r h) ?_
  rw [Shape.rowMajor_val_two, Shape.rowMajor_val_three]
  show (b.val * 256 + r.val) * 2048 + h.val = (256 * b.val + r.val) * 2048 + h.val
  omega

/-- A sum over the 1280 lanes of a block, at row `(b, r)`. -/
theorem laneSum_apply (v : FVec Ideal S4x256x1280 .f32) (hacc : (0x00000000#32 : BitVec 32) = 0x00000000#32) (b : Fin 4) (r : Fin 256) :
    multiReduction (F := Ideal) .add [2] S4x256 v 0x00000000#32 reduces_S4x256x1280_S4x256 (.inl rfl) hacc (ix2 b r)
      = ∑ k : Fin 1280, v (ix3 b r k) := by
  refine (Ideal.multiReduction_add_single v 0x00000000#32 reduces_S4x256x1280_S4x256 (.inl rfl) hacc (ix2 b r)).trans ?_
  refine Finset.sum_congr rfl fun k _ => congrArg v (funext fun a => Fin.ext ?_)
  match a with
  | ⟨0, _⟩ => rfl
  | ⟨1, _⟩ => rfl
  | ⟨2, _⟩ => rfl

theorem negInf : Ideal.ofBits .f32 0xFF800000#32 = ⊥ := by
  simp [Ideal.ofBits, Ideal.ieee]

/-- The maximum over the 1280 lanes of a block, at row `(b, r)`: the fold of `max` from `⊥`. -/
theorem laneMax_apply (v : FVec Ideal S4x256x1280 .f32) (hacc : (0xFF800000#32 : BitVec 32) = 0xFF800000#32) (b : Fin 4) (r : Fin 256) :
    multiReduction (F := Ideal) .maximumf [2] S4x256 v 0xFF800000#32 reduces_S4x256x1280_S4x256 (.inl rfl) hacc (ix2 b r)
      = (Finset.univ : Finset (Fin 1280)).fold max (⊥ : EReal) (fun k => v (ix3 b r k)) := by
  refine (Ideal.multiReduction_maximumf_single v 0xFF800000#32 reduces_S4x256x1280_S4x256 (.inl rfl) hacc (ix2 b r)).trans ?_
  rw [Ideal.ofBits_def, negInf]
  refine congrArg (fun g => (Finset.univ : Finset (Fin 1280)).fold max (⊥ : EReal) g) (funext fun k => congrArg v (funext fun a => Fin.ext ?_))
  match a with
  | ⟨0, _⟩ => rfl
  | ⟨1, _⟩ => rfl
  | ⟨2, _⟩ => rfl

/-- A row-indexed value viewed as a one-lane column. -/
theorem col_of_row {α : Type} (v : S4x256.Idx → α) (b : Fin 4) (r : Fin 256) :
    shapeCast S4x256x1 v shapeCasts_S4x256_S4x256x1 (ix3 b r 0) = v (ix2 b r) := by
  refine shapeCast_apply v shapeCasts_S4x256_S4x256x1 (ix3 b r 0) (ix2 b r) ?_
  rw [Shape.rowMajor_val_two, Shape.rowMajor_val_three]
  show b.val * 256 + r.val = (b.val * 256 + r.val) * 1 + 0
  omega

/-- A one-lane column viewed as a row-indexed value. -/
theorem row_of_col {α : Type} (v : S4x256x1.Idx → α) (b : Fin 4) (r : Fin 256) :
    shapeCast S4x256 v shapeCasts_S4x256x1_S4x256 (ix2 b r) = v (ix3 b r 0) := by
  refine shapeCast_apply v shapeCasts_S4x256x1_S4x256 (ix2 b r) (ix3 b r 0) ?_
  rw [Shape.rowMajor_val_two, Shape.rowMajor_val_three]
  show (b.val * 256 + r.val) * 1 + 0 = b.val * 256 + r.val
  omega

/-- A one-lane column repeated along the 1280 lanes. -/
theorem lanes_of_col {α : Type} (v : S4x256x1.Idx → α) (b : Fin 4) (r : Fin 256) (k : Fin 1280) :
    broadcastTo S4x256x1280 v broadcasts_S4x256x1_S4x256x1280 (ix3 b r k) = v (ix3 b r 0) := by
  refine broadcastTo_apply v broadcasts_S4x256x1_S4x256x1280 (ix3 b r k) (ix3 b r 0) fun a => ?_
  match a with
  | ⟨0, _⟩ => rfl
  | ⟨1, _⟩ => rfl
  | ⟨2, _⟩ => rfl

/-- A lane-indexed value repeated along the rows. -/
theorem rows_of_lane {α : Type} (v : S1x1x1280.Idx → α) (b : Fin 4) (r : Fin 256) (k : Fin 1280) :
    broadcastTo S4x256x1280 v broadcasts_S1x1x1280_S4x256x1280 (ix3 b r k) = v (ix3 0 0 k) := by
  refine broadcastTo_apply v broadcasts_S1x1x1280_S4x256x1280 (ix3 b r k) (ix3 0 0 k) fun a => ?_
  match a with
  | ⟨0, _⟩ => rfl
  | ⟨1, _⟩ => rfl
  | ⟨2, _⟩ => rfl

/-- The lane counter. -/
theorem lane_iota (k : Fin 1280) : iota .tc S1x1x1280 32 [2] iota_S1x1x1280_d2_w32 (ix3 0 0 k) = BitVec.ofNat 32 k.val :=
  iota_single_apply .tc S1x1x1280 32 2 iota_S1x1x1280_d2_w32 (ix3 0 0 k)

/-- The start value of the running maximum is a finite number. -/
def m0 : ℝ := (Ideal.ofBits .f32 0xFF333332#32).toReal

theorem m0_eq : Ideal.ofBits .f32 0xFF333332#32 = (m0 : EReal) := by
  unfold m0
  simp [Ideal.ofBits, Ideal.ieee, -EReal.coe_mul]

/-! ## The payloads of one point, entry by entry -/

/-- The logit of row `(b, r)` of the activations block against row `k` of the matrix tile. -/
def tileLogit (x : Vec Ideal S4x256x2048 .bf16) (w : Vec Ideal S1280x2048 .bf16) (b : Fin 4) (r : Fin 256) (k : Fin 1280) : EReal :=
  ∑ h : Fin 2048, x (ix3 b r h) * w (ix2 k h)

theorem pay12_eq (x : Vec Ideal S4x256x2048 .bf16) (w : Vec Ideal S1280x2048 .bf16) (b : Fin 4) (r : Fin 256) (k : Fin 1280) :
    k0_pay12 (F := Ideal) x w (ix3 b r k) = tileLogit x w b r k := pay12_apply x w b r k

/-- The maximum of a row's logits over the tile, from `⊥`. -/
def tileTop (x : Vec Ideal S4x256x2048 .bf16) (w : Vec Ideal S1280x2048 .bf16) (b : Fin 4) (r : Fin 256) : EReal :=
  (Finset.univ : Finset (Fin 1280)).fold max (⊥ : EReal) (fun k => tileLogit x w b r k)

/-- The new running maximum: the larger of the old one and the tile's maximum. -/
theorem pay14_apply (x : Vec Ideal S4x256x2048 .bf16) (w : Vec Ideal S1280x2048 .bf16) (m : Vec Ideal S4x256x1 .f32)
    (b : Fin 4) (r : Fin 256) :
    k0_pay14 (F := Ideal) x w m (ix3 b r 0) = max (m (ix3 b r 0)) (tileTop x w b r) := by
  unfold k0_pay14
  refine (maximumf_apply _ _ _).trans ?_
  refine congrArg (max (m (ix3 b r 0))) ?_
  refine (col_of_row _ b r).trans ?_
  refine (laneMax_apply _ rfl b r).trans ?_
  exact congrArg (fun g => (Finset.univ : Finset (Fin 1280)).fold max (⊥ : EReal) g) (funext fun k => pay12_apply x w b r k)

/-- The stored running maximum is the new one. -/
theorem pay2_apply (v : FVec Ideal S4x256x1 .f32) : k0_pay2 (F := Ideal) v = v := by
  unfold k0_pay2
  exact shapeCast_self _ _

/-- The old sum rescaled to the new maximum. -/
theorem pay15_apply (x : Vec Ideal S4x256x2048 .bf16) (w : Vec Ideal S1280x2048 .bf16) (m m' s : Vec Ideal S4x256x1 .f32)
    (b : Fin 4) (r : Fin 256) :
    k0_pay15 (F := Ideal) x w m m' s (ix3 b r 0)
      = s (ix3 b r 0) * Ideal.exp (m' (ix3 b r 0) - max (m (ix3 b r 0)) (tileTop x w b r)) := by
  unfold k0_pay15
  refine (mulf_apply _ _ _).trans ?_
  refine congrArg (s (ix3 b r 0) * ·) ?_
  show Ideal.exp (m' (ix3 b r 0) - k0_pay14 (F := Ideal) x w m (ix3 b r 0)) = _
  rw [pay14_apply]

/-- The new maximum along the lanes. -/
theorem pay16_apply (x : Vec Ideal S4x256x2048 .bf16) (w : Vec Ideal S1280x2048 .bf16) (m : Vec Ideal S4x256x1 .f32)
    (b : Fin 4) (r : Fin 256) (k : Fin 1280) :
    k0_pay16 (F := Ideal) x w m (ix3 b r k) = max (m (ix3 b r 0)) (tileTop x w b r) := by
  unfold k0_pay16
  exact (lanes_of_col _ b r k).trans (pay14_apply x w m b r)

/-- The new sum of exponentials: the rescaled old sum plus the tile's exponentials against the new maximum. -/
theorem pay1_apply (l : FVec Ideal S4x256x1280 .f32) (s' : FVec Ideal S4x256x1 .f32) (mm : FVec Ideal S4x256x1280 .f32)
    (b : Fin 4) (r : Fin 256) :
    k0_pay1 (F := Ideal) l s' mm (ix3 b r 0) = s' (ix3 b r 0) + ∑ k : Fin 1280, Ideal.exp (l (ix3 b r k) - mm (ix3 b r k)) := by
  unfold k0_pay1
  refine (congrFun (shapeCast_self _ _) _).trans ?_
  refine (addf_apply _ _ _).trans ?_
  refine congrArg (s' (ix3 b r 0) + ·) ?_
  refine (col_of_row _ b r).trans ?_
  exact laneSum_apply _ rfl b r

/-- The new sum of logits. -/
theorem pay3_apply (l : FVec Ideal S4x256x1280 .f32) (a : Vec Ideal S4x256x1 .f32) (b : Fin 4) (r : Fin 256) :
    k0_pay3 (F := Ideal) l a (ix3 b r 0) = a (ix3 b r 0) + ∑ k : Fin 1280, l (ix3 b r k) := by
  unfold k0_pay3
  refine (congrFun (shapeCast_self _ _) _).trans ?_
  refine (addf_apply _ _ _).trans ?_
  refine congrArg (a (ix3 b r 0) + ·) ?_
  refine (col_of_row _ b r).trans ?_
  exact laneSum_apply _ rfl b r

/-- The new selected logit. -/
theorem pay4_apply (d : FVec Ideal S4x256x1 .f32) (e : Vec Ideal S4x256x1 .f32) (b : Fin 4) (r : Fin 256) :
    k0_pay4 (F := Ideal) d e (ix3 b r 0) = e (ix3 b r 0) + d (ix3 b r 0) := by
  unfold k0_pay4
  refine (congrFun (shapeCast_self _ _) _).trans ?_
  exact addf_apply _ _ _

/-- One lane of the one-hot selection: the lane's vocabulary index against the row's selected entry. -/
theorem sel_entry (u : IVec S1x1x1280 32) (ids : IVec S4x256x1 32) (l z : FVec Ideal S4x256x1280 .f32) (b : Fin 4) (r : Fin 256) (k : Fin 1280)
    (U I : BitVec 32) (L Z : EReal) (hu : u (ix3 0 0 k) = U) (hi : ids (ix3 b r 0) = I) (hl : l (ix3 b r k) = L) (hz : z (ix3 b r k) = Z) :
    Scalar.select (cmpi .eq (broadcastTo S4x256x1280 u broadcasts_S1x1x1280_S4x256x1280) (broadcastTo S4x256x1280 ids broadcasts_S4x256x1_S4x256x1280) (ix3 b r k))
        (l (ix3 b r k)) (z (ix3 b r k))
      = if U = I then L else Z := by
  unfold Scalar.select cmpi
  rw [rows_of_lane, lanes_of_col, hu, hi, hl, hz]
  by_cases h : U = I
  · rw [if_pos h]; exact if_pos (IntOp.cmpi_eq.2 h)
  · rw [if_neg h]; exact if_neg (fun h' => h (IntOp.cmpi_eq.1 h'))

/-- The lane's 32-bit vocabulary index equals a word exactly when the numbers agree: tile `v < 25`, lane `k < 1280`. -/
theorem lane_hit (k : Fin 1280) (v : ℕ) (hv : v < 25) (id : BitVec 32) :
    BitVec.ofNat 32 k.val + BitVec.ofNat 32 v * 1280#32 = id ↔ 1280 * v + k.val = id.toNat := by
  rw [← BitVec.toNat_inj]
  simp only [BitVec.toNat_add, BitVec.toNat_mul, BitVec.toNat_ofNat, Nat.reducePow]
  have := k.isLt
  omega

/-- The tile's share of the selected logit: the lanes whose vocabulary index is the row's selected entry. -/
theorem pay13_apply (i : grid0.Coords) (x : Vec Ideal S4x256x2048 .bf16) (w : Vec Ideal S1280x2048 .bf16)
    (ids : Vec Ideal S4x256x1 .i32) (b : Fin 4) (r : Fin 256) :
    k0_pay13 (F := Ideal) i x w ids (ix3 b r 0)
      = ∑ k : Fin 1280, (if BitVec.ofNat 32 k.val + BitVec.ofNat 32 (i 1).val * 1280#32 = ids (ix3 b r 0) then tileLogit x w b r k else 0) := by
  unfold k0_pay13
  refine (col_of_row _ b r).trans ?_
  refine (laneSum_apply _ rfl b r).trans ?_
  refine Finset.sum_congr rfl fun k _ => ?_
  refine (select_apply _ _ _ _).trans ?_
  refine sel_entry _ _ _ _ b r k _ _ _ _ ?_ (congrFun (shapeCast_self _ _) _) (pay12_apply x w b r k) Ideal.ofBits_zero_f32
  show IntOp.addi (iota .tc S1x1x1280 32 [2] iota_S1x1x1280_d2_w32 (ix3 0 0 k)) _ = _
  rw [lane_iota]
  rfl

/-- The same with the lane's index as a number: tile `v` of 25. -/
theorem pay13_apply' (i : grid0.Coords) (v : ℕ) (hi : (i 1).val = v) (hv : v < 25) (x : Vec Ideal S4x256x2048 .bf16) (w : Vec Ideal S1280x2048 .bf16)
    (ids : Vec Ideal S4x256x1 .i32) (b : Fin 4) (r : Fin 256) :
    k0_pay13 (F := Ideal) i x w ids (ix3 b r 0)
      = ∑ k : Fin 1280, (if 1280 * v + k.val = (ids (ix3 b r 0)).toNat then tileLogit x w b r k else 0) := by
  refine (pay13_apply i x w ids b r).trans (Finset.sum_congr rfl fun k _ => ?_)
  rw [hi]
  exact if_congr (lane_hit k v hv _) rfl rfl

/-- The logarithm of the sum of exponentials as the kernel forms it: the running maximum plus the logarithm of the running sum. -/
theorem pay5_apply (m s : Vec Ideal S4x256x1 .f32) (i : S4x256x1.Idx) :
    k0_pay5 (F := Ideal) m s i = m i + Ideal.log (s i) := rfl

/-- The first result: the selected logit minus that logarithm. -/
theorem pay6_apply (m s e : Vec Ideal S4x256x1 .f32) (b : Fin 4) (r : Fin 256) :
    k0_pay6 (F := Ideal) m s e (ix2 b r) = e (ix3 b r 0) - (m (ix3 b r 0) + Ideal.log (s (ix3 b r 0))) := by
  unfold k0_pay6
  exact row_of_col _ b r

/-- The named reciprocal of the vocabulary size is the rational `1 / 32000`. -/
theorem inv_vocab : Named.named (F := Ideal) κ "inv_32000" (φ := .f32) 0x3803126F#32 = ((1 / 32000 : ℝ) : EReal) :=
  IdealRules.named_const.ideal_named_scalar _ _ _ _ rfl

/-- The second result: the mean of the logits minus that logarithm. -/
theorem pay7_apply (m s a : Vec Ideal S4x256x1 .f32) (b : Fin 4) (r : Fin 256) :
    k0_pay7 (F := Ideal) m s a (ix2 b r)
      = a (ix3 b r 0) * ((1 / 32000 : ℝ) : EReal) - (m (ix3 b r 0) + Ideal.log (s (ix3 b r 0))) := by
  unfold k0_pay7
  refine (row_of_col _ b r).trans ?_
  show a (ix3 b r 0) * Named.named (F := Ideal) κ "inv_32000" (φ := .f32) 0x3803126F#32 - _ = _
  rw [inv_vocab]
  rfl

/-! ## The reset values -/

theorem pay8_apply (i : S4x256x1.Idx) : k0_pay8 (F := Ideal) i = (m0 : EReal) := by
  unfold k0_pay8
  refine (congrFun (shapeCast_self _ _) _).trans ?_
  exact m0_eq

theorem pay9_apply (i : S4x256x1.Idx) : k0_pay9 (F := Ideal) i = 0 := by
  unfold k0_pay9
  refine (congrFun (shapeCast_self _ _) _).trans ?_
  exact Ideal.ofBits_zero_f32

theorem pay10_apply (i : S4x256x1.Idx) : k0_pay10 (F := Ideal) i = 0 := by
  unfold k0_pay10
  refine (congrFun (shapeCast_self _ _) _).trans ?_
  exact Ideal.ofBits_zero_f32

theorem pay11_apply (i : S4x256x1.Idx) : k0_pay11 (F := Ideal) i = 0 := by
  unfold k0_pay11
  refine (congrFun (shapeCast_self _ _) _).trans ?_
  exact Ideal.ofBits_zero_f32

end Cert.KernelIdeal.Hand.R0

end
-- ==== Proof.LibOnlineSoftmax.lean ====
/-
  The logarithm of a sum of exponentials, computed two ways over the reals.

  A row of logits is cut into tiles. One way keeps a running maximum and a running sum: passing a tile replaces the
  maximum by the larger of itself and the tile's maximum, rescales the sum by the exponential of the difference of the
  old and the new maximum, and adds the exponentials of the tile's entries taken against the new maximum. The other way
  subtracts the maximum of the whole row once. Both give the logarithm of the sum of the exponentials of the row.

  The last part carries finite sums, a positive logarithm and the maximum of a tile to the extended reals.
-/
import Idealize.ShloMosaic.PureOps.Ideal
import Mathlib.Analysis.SpecialFunctions.Log.Basic
import Mathlib.Algebra.BigOperators.Group.Finset.Basic
import Mathlib.Algebra.BigOperators.Group.Finset.Piecewise
import Mathlib.Algebra.Order.BigOperators.Group.Finset
import Mathlib.Data.Fintype.BigOperators
import Mathlib.Data.Finset.Lattice.Fold
import Mathlib.Data.EReal.Basic

noncomputable section

namespace Cert.LibOnline

open scoped BigOperators

variable {w : ℕ} [NeZero w]

/-- The maximum of a nonempty tile. -/
def tileMax (g : Fin w → ℝ) : ℝ := Finset.univ.sup' Finset.univ_nonempty g

/-- The running maximum after `j` tiles, started from the finite number `m₀`. -/
def onlineM (f : ℕ → Fin w → ℝ) (m₀ : ℝ) : ℕ → ℝ
  | 0 => m₀
  | j + 1 => max (onlineM f m₀ j) (tileMax (f j))

/-- The running sum after `j` tiles: the old sum rescaled to the new maximum, plus the exponentials of the new
    tile's entries against the new maximum; it starts from zero. -/
def onlineS (f : ℕ → Fin w → ℝ) (m₀ : ℝ) : ℕ → ℝ
  | 0 => 0
  | j + 1 => onlineS f m₀ j * Real.exp (onlineM f m₀ j - onlineM f m₀ (j + 1))
      + ∑ k : Fin w, Real.exp (f j k - onlineM f m₀ (j + 1))

/-- Every entry of a tile is at most the tile's maximum. -/
theorem le_tileMax (g : Fin w → ℝ) (k : Fin w) : g k ≤ tileMax g :=
  Finset.le_sup' g (Finset.mem_univ k)

/-- The maximum of a tile is one of its entries. -/
theorem exists_eq_tileMax (g : Fin w → ℝ) : ∃ k : Fin w, tileMax g = g k := by
  obtain ⟨k, _, hk⟩ := Finset.exists_mem_eq_sup' Finset.univ_nonempty g
  exact ⟨k, hk⟩

/-- The running sum after `j` tiles is the sum of the exponentials of all entries of those tiles, each taken
    against the current running maximum: `s_j = ∑_{j' < j} ∑_k exp (f j' k - m_j)`. -/
theorem onlineS_eq (f : ℕ → Fin w → ℝ) (m₀ : ℝ) (j : ℕ) :
    onlineS f m₀ j = ∑ j' ∈ Finset.range j, ∑ k : Fin w, Real.exp (f j' k - onlineM f m₀ j) := by
  induction j with
  | zero => simp [onlineS]
  | succ j ih =>
    rw [onlineS, ih, Finset.sum_range_succ, Finset.sum_mul]
    congr 1
    refine Finset.sum_congr rfl fun j' _ => ?_
    rw [Finset.sum_mul]
    refine Finset.sum_congr rfl fun k _ => ?_
    rw [← Real.exp_add]
    congr 1
    ring

/-- After at least one tile the running sum is positive. -/
theorem onlineS_pos (f : ℕ → Fin w → ℝ) (m₀ : ℝ) {j : ℕ} (hj : 0 < j) : 0 < onlineS f m₀ j := by
  rw [onlineS_eq]
  refine Finset.sum_pos (fun j' _ => ?_) ⟨0, Finset.mem_range.2 hj⟩
  exact Finset.sum_pos (fun k _ => Real.exp_pos _) Finset.univ_nonempty

/-- The running maximum plus the logarithm of the running sum is the logarithm of the sum of the exponentials:
    `m_n + log s_n = log (∑_{j < n} ∑_k exp (f j k))`, whatever finite number the maximum started from. -/
theorem online_lse (f : ℕ → Fin w → ℝ) (m₀ : ℝ) {n : ℕ} (hn : 0 < n) :
    onlineM f m₀ n + Real.log (onlineS f m₀ n)
      = Real.log (∑ j ∈ Finset.range n, ∑ k : Fin w, Real.exp (f j k)) := by
  have hS : 0 < onlineS f m₀ n := onlineS_pos f m₀ hn
  have hprod : (∑ j ∈ Finset.range n, ∑ k : Fin w, Real.exp (f j k))
      = Real.exp (onlineM f m₀ n) * onlineS f m₀ n := by
    rw [onlineS_eq, Finset.mul_sum]
    refine Finset.sum_congr rfl fun j _ => ?_
    rw [Finset.mul_sum]
    refine Finset.sum_congr rfl fun k _ => ?_
    rw [← Real.exp_add]
    congr 1
    ring
  rw [hprod, Real.log_mul (Real.exp_ne_zero _) hS.ne', Real.log_exp]

/-- Subtracting the maximum once: `max g + log (∑_v exp (g v - max g)) = log (∑_v exp (g v))`. -/
theorem shifted_lse {N : ℕ} [NeZero N] (g : Fin N → ℝ) :
    tileMax g + Real.log (∑ v : Fin N, Real.exp (g v - tileMax g)) = Real.log (∑ v : Fin N, Real.exp (g v)) := by
  have hS : 0 < ∑ v : Fin N, Real.exp (g v - tileMax g) :=
    Finset.sum_pos (fun v _ => Real.exp_pos _) Finset.univ_nonempty
  have hprod : (∑ v : Fin N, Real.exp (g v)) = Real.exp (tileMax g) * ∑ v : Fin N, Real.exp (g v - tileMax g) := by
    rw [Finset.mul_sum]
    refine Finset.sum_congr rfl fun v _ => ?_
    rw [← Real.exp_add]
    congr 1
    ring
  rw [hprod, Real.log_mul (Real.exp_ne_zero _) hS.ne', Real.log_exp]

/-- `n` tiles of `c` entries are the first `c * n` entries. -/
theorem sum_tiles_range (c : ℕ) (G : ℕ → ℝ) (n : ℕ) :
    ∑ j ∈ Finset.range n, ∑ k : Fin c, G (c * j + k.val) = ∑ v ∈ Finset.range (c * n), G v := by
  induction n with
  | zero => simp
  | succ n ih =>
    rw [Finset.sum_range_succ, ih, Nat.mul_succ, Finset.sum_range_add, Fin.sum_univ_eq_sum_range (fun k => G (c * n + k)) c]

/-- 25 tiles of 1280 are the 32000 entries. -/
theorem sum_tiles (G : ℕ → ℝ) :
    ∑ j ∈ Finset.range 25, ∑ k : Fin 1280, G (1280 * j + k.val) = ∑ v : Fin 32000, G v.val := by
  rw [sum_tiles_range 1280 G 25, Fin.sum_univ_eq_sum_range G 32000]

/-- A one-hot sum picks its entry: for `id < 32000` the sum over all entries of the entry at `id` and zero elsewhere is
    the entry at `id`. -/
theorem sum_onehot (G : ℕ → ℝ) {id : ℕ} (hid : id < 32000) :
    ∑ j ∈ Finset.range 25, ∑ k : Fin 1280, (if 1280 * j + k.val = id then G (1280 * j + k.val) else 0) = G id := by
  rw [sum_tiles_range 1280 (fun v => if v = id then G v else 0) 25, Finset.sum_ite_eq']
  simp [hid]

/-! ### To the extended reals -/

/-- The extended real of a finite sum of reals is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The extended logarithm of a positive real is the real logarithm. -/
theorem ideal_log_coe_pos {r : ℝ} (h : 0 < r) : Idealize.ShloMosaic.Ideal.log (r : EReal) = (Real.log r : EReal) := by
  rw [Idealize.ShloMosaic.Ideal.log_coe, if_neg (not_le.mpr h)]

/-- The supremum, from `⊥`, of a tile of reals read as extended reals is the tile's maximum. -/
theorem coe_tileMax (g : Fin w → ℝ) : (Finset.univ.sup fun k => ((g k : ℝ) : EReal)) = ((tileMax g : ℝ) : EReal) := by
  apply le_antisymm
  · exact Finset.sup_le fun k _ => EReal.coe_le_coe_iff.2 (le_tileMax g k)
  · obtain ⟨k, hk⟩ := exists_eq_tileMax g
    rw [hk]
    exact Finset.le_sup (f := fun k => ((g k : ℝ) : EReal)) (Finset.mem_univ k)

/-- Folding the maximum over a tile, started from `⊥`, gives the tile's maximum. -/
theorem fold_max_coe (g : Fin w → ℝ) :
    Finset.univ.fold max (⊥ : EReal) (fun k => ((g k : ℝ) : EReal)) = ((tileMax g : ℝ) : EReal) := by
  rw [← coe_tileMax g]
  rfl

end Cert.LibOnline

end
-- ==== Proof.KI.Pay0R.lean ====
/-
  The updates of one grid point of the first kernel over the reals. When a row's logits over the tile, its running
  maximum and its running sums are real numbers, the new running maximum is the larger of the old one and the
  tile's maximum, the new sum of exponentials is the old one rescaled plus the tile's exponentials against the new
  maximum, the sums of logits and of selected logits grow by the tile's share, and the two results are the selected
  logit, and the mean logit, minus the running maximum plus the logarithm of the running sum.
-/
import proofs.«417562_j59090160058697_3_alg».proof.Proof.KI.Pay0
import proofs.«417562_j59090160058697_3_alg».proof.Proof.LibOnlineSoftmax

noncomputable section

namespace Cert.KernelIdeal.Hand.R0

open Cert.KernelIdeal Cert.KernelIdeal.Gen Idealize.ShloMosaic Idealize.ShloMosaic.ValueIdx Cert.LibOnline

variable (x : Vec Ideal S4x256x2048 .bf16) (w : Vec Ideal S1280x2048 .bf16) (b : Fin 4) (r : Fin 256)

/-- The maximum of real numbers, read as extended reals. -/
theorem coe_max' (p q : ℝ) : max (p : EReal) (q : EReal) = ((max p q : ℝ) : EReal) :=
  (EReal.coe_strictMono.monotone.map_max (a := p) (b := q)).symm

/-- The tile's maximum of a row whose logits are real. -/
theorem tileTop_real (l : Fin 1280 → ℝ) (hl : ∀ k, tileLogit x w b r k = (l k : EReal)) :
    tileTop x w b r = ((tileMax l : ℝ) : EReal) := by
  unfold tileTop
  rw [show (fun k => tileLogit x w b r k) = fun k => ((l k : ℝ) : EReal) from funext hl]
  exact fold_max_coe l

/-- The new running maximum. -/
theorem newM_real (l : Fin 1280 → ℝ) (hl : ∀ k, tileLogit x w b r k = (l k : EReal))
    (m : Vec Ideal S4x256x1 .f32) (mr : ℝ) (hm : m (ix3 b r 0) = (mr : EReal)) :
    k0_pay2 (F := Ideal) (k0_pay14 (F := Ideal) x w m) (ix3 b r 0) = ((max mr (tileMax l) : ℝ) : EReal) := by
  rw [pay2_apply, pay14_apply, hm, tileTop_real x w b r l hl, coe_max']

/-- The new running sum of exponentials. -/
theorem newS_real (l : Fin 1280 → ℝ) (hl : ∀ k, tileLogit x w b r k = (l k : EReal))
    (m m' s : Vec Ideal S4x256x1 .f32) (mr sr : ℝ) (hm : m (ix3 b r 0) = (mr : EReal)) (hm' : m' (ix3 b r 0) = (mr : EReal))
    (hs : s (ix3 b r 0) = (sr : EReal)) :
    k0_pay1 (F := Ideal) (k0_pay12 (F := Ideal) x w) (k0_pay15 (F := Ideal) x w m m' s) (k0_pay16 (F := Ideal) x w m) (ix3 b r 0)
      = ((sr * Real.exp (mr - max mr (tileMax l)) + ∑ k : Fin 1280, Real.exp (l k - max mr (tileMax l)) : ℝ) : EReal) := by
  rw [pay1_apply, pay15_apply, hm, hm', hs, tileTop_real x w b r l hl, coe_max']
  rw [EReal.coe_add, EReal.coe_mul, coe_sum]
  congr 1
  refine Finset.sum_congr rfl fun k _ => ?_
  rw [pay12_eq, pay16_apply, hl k, hm, tileTop_real x w b r l hl, coe_max']
  rfl

/-- The new running sum of logits. -/
theorem newA_real (l : Fin 1280 → ℝ) (hl : ∀ k, tileLogit x w b r k = (l k : EReal))
    (a : Vec Ideal S4x256x1 .f32) (ar : ℝ) (ha : a (ix3 b r 0) = (ar : EReal)) :
    k0_pay3 (F := Ideal) (k0_pay12 (F := Ideal) x w) a (ix3 b r 0) = ((ar + ∑ k : Fin 1280, l k : ℝ) : EReal) := by
  rw [pay3_apply, ha, EReal.coe_add, coe_sum]
  congr 1
  exact Finset.sum_congr rfl fun k _ => (pay12_eq x w b r k).trans (hl k)

/-- The new selected logit: at tile `v`, the lane whose vocabulary index `1280 v + k` is the row's selected entry. -/
theorem newE_real (l : Fin 1280 → ℝ) (hl : ∀ k, tileLogit x w b r k = (l k : EReal))
    (i : grid0.Coords) (v : ℕ) (hi : (i 1).val = v) (hv : v < 25) (ids : Vec Ideal S4x256x1 .i32)
    (e : Vec Ideal S4x256x1 .f32) (er : ℝ) (he : e (ix3 b r 0) = (er : EReal)) :
    k0_pay4 (F := Ideal) (k0_pay13 (F := Ideal) i x w ids) e (ix3 b r 0)
      = ((er + ∑ k : Fin 1280, (if 1280 * v + k.val = (ids (ix3 b r 0)).toNat then l k else 0) : ℝ) : EReal) := by
  rw [pay4_apply, he, pay13_apply' i v hi hv, EReal.coe_add, coe_sum]
  congr 1
  refine Finset.sum_congr rfl fun k _ => ?_
  by_cases h : 1280 * v + k.val = (ids (ix3 b r 0)).toNat
  · rw [if_pos h, if_pos h, hl k]
  · rw [if_neg h, if_neg h]; rfl

/-- The first result over the reals, for a positive running sum. -/
theorem out3_real (m s e : Vec Ideal S4x256x1 .f32) (mr sr er : ℝ) (hm : m (ix3 b r 0) = (mr : EReal))
    (hs : s (ix3 b r 0) = (sr : EReal)) (hpos : 0 < sr) (he : e (ix3 b r 0) = (er : EReal)) :
    k0_pay6 (F := Ideal) m s e (ix2 b r) = ((er - (mr + Real.log sr) : ℝ) : EReal) := by
  rw [pay6_apply, hm, hs, he, ideal_log_coe_pos hpos]
  rfl

/-- The second result over the reals, for a positive running sum. -/
theorem out4_real (m s a : Vec Ideal S4x256x1 .f32) (mr sr ar : ℝ) (hm : m (ix3 b r 0) = (mr : EReal))
    (hs : s (ix3 b r 0) = (sr : EReal)) (hpos : 0 < sr) (ha : a (ix3 b r 0) = (ar : EReal)) :
    k0_pay7 (F := Ideal) m s a (ix2 b r) = ((ar * (1 / 32000) - (mr + Real.log sr) : ℝ) : EReal) := by
  rw [pay7_apply, hm, hs, ha, ideal_log_coe_pos hpos]
  rfl

end Cert.KernelIdeal.Hand.R0

end
-- ==== Proof.Spec.lean ====
/-
  The mathematics both programs are compared to. A row is a pair (b, t) of a batch and a position; its logits are
  the 32000 inner products of the row of the activations with the rows of the projection matrix. Both programs
  compute, per row, the log-probability of one selected vocabulary entry, `l_id - log (∑ v, exp l_v)`, and the mean of
  all log-probabilities of the row, `(∑ v, l_v) / 32000 - log (∑ v, exp l_v)`. One program reaches the logarithm of the
  sum of exponentials by a running maximum over 25 tiles of 1280 entries, the other by subtracting the row maximum
  once; over the reals both are the same number. Everything here is stated for entries that are real numbers.
-/
import Idealize.ShloMosaic.PureOps.Ideal
import Idealize.ShloMosaic.Lib.ValueIdx
import Mathlib.Analysis.SpecialFunctions.Log.Basic

noncomputable section

namespace Cert.Spec

open Idealize.ShloMosaic Idealize.ShloMosaic.ValueIdx

/-- Activations `[4, 1024, 2048]`, a projection matrix `[32000, 2048]`, selected entries `[4, 1024]`. -/
abbrev XArr : Type := (⟨3, ![4, 1024, 2048]⟩ : Shape).Idx → EReal
abbrev WArr : Type := (⟨2, ![32000, 2048]⟩ : Shape).Idx → EReal
abbrev IdArr : Type := (⟨2, ![4, 1024]⟩ : Shape).Idx → BitVec 32
abbrev RowArr : Type := (⟨2, ![4, 1024]⟩ : Shape).Idx → EReal

/-- Every entry of an array of extended reals is a real number. -/
def IsReal {ι : Type} (f : ι → EReal) : Prop := ∀ i, ∃ r : ℝ, f i = (r : EReal)

/-- The logit of row `(b, t)` at vocabulary entry `v`: the inner product over the 2048 hidden coordinates. -/
def logit (x : XArr) (w : WArr) (b : Fin 4) (t : Fin 1024) (v : Fin 32000) : EReal :=
  ∑ h : Fin 2048, x (ix3 b t h) * w (ix2 v h)

/-- The same as a real number (its value when the entries are real). -/
def lr (x : XArr) (w : WArr) (b : Fin 4) (t : Fin 1024) (v : Fin 32000) : ℝ := (logit x w b t v).toReal

/-- The logarithm of the sum of the exponentials of a row's logits. -/
def lse (x : XArr) (w : WArr) (b : Fin 4) (t : Fin 1024) : ℝ := Real.log (∑ v : Fin 32000, Real.exp (lr x w b t v))

/-- The vocabulary entry a 32-bit word selects (words below 32000 select themselves). -/
def sel (word : BitVec 32) : Fin 32000 := ⟨word.toNat % 32000, Nat.mod_lt _ (by norm_num)⟩

/-- The log-probability of the selected entry, row by row. -/
def ptlC (x : XArr) (w : WArr) (ids : IdArr) : RowArr :=
  fun i => ((lr x w (i 0) (i 1) (sel (ids i)) - lse x w (i 0) (i 1) : ℝ) : EReal)

/-- The mean over the vocabulary of a row's log-probabilities. -/
def rowC (x : XArr) (w : WArr) : RowArr :=
  fun i => (((∑ v : Fin 32000, lr x w (i 0) (i 1) v) / 32000 - lse x w (i 0) (i 1) : ℝ) : EReal)

/-- The mean of all `4 * 1024 * 32000` log-probabilities. -/
def lpmeanC (x : XArr) (w : WArr) : EReal :=
  (((∑ b : Fin 4, ∑ t : Fin 1024, ∑ v : Fin 32000, (lr x w b t v - lse x w b t)) / 131072000 : ℝ) : EReal)

/-- A logit of real entries is its real value. -/
theorem logit_eq_lr {x : XArr} {w : WArr} (hx : IsReal x) (hw : IsReal w) (b : Fin 4) (t : Fin 1024) (v : Fin 32000) :
    logit x w b t v = (lr x w b t v : EReal) := by
  unfold lr logit
  choose xr hxr using hx
  choose wr hwr using hw
  have : (∑ h : Fin 2048, x (ix3 b t h) * w (ix2 v h)) = ((∑ h : Fin 2048, xr (ix3 b t h) * wr (ix2 v h) : ℝ) : EReal) := by
    rw [show ((∑ h : Fin 2048, xr (ix3 b t h) * wr (ix2 v h) : ℝ) : EReal) = ∑ h : Fin 2048, ((xr (ix3 b t h) * wr (ix2 v h) : ℝ) : EReal) from by
      induction (Finset.univ : Finset (Fin 2048)) using Finset.induction_on with
      | empty => simp
      | insert a s ha ih => rw [Finset.sum_insert ha, Finset.sum_insert ha, EReal.coe_add, ih]]
    refine Finset.sum_congr rfl fun h _ => ?_
    rw [hxr, hwr, EReal.coe_mul]
  rw [this, EReal.toReal_coe]

/-- The mean of the row means is the mean of all log-probabilities: `(∑ rows ((∑ v l)/32000 - lse)) / 4096` is
    `(∑ rows ∑ v (l - lse)) / 131072000`. -/
theorem mean_rows (x : XArr) (w : WArr) :
    ((∑ b : Fin 4, ∑ t : Fin 1024, ((∑ v : Fin 32000, lr x w b t v) / 32000 - lse x w b t)) / 4096 : ℝ)
      = (∑ b : Fin 4, ∑ t : Fin 1024, ∑ v : Fin 32000, (lr x w b t v - lse x w b t)) / 131072000 := by
  have h : ∀ b t, (∑ v : Fin 32000, (lr x w b t v - lse x w b t)) = 32000 * ((∑ v : Fin 32000, lr x w b t v) / 32000 - lse x w b t) := by
    intro b t
    rw [Finset.sum_sub_distrib, Finset.sum_const, Finset.card_univ, Fintype.card_fin]
    simp only [nsmul_eq_mul]; push_cast; ring
  simp only [h, ← Finset.mul_sum]
  ring

end Cert.Spec

end
-- ==== Proof.KI.Row0.lean ====
/-
  One row of logits cut into 25 tiles of 1280: what the running quantities of the tiled computation are after all
  tiles. The running maximum plus the logarithm of the running sum is the logarithm of the sum of the exponentials of
  the whole row; the tiles' sums add up to the sum over the row; the one-hot sums pick the selected logit.
-/
import proofs.«417562_j59090160058697_3_alg».proof.Proof.Spec
import proofs.«417562_j59090160058697_3_alg».proof.Proof.LibOnlineSoftmax

noncomputable section

namespace Cert.KernelIdeal.Hand.R0

open Cert.Spec Cert.LibOnline

variable (x : XArr) (w : WArr) (b : Fin 4) (q : Fin 1024)

/-- The logits of row `(b, q)` along the natural numbers: zero past the vocabulary. -/
def lrN (n : ℕ) : ℝ := if h : n < 32000 then lr x w b q ⟨n, h⟩ else 0

theorem lrN_fin (v : Fin 32000) : lrN x w b q v.val = lr x w b q v := by
  unfold lrN
  rw [dif_pos v.isLt]

/-- The row cut into tiles of 1280: entry `k` of tile `j` is logit `1280 j + k`. -/
def tileF : ℕ → Fin 1280 → ℝ := fun j k => lrN x w b q (1280 * j + k.val)

/-- The sum of the logits of the first `n` tiles. -/
def sumA (n : ℕ) : ℝ := ∑ j ∈ Finset.range n, ∑ k : Fin 1280, tileF x w b q j k

/-- The one-hot sum over the first `n` tiles: the logit at vocabulary index `id` if those tiles hold it. -/
def sumE (id n : ℕ) : ℝ :=
  ∑ j ∈ Finset.range n, ∑ k : Fin 1280, (if 1280 * j + k.val = id then tileF x w b q j k else 0)

theorem sumA_zero : sumA x w b q 0 = 0 := by unfold sumA; simp
theorem sumE_zero (id : ℕ) : sumE x w b q id 0 = 0 := by unfold sumE; simp

theorem sumA_succ (n : ℕ) : sumA x w b q (n + 1) = sumA x w b q n + ∑ k : Fin 1280, tileF x w b q n k := by
  unfold sumA; rw [Finset.sum_range_succ]

theorem sumE_succ (id n : ℕ) :
    sumE x w b q id (n + 1) = sumE x w b q id n + ∑ k : Fin 1280, (if 1280 * n + k.val = id then tileF x w b q n k else 0) := by
  unfold sumE; rw [Finset.sum_range_succ]

/-- After the 25 tiles the running maximum plus the logarithm of the running sum is the logarithm of the sum of the
    exponentials of the row, whatever finite number the maximum started from. -/
theorem lse_tiles (m₀ : ℝ) :
    onlineM (tileF x w b q) m₀ 25 + Real.log (onlineS (tileF x w b q) m₀ 25) = lse x w b q := by
  rw [online_lse (tileF x w b q) m₀ (by norm_num : 0 < 25)]
  unfold lse tileF
  rw [sum_tiles (fun n => Real.exp (lrN x w b q n))]
  exact congrArg Real.log (Finset.sum_congr rfl fun v _ => by rw [lrN_fin])

/-- The 25 tiles' sums of logits add up to the sum over the row. -/
theorem sumA_all : sumA x w b q 25 = ∑ v : Fin 32000, lr x w b q v := by
  unfold sumA tileF
  rw [sum_tiles (lrN x w b q)]
  exact Finset.sum_congr rfl fun v _ => lrN_fin x w b q v

/-- The 25 tiles' one-hot sums pick the logit at the selected index. -/
theorem sumE_all {id : ℕ} (hid : id < 32000) : sumE x w b q id 25 = lr x w b q ⟨id, hid⟩ := by
  unfold sumE tileF
  rw [sum_onehot (lrN x w b q) hid]
  exact lrN_fin x w b q ⟨id, hid⟩

/-- A word below the vocabulary size selects its own number. -/
theorem sel_of_lt (word : BitVec 32) (h : word.toNat < 32000) : sel word = ⟨word.toNat, h⟩ :=
  Fin.ext (Nat.mod_eq_of_lt h)

end Cert.KernelIdeal.Hand.R0

end
-- ==== Proof.KI.Step0.lean ====
/-
  One grid point of the first kernel as a step of the tiled computation of a row. At point `t` (row tile `t / 25`,
  vocabulary tile `j = t % 25`), for real activations and a real projection matrix, the logits of row `(b, r)` of the
  block against the matrix tile are tile `j` of the logits of row `(b, 256 (t / 25) + r)`; so if the four running
  quantities of that row hold their values after `j` tiles, the point's updates hold the values after `j + 1` tiles, and
  after the last tile the two results are the row's log-probability of the selected entry and its mean log-probability.
-/
import proofs.«417562_j59090160058697_3_alg».proof.Proof.KI.Pay0R
import proofs.«417562_j59090160058697_3_alg».proof.Proof.KI.Blk0
import proofs.«417562_j59090160058697_3_alg».proof.Proof.KI.Row0

noncomputable section

namespace Cert.KernelIdeal.Hand.R0

open Cert.KernelIdeal Cert.KernelIdeal.Gen Idealize.ShloMosaic Idealize.ShloMosaic.TcCoe Idealize.ShloMosaic.ValueIdx
open Idealize.SL Idealize.SL.Sem
open Cert.Spec Cert.LibOnline

variable (V : (c : Dev nD) → (b : Ref sig .tc) → Buf (Elt Ideal) ((c : Thread nD τ).loc b))

/-- The tiles of the logits of the row of the arrays that row `(b, r)` of the blocks is at point `t`. -/
abbrev rowF (c : Dev nD) (t : Fin cfg0.N) (b : Fin 4) (r : Fin 256) : ℕ → Fin 1280 → ℝ :=
  tileF (xarr V c) (warr V c) b (rowOf t r)

/-- The number of the vocabulary entry selected for that row. -/
abbrev rowId (c : Dev nD) (t : Fin cfg0.N) (b : Fin 4) (r : Fin 256) : ℕ := (idarr V c (ix3 b (rowOf t r) 0)).toNat

/-- The block's logits are the current tile of the row's logits. -/
theorem tileLogit_blk (c : Dev nD) (hx : IsReal (xarr V c)) (hw : IsReal (warr V c)) (t : Fin cfg0.N)
    (b : Fin 4) (r : Fin 256) (k : Fin 1280) :
    tileLogit (xblk V c t) (wblk V c t) b r k = ((rowF V c t b r (t.val % 25) k : ℝ) : EReal) := by
  unfold tileLogit
  rw [show (∑ h : Fin 2048, xblk V c t (ix3 b r h) * wblk V c t (ix2 k h))
      = logit (xarr V c) (warr V c) b (rowOf t r) (vocOf t k) from
    Finset.sum_congr rfl fun h _ => by rw [xblk_apply, wblk_apply]]
  rw [logit_eq_lr hx hw]
  exact congrArg _ (lrN_fin (xarr V c) (warr V c) b (rowOf t r) (vocOf t k)).symm

/-- THE STEP: from the running quantities after `j` tiles to those after `j + 1`. -/
theorem step_scr (c : Dev nD) (hx : IsReal (xarr V c)) (hw : IsReal (warr V c)) (t : Fin cfg0.N) (j : ℕ) (hj : t.val % 25 = j)
    (b : Fin 4) (r : Fin 256) (xs0 xs1 xs2 xs3 : Vec Ideal S4x256x1 .f32)
    (h0 : xs0 (ix3 b r 0) = ((onlineM (rowF V c t b r) m0 j : ℝ) : EReal))
    (h1 : xs1 (ix3 b r 0) = ((onlineS (rowF V c t b r) m0 j : ℝ) : EReal))
    (h2 : xs2 (ix3 b r 0) = ((sumA (xarr V c) (warr V c) b (rowOf t r) j : ℝ) : EReal))
    (h3 : xs3 (ix3 b r 0) = ((sumE (xarr V c) (warr V c) b (rowOf t r) (rowId V c t b r) j : ℝ) : EReal)) :
    k0_pay2 (F := Ideal) (k0_pay14 (F := Ideal) (xblk V c t) (wblk V c t) xs0) (ix3 b r 0)
        = ((onlineM (rowF V c t b r) m0 (j + 1) : ℝ) : EReal)
    ∧ k0_pay1 (F := Ideal) (k0_pay12 (F := Ideal) (xblk V c t) (wblk V c t)) (k0_pay15 (F := Ideal) (xblk V c t) (wblk V c t) xs0 xs0 xs1)
          (k0_pay16 (F := Ideal) (xblk V c t) (wblk V c t) xs0) (ix3 b r 0)
        = ((onlineS (rowF V c t b r) m0 (j + 1) : ℝ) : EReal)
    ∧ k0_pay3 (F := Ideal) (k0_pay12 (F := Ideal) (xblk V c t) (wblk V c t)) xs2 (ix3 b r 0)
        = ((sumA (xarr V c) (warr V c) b (rowOf t r) (j + 1) : ℝ) : EReal)
    ∧ k0_pay4 (F := Ideal) (k0_pay13 (F := Ideal) (grid0.coords t) (xblk V c t) (wblk V c t) (idblk V c t)) xs3 (ix3 b r 0)
        = ((sumE (xarr V c) (warr V c) b (rowOf t r) (rowId V c t b r) (j + 1) : ℝ) : EReal) := by
  have hl : ∀ k, tileLogit (xblk V c t) (wblk V c t) b r k = ((rowF V c t b r j k : ℝ) : EReal) := fun k => by
    rw [tileLogit_blk V c hx hw t b r k, hj]
  have hv : j < 25 := by rw [← hj]; exact Nat.mod_lt _ (by norm_num)
  have hi : (grid0.coords t 1).val = j := by rw [← hj]; exact (idx_facts0 t).2.2.2.2.2.2.2.2.2.2.2.2
  refine ⟨?_, ?_, ?_, ?_⟩
  · exact newM_real (xblk V c t) (wblk V c t) b r (rowF V c t b r j) hl xs0 _ h0
  · exact newS_real (xblk V c t) (wblk V c t) b r (rowF V c t b r j) hl xs0 xs0 xs1 _ _ h0 h0 h1
  · rw [sumA_succ]
    exact newA_real (xblk V c t) (wblk V c t) b r (rowF V c t b r j) hl xs2 _ h2
  · rw [sumE_succ]
    refine (newE_real (xblk V c t) (wblk V c t) b r (rowF V c t b r j) hl (grid0.coords t) j hi hv (idblk V c t) xs3 _ h3).trans ?_
    rw [idblk_apply]

/-- THE FIRST RESULT after the last tile: the row's log-probability of its selected entry. -/
theorem out_scr3 (c : Dev nD) (t : Fin cfg0.N) (b : Fin 4) (r : Fin 256) (hid : rowId V c t b r < 32000)
    (n0 n1 n3 : Vec Ideal S4x256x1 .f32)
    (h0 : n0 (ix3 b r 0) = ((onlineM (rowF V c t b r) m0 25 : ℝ) : EReal))
    (h1 : n1 (ix3 b r 0) = ((onlineS (rowF V c t b r) m0 25 : ℝ) : EReal))
    (h3 : n3 (ix3 b r 0) = ((sumE (xarr V c) (warr V c) b (rowOf t r) (rowId V c t b r) 25 : ℝ) : EReal)) :
    k0_pay6 (F := Ideal) n0 n1 n3 (ix2 b r)
        = ptlC (xarr V c) (warr V c) (fun i => idarr V c (ix3 (i 0) (i 1) 0)) (ix2 b (rowOf t r)) := by
  have hpos : 0 < onlineS (rowF V c t b r) m0 25 := onlineS_pos _ _ (by norm_num)
  rw [out3_real b r n0 n1 n3 _ _ _ h0 h1 hpos h3, sumE_all _ _ _ _ hid, lse_tiles]
  show _ = ((lr (xarr V c) (warr V c) b (rowOf t r) (sel (idarr V c (ix3 b (rowOf t r) 0))) - lse (xarr V c) (warr V c) b (rowOf t r) : ℝ) : EReal)
  rw [sel_of_lt _ hid]

/-- THE SECOND RESULT after the last tile: the row's mean log-probability. -/
theorem out_scr4 (c : Dev nD) (t : Fin cfg0.N) (b : Fin 4) (r : Fin 256)
    (n0 n1 n2 : Vec Ideal S4x256x1 .f32)
    (h0 : n0 (ix3 b r 0) = ((onlineM (rowF V c t b r) m0 25 : ℝ) : EReal))
    (h1 : n1 (ix3 b r 0) = ((onlineS (rowF V c t b r) m0 25 : ℝ) : EReal))
    (h2 : n2 (ix3 b r 0) = ((sumA (xarr V c) (warr V c) b (rowOf t r) 25 : ℝ) : EReal)) :
    k0_pay7 (F := Ideal) n0 n1 n2 (ix2 b r) = rowC (xarr V c) (warr V c) (ix2 b (rowOf t r)) := by
  have hpos : 0 < onlineS (rowF V c t b r) m0 25 := onlineS_pos _ _ (by norm_num)
  rw [out4_real b r n0 n1 n2 _ _ _ h0 h1 hpos h2, sumA_all, lse_tiles]
  show _ = (((∑ v : Fin 32000, lr (xarr V c) (warr V c) b (rowOf t r) v) / 32000 - lse (xarr V c) (warr V c) b (rowOf t r) : ℝ) : EReal)
  rw [mul_one_div]

end Cert.KernelIdeal.Hand.R0

end
-- ==== Proof.KI.Val0b.lean ====
/-
  The invariant of the first kernel's grid: after point `n` (row tile `n / 25`, vocabulary tile `n % 25`), for real
  activations and a real projection matrix, the four scratch operands hold, at row `(b, r)`, the running maximum, the
  running sum of exponentials, the running sum of logits and the running selected logit of row `(b, 256 (n / 25) + r)`
  of the arrays after `n % 25 + 1` tiles. By induction on the point: a first tile starts from the reset values, every
  other tile from what the point before left. At a last tile the two output blocks hold the row's results.
-/
import proofs.«417562_j59090160058697_3_alg».proof.Proof.KI.Val0a
import proofs.«417562_j59090160058697_3_alg».proof.Proof.KI.Step0

set_option maxRecDepth 16384

noncomputable section

namespace Cert.KernelIdeal.Hand.R0

open Cert.KernelIdeal Cert.KernelIdeal.Gen
open Idealize.ShloMosaic Idealize.ShloMosaic.TcCoe Idealize.ShloMosaic.ValueIdx
open Idealize.SL Idealize.SL.Sem
open Cert.Spec Cert.LibOnline

variable (V : (c : Dev nD) → (b : Ref sig .tc) → Buf (Elt Ideal) ((c : Thread nD τ).loc b))

/-- The four scratch operands hold the running quantities, after `j` tiles, of the rows of row tile `T`. -/
def ScrAt (c : Dev nD) (T j : ℕ) (s0 s1 s2 s3 : Vec Ideal S4x256x1 .f32) : Prop :=
  ∀ (b : Fin 4) (r : Fin 256) (q : Fin 1024), q.val = 256 * T + r.val →
    s0 (ix3 b r 0) = ((onlineM (tileF (xarr V c) (warr V c) b q) m0 j : ℝ) : EReal)
    ∧ s1 (ix3 b r 0) = ((onlineS (tileF (xarr V c) (warr V c) b q) m0 j : ℝ) : EReal)
    ∧ s2 (ix3 b r 0) = ((sumA (xarr V c) (warr V c) b q j : ℝ) : EReal)
    ∧ s3 (ix3 b r 0) = ((sumE (xarr V c) (warr V c) b q (idarr V c (ix3 b q 0)).toNat j : ℝ) : EReal)

/-- The reset values are the running quantities after no tile. -/
theorem ScrAt_reset (c : Dev nD) (T : ℕ) :
    ScrAt V c T 0 (k0_pay8 (F := Ideal)) (k0_pay9 (F := Ideal)) (k0_pay10 (F := Ideal)) (k0_pay11 (F := Ideal)) := by
  intro b r q _
  refine ⟨pay8_apply _, ?_, ?_, ?_⟩
  · rw [pay9_apply]; rfl
  · rw [pay10_apply, sumA_zero]; rfl
  · rw [pay11_apply, sumE_zero]; rfl

/-- One point's updates carry the running quantities from `t % 25` tiles to `t % 25 + 1`. -/
theorem ScrAt_step (c : Dev nD) (hx : IsReal (xarr V c)) (hw : IsReal (warr V c)) (t : Fin cfg0.N)
    (xs0 xs1 xs2 xs3 : Vec Ideal S4x256x1 .f32) (h : ScrAt V c (t.val / 25) (t.val % 25) xs0 xs1 xs2 xs3) :
    ScrAt V c (t.val / 25) (t.val % 25 + 1)
      (k0_pay2 (F := Ideal) (k0_pay14 (F := Ideal) (xblk V c t) (wblk V c t) xs0))
      (k0_pay1 (F := Ideal) (k0_pay12 (F := Ideal) (xblk V c t) (wblk V c t)) (k0_pay15 (F := Ideal) (xblk V c t) (wblk V c t) xs0 xs0 xs1)
        (k0_pay16 (F := Ideal) (xblk V c t) (wblk V c t) xs0))
      (k0_pay3 (F := Ideal) (k0_pay12 (F := Ideal) (xblk V c t) (wblk V c t)) xs2)
      (k0_pay4 (F := Ideal) (k0_pay13 (F := Ideal) (grid0.coords t) (xblk V c t) (wblk V c t) (idblk V c t)) xs3) := by
  intro b r q hq
  obtain rfl : q = rowOf t r := Fin.ext hq
  obtain ⟨h0, h1, h2, h3⟩ := h b r (rowOf t r) rfl
  exact step_scr V c hx hw t (t.val % 25) rfl b r xs0 xs1 xs2 xs3 h0 h1 h2 h3

/-- The point before `t`, whose scratch a point that is not a first tile starts from. -/
abbrev prevOuts (c : Dev nD) (t : Fin cfg0.N) :=
  outsAt0 V c (t.val - 1) (Nat.lt_of_le_of_lt (Nat.sub_le _ _) t.isLt)

/-- A first vocabulary tile leaves the running quantities after one tile. -/
theorem inv_first (c : Dev nD) (hx : IsReal (xarr V c)) (hw : IsReal (warr V c)) (t : Fin cfg0.N) (h0 : t.val % 25 = 0) :
    ScrAt V c (t.val / 25) (t.val % 25 + 1) (outsAt0 V c t.val t.isLt).2.2.1 (outsAt0 V c t.val t.isLt).2.2.2.1
      (outsAt0 V c t.val t.isLt).2.2.2.2.1 (outsAt0 V c t.val t.isLt).2.2.2.2.2 := by
  obtain ⟨e0, e1, e2, e3⟩ := outsAt0_A_eq V c t h0 (by omega)
  rw [e0, e1, e2, e3]
  have hr : ScrAt V c (t.val / 25) (t.val % 25) (k0_pay8 (F := Ideal)) (k0_pay9 (F := Ideal)) (k0_pay10 (F := Ideal)) (k0_pay11 (F := Ideal)) := by
    rw [h0]; exact ScrAt_reset V c _
  exact ScrAt_step V c hx hw t _ _ _ _ hr

/-- Any other vocabulary tile carries what the point before left one tile further. -/
theorem inv_next (c : Dev nD) (hx : IsReal (xarr V c)) (hw : IsReal (warr V c)) (t : Fin cfg0.N) (h0 : ¬t.val % 25 = 0)
    (ih : ScrAt V c (t.val / 25) (t.val % 25) (prevOuts V c t).2.2.1 (prevOuts V c t).2.2.2.1 (prevOuts V c t).2.2.2.2.1
      (prevOuts V c t).2.2.2.2.2) :
    ScrAt V c (t.val / 25) (t.val % 25 + 1) (outsAt0 V c t.val t.isLt).2.2.1 (outsAt0 V c t.val t.isLt).2.2.2.1
      (outsAt0 V c t.val t.isLt).2.2.2.2.1 (outsAt0 V c t.val t.isLt).2.2.2.2.2 := by
  by_cases h1 : t.val % 25 = 24
  · obtain ⟨-, -, e0, e1, e2, e3⟩ := outsAt0_C_eq V c t h0 h1
    rw [e0, e1, e2, e3]
    exact ScrAt_step V c hx hw t _ _ _ _ ih
  · obtain ⟨e0, e1, e2, e3⟩ := outsAt0_B_eq V c t h0 h1
    rw [e0, e1, e2, e3]
    exact ScrAt_step V c hx hw t _ _ _ _ ih

/-- THE INVARIANT, by induction on the point. -/
theorem scr_inv (c : Dev nD) (hx : IsReal (xarr V c)) (hw : IsReal (warr V c)) : ∀ (n : ℕ) (hn : n < cfg0.N),
    ScrAt V c (n / 25) (n % 25 + 1) (outsAt0 V c n hn).2.2.1 (outsAt0 V c n hn).2.2.2.1 (outsAt0 V c n hn).2.2.2.2.1
      (outsAt0 V c n hn).2.2.2.2.2
  | 0, hn => inv_first V c hx hw ⟨0, hn⟩ rfl
  | n + 1, hn => by
    by_cases h0 : (n + 1) % 25 = 0
    · exact inv_first V c hx hw ⟨n + 1, hn⟩ h0
    · have ih := scr_inv c hx hw n (Nat.lt_of_succ_lt hn)
      have eT : n / 25 = (n + 1) / 25 := by omega
      have ej : n % 25 + 1 = (n + 1) % 25 := by omega
      rw [eT, ej] at ih
      exact inv_next V c hx hw ⟨n + 1, hn⟩ h0 ih

/-- THE FIRST RESULT: at a last vocabulary tile the first output block holds, at row `(b, r)`, the log-probability of
    the selected entry of row `(b, 256 (t / 25) + r)`. -/
theorem out3_at (c : Dev nD) (hx : IsReal (xarr V c)) (hw : IsReal (warr V c))
    (hid : ∀ i, (idarr V c i).toNat < 32000) (t : Fin cfg0.N) (h24 : t.val % 25 = 24) (b : Fin 4) (r : Fin 256) :
    (outsAt0 V c t.val t.isLt).1 (ix2 b r)
        = ptlC (xarr V c) (warr V c) (fun i => idarr V c (ix3 (i 0) (i 1) 0)) (ix2 b (rowOf t r)) := by
  obtain ⟨o3, -, e0, e1, e2, e3⟩ := outsAt0_C_eq V c t (by omega) h24
  have hs := scr_inv V c hx hw t.val t.isLt b r (rowOf t r) rfl
  rw [e0, e1, e2, e3, h24] at hs
  obtain ⟨h0, h1, -, h3⟩ := hs
  rw [o3]
  exact out_scr3 V c t b r (hid _) _ _ _ h0 h1 h3

/-- THE SECOND RESULT: there the second output block holds the mean log-probability of that row. -/
theorem out4_at (c : Dev nD) (hx : IsReal (xarr V c)) (hw : IsReal (warr V c))
    (t : Fin cfg0.N) (h24 : t.val % 25 = 24) (b : Fin 4) (r : Fin 256) :
    (outsAt0 V c t.val t.isLt).2.1 (ix2 b r) = rowC (xarr V c) (warr V c) (ix2 b (rowOf t r)) := by
  obtain ⟨-, o4, e0, e1, e2, e3⟩ := outsAt0_C_eq V c t (by omega) h24
  have hs := scr_inv V c hx hw t.val t.isLt b r (rowOf t r) rfl
  rw [e0, e1, e2, e3, h24] at hs
  obtain ⟨h0, h1, h2, -⟩ := hs
  rw [o4]
  exact out_scr4 V c t b r _ _ _ h0 h1 h2

end Cert.KernelIdeal.Hand.R0

end
-- ==== Proof.KI.Val0c.lean ====
/-
  The two result arrays of the first kernel after its 100 grid points. The output blocks are written back only at the
  last vocabulary tile of each row tile, point `25 T + 24`; there each holds, row by row, the results of rows
  `256 T .. 256 T + 255` of every batch; the four row tiles cover the 1024 rows. So, for real activations, a real
  projection matrix and selected entries below the vocabulary size, the first array ends holding every row's
  log-probability of its selected entry and the second every row's mean log-probability.
-/
import proofs.«417562_j59090160058697_3_alg».proof.Proof.KI.Val0b

set_option maxRecDepth 16384

noncomputable section

namespace Cert.KernelIdeal.Hand.R0

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec

variable (V : (c : Dev nD) → (b : Ref sig .tc) → Buf (Elt Ideal) ((c : Thread nD τ).loc b))

/-- Row `(b, r)` of an output block at point `t` is row `(b, 256 (t / 25) + r)` of its array. -/
theorem emb3 (t : Fin cfg0.N) (b : Fin 4) (r : Fin 256) : ((cfg0.win 3).blk t).view.emb (ix2 b r) = ix2 b (rowOf t r) := by
  obtain ⟨-, -, -, -, -, -, -, -, e0, e1, -⟩ := idx_facts0 t
  refine funext fun a => Fin.ext ?_
  match a with
  | ⟨0, _⟩ => show win0_3.index t (0 : Fin 2) * 4 + 1 * b.val = b.val; omega
  | ⟨1, _⟩ => show win0_3.index t (1 : Fin 2) * 256 + 1 * r.val = 256 * (t.val / 25) + r.val; omega

theorem emb4 (t : Fin cfg0.N) (b : Fin 4) (r : Fin 256) : ((cfg0.win 4).blk t).view.emb (ix2 b r) = ix2 b (rowOf t r) := by
  obtain ⟨-, -, -, -, -, -, -, -, -, -, e0, e1, -⟩ := idx_facts0 t
  refine funext fun a => Fin.ext ?_
  match a with
  | ⟨0, _⟩ => show win0_4.index t (0 : Fin 2) * 4 + 1 * b.val = b.val; omega
  | ⟨1, _⟩ => show win0_4.index t (1 : Fin 2) * 256 + 1 * r.val = 256 * (t.val / 25) + r.val; omega

/-- What a writing-back point writes into the first array is its block of the rows' log-probabilities of the selected entries. -/
theorem flushed3_eq (c : Dev nD) (hx : IsReal (xarr V c)) (hw : IsReal (warr V c)) (hid : ∀ i, (idarr V c i).toNat < 32000)
    (t : Fin cfg0.N) (hf : (cfg0.win 3).flush t = true) :
    (dat0 V c).flushed 3 t
      = ((cfg0.win 3).blk t).view.read (Elt Ideal) (ptlC (xarr V c) (warr V c) (fun i => idarr V c (ix3 (i 0) (i 1) 0))) := by
  have h24 : t.val % 25 = 24 := (flush0_3 t).mp hf
  show (cfg0.win 3).cut (grid0.coords t) ((dat0 V c).after 3 t) = _
  rw [after0_3]
  funext y
  obtain ⟨b, r, rfl⟩ : ∃ (b : Fin 4) (r : Fin 256), y = ix2 b r := ⟨y 0, y 1, eq_ix2 y⟩
  show (outsAt0 V c t.val t.isLt).1 (ix2 b r)
    = ptlC (xarr V c) (warr V c) (fun i => idarr V c (ix3 (i 0) (i 1) 0)) (((cfg0.win 3).blk t).view.emb (ix2 b r))
  rw [emb3]
  exact out3_at V c hx hw hid t h24 b r

/-- What a writing-back point writes into the second array is its block of the rows' mean log-probabilities. -/
theorem flushed4_eq (c : Dev nD) (hx : IsReal (xarr V c)) (hw : IsReal (warr V c))
    (t : Fin cfg0.N) (hf : (cfg0.win 4).flush t = true) :
    (dat0 V c).flushed 4 t = ((cfg0.win 4).blk t).view.read (Elt Ideal) (rowC (xarr V c) (warr V c)) := by
  have h24 : t.val % 25 = 24 := (flush0_4 t).mp hf
  show (cfg0.win 4).cut (grid0.coords t) ((dat0 V c).after 4 t) = _
  rw [after0_4]
  funext y
  obtain ⟨b, r, rfl⟩ : ∃ (b : Fin 4) (r : Fin 256), y = ix2 b r := ⟨y 0, y 1, eq_ix2 y⟩
  show (outsAt0 V c t.val t.isLt).2.1 (ix2 b r) = rowC (xarr V c) (warr V c) (((cfg0.win 4).blk t).view.emb (ix2 b r))
  rw [emb4]
  exact out4_at V c hx hw t h24 b r

/-- An index of an output array is in point `t`'s block iff each coordinate is in the block's range on its axis. -/
theorem mem_blk3 (t : Fin cfg0.N) (i : S4x1024.Idx) :
    i ∈ ((cfg0.win 3).blk t).view.set ↔ ∀ a : Fin 2, win0_3.index t a * S4x256.size a ≤ (i a).val ∧ (i a).val < win0_3.index t a * S4x256.size a + S4x256.size a := by
  show i ∈ ((View.whole main_v3_0).slice (win0_3.rect t)).set ↔ _
  rw [View.set_slice_whole, Rect.mem_set_unit]
  exact Iff.rfl

theorem mem_blk4 (t : Fin cfg0.N) (i : S4x1024.Idx) :
    i ∈ ((cfg0.win 4).blk t).view.set ↔ ∀ a : Fin 2, win0_4.index t a * S4x256.size a ≤ (i a).val ∧ (i a).val < win0_4.index t a * S4x256.size a + S4x256.size a := by
  show i ∈ ((View.whole main_v3_1).slice (win0_4.rect t)).set ↔ _
  rw [View.set_slice_whole, Rect.mem_set_unit]
  exact Iff.rfl

/-- The point that writes back row `q`: the last vocabulary tile of row tile `q / 256`. -/
abbrev ptOf (i : S4x1024.Idx) : Fin cfg0.N :=
  ⟨25 * ((i 1).val / 256) + 24, by
    have h1 : (i 1).val < 1024 := (i 1).isLt
    show _ < grid0.N
    rw [N_0]; omega⟩

theorem cover3 (i : S4x1024.Idx) : ∃ t : Fin cfg0.N, (cfg0.win 3).flush t = true ∧ i ∈ ((cfg0.win 3).blk t).view.set := by
  have h0 : (i 0).val < 4 := (i 0).isLt
  have h1 : (i 1).val < 1024 := (i 1).isLt
  refine ⟨ptOf i, (flush0_3 _).mpr (by show (25 * ((i 1).val / 256) + 24) % 25 = 24; omega), ?_⟩
  rw [mem_blk3]
  obtain ⟨-, -, -, -, -, -, -, -, e0, e1, -⟩ := idx_facts0 (ptOf i)
  have ev : (ptOf i).val / 25 = (i 1).val / 256 := by show (25 * ((i 1).val / 256) + 24) / 25 = _; omega
  intro a
  match a with
  | ⟨0, _⟩ => show win0_3.index (ptOf i) (0 : Fin 2) * 4 ≤ (i 0).val ∧ (i 0).val < win0_3.index (ptOf i) (0 : Fin 2) * 4 + 4; omega
  | ⟨1, _⟩ => show win0_3.index (ptOf i) (1 : Fin 2) * 256 ≤ (i 1).val ∧ (i 1).val < win0_3.index (ptOf i) (1 : Fin 2) * 256 + 256; omega

theorem cover4 (i : S4x1024.Idx) : ∃ t : Fin cfg0.N, (cfg0.win 4).flush t = true ∧ i ∈ ((cfg0.win 4).blk t).view.set := by
  have h0 : (i 0).val < 4 := (i 0).isLt
  have h1 : (i 1).val < 1024 := (i 1).isLt
  refine ⟨ptOf i, (flush0_4 _).mpr (by show (25 * ((i 1).val / 256) + 24) % 25 = 24; omega), ?_⟩
  rw [mem_blk4]
  obtain ⟨-, -, -, -, -, -, -, -, -, -, e0, e1, -⟩ := idx_facts0 (ptOf i)
  have ev : (ptOf i).val / 25 = (i 1).val / 256 := by show (25 * ((i 1).val / 256) + 24) / 25 = _; omega
  intro a
  match a with
  | ⟨0, _⟩ => show win0_4.index (ptOf i) (0 : Fin 2) * 4 ≤ (i 0).val ∧ (i 0).val < win0_4.index (ptOf i) (0 : Fin 2) * 4 + 4; omega
  | ⟨1, _⟩ => show win0_4.index (ptOf i) (1 : Fin 2) * 256 ≤ (i 1).val ∧ (i 1).val < win0_4.index (ptOf i) (1 : Fin 2) * 256 + 256; omega

end Cert.KernelIdeal.Hand.R0

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The first result array after the region: every row's log-probability of its selected entry. -/
theorem final0_3 (V : (c : Dev nD) → (b : Ref sig .tc) → Buf (Elt Ideal) ((c : Thread nD τ).loc b)) (c : Dev nD)
    (hx : Cert.Spec.IsReal (V c main_v1)) (hw : Cert.Spec.IsReal (V c main_v2)) (hid : ∀ i, (V c main_v0 i).toNat < 32000) :
    (dat0 (F := Ideal) V c).arrAt 3 cfg0.N
      = Cert.Spec.ptlC (V c main_v1) (V c main_v2) (fun i => V c main_v0 (ix3 (i 0) (i 1) 0)) :=
  (dat0 V c).arrAt_eq_of_cover 3 _ (fun t hf => R0.flushed3_eq V c hx hw hid t hf) R0.cover3

/-- The second result array after the region: every row's mean log-probability. -/
theorem final0_4 (V : (c : Dev nD) → (b : Ref sig .tc) → Buf (Elt Ideal) ((c : Thread nD τ).loc b)) (c : Dev nD)
    (hx : Cert.Spec.IsReal (V c main_v1)) (hw : Cert.Spec.IsReal (V c main_v2)) :
    (dat0 (F := Ideal) V c).arrAt 4 cfg0.N = Cert.Spec.rowC (V c main_v1) (V c main_v2) :=
  (dat0 V c).arrAt_eq_of_cover 4 _ (fun t hf => R0.flushed4_eq V c hx hw t hf) R0.cover4

end Cert.KernelIdeal.Hand

end
-- ==== Proof.KI.Pay1.lean ====
import proofs.«417562_j59090160058697_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«417562_j59090160058697_3_alg».proof.Proof.LibOnlineSoftmax

noncomputable section

namespace Cert.KernelIdeal.Hand

open Cert.KernelIdeal Cert.KernelIdeal.Gen
open Idealize.ShloMosaic Idealize.ShloMosaic.ValueIdx

/-! # The arithmetic of one grid point of the second kernel, entry by entry, over the extended reals

A block of activations `x` is `[4, 256, 2048]`, a tile of the projection matrix `w` is `[1280, 2048]`; the logits of
the tile are the `4 · 256 · 1280` inner products. Per row `(b, r)` the point updates a running maximum, a running sum
of exponentials and a running selected logit, each a `[4, 256, 1]` column. -/

/-! ## The product -/

theorem lhs_mm_0 (i : S1024x1280.Idx) (q : dot_S1024x2048_S1280x2048_S1024x1280_1_1_0_0_n_n.contr.Idx) :
    (dot_S1024x2048_S1280x2048_S1024x1280_1_1_0_0_n_n.lhsIdx i q 0).val = (i 0).val := by
  unfold DotDims.lhsIdx
  rw [dif_neg (show ¬(0 : Fin S1024x2048.rank) ∈ dot_S1024x2048_S1280x2048_S1024x1280_1_1_0_0_n_n.lhsBatch by decide), dif_pos (show (0 : Fin S1024x2048.rank) ∈ dot_S1024x2048_S1280x2048_S1024x1280_1_1_0_0_n_n.lhsNonContracting by decide)]
  rfl
theorem lhs_mm_1 (i : S1024x1280.Idx) (q : dot_S1024x2048_S1280x2048_S1024x1280_1_1_0_0_n_n.contr.Idx) :
    (dot_S1024x2048_S1280x2048_S1024x1280_1_1_0_0_n_n.lhsIdx i q 1).val = (q ⟨0, by decide⟩).val :=
  dot_S1024x2048_S1280x2048_S1024x1280_1_1_0_0_n_n.lhsIdx_val_of_single rfl i q
theorem rhs_mm_0 (i : S1024x1280.Idx) (q : dot_S1024x2048_S1280x2048_S1024x1280_1_1_0_0_n_n.contr.Idx) :
    (dot_S1024x2048_S1280x2048_S1024x1280_1_1_0_0_n_n.rhsIdx i q 0).val = (i 1).val := by
  unfold DotDims.rhsIdx
  rw [dif_neg (show ¬(0 : Fin S1280x2048.rank) ∈ dot_S1024x2048_S1280x2048_S1024x1280_1_1_0_0_n_n.rhsBatch by decide), dif_pos (show (0 : Fin S1280x2048.rank) ∈ dot_S1024x2048_S1280x2048_S1024x1280_1_1_0_0_n_n.rhsNonContracting by decide)]
  rfl
theorem rhs_mm_1 (i : S1024x1280.Idx) (q : dot_S1024x2048_S1280x2048_S1024x1280_1_1_0_0_n_n.contr.Idx) :
    (dot_S1024x2048_S1280x2048_S1024x1280_1_1_0_0_n_n.rhsIdx i q 1).val = (q ⟨0, by decide⟩).val :=
  dot_S1024x2048_S1280x2048_S1024x1280_1_1_0_0_n_n.rhsIdx_val_of_single rfl i q

/-- The `[1024, 2048] × [1280, 2048]` product into a zero accumulator, at `(a, k)`: the inner product of row `a` of the
    left operand with row `k` of the right one. -/
theorem mm_apply (L : FVec Ideal S1024x2048 .bf16) (R : FVec Ideal S1280x2048 .bf16) (a : Fin 1024) (k : Fin 1280) :
    matmul dot_S1024x2048_S1280x2048_S1024x1280_1_1_0_0_n_n none L R (constant (F := Ideal) S1024x1280 .f32 0x00000000#32) (ix2 a k)
      = ∑ h : Fin 2048, L (ix2 a h) * R (ix2 k h) := by
  simp only [matmul]
  rw [Ideal.matmul_constant_zero_apply, ← Equiv.sum_comp (ValueIdx.contrEquiv1 dot_S1024x2048_S1280x2048_S1024x1280_1_1_0_0_n_n 2048 rfl rfl).symm]
  refine Finset.sum_congr rfl fun h _ => ?_
  have hk := ValueIdx.contrEquiv1_symm_val dot_S1024x2048_S1280x2048_S1024x1280_1_1_0_0_n_n 2048 rfl rfl h
  have el : dot_S1024x2048_S1280x2048_S1024x1280_1_1_0_0_n_n.lhsIdx (ix2 a k) ((ValueIdx.contrEquiv1 dot_S1024x2048_S1280x2048_S1024x1280_1_1_0_0_n_n 2048 rfl rfl).symm h) = ix2 a h := funext fun ax => Fin.ext (by
    match ax with
    | ⟨0, _⟩ => exact lhs_mm_0 _ _
    | ⟨1, _⟩ => exact (lhs_mm_1 _ _).trans hk)
  have er : dot_S1024x2048_S1280x2048_S1024x1280_1_1_0_0_n_n.rhsIdx (ix2 a k) ((ValueIdx.contrEquiv1 dot_S1024x2048_S1280x2048_S1024x1280_1_1_0_0_n_n 2048 rfl rfl).symm h) = ix2 k h := funext fun ax => Fin.ext (by
    match ax with
    | ⟨0, _⟩ => exact rhs_mm_0 _ _
    | ⟨1, _⟩ => exact (rhs_mm_1 _ _).trans hk)
  rw [el, er]

/-- Row `(b, r)` of the block is row `256 b + r` of the flattened block. -/
def flatRow (b : Fin 4) (r : Fin 256) : Fin 1024 := ⟨256 * b.val + r.val, by have := b.isLt; have := r.isLt; omega⟩

/-- The logits of the point at `(b, r, k)`: the inner product of row `(b, r)` of the block of activations with row `k`
    of the tile of the projection matrix. -/
theorem pay8_apply (x : FVec Ideal S4x256x2048 .bf16) (w : FVec Ideal S1280x2048 .bf16) (b : Fin 4) (r : Fin 256) (k : Fin 1280) :
    k1_pay8 (F := Ideal) x w (ix3 b r k) = ∑ h : Fin 2048, x (ix3 b r h) * w (ix2 k h) := by
  unfold k1_pay8
  refine (shapeCast_apply _ _ (ix3 b r k) (ix2 (flatRow b r) k) (by
    rw [Shape.rowMajor_val_three, Shape.rowMajor_val_two]
    show (256 * b.val + r.val) * 1280 + k.val = (b.val * 256 + r.val) * 1280 + k.val
    rw [Nat.mul_comm 256 b.val])).trans ?_
  refine (mm_apply _ _ (flatRow b r) k).trans ?_
  refine Finset.sum_congr rfl fun h _ => ?_
  rw [shapeCast_self, shapeCast_self]
  refine congrArg (· * w (ix2 k h)) ?_
  exact shapeCast_apply _ _ (ix2 (flatRow b r) h) (ix3 b r h) (by
    rw [Shape.rowMajor_val_three, Shape.rowMajor_val_two]
    show (b.val * 256 + r.val) * 2048 + h.val = (256 * b.val + r.val) * 2048 + h.val
    rw [Nat.mul_comm 256 b.val])

/-! ## Reductions along the tile, and the column forms of a `[4, 256]` array -/

/-- The sum along the tile's axis, at row `(b, r)`. -/
theorem sumLanes_apply (v : FVec Ideal S4x256x1280 .f32) (hφ : FKind.Formats .f32)
    (hacc : (0x00000000#32 : BitVec 32) = FKind.add.neutral .f32 hφ) (b : Fin 4) (r : Fin 256) :
    multiReduction .add [2] S4x256 v 0x00000000#32 Facts₀.reduces_S4x256x1280_S4x256 hφ hacc (ix2 b r)
      = ∑ k : Fin 1280, v (ix3 b r k) := by
  refine (Ideal.multiReduction_add_single v _ Facts₀.reduces_S4x256x1280_S4x256 hφ hacc (ix2 b r)).trans ?_
  refine Finset.sum_congr rfl fun k _ => congrArg v ?_
  funext c
  match c with
  | ⟨0, _⟩ => rfl
  | ⟨1, _⟩ => rfl
  | ⟨2, _⟩ => rfl

/-- The pattern of negative infinity denotes the bottom of the extended reals. -/
theorem ofBits_neg_inf : Ideal.ofBits .f32 0xFF800000#32 = (⊥ : EReal) := by
  simp [Ideal.ofBits, Ideal.ieee]

/-- The maximum along the tile's axis, at row `(b, r)`: the fold of `max` from the bottom. -/
theorem maxLanes_apply (v : FVec Ideal S4x256x1280 .f32) (hφ : FKind.Formats .f32)
    (hacc : (0xFF800000#32 : BitVec 32) = FKind.maximumf.neutral .f32 hφ) (b : Fin 4) (r : Fin 256) :
    multiReduction .maximumf [2] S4x256 v 0xFF800000#32 Facts₀.reduces_S4x256x1280_S4x256 hφ hacc (ix2 b r)
      = (Finset.univ : Finset (Fin 1280)).fold max (⊥ : EReal) (fun k => v (ix3 b r k)) := by
  refine (Ideal.multiReduction_maximumf_single v _ Facts₀.reduces_S4x256x1280_S4x256 hφ hacc (ix2 b r)).trans ?_
  rw [Ideal.ofBits_def, ofBits_neg_inf]
  refine congrArg (Finset.fold max (⊥ : EReal) · (Finset.univ : Finset (Fin 1280))) ?_
  funext k
  refine congrArg v ?_
  funext c
  match c with
  | ⟨0, _⟩ => rfl
  | ⟨1, _⟩ => rfl
  | ⟨2, _⟩ => rfl

variable {α : Type}

/-- A `[4, 256]` array seen as a `[4, 256, 1]` column reads, at `(b, r, u)`, the array at `(b, r)`. -/
theorem col_apply (v : S4x256.Idx → α) (h : S4x256.ShapeCasts S4x256x1) (b : Fin 4) (r : Fin 256) (u : Fin 1) :
    shapeCast S4x256x1 v h (ix3 b r u) = v (ix2 b r) :=
  shapeCast_apply v h _ _ (by
    have hu : u.val = 0 := by omega
    rw [Shape.rowMajor_val_three, Shape.rowMajor_val_two]
    show b.val * 256 + r.val = (b.val * 256 + r.val) * 1 + u.val
    rw [hu, Nat.mul_one, Nat.add_zero])

/-- A `[4, 256, 1]` column seen as a `[4, 256]` array reads, at `(b, r)`, the column at `(b, r, 0)`. -/
theorem uncol_apply (v : S4x256x1.Idx → α) (h : S4x256x1.ShapeCasts S4x256) (b : Fin 4) (r : Fin 256) :
    shapeCast S4x256 v h (ix2 b r) = v (ix3 b r (0 : Fin 1)) :=
  shapeCast_apply v h _ _ (by
    rw [Shape.rowMajor_val_three, Shape.rowMajor_val_two]
    show (b.val * 256 + r.val) * 1 + 0 = b.val * 256 + r.val
    rw [Nat.mul_one, Nat.add_zero])

/-- A `[4, 256, 1]` column spread along the tile reads, at `(b, r, k)`, the column at `(b, r, 0)`. -/
theorem spread_apply (v : S4x256x1.Idx → α) (h : S4x256x1.Broadcasts S4x256x1280) (b : Fin 4) (r : Fin 256) (k : Fin 1280) :
    broadcastTo S4x256x1280 v h (ix3 b r k) = v (ix3 b r (0 : Fin 1)) := by
  refine broadcastTo_apply v h (ix3 b r k) (ix3 b r (0 : Fin 1)) fun ax => ?_
  match ax with
  | ⟨0, _⟩ => rfl
  | ⟨1, _⟩ => rfl
  | ⟨2, _⟩ => rfl

/-- A `[1, 1, 1280]` row spread over the rows reads, at `(b, r, k)`, the row at `(0, 0, k)`. -/
theorem spreadRow_apply (v : S1x1x1280.Idx → α) (h : S1x1x1280.Broadcasts S4x256x1280) (b : Fin 4) (r : Fin 256) (k : Fin 1280) :
    broadcastTo S4x256x1280 v h (ix3 b r k) = v (ix3 (0 : Fin 1) (0 : Fin 1) k) := by
  refine broadcastTo_apply v h (ix3 b r k) (ix3 (0 : Fin 1) (0 : Fin 1) k) fun ax => ?_
  match ax with
  | ⟨0, _⟩ => rfl
  | ⟨1, _⟩ => rfl
  | ⟨2, _⟩ => rfl

/-! ## The selected entry: the column index of the tile against the row's word -/

/-- Column `k` of tile `v` carries the 32-bit word of `1280 v + k`; it equals a word exactly when the numbers agree. -/
theorem word_eq (v k : ℕ) (hv : v < 25) (hk : k < 1280) (id : BitVec 32) :
    IntOp.addi (BitVec.ofNat 32 k) (Scalar.muli (BitVec.ofNat 32 v) 1280#32) = id ↔ 1280 * v + k = id.toNat := by
  have e : IntOp.addi (BitVec.ofNat 32 k) (Scalar.muli (BitVec.ofNat 32 v) 1280#32) = BitVec.ofNat 32 (1280 * v + k) := by
    apply BitVec.eq_of_toNat_eq
    simp only [IntOp.addi, Scalar.muli, IntOp.muli, BitVec.toNat_add, BitVec.toNat_mul, BitVec.toNat_ofNat]
    omega
  rw [e]
  constructor
  · intro h
    rw [← h, BitVec.toNat_ofNat]
    omega
  · intro h
    apply BitVec.eq_of_toNat_eq
    rw [BitVec.toNat_ofNat, ← h]
    omega

/-- A select on an equality of words is the conditional on the equation. -/
theorem select_cmpi_eq {β : Type} (X id : BitVec 32) (p q : β) :
    Scalar.select (IntOp.cmpi .eq X id) p q = if X = id then p else q := by
  unfold Scalar.select
  exact if_congr IntOp.cmpi_eq rfl rfl

/-- The comparison of the tile's column indices with the rows' words, at `(b, r, k)`. -/
theorem onehot_word (v10 : BitVec 32) (ids : IVec S4x256x1 32) (hi : S1x1x1280.Iotas .tc 32 [2])
    (h1 : S1x1x1280.Broadcasts S4x256x1280) (h2 : S4x256x1.Broadcasts S4x256x1280) (h3 : S4x256x1.ShapeCasts S4x256x1)
    (b : Fin 4) (r : Fin 256) (k : Fin 1280) :
    cmpi .eq (broadcastTo S4x256x1280 (addi (iota .tc S1x1x1280 32 [2] hi) (broadcast S1x1x1280 v10)) h1)
        (broadcastTo S4x256x1280 (shapeCast S4x256x1 ids h3) h2) (ix3 b r k)
      = IntOp.cmpi .eq (IntOp.addi (BitVec.ofNat 32 k.val) v10) (ids (ix3 b r (0 : Fin 1))) := by
  show IntOp.cmpi .eq (broadcastTo S4x256x1280 (addi (iota .tc S1x1x1280 32 [2] hi) (broadcast S1x1x1280 v10)) h1 (ix3 b r k))
      (broadcastTo S4x256x1280 (shapeCast S4x256x1 ids h3) h2 (ix3 b r k)) = _
  rw [spreadRow_apply, spread_apply, shapeCast_self]
  show IntOp.cmpi .eq (IntOp.addi (iota .tc S1x1x1280 32 [2] hi (ix3 (0 : Fin 1) (0 : Fin 1) k)) v10) _ = _
  rw [iota_single_apply]

/-! ## The payloads, entry by entry -/

section Payloads
variable (x : FVec Ideal S4x256x2048 .bf16) (w : FVec Ideal S1280x2048 .bf16)

/-- The new running maximum at row `(b, r)`: the larger of the old one and the maximum of the row's logits in the tile. -/
theorem pay10_apply (m : FVec Ideal S4x256x1 .f32) (b : Fin 4) (r : Fin 256) :
    k1_pay10 (F := Ideal) x w m (ix3 b r (0 : Fin 1))
      = max (m (ix3 b r (0 : Fin 1))) ((Finset.univ : Finset (Fin 1280)).fold max (⊥ : EReal) fun k => k1_pay8 (F := Ideal) x w (ix3 b r k)) := by
  unfold k1_pay10
  refine (maximumf_apply _ _ _).trans ?_
  refine congrArg (max (m (ix3 b r (0 : Fin 1)))) ?_
  refine (col_apply _ _ b r 0).trans ?_
  exact maxLanes_apply _ _ _ b r

/-- The old running sum rescaled to the new maximum. -/
theorem pay11_apply (m m' s : FVec Ideal S4x256x1 .f32) (i : S4x256x1.Idx) :
    k1_pay11 (F := Ideal) x w m m' s i = s i * Ideal.exp (m' i - k1_pay10 (F := Ideal) x w m i) := rfl

/-- The new running maximum spread along the tile. -/
theorem pay12_apply (m : FVec Ideal S4x256x1 .f32) (b : Fin 4) (r : Fin 256) (k : Fin 1280) :
    k1_pay12 (F := Ideal) x w m (ix3 b r k) = k1_pay10 (F := Ideal) x w m (ix3 b r (0 : Fin 1)) := by
  unfold k1_pay12
  exact spread_apply _ _ b r k

/-- The row's selected logit in the tile: the sum over the tile of the logit where the column index is the row's word. -/
theorem pay9_apply (i : grid1.Coords) (ids : IVec S4x256x1 32) (b : Fin 4) (r : Fin 256) :
    k1_pay9 (F := Ideal) i x w ids (ix3 b r (0 : Fin 1))
      = ∑ k : Fin 1280, if 1280 * (i 1).val + k.val = (ids (ix3 b r (0 : Fin 1))).toNat then k1_pay8 (F := Ideal) x w (ix3 b r k) else 0 := by
  unfold k1_pay9
  refine (col_apply _ _ b r 0).trans ?_
  refine (sumLanes_apply _ _ _ b r).trans ?_
  refine Finset.sum_congr rfl fun k _ => ?_
  refine (select_apply _ _ _ _).trans ?_
  refine (congrArg (Scalar.select · _ _) (onehot_word _ ids _ _ _ _ b r k)).trans ?_
  refine (select_cmpi_eq _ _ _ _).trans ?_
  refine (if_congr (word_eq (i 1).val k.val (i 1).isLt k.isLt _) rfl ?_)
  exact Ideal.ofBits_zero_f32

end Payloads

/-- The new running sum at row `(b, r)`: the rescaled old sum plus the exponentials of the row's logits in the tile, each
    taken against the new maximum. -/
theorem pay1_apply (v9 : FVec Ideal S4x256x1280 .f32) (v31 : FVec Ideal S4x256x1 .f32) (v32 : FVec Ideal S4x256x1280 .f32)
    (b : Fin 4) (r : Fin 256) :
    k1_pay1 (F := Ideal) v9 v31 v32 (ix3 b r (0 : Fin 1))
      = v31 (ix3 b r (0 : Fin 1)) + ∑ k : Fin 1280, Ideal.exp (v9 (ix3 b r k) - v32 (ix3 b r k)) := by
  unfold k1_pay1
  refine (congrFun (shapeCast_self _ _) (ix3 b r (0 : Fin 1))).trans ?_
  refine (addf_apply _ _ _).trans ?_
  refine congrArg (v31 (ix3 b r (0 : Fin 1)) + ·) ?_
  refine (col_apply _ _ b r 0).trans ?_
  exact sumLanes_apply _ _ _ b r

/-- The running maximum is stored as it is. -/
theorem pay2_eq (v : FVec Ideal S4x256x1 .f32) : k1_pay2 (F := Ideal) v = v := shapeCast_self _ _

/-- The running selected logit gains the tile's. -/
theorem pay3_apply (v22 v44 : FVec Ideal S4x256x1 .f32) (i : S4x256x1.Idx) : k1_pay3 (F := Ideal) v22 v44 i = v44 i + v22 i := by
  unfold k1_pay3
  exact congrFun (shapeCast_self _ _) i

/-- The output at row `(b, r)`: the selected logit less the maximum plus the logarithm of the sum. -/
theorem pay4_apply (m s e : FVec Ideal S4x256x1 .f32) (b : Fin 4) (r : Fin 256) :
    k1_pay4 (F := Ideal) m s e (ix2 b r)
      = e (ix3 b r (0 : Fin 1)) - (m (ix3 b r (0 : Fin 1)) + Ideal.log (s (ix3 b r (0 : Fin 1)))) := by
  unfold k1_pay4
  exact uncol_apply _ _ b r

/-- The start of the running maximum: one finite negative number in every row. -/
theorem pay5_apply (i : S4x256x1.Idx) : k1_pay5 (F := Ideal) i = Ideal.ofBits .f32 0xFF333332#32 := by
  unfold k1_pay5
  exact congrFun (shapeCast_self _ _) i

/-- The start of the running sum: zero. -/
theorem pay6_apply (i : S4x256x1.Idx) : k1_pay6 (F := Ideal) i = 0 := by
  unfold k1_pay6
  refine (congrFun (shapeCast_self _ _) i).trans ?_
  exact Ideal.ofBits_zero_f32

/-- The start of the running selected logit: zero. -/
theorem pay7_apply (i : S4x256x1.Idx) : k1_pay7 (F := Ideal) i = 0 := by
  unfold k1_pay7
  refine (congrFun (shapeCast_self _ _) i).trans ?_
  exact Ideal.ofBits_zero_f32

/-- The finite negative number the running maximum starts from: `-11744050 · 2 ^ 104`. -/
def m0 : ℝ := -(11744050 * 2 ^ 104)

/-- The start pattern denotes that number. -/
theorem ofBits_start : Ideal.ofBits .f32 0xFF333332#32 = ((m0 : ℝ) : EReal) := by
  unfold m0
  simp [Ideal.ofBits, Ideal.ieee]

/-! ## One point's update of a row, over real logits

When the row's logits in the tile are the reals `g k` and the row's running values are the reals `M`, `S`, `E`, the new
values are the reals `max M (max g)`, `S · exp (M - M') + ∑ exp (g k - M')` and `E + ∑ [column = word] g k`. -/

open Cert.LibOnline

/-- The extended real of the larger of two reals is the larger of the extended reals. -/
theorem coe_max (a b : ℝ) : ((max a b : ℝ) : EReal) = max (a : EReal) (b : EReal) :=
  EReal.coe_strictMono.monotone.map_max

section Step
variable (x : FVec Ideal S4x256x2048 .bf16) (w : FVec Ideal S1280x2048 .bf16) (b : Fin 4) (r : Fin 256)
variable (g : Fin 1280 → ℝ) (hg : ∀ k, k1_pay8 (F := Ideal) x w (ix3 b r k) = ((g k : ℝ) : EReal))
include hg

/-- The new running maximum. -/
theorem stepM (m : FVec Ideal S4x256x1 .f32) (M : ℝ) (hm : m (ix3 b r (0 : Fin 1)) = ((M : ℝ) : EReal)) :
    k1_pay10 (F := Ideal) x w m (ix3 b r (0 : Fin 1)) = ((max M (tileMax g) : ℝ) : EReal) := by
  rw [pay10_apply, hm, show (fun k => k1_pay8 (F := Ideal) x w (ix3 b r k)) = fun k => ((g k : ℝ) : EReal) from funext hg,
    fold_max_coe, coe_max]

/-- The new running sum. -/
theorem stepS (m s : FVec Ideal S4x256x1 .f32) (M S : ℝ) (hm : m (ix3 b r (0 : Fin 1)) = ((M : ℝ) : EReal))
    (hs : s (ix3 b r (0 : Fin 1)) = ((S : ℝ) : EReal)) :
    k1_pay1 (F := Ideal) (k1_pay8 (F := Ideal) x w) (k1_pay11 (F := Ideal) x w m m s) (k1_pay12 (F := Ideal) x w m) (ix3 b r (0 : Fin 1))
      = ((S * Real.exp (M - max M (tileMax g)) + ∑ k : Fin 1280, Real.exp (g k - max M (tileMax g)) : ℝ) : EReal) := by
  rw [pay1_apply, pay11_apply, stepM x w b r g hg m M hm, hs, hm]
  have hk : ∀ k : Fin 1280, Ideal.exp (k1_pay8 (F := Ideal) x w (ix3 b r k) - k1_pay12 (F := Ideal) x w m (ix3 b r k))
      = ((Real.exp (g k - max M (tileMax g)) : ℝ) : EReal) := fun k => by
    rw [pay12_apply, stepM x w b r g hg m M hm, hg, ← EReal.coe_sub, Ideal.exp_coe]
  rw [Finset.sum_congr rfl fun k _ => hk k, ← coe_sum, ← EReal.coe_sub, Ideal.exp_coe, ← EReal.coe_mul, ← EReal.coe_add]

/-- The new running selected logit. -/
theorem stepE (i : grid1.Coords) (ids : IVec S4x256x1 32) (e : FVec Ideal S4x256x1 .f32) (E : ℝ)
    (he : e (ix3 b r (0 : Fin 1)) = ((E : ℝ) : EReal)) :
    k1_pay3 (F := Ideal) (k1_pay9 (F := Ideal) i x w ids) e (ix3 b r (0 : Fin 1))
      = ((E + ∑ k : Fin 1280, (if 1280 * (i 1).val + k.val = (ids (ix3 b r (0 : Fin 1))).toNat then g k else 0) : ℝ) : EReal) := by
  rw [pay3_apply, pay9_apply, he]
  have hk : ∀ k : Fin 1280, (if 1280 * (i 1).val + k.val = (ids (ix3 b r (0 : Fin 1))).toNat then k1_pay8 (F := Ideal) x w (ix3 b r k) else (0 : EReal))
      = (((if 1280 * (i 1).val + k.val = (ids (ix3 b r (0 : Fin 1))).toNat then g k else 0) : ℝ) : EReal) := fun k => by
    rw [hg]; split <;> rfl
  rw [Finset.sum_congr rfl fun k _ => hk k, ← coe_sum, ← EReal.coe_add]

end Step

/-- The output of a row with real running values and a positive running sum. -/
theorem out_real (m s e : FVec Ideal S4x256x1 .f32) (b : Fin 4) (r : Fin 256) (M S E : ℝ) (hS : 0 < S)
    (hm : m (ix3 b r (0 : Fin 1)) = ((M : ℝ) : EReal)) (hs : s (ix3 b r (0 : Fin 1)) = ((S : ℝ) : EReal))
    (he : e (ix3 b r (0 : Fin 1)) = ((E : ℝ) : EReal)) :
    k1_pay4 (F := Ideal) m s e (ix2 b r) = ((E - (M + Real.log S) : ℝ) : EReal) := by
  rw [pay4_apply, hm, hs, he, ideal_log_coe_pos hS, ← EReal.coe_add, ← EReal.coe_sub]

end Cert.KernelIdeal.Hand

end
-- ==== Proof.KI.Val1a.lean ====
import proofs.«417562_j59090160058697_3_alg».proof.Proof.KI.R1Runs
import proofs.«417562_j59090160058697_3_alg».proof.Proof.KI.Pay1
import proofs.«417562_j59090160058697_3_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! # The second kernel's points read against the whole arrays

Point `t` of the `4 × 25` grid works on rows `256 (t / 25) … + 255` of every batch and on vocabulary tile `t % 25`.
Its input blocks, read entry by entry, are entries of the arrays; its logits are the rows' logits at the tile's columns. -/

section Blocks
variable {F : FTy → Type} [FloatOps F] [Named F]
variable (V : (c : Dev nD) → (b : Ref sig .tc) → Buf (Elt F) ((c : Thread nD τ).loc b))

/-- The blocks of the three inputs at a point, and the three arrays, at their literal shapes. -/
abbrev xblk (c : Dev nD) (t : Fin cfg1.N) : Vec F S4x256x2048 .bf16 := iblk1 V c 0 t
abbrev wblk (c : Dev nD) (t : Fin cfg1.N) : Vec F S1280x2048 .bf16 := iblk1 V c 1 t
abbrev idblk (c : Dev nD) (t : Fin cfg1.N) : Vec F S4x256x1 .i32 := iblk1 V c 2 t
abbrev xarr (c : Dev nD) : Vec F S4x1024x2048 .bf16 := V c main_v4
abbrev warr (c : Dev nD) : Vec F S32000x2048 .bf16 := V c main_v5
abbrev idarr (c : Dev nD) : Vec F S4x1024x1 .i32 := V c main_v0

end Blocks

/-- The grid has a hundred points. -/
theorem N1 : cfg1.N = 100 := N_1

/-- The index maps of the four windows and the tile coordinate, decided over the grid. -/
theorem idx_facts1 : ∀ t : Fin cfg1.N,
    win1_0.index t (0 : Fin 3) = 0 ∧ win1_0.index t (1 : Fin 3) = t.val / 25 ∧ win1_0.index t (2 : Fin 3) = 0
    ∧ win1_1.index t (0 : Fin 2) = t.val % 25 ∧ win1_1.index t (1 : Fin 2) = 0
    ∧ win1_2.index t (0 : Fin 3) = 0 ∧ win1_2.index t (1 : Fin 3) = t.val / 25 ∧ win1_2.index t (2 : Fin 3) = 0
    ∧ win1_3.index t (0 : Fin 2) = 0 ∧ win1_3.index t (1 : Fin 2) = t.val / 25
    ∧ ((grid1.coords t) 1).val = t.val % 25 :=
  (by decide +kernel : ∀ t : Fin grid1.N, _)

/-- Row `r` of point `t`'s block of rows, as a row of the arrays. -/
def rowAt (t : Fin cfg1.N) (r : Fin 256) : Fin 1024 :=
  ⟨256 * (t.val / 25) + r.val, by have := t.isLt; have := N1; have := r.isLt; omega⟩

/-- Column `k` of point `t`'s vocabulary tile, as a vocabulary entry. -/
def colAt (t : Fin cfg1.N) (k : Fin 1280) : Fin 32000 :=
  ⟨1280 * (t.val % 25) + k.val, by have := k.isLt; omega⟩

section Reads
variable {F : FTy → Type} [FloatOps F] [Named F]
variable (V : (c : Dev nD) → (b : Ref sig .tc) → Buf (Elt F) ((c : Thread nD τ).loc b))

/-- The block of activations at a point, entry by entry. -/
theorem xblk_apply (c : Dev nD) (t : Fin cfg1.N) (b : Fin 4) (r : Fin 256) (h : Fin 2048) :
    xblk V c t (ix3 b r h) = xarr V c (ix3 b (rowAt t r) h) := by
  obtain ⟨e0, e1, e2, -⟩ := idx_facts1 t
  show xarr V c (((cfg1.win 0).blk t).view.emb (ix3 b r h)) = _
  refine congrArg (xarr V c) ?_
  funext a; apply Fin.ext
  match a with
  | ⟨0, _⟩ => show win1_0.index t (0 : Fin 3) * 4 + 1 * b.val = b.val; omega
  | ⟨1, _⟩ => show win1_0.index t (1 : Fin 3) * 256 + 1 * r.val = 256 * (t.val / 25) + r.val; omega
  | ⟨2, _⟩ => show win1_0.index t (2 : Fin 3) * 2048 + 1 * h.val = h.val; omega

/-- The tile of the projection matrix at a point, entry by entry. -/
theorem wblk_apply (c : Dev nD) (t : Fin cfg1.N) (k : Fin 1280) (h : Fin 2048) :
    wblk V c t (ix2 k h) = warr V c (ix2 (colAt t k) h) := by
  obtain ⟨-, -, -, e3, e4, -⟩ := idx_facts1 t
  show warr V c (((cfg1.win 1).blk t).view.emb (ix2 k h)) = _
  refine congrArg (warr V c) ?_
  funext a; apply Fin.ext
  match a with
  | ⟨0, _⟩ => show win1_1.index t (0 : Fin 2) * 1280 + 1 * k.val = 1280 * (t.val % 25) + k.val; omega
  | ⟨1, _⟩ => show win1_1.index t (1 : Fin 2) * 2048 + 1 * h.val = h.val; omega

/-- The block of selected entries at a point, entry by entry. -/
theorem idblk_apply (c : Dev nD) (t : Fin cfg1.N) (b : Fin 4) (r : Fin 256) (u : Fin 1) :
    idblk V c t (ix3 b r u) = idarr V c (ix3 b (rowAt t r) u) := by
  obtain ⟨-, -, -, -, -, e5, e6, e7, -⟩ := idx_facts1 t
  show idarr V c (((cfg1.win 2).blk t).view.emb (ix3 b r u)) = _
  refine congrArg (idarr V c) ?_
  funext a; apply Fin.ext
  match a with
  | ⟨0, _⟩ => show win1_2.index t (0 : Fin 3) * 4 + 1 * b.val = b.val; omega
  | ⟨1, _⟩ => show win1_2.index t (1 : Fin 3) * 256 + 1 * r.val = 256 * (t.val / 25) + r.val; omega
  | ⟨2, _⟩ => show win1_2.index t (2 : Fin 3) * 1 + 1 * u.val = u.val; omega

end Reads

/-! ## The logits of a point over real entries -/

section Logits
variable (V : (c : Dev nD) → (b : Ref sig .tc) → Buf (Elt Ideal) ((c : Thread nD τ).loc b))

/-- The logits of a row, as a function of a natural number: the logit at a vocabulary entry, zero past the vocabulary. -/
def rowG (c : Dev nD) (b : Fin 4) (q : Fin 1024) (v : ℕ) : ℝ :=
  if h : v < 32000 then Cert.Spec.lr (xarr V c) (warr V c) b q ⟨v, h⟩ else 0

/-- The logits of a row tile by tile. -/
def rowF (c : Dev nD) (b : Fin 4) (q : Fin 1024) (j : ℕ) (k : Fin 1280) : ℝ := rowG V c b q (1280 * j + k.val)

/-- Over real entries, the logits of point `t` at `(b, r, k)` are the real logits of row `(b, 256 (t / 25) + r)` at
    column `k` of tile `t % 25`. -/
theorem logits_real (c : Dev nD) (hx : Cert.Spec.IsReal (xarr V c)) (hw : Cert.Spec.IsReal (warr V c))
    (t : Fin cfg1.N) (b : Fin 4) (r : Fin 256) (k : Fin 1280) :
    k1_pay8 (F := Ideal) (xblk V c t) (wblk V c t) (ix3 b r k) = ((rowF V c b (rowAt t r) (t.val % 25) k : ℝ) : EReal) := by
  have hk : 1280 * (t.val % 25) + k.val < 32000 := by have := k.isLt; omega
  rw [pay8_apply, show rowF V c b (rowAt t r) (t.val % 25) k = Cert.Spec.lr (xarr V c) (warr V c) b (rowAt t r) (colAt t k) from dif_pos hk,
    ← Cert.Spec.logit_eq_lr hx hw]
  unfold Cert.Spec.logit
  refine Finset.sum_congr rfl fun h _ => ?_
  rw [xblk_apply, wblk_apply]

end Logits

end Cert.KernelIdeal.Hand

end
-- ==== Proof.KI.Val1b.lean ====
import proofs.«417562_j59090160058697_3_alg».proof.Proof.KI.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! # What each case of the second kernel's body leaves, as payloads of the blocks and of the scratch it found -/

theorem hz3 : (![0, 0, 0] : Fin 3 → Nat) = fun _ => 0 := funext fun a => by fin_cases a <;> rfl
theorem hz2 : (![0, 0] : Fin 2 → Nat) = fun _ => 0 := funext fun a => by fin_cases a <;> rfl

/-- What a first tile (the scratch is reset first) leaves in the running maximum. -/
theorem sout_A_0 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) :
    sout1_A_0 c i arg2 harg2 arg3 harg3 arg4 harg4 arg5 harg5 arg6 harg6 arg7 harg7 arg8 harg8 hc0 hc1 x0 x1 x2 = k1_pay2 (k1_pay10 x0 x1 (k1_pay5 (F := F))) := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S4x256x1) hz3]
  simp only [View.readAt_eq_ld, harg2.read_unread, harg3.read_unread, harg4.read_unread, harg6.read_unread, harg7.read_unread, harg8.read_unread,
    View.ld_unit_zero (S := S4x256x2048) hz3, View.ld_unit_zero (S := S1280x2048) hz2, View.ld_unit_zero (S := S4x256x1) hz3,
    View.readCov_unit_zero (S := S4x256x1) _ hz3]

/-- What a first tile (the scratch is reset first) leaves in the running sum of exponentials. -/
theorem sout_A_1 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) :
    sout1_A_1 c i arg2 harg2 arg3 harg3 arg4 harg4 arg5 harg5 arg6 harg6 arg7 harg7 arg8 harg8 hc0 hc1 x0 x1 x2 = k1_pay1 (k1_pay8 x0 x1) (k1_pay11 x0 x1 (k1_pay5 (F := F)) (k1_pay5 (F := F)) (k1_pay6 (F := F))) (k1_pay12 x0 x1 (k1_pay5 (F := F))) := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S4x256x1) hz3]
  simp only [View.readAt_eq_ld, harg2.read_unread, harg3.read_unread, harg4.read_unread, harg6.read_unread, harg7.read_unread, harg8.read_unread,
    View.ld_unit_zero (S := S4x256x2048) hz3, View.ld_unit_zero (S := S1280x2048) hz2, View.ld_unit_zero (S := S4x256x1) hz3,
    View.readCov_unit_zero (S := S4x256x1) _ hz3]

/-- What a first tile (the scratch is reset first) leaves in the running selected logit. -/
theorem sout_A_2 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : cond1_0 i) (hc1 : ¬cond1_1 i)
    (x0 : Vec F S4x256x2048 .bf16) (x1 : Vec F S1280x2048 .bf16) (x2 : Vec F S4x256x1 .i32) :
    sout1_A_2 c i arg2 harg2 arg3 harg3 arg4 harg4 arg5 harg5 arg6 harg6 arg7 harg7 arg8 harg8 hc0 hc1 x0 x1 x2 = k1_pay3 (k1_pay9 i x0 x1 x2) (k1_pay7 (F := F)) := by
  unfold sout1_A_2
  rw [View.read_writes_eq_canon _ _ _ (scover1_A_2 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S4x256x1) hz3]
  simp only [View.readAt_eq_ld, harg2.read_unread, harg3.read_unread, harg4.read_unread, harg6.read_unread, harg7.read_unread, harg8.read_unread,
    View.ld_unit_zero (S := S4x256x2048) hz3, View.ld_unit_zero (S := S1280x2048) hz2, View.ld_unit_zero (S := S4x256x1) hz3,
    View.readCov_unit_zero (S := S4x256x1) _ hz3]

/-- What a middle tile leaves in the running maximum. -/
theorem sout_B_0 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) :
    sout1_B_0 c i arg2 harg2 arg3 harg3 arg4 harg4 arg5 harg5 arg6 harg6 arg7 harg7 arg8 harg8 hc0 hc1 x0 x1 x2 xs0 xs1 xs2 = k1_pay2 (k1_pay10 x0 x1 xs0) := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_cons_unit_zero (S := S4x256x1) hz3]
  simp only [View.readAt_eq_ld, harg2.read_unread, harg3.read_unread, harg4.read_unread, harg6.read_unread, harg7.read_unread, harg8.read_unread,
    View.ld_unit_zero (S := S4x256x2048) hz3, View.ld_unit_zero (S := S1280x2048) hz2, View.ld_unit_zero (S := S4x256x1) hz3,
    View.readCov_unit_zero (S := S4x256x1) _ hz3]

/-- What a middle tile leaves in the running sum of exponentials. -/
theorem sout_B_1 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) :
    sout1_B_1 c i arg2 harg2 arg3 harg3 arg4 harg4 arg5 harg5 arg6 harg6 arg7 harg7 arg8 harg8 hc0 hc1 x0 x1 x2 xs0 xs1 xs2 = k1_pay1 (k1_pay8 x0 x1) (k1_pay11 x0 x1 xs0 xs0 xs1) (k1_pay12 x0 x1 xs0) := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_cons_unit_zero (S := S4x256x1) hz3]
  simp only [View.readAt_eq_ld, harg2.read_unread, harg3.read_unread, harg4.read_unread, harg6.read_unread, harg7.read_unread, harg8.read_unread,
    View.ld_unit_zero (S := S4x256x2048) hz3, View.ld_unit_zero (S := S1280x2048) hz2, View.ld_unit_zero (S := S4x256x1) hz3,
    View.readCov_unit_zero (S := S4x256x1) _ hz3]

/-- What a middle tile leaves in the running selected logit. -/
theorem sout_B_2 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : ¬cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) :
    sout1_B_2 c i arg2 harg2 arg3 harg3 arg4 harg4 arg5 harg5 arg6 harg6 arg7 harg7 arg8 harg8 hc0 hc1 x0 x1 x2 xs0 xs1 xs2 = k1_pay3 (k1_pay9 i x0 x1 x2) xs2 := by
  unfold sout1_B_2
  rw [View.read_writes_eq_canon _ _ _ (scover1_B_2 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_cons_unit_zero (S := S4x256x1) hz3]
  simp only [View.readAt_eq_ld, harg2.read_unread, harg3.read_unread, harg4.read_unread, harg6.read_unread, harg7.read_unread, harg8.read_unread,
    View.ld_unit_zero (S := S4x256x2048) hz3, View.ld_unit_zero (S := S1280x2048) hz2, View.ld_unit_zero (S := S4x256x1) hz3,
    View.readCov_unit_zero (S := S4x256x1) _ hz3]

/-- What a last tile leaves in the running maximum. -/
theorem sout_C_0 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) :
    sout1_C_0 c i arg2 harg2 arg3 harg3 arg4 harg4 arg5 harg5 arg6 harg6 arg7 harg7 arg8 harg8 hc0 hc1 x0 x1 x2 xs0 xs1 xs2 = k1_pay2 (k1_pay10 x0 x1 xs0) := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero (S := S4x256x1) hz3]
  simp only [View.readAt_eq_ld, harg2.read_unread, harg3.read_unread, harg4.read_unread, harg6.read_unread, harg7.read_unread, harg8.read_unread,
    View.ld_unit_zero (S := S4x256x2048) hz3, View.ld_unit_zero (S := S1280x2048) hz2, View.ld_unit_zero (S := S4x256x1) hz3,
    View.readCov_unit_zero (S := S4x256x1) _ hz3]

/-- What a last tile leaves in the running sum of exponentials. -/
theorem sout_C_1 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) :
    sout1_C_1 c i arg2 harg2 arg3 harg3 arg4 harg4 arg5 harg5 arg6 harg6 arg7 harg7 arg8 harg8 hc0 hc1 x0 x1 x2 xs0 xs1 xs2 = k1_pay1 (k1_pay8 x0 x1) (k1_pay11 x0 x1 xs0 xs0 xs1) (k1_pay12 x0 x1 xs0) := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero (S := S4x256x1) hz3]
  simp only [View.readAt_eq_ld, harg2.read_unread, harg3.read_unread, harg4.read_unread, harg6.read_unread, harg7.read_unread, harg8.read_unread,
    View.ld_unit_zero (S := S4x256x2048) hz3, View.ld_unit_zero (S := S1280x2048) hz2, View.ld_unit_zero (S := S4x256x1) hz3,
    View.readCov_unit_zero (S := S4x256x1) _ hz3]

/-- What a last tile leaves in the running selected logit. -/
theorem sout_C_2 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) :
    sout1_C_2 c i arg2 harg2 arg3 harg3 arg4 harg4 arg5 harg5 arg6 harg6 arg7 harg7 arg8 harg8 hc0 hc1 x0 x1 x2 xs0 xs1 xs2 = k1_pay3 (k1_pay9 i x0 x1 x2) xs2 := by
  unfold sout1_C_2
  rw [View.read_writes_eq_canon _ _ _ (scover1_C_2 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero (S := S4x256x1) hz3]
  simp only [View.readAt_eq_ld, harg2.read_unread, harg3.read_unread, harg4.read_unread, harg6.read_unread, harg7.read_unread, harg8.read_unread,
    View.ld_unit_zero (S := S4x256x2048) hz3, View.ld_unit_zero (S := S1280x2048) hz2, View.ld_unit_zero (S := S4x256x1) hz3,
    View.readCov_unit_zero (S := S4x256x1) _ hz3]

/-- What a last tile leaves in the output block. -/
theorem out_C_3 (c : Dev nD) (i : grid1.Coords) (arg2 : Memref sig .tc .vmem S4x256x2048 .bf16) (harg2 : arg2.IsWhole) (arg3 : Memref sig .tc .vmem S1280x2048 .bf16) (harg3 : arg3.IsWhole) (arg4 : Memref sig .tc .vmem S4x256x1 .i32) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole) (hc0 : ¬cond1_0 i) (hc1 : cond1_1 i)
    (x0 : Vec F S4x256x2048 .bf16) (x1 : Vec F S1280x2048 .bf16) (x2 : Vec F S4x256x1 .i32) (xs0 : Vec F S4x256x1 .f32) (xs1 : Vec F S4x256x1 .f32) (xs2 : Vec F S4x256x1 .f32) :
    out1_C_3 c i arg2 harg2 arg3 harg3 arg4 harg4 arg5 harg5 arg6 harg6 arg7 harg7 arg8 harg8 hc0 hc1 x0 x1 x2 xs0 xs1 xs2 = k1_pay4 (k1_pay2 (k1_pay10 x0 x1 xs0)) (k1_pay1 (k1_pay8 x0 x1) (k1_pay11 x0 x1 xs0 xs0 xs1) (k1_pay12 x0 x1 xs0)) (k1_pay3 (k1_pay9 i x0 x1 x2) xs2) := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero (S := S4x256) hz2]
  simp only [View.readAt_eq_ld, harg2.read_unread, harg3.read_unread, harg4.read_unread, harg6.read_unread, harg7.read_unread, harg8.read_unread,
    View.ld_unit_zero (S := S4x256x2048) hz3, View.ld_unit_zero (S := S1280x2048) hz2, View.ld_unit_zero (S := S4x256x1) hz3,
    View.readCov_unit_zero (S := S4x256x1) _ hz3]

end Cert.KernelIdeal.Hand

end
-- ==== Proof.KI.Val1c.lean ====
import proofs.«417562_j59090160058697_3_alg».proof.Proof.KI.Val1a
import proofs.«417562_j59090160058697_3_alg».proof.Proof.KI.Val1b
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The scratch after every point: the running maximum, sum and selected logit of the online computation -/

open Cert.LibOnline

/-- The selected logit gathered over the first `n` tiles: the sum over their columns of the logit where the column is `id`. -/
def selSum (G : ℕ → ℝ) (id : ℕ) (n : ℕ) : ℝ :=
  ∑ j' ∈ Finset.range n, ∑ k : Fin 1280, if 1280 * j' + k.val = id then G (1280 * j' + k.val) else 0

/-- One point's update of a row: from the running values after `j` tiles to those after `j + 1`, when the point's logits
    of the row are tile `j` of `f`, the point's tile coordinate is `j`, and `f` reads `G` tile by tile. -/
theorem row_step (x : FVec Ideal S4x256x2048 .bf16) (w : FVec Ideal S1280x2048 .bf16) (b : Fin 4) (r : Fin 256)
    (f : ℕ → Fin 1280 → ℝ) (G : ℕ → ℝ) (hfG : ∀ j k, f j k = G (1280 * j + k.val)) (j : ℕ)
    (hg : ∀ k, k1_pay8 (F := Ideal) x w (ix3 b r k) = ((f j k : ℝ) : EReal))
    (i : grid1.Coords) (hi : (i 1).val = j) (ids : IVec S4x256x1 32) (id : ℕ) (hid : (ids (ix3 b r (0 : Fin 1))).toNat = id)
    (m s e : FVec Ideal S4x256x1 .f32)
    (hm : m (ix3 b r (0 : Fin 1)) = ((onlineM f m0 j : ℝ) : EReal))
    (hs : s (ix3 b r (0 : Fin 1)) = ((onlineS f m0 j : ℝ) : EReal))
    (he : e (ix3 b r (0 : Fin 1)) = ((selSum G id j : ℝ) : EReal)) :
    k1_pay2 (F := Ideal) (k1_pay10 (F := Ideal) x w m) (ix3 b r (0 : Fin 1)) = ((onlineM f m0 (j + 1) : ℝ) : EReal)
    ∧ k1_pay1 (F := Ideal) (k1_pay8 (F := Ideal) x w) (k1_pay11 (F := Ideal) x w m m s) (k1_pay12 (F := Ideal) x w m) (ix3 b r (0 : Fin 1))
        = ((onlineS f m0 (j + 1) : ℝ) : EReal)
    ∧ k1_pay3 (F := Ideal) (k1_pay9 (F := Ideal) i x w ids) e (ix3 b r (0 : Fin 1)) = ((selSum G id (j + 1) : ℝ) : EReal) := by
  refine ⟨?_, ?_, ?_⟩
  · rw [pay2_eq]
    exact stepM x w b r (f j) hg m _ hm
  · exact stepS x w b r (f j) hg m s _ _ hm hs
  · rw [stepE x w b r (f j) hg i ids e _ he, hi, hid]
    unfold selSum
    rw [Finset.sum_range_succ]
    refine congrArg (fun z : ℝ => ((selSum G id j + z : ℝ) : EReal)) ?_
    refine Finset.sum_congr rfl fun k _ => ?_
    rw [hfG]

/-! ## What each point leaves, over the blocks at their literal shapes -/

section FrameCases
variable {F : FTy → Type} [FloatOps F] [Named F]
variable (V : (c : Dev nD) → (b : Ref sig .tc) → Buf (Elt F) ((c : Thread nD τ).loc b))

/-- What the point before `t` left in the three scratch columns. -/
abbrev prevM (c : Dev nD) (t : Fin cfg1.N) : Vec F S4x256x1 .f32 := (outsAt1 V c (t.val - 1) (Nat.lt_of_le_of_lt (Nat.sub_le _ _) t.isLt)).2.1
abbrev prevS (c : Dev nD) (t : Fin cfg1.N) : Vec F S4x256x1 .f32 := (outsAt1 V c (t.val - 1) (Nat.lt_of_le_of_lt (Nat.sub_le _ _) t.isLt)).2.2.1
abbrev prevE (c : Dev nD) (t : Fin cfg1.N) : Vec F S4x256x1 .f32 := (outsAt1 V c (t.val - 1) (Nat.lt_of_le_of_lt (Nat.sub_le _ _) t.isLt)).2.2.2

/-- A first tile: the scratch starts afresh and takes one update. -/
theorem at_A (c : Dev nD) (t : Fin cfg1.N) (h0 : t.val % 25 = 0) :
    (outsAt1 V c t.val t.isLt).2.1 = k1_pay2 (k1_pay10 (xblk V c t) (wblk V c t) (k1_pay5 (F := F)))
    ∧ (outsAt1 V c t.val t.isLt).2.2.1 = k1_pay1 (k1_pay8 (xblk V c t) (wblk V c t)) (k1_pay11 (xblk V c t) (wblk V c t) (k1_pay5 (F := F)) (k1_pay5 (F := F)) (k1_pay6 (F := F))) (k1_pay12 (xblk V c t) (wblk V c t) (k1_pay5 (F := F)))
    ∧ (outsAt1 V c t.val t.isLt).2.2.2 = k1_pay3 (k1_pay9 (grid1.coords t) (xblk V c t) (wblk V c t) (idblk V c t)) (k1_pay7 (F := F)) := by
  have h1 : ¬t.val % 25 = 24 := by omega
  rw [outsAt1_A V c t h0 h1]
  dsimp only
  exact ⟨sout_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
    sout_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
    sout_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)⟩

/-- A middle tile: one update of what the point before left. -/
theorem at_B (c : Dev nD) (t : Fin cfg1.N) (h0 : ¬t.val % 25 = 0) (h1 : ¬t.val % 25 = 24) :
    (outsAt1 V c t.val t.isLt).2.1 = k1_pay2 (k1_pay10 (xblk V c t) (wblk V c t) (prevM V c t))
    ∧ (outsAt1 V c t.val t.isLt).2.2.1 = k1_pay1 (k1_pay8 (xblk V c t) (wblk V c t)) (k1_pay11 (xblk V c t) (wblk V c t) (prevM V c t) (prevM V c t) (prevS V c t)) (k1_pay12 (xblk V c t) (wblk V c t) (prevM V c t))
    ∧ (outsAt1 V c t.val t.isLt).2.2.2 = k1_pay3 (k1_pay9 (grid1.coords t) (xblk V c t) (wblk V c t) (idblk V c t)) (prevE V c t) := by
  rw [outsAt1_B V c t h0 h1]
  dsimp only
  exact ⟨sout_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2⟩

/-- A last tile: one update of what the point before left, and the output block from the updated scratch. -/
theorem at_C (c : Dev nD) (t : Fin cfg1.N) (h0 : ¬t.val % 25 = 0) (h1 : t.val % 25 = 24) :
    (outsAt1 V c t.val t.isLt).1 = k1_pay4 (k1_pay2 (k1_pay10 (xblk V c t) (wblk V c t) (prevM V c t))) (k1_pay1 (k1_pay8 (xblk V c t) (wblk V c t)) (k1_pay11 (xblk V c t) (wblk V c t) (prevM V c t) (prevM V c t) (prevS V c t)) (k1_pay12 (xblk V c t) (wblk V c t) (prevM V c t))) (k1_pay3 (k1_pay9 (grid1.coords t) (xblk V c t) (wblk V c t) (idblk V c t)) (prevE V c t))
    ∧ (outsAt1 V c t.val t.isLt).2.1 = k1_pay2 (k1_pay10 (xblk V c t) (wblk V c t) (prevM V c t))
    ∧ (outsAt1 V c t.val t.isLt).2.2.1 = k1_pay1 (k1_pay8 (xblk V c t) (wblk V c t)) (k1_pay11 (xblk V c t) (wblk V c t) (prevM V c t) (prevM V c t) (prevS V c t)) (k1_pay12 (xblk V c t) (wblk V c t) (prevM V c t))
    ∧ (outsAt1 V c t.val t.isLt).2.2.2 = k1_pay3 (k1_pay9 (grid1.coords t) (xblk V c t) (wblk V c t) (idblk V c t)) (prevE V c t) := by
  rw [outsAt1_C V c t h0 h1]
  dsimp only
  exact ⟨out_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2⟩

/-- The point before point `n + 1` is point `n`. -/
theorem prev_succ (c : Dev nD) (n : ℕ) (hn : n + 1 < cfg1.N) :
    outsAt1 V c ((⟨n + 1, hn⟩ : Fin cfg1.N).val - 1) (Nat.lt_of_le_of_lt (Nat.sub_le _ _) (⟨n + 1, hn⟩ : Fin cfg1.N).isLt)
      = outsAt1 V c n (Nat.lt_of_succ_lt hn) := rfl

end FrameCases

/-! ## The invariant -/

section Invariant
variable (V : (c : Dev nD) → (b : Ref sig .tc) → Buf (Elt Ideal) ((c : Thread nD τ).loc b))

/-- The number a row's selected word denotes. -/
def idOf (c : Dev nD) (b : Fin 4) (q : Fin 1024) : ℕ := (idarr V c (ix3 b q (0 : Fin 1))).toNat

/-- After point `n` (tile `n % 25` of the rows `256 (n / 25) …`) the scratch holds, at row `(b, r)`, the running maximum,
    the running sum and the gathered selected logit of the row's first `n % 25 + 1` tiles. -/
def Inv (c : Dev nD) (n : ℕ) (hn : n < cfg1.N) : Prop :=
  ∀ (b : Fin 4) (r : Fin 256),
    (outsAt1 V c n hn).2.1 (ix3 b r (0 : Fin 1)) = ((onlineM (rowF V c b (rowAt ⟨n, hn⟩ r)) m0 (n % 25 + 1) : ℝ) : EReal)
    ∧ (outsAt1 V c n hn).2.2.1 (ix3 b r (0 : Fin 1)) = ((onlineS (rowF V c b (rowAt ⟨n, hn⟩ r)) m0 (n % 25 + 1) : ℝ) : EReal)
    ∧ (outsAt1 V c n hn).2.2.2 (ix3 b r (0 : Fin 1))
        = ((selSum (rowG V c b (rowAt ⟨n, hn⟩ r)) (idOf V c b (rowAt ⟨n, hn⟩ r)) (n % 25 + 1) : ℝ) : EReal)

/-- One point's update of a row of the scratch, from the values after the tiles before the point's. -/
theorem point_step (c : Dev nD) (hx : Cert.Spec.IsReal (xarr V c)) (hw : Cert.Spec.IsReal (warr V c))
    (t : Fin cfg1.N) (b : Fin 4) (r : Fin 256) (m s e : FVec Ideal S4x256x1 .f32)
    (hm : m (ix3 b r (0 : Fin 1)) = ((onlineM (rowF V c b (rowAt t r)) m0 (t.val % 25) : ℝ) : EReal))
    (hs : s (ix3 b r (0 : Fin 1)) = ((onlineS (rowF V c b (rowAt t r)) m0 (t.val % 25) : ℝ) : EReal))
    (he : e (ix3 b r (0 : Fin 1)) = ((selSum (rowG V c b (rowAt t r)) (idOf V c b (rowAt t r)) (t.val % 25) : ℝ) : EReal)) :
    k1_pay2 (F := Ideal) (k1_pay10 (F := Ideal) (xblk V c t) (wblk V c t) m) (ix3 b r (0 : Fin 1))
      = ((onlineM (rowF V c b (rowAt t r)) m0 (t.val % 25 + 1) : ℝ) : EReal)
    ∧ k1_pay1 (F := Ideal) (k1_pay8 (F := Ideal) (xblk V c t) (wblk V c t)) (k1_pay11 (F := Ideal) (xblk V c t) (wblk V c t) m m s)
        (k1_pay12 (F := Ideal) (xblk V c t) (wblk V c t) m) (ix3 b r (0 : Fin 1))
      = ((onlineS (rowF V c b (rowAt t r)) m0 (t.val % 25 + 1) : ℝ) : EReal)
    ∧ k1_pay3 (F := Ideal) (k1_pay9 (F := Ideal) (grid1.coords t) (xblk V c t) (wblk V c t) (idblk V c t)) e (ix3 b r (0 : Fin 1))
      = ((selSum (rowG V c b (rowAt t r)) (idOf V c b (rowAt t r)) (t.val % 25 + 1) : ℝ) : EReal) := by
  obtain ⟨-, -, -, -, -, -, -, -, -, -, hi⟩ := idx_facts1 t
  exact row_step (xblk V c t) (wblk V c t) b r (rowF V c b (rowAt t r)) (rowG V c b (rowAt t r)) (fun _ _ => rfl) (t.val % 25)
    (logits_real V c hx hw t b r) (grid1.coords t) hi (idblk V c t) (idOf V c b (rowAt t r))
    (by unfold idOf; rw [idblk_apply]) m s e hm hs he

/-- The invariant holds after every point. -/
theorem inv (c : Dev nD) (hx : Cert.Spec.IsReal (xarr V c)) (hw : Cert.Spec.IsReal (warr V c)) :
    ∀ (n : ℕ) (hn : n < cfg1.N), Inv V c n hn := by
  -- a first tile: the scratch starts at the finite start value, zero and zero
  have hA : ∀ (t : Fin cfg1.N), t.val % 25 = 0 → Inv V c t.val t.isLt := fun t h0 b r => by
    obtain ⟨eM, eS, eE⟩ := at_A V c t h0
    have hm : k1_pay5 (F := Ideal) (ix3 b r (0 : Fin 1)) = ((onlineM (rowF V c b (rowAt t r)) m0 (t.val % 25) : ℝ) : EReal) := by
      rw [h0]; exact (pay5_apply _).trans ofBits_start
    have hs : k1_pay6 (F := Ideal) (ix3 b r (0 : Fin 1)) = ((onlineS (rowF V c b (rowAt t r)) m0 (t.val % 25) : ℝ) : EReal) := by
      rw [h0]; exact pay6_apply _
    have he : k1_pay7 (F := Ideal) (ix3 b r (0 : Fin 1))
        = ((selSum (rowG V c b (rowAt t r)) (idOf V c b (rowAt t r)) (t.val % 25) : ℝ) : EReal) := by
      rw [h0]; exact (pay7_apply _).trans (by unfold selSum; simp)
    obtain ⟨sM, sS, sE⟩ := point_step V c hx hw t b r _ _ _ hm hs he
    exact ⟨(congrFun eM _).trans sM, (congrFun eS _).trans sS, (congrFun eE _).trans sE⟩
  intro n
  induction n with
  | zero => exact fun hn => hA ⟨0, hn⟩ rfl
  | succ n ih =>
    intro hn
    by_cases h0 : (n + 1) % 25 = 0
    · exact hA ⟨n + 1, hn⟩ h0
    · have ihn := ih (Nat.lt_of_succ_lt hn)
      intro b r
      have hrow : rowAt ⟨n + 1, hn⟩ r = rowAt ⟨n, Nat.lt_of_succ_lt hn⟩ r :=
        Fin.ext (by show 256 * ((n + 1) / 25) + r.val = 256 * (n / 25) + r.val; omega)
      have hj : (n + 1) % 25 = n % 25 + 1 := by omega
      have hm : prevM V c ⟨n + 1, hn⟩ (ix3 b r (0 : Fin 1))
          = ((onlineM (rowF V c b (rowAt ⟨n + 1, hn⟩ r)) m0 ((⟨n + 1, hn⟩ : Fin cfg1.N).val % 25) : ℝ) : EReal) := by
        show (outsAt1 V c n _).2.1 (ix3 b r (0 : Fin 1)) = ((onlineM (rowF V c b (rowAt ⟨n + 1, hn⟩ r)) m0 ((n + 1) % 25) : ℝ) : EReal)
        rw [hrow, hj]; exact (ihn b r).1
      have hs : prevS V c ⟨n + 1, hn⟩ (ix3 b r (0 : Fin 1))
          = ((onlineS (rowF V c b (rowAt ⟨n + 1, hn⟩ r)) m0 ((⟨n + 1, hn⟩ : Fin cfg1.N).val % 25) : ℝ) : EReal) := by
        show (outsAt1 V c n _).2.2.1 (ix3 b r (0 : Fin 1)) = ((onlineS (rowF V c b (rowAt ⟨n + 1, hn⟩ r)) m0 ((n + 1) % 25) : ℝ) : EReal)
        rw [hrow, hj]; exact (ihn b r).2.1
      have he : prevE V c ⟨n + 1, hn⟩ (ix3 b r (0 : Fin 1))
          = ((selSum (rowG V c b (rowAt ⟨n + 1, hn⟩ r)) (idOf V c b (rowAt ⟨n + 1, hn⟩ r)) ((⟨n + 1, hn⟩ : Fin cfg1.N).val % 25) : ℝ) : EReal) := by
        show (outsAt1 V c n _).2.2.2 (ix3 b r (0 : Fin 1))
          = ((selSum (rowG V c b (rowAt ⟨n + 1, hn⟩ r)) (idOf V c b (rowAt ⟨n + 1, hn⟩ r)) ((n + 1) % 25) : ℝ) : EReal)
        rw [hrow, hj]; exact (ihn b r).2.2
      obtain ⟨sM, sS, sE⟩ := point_step V c hx hw ⟨n + 1, hn⟩ b r _ _ _ hm hs he
      by_cases h1 : (n + 1) % 25 = 24
      · obtain ⟨-, eM, eS, eE⟩ := at_C V c ⟨n + 1, hn⟩ h0 h1
        exact ⟨(congrFun eM _).trans sM, (congrFun eS _).trans sS, (congrFun eE _).trans sE⟩
      · obtain ⟨eM, eS, eE⟩ := at_B V c ⟨n + 1, hn⟩ h0 h1
        exact ⟨(congrFun eM _).trans sM, (congrFun eS _).trans sS, (congrFun eE _).trans sE⟩

/-! ## A row after its twenty-five tiles -/

/-- The gathered selected logit less the running maximum plus the logarithm of the running sum, after all 25 tiles, is the
    log-probability of the row's selected entry. -/
theorem row_final (c : Dev nD) (b : Fin 4) (q : Fin 1024) (hid : idOf V c b q < 32000) :
    selSum (rowG V c b q) (idOf V c b q) 25 - (onlineM (rowF V c b q) m0 25 + Real.log (onlineS (rowF V c b q) m0 25))
      = Cert.Spec.lr (xarr V c) (warr V c) b q (Cert.Spec.sel (idarr V c (ix3 b q (0 : Fin 1))))
        - Cert.Spec.lse (xarr V c) (warr V c) b q := by
  have hE : selSum (rowG V c b q) (idOf V c b q) 25 = rowG V c b q (idOf V c b q) := sum_onehot (rowG V c b q) hid
  have hG : rowG V c b q (idOf V c b q)
      = Cert.Spec.lr (xarr V c) (warr V c) b q (Cert.Spec.sel (idarr V c (ix3 b q (0 : Fin 1)))) := by
    unfold rowG
    rw [dif_pos hid]
    refine congrArg (Cert.Spec.lr (xarr V c) (warr V c) b q) (Fin.ext ?_)
    show idOf V c b q = (idarr V c (ix3 b q (0 : Fin 1))).toNat % 32000
    exact (Nat.mod_eq_of_lt hid).symm
  have hL : onlineM (rowF V c b q) m0 25 + Real.log (onlineS (rowF V c b q) m0 25) = Cert.Spec.lse (xarr V c) (warr V c) b q := by
    rw [online_lse (rowF V c b q) m0 (by norm_num : 0 < 25)]
    unfold Cert.Spec.lse
    refine congrArg Real.log ?_
    refine (sum_tiles (fun v => Real.exp (rowG V c b q v))).trans ?_
    refine Finset.sum_congr rfl fun v _ => ?_
    show Real.exp (rowG V c b q v.val) = _
    unfold rowG
    rw [dif_pos v.isLt]
  rw [hE, hG, hL]

/-- At a last tile the output block holds, at row `(b, r)`, the log-probability of the row's selected entry. -/
theorem out_at_C (c : Dev nD) (hx : Cert.Spec.IsReal (xarr V c)) (hw : Cert.Spec.IsReal (warr V c))
    (hid : ∀ i, (idarr V c i).toNat < 32000) (t : Fin cfg1.N) (h1 : t.val % 25 = 24) (b : Fin 4) (r : Fin 256) :
    (outsAt1 V c t.val t.isLt).1 (ix2 b r)
      = ((Cert.Spec.lr (xarr V c) (warr V c) b (rowAt t r) (Cert.Spec.sel (idarr V c (ix3 b (rowAt t r) (0 : Fin 1))))
          - Cert.Spec.lse (xarr V c) (warr V c) b (rowAt t r) : ℝ) : EReal) := by
  have h0 : ¬t.val % 25 = 0 := by omega
  obtain ⟨eO, eM, eS, eE⟩ := at_C V c t h0 h1
  rw [← eM, ← eS, ← eE] at eO
  obtain ⟨iM, iS, iE⟩ := inv V c hx hw t.val t.isLt b r
  rw [h1] at iM iS iE
  rw [← row_final V c b (rowAt t r) (hid _)]
  refine (congrFun eO (ix2 b r)).trans ?_
  exact out_real _ _ _ b r _ _ _ (onlineS_pos _ _ (by norm_num)) iM iS iE

end Invariant

end Cert.KernelIdeal.Hand

end
-- ==== Proof.KI.Val1.lean ====
import proofs.«417562_j59090160058697_3_alg».proof.Proof.KI.Val1c
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.LibOnline

/-! # The array the second kernel leaves: the log-probability of the selected entry, row by row -/

section Final
variable (V : (c : Dev nD) → (b : Ref sig .tc) → Buf (Elt Ideal) ((c : Thread nD τ).loc b))

/-- The closed form, as contents of the output array. -/
abbrev result1 (c : Dev nD) : Cert.Spec.RowArr :=
  Cert.Spec.ptlC (V c main_v4) (V c main_v5) (fun i => V c main_v0 (ix3 (i 0) (i 1) 0))

/-- What a last tile writes back is its block of rows of the closed form. -/
theorem flushed1_eq (c : Dev nD) (hx : Cert.Spec.IsReal (V c main_v4)) (hw : Cert.Spec.IsReal (V c main_v5))
    (hid : ∀ i, (V c main_v0 i).toNat < 32000) (t : Fin cfg1.N) (hf : (cfg1.win 3).flush t = true) :
    (dat1 V c).flushed 3 t = ((cfg1.win 3).blk t).view.read (Elt Ideal) (result1 V c) := by
  have h1 : t.val % 25 = 24 := (flush1_3 t).mp hf
  obtain ⟨-, -, -, -, -, -, -, -, e8, e9, -⟩ := idx_facts1 t
  show (cfg1.win 3).cut (grid1.coords t) ((dat1 V c).after 3 t) = _
  rw [after1_3]
  funext j
  obtain ⟨b, r, rfl⟩ : ∃ (b : Fin 4) (r : Fin 256), j = ix2 b r := ⟨j 0, j 1, eq_ix2 j⟩
  show (outsAt1 V c t.val t.isLt).1 (ix2 b r) = result1 V c (((cfg1.win 3).blk t).view.emb (ix2 b r))
  rw [out_at_C V c hx hw hid t h1 b r]
  have hemb : ((cfg1.win 3).blk t).view.emb (ix2 b r) = ix2 b (rowAt t r) := by
    funext a; apply Fin.ext
    match a with
    | ⟨0, _⟩ => show win1_3.index t (0 : Fin 2) * 4 + 1 * b.val = b.val; omega
    | ⟨1, _⟩ => show win1_3.index t (1 : Fin 2) * 256 + 1 * r.val = 256 * (t.val / 25) + r.val; omega
  rw [hemb]
  rfl

/-- Every row of the output array is in the block of the last tile of its block of rows. -/
theorem cover1 (c : Dev nD) (i : S4x1024.Idx) :
    ∃ t : Fin cfg1.N, (cfg1.win 3).flush t = true ∧ i ∈ ((cfg1.win 3).blk t).view.set := by
  have hq : (i 1).val < 1024 := (i 1).isLt
  have hb : (i 0).val < 4 := (i 0).isLt
  let t : Fin cfg1.N := ⟨25 * ((i 1).val / 256) + 24, by have := N1; omega⟩
  have ht : t.val = 25 * ((i 1).val / 256) + 24 := rfl
  obtain ⟨-, -, -, -, -, -, -, -, e8, e9, -⟩ := idx_facts1 t
  refine ⟨t, (flush1_3 t).mpr (by omega), ?_⟩
  show i ∈ ((View.whole main_v6).slice (win1_3.rect t)).set
  rw [View.set_slice_whole, Rect.mem_set_unit]
  intro a
  match a with
  | ⟨0, _⟩ =>
    show win1_3.index t (0 : Fin 2) * 4 ≤ (i 0).val ∧ (i 0).val < win1_3.index t (0 : Fin 2) * 4 + 4
    omega
  | ⟨1, _⟩ =>
    show win1_3.index t (1 : Fin 2) * 256 ≤ (i 1).val ∧ (i 1).val < win1_3.index t (1 : Fin 2) * 256 + 256
    omega

/-- The output array of the second kernel after its hundred points: over real activations and a real projection matrix,
    and selected words below the vocabulary size, the log-probability of the selected entry of every row. -/
theorem final1_3 (c : Dev nD) (hx : Cert.Spec.IsReal (V c main_v4)) (hw : Cert.Spec.IsReal (V c main_v5))
    (hid : ∀ i, (V c main_v0 i).toNat < 32000) :
    (dat1 (F := Ideal) V c).arrAt 3 cfg1.N
      = Cert.Spec.ptlC (V c main_v4) (V c main_v5) (fun i => V c main_v0 (ix3 (i 0) (i 1) 0)) :=
  (dat1 V c).arrAt_eq_of_cover 3 (result1 V c) (flushed1_eq V c hx hw hid) (cover1 c)

end Final

end Cert.KernelIdeal.Hand

end
-- ==== Proof.Tail.Defs.lean ====
/-
  The part of the computation that both programs share, after each has its per-token log-probabilities. From the
  log-probabilities `P` of the policy and `Rf` of the reference model (one number per batch row and position), a mask
  over the same positions and one advantage per batch row, the programs compute

  * the importance ratio `exp (P - P)` (the old policy is the policy itself, so the ratio is written but is one),
    clipped to `[0.8, 1.2]` as `min 1.2 (max 0.8 ·)`;
  * per token `- min (ratio · adv) (clipped · adv) + 0.1 · (exp d - d - 1)` with `d = Rf - P`;
  * the loss: the masked sum of that over all tokens, divided by `max 1 (Σ mask)`;
  * the divergence metric: per batch row the masked sum of `exp d - d - 1` divided by `max 1 (Σ mask over the row)`,
    summed over the four rows and divided by four;
  * the mean of an array of per-token numbers: its sum over all `4 · 1024` positions divided by `4096`.

  Each is ONE function here, written as the composition of array operations in the order the programs apply them (the
  float constants by their bit patterns), over any float values `F`. Both programs' results are these functions of their
  own arrays, so equality of the results follows from equality of the arrays going in and nothing here is ever opened.
-/
import Idealize.ShloMosaic.PureOps

noncomputable section

namespace Cert.Tail

open Idealize.ShloMosaic

/-- One number per batch row and position, `[4, 1024]`. -/
abbrev ShRows : Shape := ⟨2, ![4, 1024]⟩
/-- One number per batch row, `[4]`. -/
abbrev ShBatch : Shape := ⟨1, ![4]⟩
/-- The same as a column, `[4, 1]`. -/
abbrev ShCol : Shape := ⟨2, ![4, 1]⟩
/-- One number. -/
abbrev ShOne : Shape := ⟨0, ![]⟩

theorem bcast_one_rows : ShOne.BroadcastsInDim ShRows (![] : Fin 0 → Fin ShRows.rank) := by decide
theorem bcast_one_batch : ShOne.BroadcastsInDim ShBatch (![] : Fin 0 → Fin ShBatch.rank) := by decide
theorem bcast_batch_col : ShBatch.BroadcastsInDim ShCol (![0] : Fin 1 → Fin ShCol.rank) := by decide
theorem bcast_col_rows : ShCol.BroadcastsInDim ShRows (![0, 1] : Fin 2 → Fin ShRows.rank) := by decide
theorem red_rows_one : ShRows.ReducesTo [0, 1] ShOne := by decide
theorem red_rows_batch : ShRows.ReducesTo [1] ShBatch := by decide
theorem red_batch_one : ShBatch.ReducesTo [0] ShOne := by decide
theorem one_pos : 0 < ShOne.numel := by decide

variable {F : FTy → Type} [FloatOps F]

/-- The importance ratio `exp (P - P)`. -/
def ratio (P : FVec F ShRows .f32) : FVec F ShRows .f32 :=
  Host.exp (F := F) (subf (F := F) P P)

/-- `min hi (max lo x)`, the bounds one number each. -/
def clipTo (lo hi : FVec F ShOne .f32) (x : FVec F ShRows .f32) : FVec F ShRows .f32 :=
  minimumf (F := F) (broadcastInDim ShRows ![] bcast_one_rows hi)
    (maximumf (F := F) (broadcastInDim ShRows ![] bcast_one_rows lo) x)

/-- The ratio clipped to `[0.8, 1.2]`. -/
def clipped (P : FVec F ShRows .f32) : FVec F ShRows .f32 :=
  clipTo (F := F) (constant (F := F) ShOne .f32 0x3F4CCCCD#32) (constant (F := F) ShOne .f32 0x3F99999A#32) (ratio (F := F) P)

/-- The advantages, one per batch row, repeated along the positions. -/
def advRows (adv : FVec F ShBatch .f32) : FVec F ShRows .f32 :=
  broadcastInDim ShRows ![0, 1] bcast_col_rows (broadcastInDim ShCol ![0] bcast_batch_col adv)

/-- `exp d - d - 1` with `d = Rf - P`, per token. -/
def klTok (P Rf : FVec F ShRows .f32) : FVec F ShRows .f32 :=
  subf (F := F) (subf (F := F) (Host.exp (F := F) (subf (F := F) Rf P)) (subf (F := F) Rf P))
    (broadcastInDim ShRows ![] bcast_one_rows (constant (F := F) ShOne .f32 0x3F800000#32))

/-- Per token, from a ratio `r` and a clipped ratio `rc`: `- min (r · adv) (rc · adv) + 0.1 · (exp d - d - 1)`. -/
def tokOf (r rc P Rf : FVec F ShRows .f32) (adv : FVec F ShBatch .f32) : FVec F ShRows .f32 :=
  addf (F := F)
    (Host.negf (F := F) (minimumf (F := F) (mulf (F := F) r (advRows (F := F) adv)) (mulf (F := F) rc (advRows (F := F) adv))))
    (mulf (F := F) (broadcastInDim ShRows ![] bcast_one_rows (constant (F := F) ShOne .f32 0x3DCCCCCD#32)) (klTok (F := F) P Rf))

/-- The masked sum of `x` over all positions. -/
def maskedSum (x mask : FVec F ShRows .f32) : FVec F ShOne .f32 :=
  Host.reduceAdd (F := F) (mulf (F := F) x mask) (constant (F := F) ShOne .f32 0x00000000#32) red_rows_one one_pos

/-- `max 1 (Σ mask)`, the sum over all positions. -/
def maskCount (mask : FVec F ShRows .f32) : FVec F ShOne .f32 :=
  maximumf (F := F) (constant (F := F) ShOne .f32 0x3F800000#32)
    (Host.reduceAdd (F := F) mask (constant (F := F) ShOne .f32 0x00000000#32) red_rows_one one_pos)

/-- Per batch row, the masked sum of `x` over the positions. -/
def maskedRowSum (x mask : FVec F ShRows .f32) : FVec F ShBatch .f32 :=
  Host.reduceAdd (F := F) (mulf (F := F) x mask) (constant (F := F) ShOne .f32 0x00000000#32) red_rows_batch one_pos

/-- Per batch row, `max 1 (Σ mask over the positions)`. -/
def maskRowCount (mask : FVec F ShRows .f32) : FVec F ShBatch .f32 :=
  maximumf (F := F) (broadcastInDim ShBatch ![] bcast_one_batch (constant (F := F) ShOne .f32 0x3F800000#32))
    (Host.reduceAdd (F := F) mask (constant (F := F) ShOne .f32 0x00000000#32) red_rows_batch one_pos)

/-- THE LOSS: the masked sum of the per-token terms divided by `max 1 (Σ mask)`. -/
def loss (P Rf mask : FVec F ShRows .f32) (adv : FVec F ShBatch .f32) : FVec F ShOne .f32 :=
  Host.divf (F := F) (maskedSum (F := F) (tokOf (F := F) (ratio (F := F) P) (clipped (F := F) P) P Rf adv) mask) (maskCount (F := F) mask)

/-- THE DIVERGENCE METRIC: the row means of `exp d - d - 1` under the mask, summed over the rows and divided by four. -/
def kl (P Rf mask : FVec F ShRows .f32) : FVec F ShOne .f32 :=
  Host.divf (F := F)
    (Host.reduceAdd (F := F) (Host.divf (F := F) (maskedRowSum (F := F) (klTok (F := F) P Rf) mask) (maskRowCount (F := F) mask))
      (constant (F := F) ShOne .f32 0x00000000#32) red_batch_one one_pos)
    (constant (F := F) ShOne .f32 0x40800000#32)

/-- THE MEAN over all `4 · 1024` positions: the sum divided by `4096`. -/
def meanRows (P : FVec F ShRows .f32) : FVec F ShOne .f32 :=
  Host.divf (F := F) (Host.reduceAdd (F := F) P (constant (F := F) ShOne .f32 0x00000000#32) red_rows_one one_pos)
    (constant (F := F) ShOne .f32 0x45800000#32)

end Cert.Tail

end
-- ==== Proof.Tail.Kernel.lean ====
/-
  The first program's results as the shared tail functions of what its two kernel regions leave.

  The program is two kernel regions and host operations around them. Its buffers between two items are the valuations
  `Gen.V0 … Gen.V11`: the launch memory, then each stretch of host operations applied, then what a region leaves
  (the unknowns `outs`). Each stretch of host operations after the second region is read once, over ANY valuation it
  starts from (`s2_…`, `s21_…`, … below: the values it writes as functions of the values it reads), and the values
  are then carried from one valuation to the next: a buffer a stretch does not write keeps its contents.

  Reading the valuations this way never opens an array: every step is a rewrite of one buffer's contents by the
  function of the operation that wrote it.
-/
import proofs.«417562_j59090160058697_3_alg».proof.Proof.Gen.KernelIdeal.Regions
import proofs.«417562_j59090160058697_3_alg».proof.Proof.Tail.Defs
import Idealize.ShloMosaic.Lib.Pipeline.Value
import Idealize.ShloMosaic.Lib.ValueIdx

noncomputable section

namespace Cert.Tail

open Idealize.ShloMosaic Idealize.ShloMosaic.TcCoe Idealize.ShloMosaic.StableHlo Idealize.ShloMosaic.ValueIdx
open Cert.KernelIdeal Cert.KernelIdeal.Gen

/-! ## Each stretch of host operations, over any valuation it starts from -/

section Stretches

variable {F : FTy → Type} [FloatOps F] [Named F] (W : Valuation τ sig (Elt F))

/-- The first stretch narrows the activations to bf16. -/
theorem s0_v1 : StableHlo.after (hostOps0 (F := F)) W (Proc.devRef .tc main_v1)
    = truncf (F := F) .bf16 (W (Proc.devRef .tc main_arg0)) (by decide) := by
  after_results_simp <;> rfl
/-- … and the projection matrix, -/
theorem s0_v2 : StableHlo.after (hostOps0 (F := F)) W (Proc.devRef .tc main_v2)
    = truncf (F := F) .bf16 (W (Proc.devRef .tc main_arg1)) (by decide) := by
  after_results_simp <;> rfl
/-- … and gives the selected entries a trailing axis of size one. -/
theorem s0_v0 : StableHlo.after (hostOps0 (F := F)) W (Proc.devRef .tc main_v0)
    = broadcastInDim Cert.KernelIdeal.S4x1024x1 ![0, 1] Cert.KernelIdeal.Gen.bcast_S4x1024_S4x1024x1_0_1 (W (Proc.devRef .tc main_arg4)) := by
  after_results_simp <;> rfl

/-- The stretch between the regions narrows the reference model's activations -/
theorem s1_v4 : StableHlo.after (hostOps1 (F := F)) W (Proc.devRef .tc main_v4)
    = truncf (F := F) .bf16 (W (Proc.devRef .tc main_arg3)) (by decide) := by
  after_results_simp <;> rfl
/-- … and its projection matrix. -/
theorem s1_v5 : StableHlo.after (hostOps1 (F := F)) W (Proc.devRef .tc main_v5)
    = truncf (F := F) .bf16 (W (Proc.devRef .tc main_arg2)) (by decide) := by
  after_results_simp <;> rfl

/-- The ratio. -/
theorem s2_v8 : StableHlo.after (hostOps2 (F := F)) W (Proc.devRef .tc main_v8) = ratio (F := F) (W (Proc.devRef .tc main_v3_0)) := by
  after_results_simp <;> rfl
/-- The lower clipping bound, 0.8. -/
theorem s2_cst : StableHlo.after (hostOps2 (F := F)) W (Proc.devRef .tc main_cst) = constant (F := F) ShOne .f32 0x3F4CCCCD#32 := by
  after_results_simp <;> rfl
/-- The upper clipping bound, 1.2. -/
theorem s2_cst_0 : StableHlo.after (hostOps2 (F := F)) W (Proc.devRef .tc main_cst_0) = constant (F := F) ShOne .f32 0x3F99999A#32 := by
  after_results_simp <;> rfl

/-- The clipping function's body. -/
theorem s21_v9 : StableHlo.after (hostOps2_1 (F := F)) W (Proc.devRef .tc main_v9)
    = clipTo (F := F) (W (Proc.devRef .tc main_cst)) (W (Proc.devRef .tc main_cst_0)) (W (Proc.devRef .tc main_v8)) := by
  after_results_simp <;> rfl

/-- `exp d - d - 1`. -/
theorem s22_v21 : StableHlo.after (hostOps2_2 (F := F)) W (Proc.devRef .tc main_v21)
    = klTok (F := F) (W (Proc.devRef .tc main_v3_0)) (W (Proc.devRef .tc main_v6)) := by
  after_results_simp <;> rfl
/-- The masked sum of the per-token terms. -/
theorem s22_v26 : StableHlo.after (hostOps2_2 (F := F)) W (Proc.devRef .tc main_v26)
    = maskedSum (F := F) (tokOf (F := F) (W (Proc.devRef .tc main_v8)) (W (Proc.devRef .tc main_v9)) (W (Proc.devRef .tc main_v3_0))
        (W (Proc.devRef .tc main_v6)) (W (Proc.devRef .tc main_arg6))) (W (Proc.devRef .tc main_arg5)) := by
  after_results_simp <;> rfl
/-- The sum of the mask. -/
theorem s22_v27 : StableHlo.after (hostOps2_2 (F := F)) W (Proc.devRef .tc main_v27)
    = Host.reduceAdd (F := F) (W (Proc.devRef .tc main_arg5)) (constant (F := F) ShOne .f32 0x00000000#32) red_rows_one one_pos := by
  after_results_simp <;> rfl
/-- The one it is compared with. -/
theorem s22_cst_5 : StableHlo.after (hostOps2_2 (F := F)) W (Proc.devRef .tc main_cst_5) = constant (F := F) ShOne .f32 0x3F800000#32 := by
  after_results_simp <;> rfl

/-- `max 1 (Σ mask)`: the second clipping function's body. -/
theorem s23_v28 : StableHlo.after (hostOps2_3 (F := F)) W (Proc.devRef .tc main_v28)
    = maximumf (F := F) (W (Proc.devRef .tc main_cst_5)) (W (Proc.devRef .tc main_v27)) := by
  after_results_simp <;> rfl

/-- The loss, a quotient. -/
theorem s24_v29 : StableHlo.after (hostOps2_4 (F := F)) W (Proc.devRef .tc main_v29)
    = Host.divf (F := F) (W (Proc.devRef .tc main_v26)) (W (Proc.devRef .tc main_v28)) := by
  after_results_simp <;> rfl
/-- The rows' masked sums of `exp d - d - 1`. -/
theorem s24_v31 : StableHlo.after (hostOps2_4 (F := F)) W (Proc.devRef .tc main_v31)
    = maskedRowSum (F := F) (W (Proc.devRef .tc main_v21)) (W (Proc.devRef .tc main_arg5)) := by
  after_results_simp <;> rfl
/-- The rows' sums of the mask. -/
theorem s24_v32 : StableHlo.after (hostOps2_4 (F := F)) W (Proc.devRef .tc main_v32)
    = Host.reduceAdd (F := F) (W (Proc.devRef .tc main_arg5)) (constant (F := F) ShOne .f32 0x00000000#32) red_rows_batch one_pos := by
  after_results_simp <;> rfl
/-- The one they are compared with. -/
theorem s24_cst_8 : StableHlo.after (hostOps2_4 (F := F)) W (Proc.devRef .tc main_cst_8) = constant (F := F) ShOne .f32 0x3F800000#32 := by
  after_results_simp <;> rfl

/-- Per row `max 1 (Σ mask)`: the third clipping function's body. -/
theorem s25_v33 : StableHlo.after (hostOps2_5 (F := F)) W (Proc.devRef .tc main_v33)
    = maximumf (F := F) (broadcastInDim ShBatch ![] bcast_one_batch (W (Proc.devRef .tc main_cst_8))) (W (Proc.devRef .tc main_v32)) := by
  after_results_simp <;> rfl

/-- The divergence metric from the rows' sums and counts. -/
theorem s26_v36 : StableHlo.after (hostOps2_6 (F := F)) W (Proc.devRef .tc main_v36)
    = Host.divf (F := F)
        (Host.reduceAdd (F := F) (Host.divf (F := F) (W (Proc.devRef .tc main_v31)) (W (Proc.devRef .tc main_v33)))
          (constant (F := F) ShOne .f32 0x00000000#32) red_batch_one one_pos)
        (constant (F := F) ShOne .f32 0x40800000#32) := by
  after_results_simp <;> rfl
/-- The mean of the row means. -/
theorem s26_v38 : StableHlo.after (hostOps2_6 (F := F)) W (Proc.devRef .tc main_v38) = meanRows (F := F) (W (Proc.devRef .tc main_v3_1)) := by
  after_results_simp <;> rfl
/-- The mean of the log-probabilities. -/
theorem s26_v40 : StableHlo.after (hostOps2_6 (F := F)) W (Proc.devRef .tc main_v40) = meanRows (F := F) (W (Proc.devRef .tc main_v3_0)) := by
  after_results_simp <;> rfl

end Stretches

/-! ## What the regions leave, and what every stretch carries along -/

section Carry

variable {F : FTy → Type} [FloatOps F] [Named F]
variable (m : (ℓ : Loc nD τ sig) → Buf (Elt F) ℓ) (outs : Outs (F := F)) (c : Dev nD)

/-- After the first region the per-token log-probabilities are what the region left. -/
theorem V2_P : V2 m outs c (Proc.devRef .tc main_v3_0) = outs 2 main_v3_0 c := by
  show Function.update (Function.update (V1 m c) (Proc.devRef .tc main_v3_0) (outs 2 main_v3_0 c)) (Proc.devRef .tc main_v3_1) (outs 2 main_v3_1 c)
    (Proc.devRef .tc main_v3_0) = _
  rw [Function.update_of_ne (StableHlo.devRef_ne_of_ne (by decide)), Function.update_self]
/-- … and so are the row means. -/
theorem V2_Q : V2 m outs c (Proc.devRef .tc main_v3_1) = outs 2 main_v3_1 c := by
  show Function.update (Function.update (V1 m c) (Proc.devRef .tc main_v3_0) (outs 2 main_v3_0 c)) (Proc.devRef .tc main_v3_1) (outs 2 main_v3_1 c)
    (Proc.devRef .tc main_v3_1) = _
  rw [Function.update_self]
/-- After the second region the reference model's log-probabilities are what that region left. -/
theorem V4_Rf : V4 m outs c (Proc.devRef .tc main_v6) = outs 4 main_v6 c := by
  show Function.update (V3 m outs c) (Proc.devRef .tc main_v6) (outs 4 main_v6 c) (Proc.devRef .tc main_v6) = _
  rw [Function.update_self]

/-- The policy's log-probabilities, carried to the valuation before the first stretch of the tail. -/
theorem V4_P : V4 m outs c (Proc.devRef .tc main_v3_0) = outs 2 main_v3_0 c :=
  (V4_of m outs c main_v3_0 (by decide)).trans <| (V3_of m outs c main_v3_0 (by decide)).trans (V2_P m outs c)
theorem V4_Q : V4 m outs c (Proc.devRef .tc main_v3_1) = outs 2 main_v3_1 c :=
  (V4_of m outs c main_v3_1 (by decide)).trans <| (V3_of m outs c main_v3_1 (by decide)).trans (V2_Q m outs c)
/-- The mask, an argument no item writes. -/
theorem V4_mask : V4 m outs c (Proc.devRef .tc main_arg5) = m ((c : Thread nD τ).loc main_arg5) :=
  (V4_of m outs c main_arg5 (by decide)).trans <| (V3_of m outs c main_arg5 (by decide)).trans <|
    (V2_of m outs c main_arg5 (by decide)).trans <| (V1_of m c main_arg5 (by decide)).trans rfl
/-- The advantages, likewise. -/
theorem V4_adv : V4 m outs c (Proc.devRef .tc main_arg6) = m ((c : Thread nD τ).loc main_arg6) :=
  (V4_of m outs c main_arg6 (by decide)).trans <| (V3_of m outs c main_arg6 (by decide)).trans <|
    (V2_of m outs c main_arg6 (by decide)).trans <| (V1_of m c main_arg6 (by decide)).trans rfl

theorem V5_P : V5 m outs c (Proc.devRef .tc main_v3_0) = outs 2 main_v3_0 c := (V5_of m outs c main_v3_0 (by decide)).trans (V4_P m outs c)
theorem V6_P : V6 m outs c (Proc.devRef .tc main_v3_0) = outs 2 main_v3_0 c := (V6_of m outs c main_v3_0 (by decide)).trans (V5_P m outs c)
theorem V7_P : V7 m outs c (Proc.devRef .tc main_v3_0) = outs 2 main_v3_0 c := (V7_of m outs c main_v3_0 (by decide)).trans (V6_P m outs c)
theorem V8_P : V8 m outs c (Proc.devRef .tc main_v3_0) = outs 2 main_v3_0 c := (V8_of m outs c main_v3_0 (by decide)).trans (V7_P m outs c)
theorem V9_P : V9 m outs c (Proc.devRef .tc main_v3_0) = outs 2 main_v3_0 c := (V9_of m outs c main_v3_0 (by decide)).trans (V8_P m outs c)
theorem V10_P : V10 m outs c (Proc.devRef .tc main_v3_0) = outs 2 main_v3_0 c := (V10_of m outs c main_v3_0 (by decide)).trans (V9_P m outs c)

theorem V10_Q : V10 m outs c (Proc.devRef .tc main_v3_1) = outs 2 main_v3_1 c :=
  (V10_of m outs c main_v3_1 (by decide)).trans <| (V9_of m outs c main_v3_1 (by decide)).trans <| (V8_of m outs c main_v3_1 (by decide)).trans <|
    (V7_of m outs c main_v3_1 (by decide)).trans <| (V6_of m outs c main_v3_1 (by decide)).trans <| (V5_of m outs c main_v3_1 (by decide)).trans (V4_Q m outs c)

theorem V6_Rf : V6 m outs c (Proc.devRef .tc main_v6) = outs 4 main_v6 c :=
  (V6_of m outs c main_v6 (by decide)).trans <| (V5_of m outs c main_v6 (by decide)).trans (V4_Rf m outs c)

theorem V6_mask : V6 m outs c (Proc.devRef .tc main_arg5) = m ((c : Thread nD τ).loc main_arg5) :=
  (V6_of m outs c main_arg5 (by decide)).trans <| (V5_of m outs c main_arg5 (by decide)).trans (V4_mask m outs c)
theorem V8_mask : V8 m outs c (Proc.devRef .tc main_arg5) = m ((c : Thread nD τ).loc main_arg5) :=
  (V8_of m outs c main_arg5 (by decide)).trans <| (V7_of m outs c main_arg5 (by decide)).trans (V6_mask m outs c)
theorem V6_adv : V6 m outs c (Proc.devRef .tc main_arg6) = m ((c : Thread nD τ).loc main_arg6) :=
  (V6_of m outs c main_arg6 (by decide)).trans <| (V5_of m outs c main_arg6 (by decide)).trans (V4_adv m outs c)

/-! ## The tail, valuation by valuation -/

/-- The ratio, after the first stretch of the tail … -/
theorem V5_ratio : V5 m outs c (Proc.devRef .tc main_v8) = ratio (F := F) (outs 2 main_v3_0 c) :=
  (s2_v8 (V4 m outs c)).trans (congrArg (ratio (F := F)) (V4_P m outs c))
/-- … and after the clipping function's. -/
theorem V6_ratio : V6 m outs c (Proc.devRef .tc main_v8) = ratio (F := F) (outs 2 main_v3_0 c) :=
  (V6_of m outs c main_v8 (by decide)).trans (V5_ratio m outs c)
/-- The clipping bounds. -/
theorem V5_lo : V5 m outs c (Proc.devRef .tc main_cst) = constant (F := F) ShOne .f32 0x3F4CCCCD#32 := s2_cst (V4 m outs c)
theorem V5_hi : V5 m outs c (Proc.devRef .tc main_cst_0) = constant (F := F) ShOne .f32 0x3F99999A#32 := s2_cst_0 (V4 m outs c)
/-- The clipped ratio. -/
theorem V6_clipped : V6 m outs c (Proc.devRef .tc main_v9) = clipped (F := F) (outs 2 main_v3_0 c) := by
  refine (s21_v9 (V5 m outs c)).trans ?_
  rw [V5_lo m outs c, V5_hi m outs c, V5_ratio m outs c]
  rfl

/-- `exp d - d - 1`, after the long stretch … -/
theorem V7_klTok : V7 m outs c (Proc.devRef .tc main_v21) = klTok (F := F) (outs 2 main_v3_0 c) (outs 4 main_v6 c) := by
  refine (s22_v21 (V6 m outs c)).trans ?_
  rw [V6_P m outs c, V6_Rf m outs c]
/-- … and after the second clipping function's. -/
theorem V8_klTok : V8 m outs c (Proc.devRef .tc main_v21) = klTok (F := F) (outs 2 main_v3_0 c) (outs 4 main_v6 c) :=
  (V8_of m outs c main_v21 (by decide)).trans (V7_klTok m outs c)

/-- The masked sum of the per-token terms. -/
theorem V7_sum : V7 m outs c (Proc.devRef .tc main_v26)
    = maskedSum (F := F) (tokOf (F := F) (ratio (F := F) (outs 2 main_v3_0 c)) (clipped (F := F) (outs 2 main_v3_0 c)) (outs 2 main_v3_0 c)
        (outs 4 main_v6 c) (m ((c : Thread nD τ).loc main_arg6))) (m ((c : Thread nD τ).loc main_arg5)) := by
  refine (s22_v26 (V6 m outs c)).trans ?_
  rw [V6_ratio m outs c, V6_clipped m outs c, V6_P m outs c, V6_Rf m outs c, V6_adv m outs c, V6_mask m outs c]
theorem V8_sum : V8 m outs c (Proc.devRef .tc main_v26)
    = maskedSum (F := F) (tokOf (F := F) (ratio (F := F) (outs 2 main_v3_0 c)) (clipped (F := F) (outs 2 main_v3_0 c)) (outs 2 main_v3_0 c)
        (outs 4 main_v6 c) (m ((c : Thread nD τ).loc main_arg6))) (m ((c : Thread nD τ).loc main_arg5)) :=
  (V8_of m outs c main_v26 (by decide)).trans (V7_sum m outs c)

/-- The sum of the mask and the one it is compared with. -/
theorem V7_maskSum : V7 m outs c (Proc.devRef .tc main_v27)
    = Host.reduceAdd (F := F) (m ((c : Thread nD τ).loc main_arg5)) (constant (F := F) ShOne .f32 0x00000000#32) red_rows_one one_pos := by
  refine (s22_v27 (V6 m outs c)).trans ?_
  rw [V6_mask m outs c]
theorem V7_one : V7 m outs c (Proc.devRef .tc main_cst_5) = constant (F := F) ShOne .f32 0x3F800000#32 := s22_cst_5 (V6 m outs c)
/-- `max 1 (Σ mask)`. -/
theorem V8_count : V8 m outs c (Proc.devRef .tc main_v28) = maskCount (F := F) (m ((c : Thread nD τ).loc main_arg5)) := by
  refine (s23_v28 (V7 m outs c)).trans ?_
  rw [V7_one m outs c, V7_maskSum m outs c]
  rfl

/-- The rows' masked sums of `exp d - d - 1` and the rows' counts. -/
theorem V10_rowSum : V10 m outs c (Proc.devRef .tc main_v31)
    = maskedRowSum (F := F) (klTok (F := F) (outs 2 main_v3_0 c) (outs 4 main_v6 c)) (m ((c : Thread nD τ).loc main_arg5)) := by
  refine (V10_of m outs c main_v31 (by decide)).trans <| (s24_v31 (V8 m outs c)).trans ?_
  rw [V8_klTok m outs c, V8_mask m outs c]
theorem V9_rowMaskSum : V9 m outs c (Proc.devRef .tc main_v32)
    = Host.reduceAdd (F := F) (m ((c : Thread nD τ).loc main_arg5)) (constant (F := F) ShOne .f32 0x00000000#32) red_rows_batch one_pos := by
  refine (s24_v32 (V8 m outs c)).trans ?_
  rw [V8_mask m outs c]
theorem V9_one : V9 m outs c (Proc.devRef .tc main_cst_8) = constant (F := F) ShOne .f32 0x3F800000#32 := s24_cst_8 (V8 m outs c)
theorem V10_rowCount : V10 m outs c (Proc.devRef .tc main_v33) = maskRowCount (F := F) (m ((c : Thread nD τ).loc main_arg5)) := by
  refine (s25_v33 (V9 m outs c)).trans ?_
  rw [V9_one m outs c, V9_rowMaskSum m outs c]
  rfl

end Carry

/-! ## The four results -/

section Results

variable {F : FTy → Type} [FloatOps F] [Named F]
variable (m : (ℓ : Loc nD τ sig) → Buf (Elt F) ℓ) (outs : Outs (F := F)) (c : Dev nD)

/-- THE LOSS the first program returns is the tail's loss of what its regions leave. -/
theorem k_loss : V11 m outs c main_v29
    = loss (F := F) (outs 2 main_v3_0 c) (outs 4 main_v6 c) (m ((c : Thread nD τ).loc main_arg5)) (m ((c : Thread nD τ).loc main_arg6)) := by
  refine (V11_of m outs c main_v29 (by decide)).trans <| (V10_of m outs c main_v29 (by decide)).trans <| (s24_v29 (V8 m outs c)).trans ?_
  rw [V8_sum m outs c, V8_count m outs c]
  rfl

/-- The mean of the policy's log-probabilities. -/
theorem k_meanP : V11 m outs c main_v40 = meanRows (F := F) (outs 2 main_v3_0 c) :=
  (s26_v40 (V10 m outs c)).trans (congrArg (meanRows (F := F)) (V10_P m outs c))

/-- The mean of the row means. -/
theorem k_meanQ : V11 m outs c main_v38 = meanRows (F := F) (outs 2 main_v3_1 c) :=
  (s26_v38 (V10 m outs c)).trans (congrArg (meanRows (F := F)) (V10_Q m outs c))

/-- THE DIVERGENCE METRIC. -/
theorem k_kl : V11 m outs c main_v36 = kl (F := F) (outs 2 main_v3_0 c) (outs 4 main_v6 c) (m ((c : Thread nD τ).loc main_arg5)) := by
  refine (s26_v36 (V10 m outs c)).trans ?_
  rw [V10_rowSum m outs c, V10_rowCount m outs c]
  rfl

end Results

/-! ## What the two regions read -/

section Reads

variable (m : (ℓ : Loc nD τ sig) → Buf (Elt Ideal) ℓ) (outs : Outs (F := Ideal)) (c : Dev nD)

/-- The first region's activations are the argument's: over the reals the narrowing to bf16 is the identity. -/
theorem k_x : (V1 m c (Proc.devRef .tc main_v1) : Cert.KernelIdeal.S4x1024x2048.Idx → EReal) = m ((c : Thread nD τ).loc main_arg0) :=
  (s0_v1 (V0 m c)).trans rfl
/-- Its projection matrix is the argument's. -/
theorem k_w : (V1 m c (Proc.devRef .tc main_v2) : Cert.KernelIdeal.S32000x2048.Idx → EReal) = m ((c : Thread nD τ).loc main_arg1) :=
  (s0_v2 (V0 m c)).trans rfl
/-- Its selected entries are the argument's, read at the row. -/
theorem k_ids (b : Fin 4) (t : Fin 1024) :
    (V1 m c (Proc.devRef .tc main_v0) : Cert.KernelIdeal.S4x1024x1.Idx → BitVec 32) (ix3 b t 0)
      = (m ((c : Thread nD τ).loc main_arg4) : Cert.KernelIdeal.S4x1024.Idx → BitVec 32) (ix2 b t) := by
  rw [show V1 m c (Proc.devRef .tc main_v0) = _ from s0_v0 (V0 m c)]
  exact broadcastInDim_apply _ _ _ _ (ix2 b t) (fun a => by fin_cases a <;> rfl)

/-- The second region's activations are the reference model's argument. -/
theorem k_x1 : (V3 m outs c (Proc.devRef .tc main_v4) : Cert.KernelIdeal.S4x1024x2048.Idx → EReal) = m ((c : Thread nD τ).loc main_arg3) :=
  (s1_v4 (V2 m outs c)).trans <| (show truncf (F := Ideal) .bf16 (V2 m outs c (Proc.devRef .tc main_arg3)) (by decide) = V2 m outs c (Proc.devRef .tc main_arg3) from rfl).trans <|
    (V2_of m outs c main_arg3 (by decide)).trans <| (V1_of m c main_arg3 (by decide)).trans rfl
/-- Its projection matrix is the reference model's argument. -/
theorem k_w1 : (V3 m outs c (Proc.devRef .tc main_v5) : Cert.KernelIdeal.S32000x2048.Idx → EReal) = m ((c : Thread nD τ).loc main_arg2) :=
  (s1_v5 (V2 m outs c)).trans <| (show truncf (F := Ideal) .bf16 (V2 m outs c (Proc.devRef .tc main_arg2)) (by decide) = V2 m outs c (Proc.devRef .tc main_arg2) from rfl).trans <|
    (V2_of m outs c main_arg2 (by decide)).trans <| (V1_of m c main_arg2 (by decide)).trans rfl
/-- Its selected entries are the same argument's, read at the row. -/
theorem k_ids1 (b : Fin 4) (t : Fin 1024) :
    (V3 m outs c (Proc.devRef .tc main_v0) : Cert.KernelIdeal.S4x1024x1.Idx → BitVec 32) (ix3 b t 0)
      = (m ((c : Thread nD τ).loc main_arg4) : Cert.KernelIdeal.S4x1024.Idx → BitVec 32) (ix2 b t) := by
  rw [show V3 m outs c (Proc.devRef .tc main_v0) = V1 m c (Proc.devRef .tc main_v0) from
    (V3_of m outs c main_v0 (by decide)).trans (V2_of m outs c main_v0 (by decide))]
  exact k_ids m c b t

end Reads

end Cert.Tail

end
-- ==== Proof.PreFacts.lean ====
/-
  The precondition, read back. The claim's hypothesis says that a printed boolean function of the seven argument
  arrays is 1 on every device. That function is a conjunction: for each float array, "every entry has absolute value
  below +∞", and for the array of selected entries, "every word is at least 0 and below 32000, read as signed".
  Here the conjunction is split and each part is read at one element: the float arrays hold real numbers, and every
  selected word, read as a natural number, is below 32000.
-/
import proofs.«417562_j59090160058697_3_alg».proof.Defs
import proofs.«417562_j59090160058697_3_alg».proof.Proof.Spec
import Idealize.ShloMosaic.Lib.ReduceAll

noncomputable section

namespace Cert.PreFacts

open Idealize.ShloMosaic Idealize.SL.Sem
open Cert.KernelIdeal (nD τ sig main_arg0 main_arg1 main_arg2 main_arg3 main_arg4)
open Cert.Pre_finite_inputs

/-- The shape of a scalar has exactly one index. -/
instance : Subsingleton S_.Idx := ⟨fun a b => funext fun d => d.elim0⟩

/-- An extended real whose absolute value `max x (-x)` is below `+∞` is a real number: at `±∞` the absolute value is `+∞`. -/
theorem real_of_abs_lt_top (x : EReal) (h : max x (-x) < ⊤) : ∃ r : ℝ, x = (r : EReal) := by
  induction x using EReal.rec with
  | bot => simp at h
  | coe r => exact ⟨r, rfl⟩
  | top => simp at h

/-- The single-precision pattern with all exponent bits set and no fraction bit denotes `+∞`. -/
theorem ofBits_inf : Ideal.ofBits .f32 0x7F800000#32 = (⊤ : EReal) := by
  simp [Ideal.ofBits, Ideal.ieee]

/-- A boolean as a one-bit word is 1 exactly when it is true. -/
theorem ofBool_eq_one {b : Bool} : BitVec.ofBool b = 1#1 ↔ b = true := by cases b <;> decide

/-- One float conjunct: if "for all entries, |entry| < +∞" came out 1, every entry is a real number. -/
theorem real_of_all {s : Shape} {axes : List (Fin s.rank)} (hb : S_.BroadcastsInDim s (![] : Fin 0 → Fin s.rank))
    (hr : s.ReducesTo axes S_) (h0 : 0 < S_.numel) (x : FVec Ideal s .f32)
    (e : Host.reduce IntOp.andi (cmpf .olt (Host.absf x) (broadcastInDim s ![] hb (constant S_ .f32 0x7F800000#32)))
          (constantI S_ 1 1#1) hr h0 ValueIdx.ix0 = 1#1) :
    Cert.Spec.IsReal x := by
  intro i
  have e1 := Host.reduce_andi_all _ _ hr h0 _ e i
  have e2 : BitVec.ofBool (decide (max (x i) (-(x i)) < Ideal.ofBits .f32 0x7F800000#32)) = 1#1 := e1
  rw [ofBool_eq_one, decide_eq_true_eq, ofBits_inf] at e2
  exact real_of_abs_lt_top _ e2

/-- A word that is at least 0 and below 32000 as a signed number is below 32000 as a natural number: a nonnegative
    signed word has its top bit clear, so both readings agree. -/
theorem toNat_lt_of_signed (w : BitVec 32) (h0 : IntOp.cmpi .sge w 0#32 = 1#1) (h1 : IntOp.cmpi .slt w 32000#32 = 1#1) :
    w.toNat < 32000 := by
  rw [IntOp.cmpi_sge, show (0#32 : BitVec 32).toInt = 0 from by decide] at h0
  rw [IntOp.cmpi_slt, show (32000#32 : BitVec 32).toInt = 32000 from by decide] at h1
  have hlt : 2 * w.toNat < 2 ^ 32 := BitVec.toInt_pos_iff.1 h0
  rw [BitVec.toInt_eq_toNat_of_lt hlt] at h1
  omega

variable [hP : Cert.Pre_finite_inputs.Facts]

/-- The integer conjunct: if "for all words, 0 ≤ word and word < 32000 (signed)" came out 1, every word is below 32000. -/
theorem lt_of_all (a : IVec S4x1024 32)
    (e : Host.reduce IntOp.andi
          (andi (cmpi .sge a (broadcastInDim S4x1024 ![] hP.bcast_S_S4x1024 (constantI S_ 32 0#32)))
                (cmpi .slt a (broadcastInDim S4x1024 ![] hP.bcast_S_S4x1024 (constantI S_ 32 32000#32))))
          (constantI S_ 1 1#1) hP.reducesTo_S4x1024_S_d0_1 hP.h_S_ ValueIdx.ix0 = 1#1) (i : S4x1024.Idx) :
    (a i).toNat < 32000 := by
  have e1 := Host.reduce_andi_all _ _ _ _ _ e i
  have e2 : IntOp.andi (IntOp.cmpi .sge (a i) 0#32) (IntOp.cmpi .slt (a i) 32000#32) = 1#1 := e1
  obtain ⟨h0, h1⟩ := IntOp.andi_eq_one.1 e2
  exact toNat_lt_of_signed _ h0 h1

/-- The printed function, equal to 1 at its one index, split into what it says of the first five arrays. -/
theorem decode (a0 : FVec Ideal S4x1024x2048 .f32) (a1 a2 : FVec Ideal S32000x2048 .f32) (a3 : FVec Ideal S4x1024x2048 .f32)
    (a4 : IVec S4x1024 32) (a5 : FVec Ideal S4x1024 .f32) (a6 : FVec Ideal S4 .f32)
    (e : Cert.Pre_finite_inputs.fn (F := Ideal) a0 a1 a2 a3 a4 a5 a6 ValueIdx.ix0 = 1#1) :
    Cert.Spec.IsReal a0 ∧ Cert.Spec.IsReal a1 ∧ Cert.Spec.IsReal a2 ∧ Cert.Spec.IsReal a3 ∧ ∀ i, (a4 i).toNat < 32000 := by
  dsimp only [Cert.Pre_finite_inputs.fn, Cert.Pre_finite_inputs.fn_part1, Cert.Pre_finite_inputs.fn_part2] at e
  obtain ⟨e, e4⟩ := IntOp.andi_eq_one.1 e
  obtain ⟨e, -⟩ := IntOp.andi_eq_one.1 e
  obtain ⟨e, -⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ a0 e0, real_of_all _ _ _ a1 e1, real_of_all _ _ _ a2 e2, real_of_all _ _ _ a3 e3, lt_of_all a4 e4⟩

variable (m : (ℓ : Loc nD τ sig) → Buf (Elt Ideal) ℓ)

/-- The precondition at one device, as the five facts. -/
theorem decode_at (h : Cert.Pre_KernelIdeal m) (c : Dev nD) :
    Cert.Spec.IsReal (m ((c.tc : Thread nD τ).loc main_arg0) : Cert.Spec.XArr)
      ∧ Cert.Spec.IsReal (m ((c.tc : Thread nD τ).loc main_arg1) : Cert.Spec.WArr)
      ∧ Cert.Spec.IsReal (m ((c.tc : Thread nD τ).loc main_arg2) : Cert.Spec.WArr)
      ∧ Cert.Spec.IsReal (m ((c.tc : Thread nD τ).loc main_arg3) : Cert.Spec.XArr)
      ∧ ∀ i : S4x1024.Idx, ((m ((c.tc : Thread nD τ).loc main_arg4) : Cert.Spec.IdArr) i).toNat < 32000 :=
  decode _ _ _ _ _ _ _ (congrFun (h c) ValueIdx.ix0)

/-- The activations given to the first program's projection hold real numbers. -/
theorem real_arg0 (h : Cert.Pre_KernelIdeal m) (c : Dev nD) :
    Cert.Spec.IsReal (m ((c.tc : Thread nD τ).loc main_arg0) : Cert.Spec.XArr) := (decode_at m h c).1

/-- The first projection matrix holds real numbers. -/
theorem real_arg1 (h : Cert.Pre_KernelIdeal m) (c : Dev nD) :
    Cert.Spec.IsReal (m ((c.tc : Thread nD τ).loc main_arg1) : Cert.Spec.WArr) := (decode_at m h c).2.1

/-- The second projection matrix holds real numbers. -/
theorem real_arg2 (h : Cert.Pre_KernelIdeal m) (c : Dev nD) :
    Cert.Spec.IsReal (m ((c.tc : Thread nD τ).loc main_arg2) : Cert.Spec.WArr) := (decode_at m h c).2.2.1

/-- The second array of activations holds real numbers. -/
theorem real_arg3 (h : Cert.Pre_KernelIdeal m) (c : Dev nD) :
    Cert.Spec.IsReal (m ((c.tc : Thread nD τ).loc main_arg3) : Cert.Spec.XArr) := (decode_at m h c).2.2.2.1

/-- Every selected word, read as a natural number, is below the vocabulary size 32000. -/
theorem ids_lt (h : Cert.Pre_KernelIdeal m) (c : Dev nD) (i : S4x1024.Idx) :
    ((m ((c.tc : Thread nD τ).loc main_arg4) : Cert.Spec.IdArr) i).toNat < 32000 := (decode_at m h c).2.2.2.2 i

end Cert.PreFacts
-- ==== Proof.Bridge.lean ====
/-
  What the two kernel regions leave, as the specification's functions of @main's arguments. The first region leaves
  the policy's per-token log-probabilities and the rows' mean log-probabilities, the second the reference model's
  per-token log-probabilities; each region reads its activations and projection matrix through a change of float
  format, which over the extended reals is the identity, and the selected entries through a broadcast to a column.
  The precondition makes every activation and weight a real number and every selected entry a word below 32000.
-/
import proofs.«417562_j59090160058697_3_alg».proof.Proof.KI.Regs
import proofs.«417562_j59090160058697_3_alg».proof.Proof.KI.Val0c
import proofs.«417562_j59090160058697_3_alg».proof.Proof.KI.Val1
import proofs.«417562_j59090160058697_3_alg».proof.Proof.Tail.Kernel
import proofs.«417562_j59090160058697_3_alg».proof.Proof.PreFacts

noncomputable section

namespace Cert.Bridge

open Idealize.ShloMosaic Idealize.ShloMosaic.TcCoe Idealize.ShloMosaic.ValueIdx Idealize.SL.Sem
open Cert.KernelIdeal Cert.KernelIdeal.Gen Cert.KernelIdeal.Hand

variable [hP : Cert.Pre_finite_inputs.Facts]
variable (m : (ℓ : Loc nD τ sig) → Buf (Elt Ideal) ℓ) (hpre : Cert.Pre_KernelIdeal m) (c : Dev nD)

/-- The arguments as the specification's arrays. -/
abbrev xA : Cert.Spec.XArr := m ((c.tc : Thread nD τ).loc main_arg0)
abbrev wA : Cert.Spec.WArr := m ((c.tc : Thread nD τ).loc main_arg1)
abbrev rwA : Cert.Spec.WArr := m ((c.tc : Thread nD τ).loc main_arg2)
abbrev rxA : Cert.Spec.XArr := m ((c.tc : Thread nD τ).loc main_arg3)
abbrev idA : Cert.Spec.IdArr := m ((c.tc : Thread nD τ).loc main_arg4)

include hpre in
/-- The first region leaves the policy's per-token log-probabilities. -/
theorem policy_ptl : outsK m 2 main_v3_0 c = Cert.Spec.ptlC (xA m c) (wA m c) (idA m c) := by
  have hx : Cert.Spec.IsReal (Vr1 m c main_v1) := by
    rw [show Vr1 m c main_v1 = xA m c from Cert.Tail.k_x m c]; exact Cert.PreFacts.real_arg0 m hpre c
  have hw : Cert.Spec.IsReal (Vr1 m c main_v2) := by
    rw [show Vr1 m c main_v2 = wA m c from Cert.Tail.k_w m c]; exact Cert.PreFacts.real_arg1 m hpre c
  have hid : ∀ i, (Vr1 m c main_v0 i).toNat < 32000 := fun i => by
    obtain ⟨b, t, z, rfl⟩ : ∃ (b : Fin 4) (t : Fin 1024) (z : Fin 1), i = ix3 b t z := ⟨i 0, i 1, i 2, eq_ix3 i⟩
    obtain rfl : z = 0 := Subsingleton.elim _ _
    rw [show Vr1 m c main_v0 (ix3 b t 0) = idA m c (ix2 b t) from Cert.Tail.k_ids m c b t]
    exact Cert.PreFacts.ids_lt m hpre c (ix2 b t)
  rw [outsK_v3_0, final0_3 (Vr1 m) c hx hw hid,
    show Vr1 m c main_v1 = xA m c from Cert.Tail.k_x m c, show Vr1 m c main_v2 = wA m c from Cert.Tail.k_w m c]
  refine congrArg (Cert.Spec.ptlC (xA m c) (wA m c)) (funext fun i => ?_)
  exact Cert.Tail.k_ids m c (i 0) (i 1) |>.trans (congrArg (idA m c) (eq_ix2 i).symm)

include hpre in
/-- The first region leaves the rows' mean log-probabilities. -/
theorem policy_row : outsK m 2 main_v3_1 c = Cert.Spec.rowC (xA m c) (wA m c) := by
  have hx : Cert.Spec.IsReal (Vr1 m c main_v1) := by
    rw [show Vr1 m c main_v1 = xA m c from Cert.Tail.k_x m c]; exact Cert.PreFacts.real_arg0 m hpre c
  have hw : Cert.Spec.IsReal (Vr1 m c main_v2) := by
    rw [show Vr1 m c main_v2 = wA m c from Cert.Tail.k_w m c]; exact Cert.PreFacts.real_arg1 m hpre c
  rw [outsK_v3_1, final0_4 (Vr1 m) c hx hw,
    show Vr1 m c main_v1 = xA m c from Cert.Tail.k_x m c, show Vr1 m c main_v2 = wA m c from Cert.Tail.k_w m c]

include hpre in
/-- The second region leaves the reference model's per-token log-probabilities. -/
theorem refmodel_ptl : outsK m 4 main_v6 c = Cert.Spec.ptlC (rxA m c) (rwA m c) (idA m c) := by
  have hx : Cert.Spec.IsReal (Vr3 m c main_v4) := by
    rw [show Vr3 m c main_v4 = rxA m c from Cert.Tail.k_x1 m (outs0 m) c]; exact Cert.PreFacts.real_arg3 m hpre c
  have hw : Cert.Spec.IsReal (Vr3 m c main_v5) := by
    rw [show Vr3 m c main_v5 = rwA m c from Cert.Tail.k_w1 m (outs0 m) c]; exact Cert.PreFacts.real_arg2 m hpre c
  have hid : ∀ i, (Vr3 m c main_v0 i).toNat < 32000 := fun i => by
    obtain ⟨b, t, z, rfl⟩ : ∃ (b : Fin 4) (t : Fin 1024) (z : Fin 1), i = ix3 b t z := ⟨i 0, i 1, i 2, eq_ix3 i⟩
    obtain rfl : z = 0 := Subsingleton.elim _ _
    rw [show Vr3 m c main_v0 (ix3 b t 0) = idA m c (ix2 b t) from Cert.Tail.k_ids1 m (outs0 m) c b t]
    exact Cert.PreFacts.ids_lt m hpre c (ix2 b t)
  rw [outsK_v6, final1_3 (Vr3 m) c hx hw hid,
    show Vr3 m c main_v4 = rxA m c from Cert.Tail.k_x1 m (outs0 m) c, show Vr3 m c main_v5 = rwA m c from Cert.Tail.k_w1 m (outs0 m) c]
  refine congrArg (Cert.Spec.ptlC (rxA m c) (rwA m c)) (funext fun i => ?_)
  exact Cert.Tail.k_ids1 m (outs0 m) c (i 0) (i 1) |>.trans (congrArg (idA m c) (eq_ix2 i).symm)

end Cert.Bridge

end
-- ==== Proof.Tail.Ref.lean ====
/-
  The second program's results as the shared tail functions of its own arrays.

  The second program is 142 host operations in a row, so the buffers it ends with are the operations applied, in order,
  to the launch memory. The list is cut in three: the 44 operations that compute the policy's per-token
  log-probabilities (`main_v4`) and the mean of all its log-probabilities (`main_v6`); the 44 that compute the
  reference model's per-token log-probabilities (`main_v11`); and the last 54, the tail. Each piece is read over ANY
  valuation it starts from:

  * the first leaves `main_v4` and `main_v6` at the stages `val_main_v4`, `val_main_v6` of the three, respectively two,
    arguments they depend on;
  * the second leaves `main_v11` at the stage `val_main_v11` of its three arguments;
  * the tail leaves the loss, the divergence metric and the mean at the shared tail's functions of what `main_v4`,
    `main_v11`, the mask and the advantages held;
  * and each piece leaves alone what the later pieces read, and the arguments.

  A function called by the program moves a value into the buffer of a typed reference and back out at every operation;
  the two moves cancel (`ofBuf_toBuf`), after which what is left of a piece is the composition of its operations'
  functions, equal to the stage by unfolding.
-/
import proofs.«417562_j59090160058697_3_alg».proof.Proof.RefRead
import proofs.«417562_j59090160058697_3_alg».proof.Proof.Tail.Defs
import Idealize.ShloMosaic.Lib.StableHlo.Run
import Idealize.ShloMosaic.Lib.Pipeline.Frame

noncomputable section

namespace Cert.Tail

open Cert.ReferenceIdeal Cert.ReferenceIdeal.Gen Cert.ReferenceIdeal.ReadP Idealize.ShloMosaic Idealize.ShloMosaic.TcCoe Idealize.SL.Sem Idealize.ShloMosaic.StableHlo

/-- Contents moved to a typed reference's buffer and back are the contents. -/
theorem ofBuf_toBuf {sig : RefSig} {T : BufTy} {Val : EltTy → Type} (x : StableHlo.TRef sig T) (v : T.Contents Val) :
    x.ofBuf (x.toBuf v) = v := by
  obtain ⟨r, h, h1, h2⟩ := x
  subst h
  rfl

variable {F : FTy → Type} [FloatOps F]

/-! ## The list of operations, in three pieces -/

/-- The first 44 operations: the policy's logits, their log-softmax, the selected entry's, the mean of them all. -/
abbrev headA : List (HloOp τ sig (Elt F)) :=
  [ binary main_arg0 main_arg1 main_v0 ((fun l r => Host.dotGeneral dot_S4x1024x2048_S32000x2048_S4x1024x32000_2_1_01_0_n_n none l r) : (⟨S4x1024x2048, .f32⟩ : BufTy).Contents (Elt F) → (⟨S32000x2048, .f32⟩ : BufTy).Contents (Elt F) → (⟨S4x1024x32000, .f32⟩ : BufTy).Contents (Elt F)),
    TRef.nullary (TRef.of (T := ⟨S_, .f32⟩) main_call0_cst) (constant S_ .f32 0xFF800000#32),
    TRef.binary (TRef.of (T := ⟨S4x1024x32000, .f32⟩) main_v0) (TRef.of (T := ⟨S_, .f32⟩) main_call0_cst) (TRef.of (T := ⟨S4x1024, .f32⟩) main_call0_v0) (fun x v => Host.reduce FloatOps.maximumf x v reducesTo_S4x1024x32000_S4x1024_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S4x1024, .f32⟩) main_call0_v1) (broadcastInDim S4x1024 ![] bcast_S_S4x1024),
    TRef.binary (TRef.of (T := ⟨S4x1024, .f32⟩) main_call0_v1) (TRef.of (T := ⟨S4x1024, .f32⟩) main_call0_v0) (TRef.of (T := ⟨S4x1024, .f32⟩) main_call0_v2) maximumf,
    TRef.unary (TRef.of (T := ⟨S4x1024, .f32⟩) main_call0_v2) (TRef.of (T := ⟨S4x1024x1, .f32⟩) main_call0_v3) (broadcastInDim S4x1024x1 ![0, 1] bcast_S4x1024_S4x1024x1_0_1),
    TRef.unary (TRef.of (T := ⟨S4x1024x1, .f32⟩) main_call0_v3) (TRef.of (T := ⟨S4x1024x32000, .f32⟩) main_call0_v4) (broadcastInDim S4x1024x32000 ![0, 1, 2] bcast_S4x1024x1_S4x1024x32000_0_1_2),
    TRef.binary (TRef.of (T := ⟨S4x1024x32000, .f32⟩) main_v0) (TRef.of (T := ⟨S4x1024x32000, .f32⟩) main_call0_v4) (TRef.of (T := ⟨S4x1024x32000, .f32⟩) main_call0_v5) subf,
    TRef.unary (TRef.of (T := ⟨S4x1024x32000, .f32⟩) main_call0_v5) (TRef.of (T := ⟨S4x1024x32000, .f32⟩) main_call0_v6) Host.exp,
    TRef.nullary (TRef.of (T := ⟨S_, .f32⟩) main_call0_cst_1) (constant S_ .f32 0x00000000#32),
    TRef.binary (TRef.of (T := ⟨S4x1024x32000, .f32⟩) main_call0_v6) (TRef.of (T := ⟨S_, .f32⟩) main_call0_cst_1) (TRef.of (T := ⟨S4x1024, .f32⟩) main_call0_v7) (fun x v => Host.reduceAdd x v reducesTo_S4x1024x32000_S4x1024_d2 h_S_),
    TRef.unary (TRef.of (T := ⟨S4x1024, .f32⟩) main_call0_v7) (TRef.of (T := ⟨S4x1024x1, .f32⟩) main_call0_v8) (broadcastInDim S4x1024x1 ![0, 1] bcast_S4x1024_S4x1024x1_0_1),
    TRef.unary (TRef.of (T := ⟨S4x1024x1, .f32⟩) main_call0_v8) (TRef.of (T := ⟨S4x1024x1, .f32⟩) main_call0_v9) Host.log,
    TRef.unary (TRef.of (T := ⟨S4x1024x1, .f32⟩) main_call0_v9) (TRef.of (T := ⟨S4x1024x32000, .f32⟩) main_call0_v10) (broadcastInDim S4x1024x32000 ![0, 1, 2] bcast_S4x1024x1_S4x1024x32000_0_1_2),
    TRef.binary (TRef.of (T := ⟨S4x1024x32000, .f32⟩) main_call0_v5) (TRef.of (T := ⟨S4x1024x32000, .f32⟩) main_call0_v10) (TRef.of (T := ⟨S4x1024x32000, .f32⟩) main_v1) subf,
    unary main_arg4 main_v2 (broadcastInDim S4x1024x1 ![0, 1] bcast_S4x1024_S4x1024x1_0_1 : (⟨S4x1024, .i32⟩ : BufTy).Contents (Elt F) → (⟨S4x1024x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4x1024x1, .i32⟩) main_call1_v0) (broadcastInDim S4x1024x1 ![] bcast_S_S4x1024x1),
    TRef.binary (TRef.of (T := ⟨S4x1024x1, .i32⟩) main_v2) (TRef.of (T := ⟨S4x1024x1, .i32⟩) main_call1_v0) (TRef.of (T := ⟨S4x1024x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S4x1024x1, .i32⟩) main_call1_v2) (broadcastInDim S4x1024x1 ![] bcast_S_S4x1024x1),
    TRef.binary (TRef.of (T := ⟨S4x1024x1, .i32⟩) main_v2) (TRef.of (T := ⟨S4x1024x1, .i32⟩) main_call1_v2) (TRef.of (T := ⟨S4x1024x1, .i32⟩) main_call1_v3) addi,
    TRef.ternary (TRef.of (T := ⟨S4x1024x1, .i1⟩) main_call1_v1) (TRef.of (T := ⟨S4x1024x1, .i32⟩) main_call1_v3) (TRef.of (T := ⟨S4x1024x1, .i32⟩) main_v2) (TRef.of (T := ⟨S4x1024x1, .i32⟩) main_call1_v4) select,
    TRef.reshape (TRef.of (T := ⟨S4x1024x1, .i32⟩) main_call1_v4) (TRef.of (T := ⟨S4x1024x1x1, .i32⟩) main_call1_v5) rfl shapeCasts_S4x1024x1_S4x1024x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S4x1024x1x1, .i32⟩) main_call1_v6) (broadcastInDim S4x1024x1x1 ![] bcast_S_S4x1024x1x1),
    TRef.binary (TRef.of (T := ⟨S4x1024x1x1, .i32⟩) main_call1_v5) (TRef.of (T := ⟨S4x1024x1x1, .i32⟩) main_call1_v6) (TRef.of (T := ⟨S4x1024x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S4x1024x1x1, .i32⟩) main_call1_v9) (broadcastInDim S4x1024x1x1 ![0, 1, 2, 3] bcast_S1x1x1x1_S4x1024x1x1_0_1_2_3),
    TRef.binary (TRef.of (T := ⟨S4x1024x1x1, .i32⟩) main_call1_v5) (TRef.of (T := ⟨S4x1024x1x1, .i32⟩) main_call1_v9) (TRef.of (T := ⟨S4x1024x1x1, .i1⟩) main_call1_v10) (cmpi .sle),
    TRef.binary (TRef.of (T := ⟨S4x1024x1x1, .i1⟩) main_call1_v7) (TRef.of (T := ⟨S4x1024x1x1, .i1⟩) main_call1_v10) (TRef.of (T := ⟨S4x1024x1x1, .i1⟩) main_call1_v11) andi,
    TRef.nullary (TRef.of (T := ⟨S_, .i1⟩) main_call1_c_3) (constantI S_ 1 1#1),
    TRef.binary (TRef.of (T := ⟨S4x1024x1x1, .i1⟩) main_call1_v11) (TRef.of (T := ⟨S_, .i1⟩) main_call1_c_3) (TRef.of (T := ⟨S4x1024x1, .i1⟩) main_call1_v12) (fun x v => Host.reduce IntOp.andi x v reducesTo_S4x1024x1x1_S4x1024x1_d3 h_S_),
    TRef.binary (TRef.of (T := ⟨S4x1024x32000, .f32⟩) main_v1) (TRef.of (T := ⟨S4x1024x1x1, .i32⟩) main_call1_v5) (TRef.of (T := ⟨S4x1024x1, .f32⟩) main_call1_v13) (fun x i => Host.gather gather_S4x1024x32000_S4x1024x1x1_S4x1024x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S4x1024x1, .f32⟩) main_call1_v14) (broadcastInDim S4x1024x1 ![] bcast_S_S4x1024x1),
    TRef.ternary (TRef.of (T := ⟨S4x1024x1, .i1⟩) main_call1_v12) (TRef.of (T := ⟨S4x1024x1, .f32⟩) main_call1_v13) (TRef.of (T := ⟨S4x1024x1, .f32⟩) main_call1_v14) (TRef.of (T := ⟨S4x1024x1, .f32⟩) main_v3) select,
    reshape main_v3 main_v4 rfl shapeCasts_S4x1024x1_S4x1024,
    nullary main_cst (constant S_ .f32 0x00000000#32),
    binary main_v1 main_cst main_v5 ((fun x v => Host.reduceAdd x v reducesTo_S4x1024x32000_S_d0_1_2 h_S_) : (⟨S4x1024x32000, .f32⟩ : BufTy).Contents (Elt F) → (⟨S_, .f32⟩ : BufTy).Contents (Elt F) → (⟨S_, .f32⟩ : BufTy).Contents (Elt F)),
    nullary main_cst_0 (constant S_ .f32 0x4CFA0000#32),
    binary main_v5 main_cst_0 main_v6 (Host.divf : (⟨S_, .f32⟩ : BufTy).Contents (Elt F) → (⟨S_, .f32⟩ : BufTy).Contents (Elt F) → (⟨S_, .f32⟩ : BufTy).Contents (Elt F)) ]

/-- The next 44: the same for the reference model. -/
abbrev headB : List (HloOp τ sig (Elt F)) :=
  [ binary main_arg3 main_arg2 main_v7 ((fun l r => Host.dotGeneral dot_S4x1024x2048_S32000x2048_S4x1024x32000_2_1_01_0_n_n none l r) : (⟨S4x1024x2048, .f32⟩ : BufTy).Contents (Elt F) → (⟨S32000x2048, .f32⟩ : BufTy).Contents (Elt F) → (⟨S4x1024x32000, .f32⟩ : BufTy).Contents (Elt F)),
    TRef.nullary (TRef.of (T := ⟨S_, .f32⟩) main_call2_cst) (constant S_ .f32 0xFF800000#32),
    TRef.binary (TRef.of (T := ⟨S4x1024x32000, .f32⟩) main_v7) (TRef.of (T := ⟨S_, .f32⟩) main_call2_cst) (TRef.of (T := ⟨S4x1024, .f32⟩) main_call2_v0) (fun x v => Host.reduce FloatOps.maximumf x v reducesTo_S4x1024x32000_S4x1024_d2 h_S_),
    TRef.nullary (TRef.of (T := ⟨S_, .f32⟩) main_call2_cst_0) (constant S_ .f32 0xFF800000#32),
    TRef.unary (TRef.of (T := ⟨S_, .f32⟩) main_call2_cst_0) (TRef.of (T := ⟨S4x1024, .f32⟩) main_call2_v1) (broadcastInDim S4x1024 ![] bcast_S_S4x1024),
    TRef.binary (TRef.of (T := ⟨S4x1024, .f32⟩) main_call2_v1) (TRef.of (T := ⟨S4x1024, .f32⟩) main_call2_v0) (TRef.of (T := ⟨S4x1024, .f32⟩) main_call2_v2) maximumf,
    TRef.unary (TRef.of (T := ⟨S4x1024, .f32⟩) main_call2_v2) (TRef.of (T := ⟨S4x1024x1, .f32⟩) main_call2_v3) (broadcastInDim S4x1024x1 ![0, 1] bcast_S4x1024_S4x1024x1_0_1),
    TRef.unary (TRef.of (T := ⟨S4x1024x1, .f32⟩) main_call2_v3) (TRef.of (T := ⟨S4x1024x32000, .f32⟩) main_call2_v4) (broadcastInDim S4x1024x32000 ![0, 1, 2] bcast_S4x1024x1_S4x1024x32000_0_1_2),
    TRef.binary (TRef.of (T := ⟨S4x1024x32000, .f32⟩) main_v7) (TRef.of (T := ⟨S4x1024x32000, .f32⟩) main_call2_v4) (TRef.of (T := ⟨S4x1024x32000, .f32⟩) main_call2_v5) subf,
    TRef.unary (TRef.of (T := ⟨S4x1024x32000, .f32⟩) main_call2_v5) (TRef.of (T := ⟨S4x1024x32000, .f32⟩) main_call2_v6) Host.exp,
    TRef.nullary (TRef.of (T := ⟨S_, .f32⟩) main_call2_cst_1) (constant S_ .f32 0x00000000#32),
    TRef.binary (TRef.of (T := ⟨S4x1024x32000, .f32⟩) main_call2_v6) (TRef.of (T := ⟨S_, .f32⟩) main_call2_cst_1) (TRef.of (T := ⟨S4x1024, .f32⟩) main_call2_v7) (fun x v => Host.reduceAdd x v reducesTo_S4x1024x32000_S4x1024_d2 h_S_),
    TRef.unary (TRef.of (T := ⟨S4x1024, .f32⟩) main_call2_v7) (TRef.of (T := ⟨S4x1024x1, .f32⟩) main_call2_v8) (broadcastInDim S4x1024x1 ![0, 1] bcast_S4x1024_S4x1024x1_0_1),
    TRef.unary (TRef.of (T := ⟨S4x1024x1, .f32⟩) main_call2_v8) (TRef.of (T := ⟨S4x1024x1, .f32⟩) main_call2_v9) Host.log,
    TRef.unary (TRef.of (T := ⟨S4x1024x1, .f32⟩) main_call2_v9) (TRef.of (T := ⟨S4x1024x32000, .f32⟩) main_call2_v10) (broadcastInDim S4x1024x32000 ![0, 1, 2] bcast_S4x1024x1_S4x1024x32000_0_1_2),
    TRef.binary (TRef.of (T := ⟨S4x1024x32000, .f32⟩) main_call2_v5) (TRef.of (T := ⟨S4x1024x32000, .f32⟩) main_call2_v10) (TRef.of (T := ⟨S4x1024x32000, .f32⟩) main_v8) subf,
    unary main_arg4 main_v9 (broadcastInDim S4x1024x1 ![0, 1] bcast_S4x1024_S4x1024x1_0_1 : (⟨S4x1024, .i32⟩ : BufTy).Contents (Elt F) → (⟨S4x1024x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S4x1024x1, .i32⟩) main_call3_v0) (broadcastInDim S4x1024x1 ![] bcast_S_S4x1024x1),
    TRef.binary (TRef.of (T := ⟨S4x1024x1, .i32⟩) main_v9) (TRef.of (T := ⟨S4x1024x1, .i32⟩) main_call3_v0) (TRef.of (T := ⟨S4x1024x1, .i1⟩) main_call3_v1) (cmpi .slt),
    TRef.nullary (TRef.of (T := ⟨S_, .i32⟩) main_call3_c_0) (constantI S_ 32 32000#32),
    TRef.unary (TRef.of (T := ⟨S_, .i32⟩) main_call3_c_0) (TRef.of (T := ⟨S4x1024x1, .i32⟩) main_call3_v2) (broadcastInDim S4x1024x1 ![] bcast_S_S4x1024x1),
    TRef.binary (TRef.of (T := ⟨S4x1024x1, .i32⟩) main_v9) (TRef.of (T := ⟨S4x1024x1, .i32⟩) main_call3_v2) (TRef.of (T := ⟨S4x1024x1, .i32⟩) main_call3_v3) addi,
    TRef.ternary (TRef.of (T := ⟨S4x1024x1, .i1⟩) main_call3_v1) (TRef.of (T := ⟨S4x1024x1, .i32⟩) main_call3_v3) (TRef.of (T := ⟨S4x1024x1, .i32⟩) main_v9) (TRef.of (T := ⟨S4x1024x1, .i32⟩) main_call3_v4) select,
    TRef.reshape (TRef.of (T := ⟨S4x1024x1, .i32⟩) main_call3_v4) (TRef.of (T := ⟨S4x1024x1x1, .i32⟩) main_call3_v5) rfl shapeCasts_S4x1024x1_S4x1024x1x1,
    TRef.nullary (TRef.of (T := ⟨S1, .i32⟩) main_call3_c_1) (constantI S1 32 31999#32),
    TRef.nullary (TRef.of (T := ⟨S_, .i32⟩) main_call3_c_2) (constantI S_ 32 0#32),
    TRef.unary (TRef.of (T := ⟨S_, .i32⟩) main_call3_c_2) (TRef.of (T := ⟨S4x1024x1x1, .i32⟩) main_call3_v6) (broadcastInDim S4x1024x1x1 ![] bcast_S_S4x1024x1x1),
    TRef.binary (TRef.of (T := ⟨S4x1024x1x1, .i32⟩) main_call3_v5) (TRef.of (T := ⟨S4x1024x1x1, .i32⟩) main_call3_v6) (TRef.of (T := ⟨S4x1024x1x1, .i1⟩) main_call3_v7) (cmpi .sge),
    TRef.unary (TRef.of (T := ⟨S1, .i32⟩) main_call3_c_1) (TRef.of (T := ⟨S1x1x1x1, .i32⟩) main_call3_v8) (broadcastInDim S1x1x1x1 ![3] bcast_S1_S1x1x1x1_3),
    TRef.unary (TRef.of (T := ⟨S1x1x1x1, .i32⟩) main_call3_v8) (TRef.of (T := ⟨S4x1024x1x1, .i32⟩) main_call3_v9) (broadcastInDim S4x1024x1x1 ![0, 1, 2, 3] bcast_S1x1x1x1_S4x1024x1x1_0_1_2_3),
    TRef.binary (TRef.of (T := ⟨S4x1024x1x1, .i32⟩) main_call3_v5) (TRef.of (T := ⟨S4x1024x1x1, .i32⟩) main_call3_v9) (TRef.of (T := ⟨S4x1024x1x1, .i1⟩) main_call3_v10) (cmpi .sle),
    TRef.binary (TRef.of (T := ⟨S4x1024x1x1, .i1⟩) main_call3_v7) (TRef.of (T := ⟨S4x1024x1x1, .i1⟩) main_call3_v10) (TRef.of (T := ⟨S4x1024x1x1, .i1⟩) main_call3_v11) andi,
    TRef.nullary (TRef.of (T := ⟨S_, .i1⟩) main_call3_c_3) (constantI S_ 1 1#1),
    TRef.binary (TRef.of (T := ⟨S4x1024x1x1, .i1⟩) main_call3_v11) (TRef.of (T := ⟨S_, .i1⟩) main_call3_c_3) (TRef.of (T := ⟨S4x1024x1, .i1⟩) main_call3_v12) (fun x v => Host.reduce IntOp.andi x v reducesTo_S4x1024x1x1_S4x1024x1_d3 h_S_),
    TRef.binary (TRef.of (T := ⟨S4x1024x32000, .f32⟩) main_v8) (TRef.of (T := ⟨S4x1024x1x1, .i32⟩) main_call3_v5) (TRef.of (T := ⟨S4x1024x1, .f32⟩) main_call3_v13) (fun x i => Host.gather gather_S4x1024x32000_S4x1024x1x1_S4x1024x1_n_2_01_01_2_3_111 x i),
    TRef.nullary (TRef.of (T := ⟨S_, .f32⟩) main_call3_cst) (constant S_ .f32 0x7FC00000#32),
    TRef.unary (TRef.of (T := ⟨S_, .f32⟩) main_call3_cst) (TRef.of (T := ⟨S4x1024x1, .f32⟩) main_call3_v14) (broadcastInDim S4x1024x1 ![] bcast_S_S4x1024x1),
    TRef.ternary (TRef.of (T := ⟨S4x1024x1, .i1⟩) main_call3_v12) (TRef.of (T := ⟨S4x1024x1, .f32⟩) main_call3_v13) (TRef.of (T := ⟨S4x1024x1, .f32⟩) main_call3_v14) (TRef.of (T := ⟨S4x1024x1, .f32⟩) main_v10) select,
    reshape main_v10 main_v11 rfl shapeCasts_S4x1024x1_S4x1024,
    nullary main_cst_1 (constant S_ .f32 0x00000000#32),
    binary main_v8 main_cst_1 main_v12 ((fun x v => Host.reduceAdd x v reducesTo_S4x1024x32000_S_d0_1_2 h_S_) : (⟨S4x1024x32000, .f32⟩ : BufTy).Contents (Elt F) → (⟨S_, .f32⟩ : BufTy).Contents (Elt F) → (⟨S_, .f32⟩ : BufTy).Contents (Elt F)),
    nullary main_cst_2 (constant S_ .f32 0x4CFA0000#32),
    binary main_v12 main_cst_2 main_v13 (Host.divf : (⟨S_, .f32⟩ : BufTy).Contents (Elt F) → (⟨S_, .f32⟩ : BufTy).Contents (Elt F) → (⟨S_, .f32⟩ : BufTy).Contents (Elt F)) ]

/-- The last 54: the tail. -/
abbrev tailOps : List (HloOp τ sig (Elt F)) :=
  [ binary main_v4 main_v4 main_v14 (subf : (⟨S4x1024, .f32⟩ : BufTy).Contents (Elt F) → (⟨S4x1024, .f32⟩ : BufTy).Contents (Elt F) → (⟨S4x1024, .f32⟩ : BufTy).Contents (Elt F)),
    unary main_v14 main_v15 (Host.exp : (⟨S4x1024, .f32⟩ : BufTy).Contents (Elt F) → (⟨S4x1024, .f32⟩ : BufTy).Contents (Elt F)),
    nullary main_cst_3 (constant S_ .f32 0x3F4CCCCD#32),
    nullary main_cst_4 (constant S_ .f32 0x3F99999A#32),
    TRef.unary (TRef.of (T := ⟨S_, .f32⟩) main_cst_3) (TRef.of (T := ⟨S_, .f32⟩) main_call4_v0) id,
    TRef.unary (TRef.of (T := ⟨S_, .f32⟩) main_call4_v0) (TRef.of (T := ⟨S4x1024, .f32⟩) main_call4_v1) (broadcastInDim S4x1024 ![] bcast_S_S4x1024),
    TRef.binary (TRef.of (T := ⟨S4x1024, .f32⟩) main_call4_v1) (TRef.of (T := ⟨S4x1024, .f32⟩) main_v15) (TRef.of (T := ⟨S4x1024, .f32⟩) main_call4_v2) maximumf,
    TRef.unary (TRef.of (T := ⟨S_, .f32⟩) main_cst_4) (TRef.of (T := ⟨S_, .f32⟩) main_call4_v3) id,
    TRef.unary (TRef.of (T := ⟨S_, .f32⟩) main_call4_v3) (TRef.of (T := ⟨S4x1024, .f32⟩) main_call4_v4) (broadcastInDim S4x1024 ![] bcast_S_S4x1024),
    TRef.binary (TRef.of (T := ⟨S4x1024, .f32⟩) main_call4_v4) (TRef.of (T := ⟨S4x1024, .f32⟩) main_call4_v2) (TRef.of (T := ⟨S4x1024, .f32⟩) main_v16) minimumf,
    unary main_arg6 main_v17 (broadcastInDim S4x1 ![0] bcast_S4_S4x1_0 : (⟨S4, .f32⟩ : BufTy).Contents (Elt F) → (⟨S4x1, .f32⟩ : BufTy).Contents (Elt F)),
    unary main_v17 main_v18 (broadcastInDim S4x1024 ![0, 1] bcast_S4x1_S4x1024_0_1 : (⟨S4x1, .f32⟩ : BufTy).Contents (Elt F) → (⟨S4x1024, .f32⟩ : BufTy).Contents (Elt F)),
    binary main_v15 main_v18 main_v19 (mulf : (⟨S4x1024, .f32⟩ : BufTy).Contents (Elt F) → (⟨S4x1024, .f32⟩ : BufTy).Contents (Elt F) → (⟨S4x1024, .f32⟩ : BufTy).Contents (Elt F)),
    unary main_v17 main_v20 (broadcastInDim S4x1024 ![0, 1] bcast_S4x1_S4x1024_0_1 : (⟨S4x1, .f32⟩ : BufTy).Contents (Elt F) → (⟨S4x1024, .f32⟩ : BufTy).Contents (Elt F)),
    binary main_v16 main_v20 main_v21 (mulf : (⟨S4x1024, .f32⟩ : BufTy).Contents (Elt F) → (⟨S4x1024, .f32⟩ : BufTy).Contents (Elt F) → (⟨S4x1024, .f32⟩ : BufTy).Contents (Elt F)),
    binary main_v19 main_v21 main_v22 (minimumf : (⟨S4x1024, .f32⟩ : BufTy).Contents (Elt F) → (⟨S4x1024, .f32⟩ : BufTy).Contents (Elt F) → (⟨S4x1024, .f32⟩ : BufTy).Contents (Elt F)),
    unary main_v22 main_v23 (Host.negf : (⟨S4x1024, .f32⟩ : BufTy).Contents (Elt F) → (⟨S4x1024, .f32⟩ : BufTy).Contents (Elt F)),
    binary main_v11 main_v4 main_v24 (subf : (⟨S4x1024, .f32⟩ : BufTy).Contents (Elt F) → (⟨S4x1024, .f32⟩ : BufTy).Contents (Elt F) → (⟨S4x1024, .f32⟩ : BufTy).Contents (Elt F)),
    unary main_v24 main_v25 (Host.exp : (⟨S4x1024, .f32⟩ : BufTy).Contents (Elt F) → (⟨S4x1024, .f32⟩ : BufTy).Contents (Elt F)),
    binary main_v25 main_v24 main_v26 (subf : (⟨S4x1024, .f32⟩ : BufTy).Contents (Elt F) → (⟨S4x1024, .f32⟩ : BufTy).Contents (Elt F) → (⟨S4x1024, .f32⟩ : BufTy).Contents (Elt F)),
    nullary main_cst_5 (constant S_ .f32 0x3F800000#32),
    unary main_cst_5 main_v27 (broadcastInDim S4x1024 ![] bcast_S_S4x1024 : (⟨S_, .f32⟩ : BufTy).Contents (Elt F) → (⟨S4x1024, .f32⟩ : BufTy).Contents (Elt F)),
    binary main_v26 main_v27 main_v28 (subf : (⟨S4x1024, .f32⟩ : BufTy).Contents (Elt F) → (⟨S4x1024, .f32⟩ : BufTy).Contents (Elt F) → (⟨S4x1024, .f32⟩ : BufTy).Contents (Elt F)),
    nullary main_cst_6 (constant S_ .f32 0x3DCCCCCD#32),
    unary main_cst_6 main_v29 (broadcastInDim S4x1024 ![] bcast_S_S4x1024 : (⟨S_, .f32⟩ : BufTy).Contents (Elt F) → (⟨S4x1024, .f32⟩ : BufTy).Contents (Elt F)),
    binary main_v29 main_v28 main_v30 (mulf : (⟨S4x1024, .f32⟩ : BufTy).Contents (Elt F) → (⟨S4x1024, .f32⟩ : BufTy).Contents (Elt F) → (⟨S4x1024, .f32⟩ : BufTy).Contents (Elt F)),
    binary main_v23 main_v30 main_v31 (addf : (⟨S4x1024, .f32⟩ : BufTy).Contents (Elt F) → (⟨S4x1024, .f32⟩ : BufTy).Contents (Elt F) → (⟨S4x1024, .f32⟩ : BufTy).Contents (Elt F)),
    binary main_v31 main_arg5 main_v32 (mulf : (⟨S4x1024, .f32⟩ : BufTy).Contents (Elt F) → (⟨S4x1024, .f32⟩ : BufTy).Contents (Elt F) → (⟨S4x1024, .f32⟩ : BufTy).Contents (Elt F)),
    nullary main_cst_7 (constant S_ .f32 0x00000000#32),
    binary main_v32 main_cst_7 main_v33 ((fun x v => Host.reduceAdd x v reducesTo_S4x1024_S_d0_1 h_S_) : (⟨S4x1024, .f32⟩ : BufTy).Contents (Elt F) → (⟨S_, .f32⟩ : BufTy).Contents (Elt F) → (⟨S_, .f32⟩ : BufTy).Contents (Elt F)),
    nullary main_cst_8 (constant S_ .f32 0x00000000#32),
    binary main_arg5 main_cst_8 main_v34 ((fun x v => Host.reduceAdd x v reducesTo_S4x1024_S_d0_1 h_S_) : (⟨S4x1024, .f32⟩ : BufTy).Contents (Elt F) → (⟨S_, .f32⟩ : BufTy).Contents (Elt F) → (⟨S_, .f32⟩ : BufTy).Contents (Elt F)),
    nullary main_cst_9 (constant S_ .f32 0x3F800000#32),
    TRef.unary (TRef.of (T := ⟨S_, .f32⟩) main_cst_9) (TRef.of (T := ⟨S_, .f32⟩) main_call5_v0) id,
    TRef.binary (TRef.of (T := ⟨S_, .f32⟩) main_call5_v0) (TRef.of (T := ⟨S_, .f32⟩) main_v34) (TRef.of (T := ⟨S_, .f32⟩) main_v35) maximumf,
    binary main_v33 main_v35 main_v36 (Host.divf : (⟨S_, .f32⟩ : BufTy).Contents (Elt F) → (⟨S_, .f32⟩ : BufTy).Contents (Elt F) → (⟨S_, .f32⟩ : BufTy).Contents (Elt F)),
    binary main_v28 main_arg5 main_v37 (mulf : (⟨S4x1024, .f32⟩ : BufTy).Contents (Elt F) → (⟨S4x1024, .f32⟩ : BufTy).Contents (Elt F) → (⟨S4x1024, .f32⟩ : BufTy).Contents (Elt F)),
    nullary main_cst_10 (constant S_ .f32 0x00000000#32),
    binary main_v37 main_cst_10 main_v38 ((fun x v => Host.reduceAdd x v reducesTo_S4x1024_S4_d1 h_S_) : (⟨S4x1024, .f32⟩ : BufTy).Contents (Elt F) → (⟨S_, .f32⟩ : BufTy).Contents (Elt F) → (⟨S4, .f32⟩ : BufTy).Contents (Elt F)),
    nullary main_cst_11 (constant S_ .f32 0x00000000#32),
    binary main_arg5 main_cst_11 main_v39 ((fun x v => Host.reduceAdd x v reducesTo_S4x1024_S4_d1 h_S_) : (⟨S4x1024, .f32⟩ : BufTy).Contents (Elt F) → (⟨S_, .f32⟩ : BufTy).Contents (Elt F) → (⟨S4, .f32⟩ : BufTy).Contents (Elt F)),
    nullary main_cst_12 (constant S_ .f32 0x3F800000#32),
    TRef.unary (TRef.of (T := ⟨S_, .f32⟩) main_cst_12) (TRef.of (T := ⟨S_, .f32⟩) main_call6_v0) id,
    TRef.unary (TRef.of (T := ⟨S_, .f32⟩) main_call6_v0) (TRef.of (T := ⟨S4, .f32⟩) main_call6_v1) (broadcastInDim S4 ![] bcast_S_S4),
    TRef.binary (TRef.of (T := ⟨S4, .f32⟩) main_call6_v1) (TRef.of (T := ⟨S4, .f32⟩) main_v39) (TRef.of (T := ⟨S4, .f32⟩) main_v40) maximumf,
    binary main_v38 main_v40 main_v41 (Host.divf : (⟨S4, .f32⟩ : BufTy).Contents (Elt F) → (⟨S4, .f32⟩ : BufTy).Contents (Elt F) → (⟨S4, .f32⟩ : BufTy).Contents (Elt F)),
    nullary main_cst_13 (constant S_ .f32 0x00000000#32),
    binary main_v41 main_cst_13 main_v42 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_14 (constant S_ .f32 0x40800000#32),
    binary main_v42 main_cst_14 main_v43 (Host.divf : (⟨S_, .f32⟩ : BufTy).Contents (Elt F) → (⟨S_, .f32⟩ : BufTy).Contents (Elt F) → (⟨S_, .f32⟩ : BufTy).Contents (Elt F)),
    nullary main_cst_15 (constant S_ .f32 0x00000000#32),
    binary main_v4 main_cst_15 main_v44 ((fun x v => Host.reduceAdd x v reducesTo_S4x1024_S_d0_1 h_S_) : (⟨S4x1024, .f32⟩ : BufTy).Contents (Elt F) → (⟨S_, .f32⟩ : BufTy).Contents (Elt F) → (⟨S_, .f32⟩ : BufTy).Contents (Elt F)),
    nullary main_cst_16 (constant S_ .f32 0x45800000#32),
    binary main_v44 main_cst_16 main_v45 (Host.divf : (⟨S_, .f32⟩ : BufTy).Contents (Elt F) → (⟨S_, .f32⟩ : BufTy).Contents (Elt F) → (⟨S_, .f32⟩ : BufTy).Contents (Elt F)) ]

set_option maxRecDepth 8192 in
/-- The program's operations are the three pieces in a row. -/
theorem ops_split : (Cert.ReferenceIdeal.ValueQ.ops : List (HloOp τ sig (Elt F))) = headA ++ (headB ++ tailOps) := rfl

/-- The arguments. -/
abbrev argRefs : List (Ref sig .tc) := [main_arg0, main_arg1, main_arg2, main_arg3, main_arg4, main_arg5, main_arg6]

/-! ## Each piece over any valuation it starts from -/

section Pieces

variable (W : Valuation τ sig (Elt F))

set_option maxRecDepth 8192 in
/-- The first piece leaves the policy's per-token log-probabilities at their stage … -/
theorem a_P : StableHlo.after (headA (F := F)) W (Proc.devRef .tc main_v4)
    = val_main_v4 (F := F) (W (Proc.devRef .tc main_arg0)) (W (Proc.devRef .tc main_arg1)) (W (Proc.devRef .tc main_arg4)) := by
  after_results_simp
  simp only [ofBuf_toBuf]
  rfl

set_option maxRecDepth 8192 in
/-- … and the mean of all its log-probabilities at its. -/
theorem a_lp : StableHlo.after (headA (F := F)) W (Proc.devRef .tc main_v6)
    = val_main_v6 (F := F) (W (Proc.devRef .tc main_arg0)) (W (Proc.devRef .tc main_arg1)) := by
  after_results_simp
  simp only [ofBuf_toBuf]
  rfl

set_option maxRecDepth 8192 in
set_option maxHeartbeats 1600000 in
/-- It writes no argument. -/
theorem a_keep {r : Ref sig .tc} (h : r ∈ argRefs) :
    StableHlo.after (headA (F := F)) W (Proc.devRef .tc r) = W (Proc.devRef .tc r) := by
  simp only [argRefs, List.mem_cons, List.not_mem_nil, or_false] at h
  rcases h with rfl | rfl | rfl | rfl | rfl | rfl | rfl <;> after_results_simp

set_option maxRecDepth 8192 in
/-- The second piece leaves the reference model's per-token log-probabilities at their stage. -/
theorem b_Rf : StableHlo.after (headB (F := F)) W (Proc.devRef .tc main_v11)
    = val_main_v11 (F := F) (W (Proc.devRef .tc main_arg2)) (W (Proc.devRef .tc main_arg3)) (W (Proc.devRef .tc main_arg4)) := by
  after_results_simp
  simp only [ofBuf_toBuf]
  rfl

set_option maxRecDepth 8192 in
set_option maxHeartbeats 1600000 in
/-- It writes neither what the first piece left nor an argument. -/
theorem b_keep {r : Ref sig .tc} (h : r ∈ main_v4 :: main_v6 :: argRefs) :
    StableHlo.after (headB (F := F)) W (Proc.devRef .tc r) = W (Proc.devRef .tc r) := by
  simp only [argRefs, List.mem_cons, List.not_mem_nil, or_false] at h
  rcases h with rfl | rfl | rfl | rfl | rfl | rfl | rfl | rfl | rfl <;> after_results_simp

set_option maxRecDepth 8192 in
/-- THE LOSS the tail leaves. -/
theorem t_loss : StableHlo.after (tailOps (F := F)) W (Proc.devRef .tc main_v36)
    = loss (F := F) (W (Proc.devRef .tc main_v4)) (W (Proc.devRef .tc main_v11)) (W (Proc.devRef .tc main_arg5)) (W (Proc.devRef .tc main_arg6)) := by
  after_results_simp
  simp only [ofBuf_toBuf]
  rfl

set_option maxRecDepth 8192 in
/-- THE DIVERGENCE METRIC it leaves. -/
theorem t_kl : StableHlo.after (tailOps (F := F)) W (Proc.devRef .tc main_v43)
    = kl (F := F) (W (Proc.devRef .tc main_v4)) (W (Proc.devRef .tc main_v11)) (W (Proc.devRef .tc main_arg5)) := by
  after_results_simp
  simp only [ofBuf_toBuf]
  rfl

set_option maxRecDepth 8192 in
/-- THE MEAN of the policy's log-probabilities it leaves. -/
theorem t_meanP : StableHlo.after (tailOps (F := F)) W (Proc.devRef .tc main_v45)
    = meanRows (F := F) (W (Proc.devRef .tc main_v4)) := by
  after_results_simp <;> rfl

set_option maxRecDepth 8192 in
set_option maxHeartbeats 1600000 in
/-- It writes neither the mean of all log-probabilities nor an argument. -/
theorem t_keep {r : Ref sig .tc} (h : r ∈ main_v6 :: argRefs) :
    StableHlo.after (tailOps (F := F)) W (Proc.devRef .tc r) = W (Proc.devRef .tc r) := by
  simp only [argRefs, List.mem_cons, List.not_mem_nil, or_false] at h
  rcases h with rfl | rfl | rfl | rfl | rfl | rfl | rfl | rfl <;> after_results_simp

end Pieces

/-! ## All the operations, over any valuation -/

section All

variable (V : Valuation τ sig (Elt F))

/-- The operations applied are the three pieces applied in turn. -/
theorem after_ops : StableHlo.after (Cert.ReferenceIdeal.ValueQ.ops (F := F)) V
    = StableHlo.after (tailOps (F := F)) (StableHlo.after (headB (F := F)) (StableHlo.after (headA (F := F)) V)) := by
  rw [ops_split, StableHlo.after_append, StableHlo.after_append]

/-- The policy's per-token log-probabilities when the tail starts. -/
theorem pre_P : StableHlo.after (headB (F := F)) (StableHlo.after (headA (F := F)) V) (Proc.devRef .tc main_v4)
    = val_main_v4 (F := F) (V (Proc.devRef .tc main_arg0)) (V (Proc.devRef .tc main_arg1)) (V (Proc.devRef .tc main_arg4)) :=
  (b_keep _ (by decide)).trans (a_P V)

/-- The reference model's. -/
theorem pre_Rf : StableHlo.after (headB (F := F)) (StableHlo.after (headA (F := F)) V) (Proc.devRef .tc main_v11)
    = val_main_v11 (F := F) (V (Proc.devRef .tc main_arg2)) (V (Proc.devRef .tc main_arg3)) (V (Proc.devRef .tc main_arg4)) := by
  rw [b_Rf, a_keep V (r := main_arg2) (by decide), a_keep V (r := main_arg3) (by decide), a_keep V (r := main_arg4) (by decide)]

/-- An argument when the tail starts. -/
theorem pre_arg {r : Ref sig .tc} (h : r ∈ argRefs) :
    StableHlo.after (headB (F := F)) (StableHlo.after (headA (F := F)) V) (Proc.devRef .tc r) = V (Proc.devRef .tc r) :=
  (b_keep _ (List.mem_cons_of_mem _ (List.mem_cons_of_mem _ h))).trans (a_keep V h)

/-- THE LOSS at the end. -/
theorem ops_loss : StableHlo.after (Cert.ReferenceIdeal.ValueQ.ops (F := F)) V (Proc.devRef .tc main_v36)
    = loss (F := F)
        (val_main_v4 (F := F) (V (Proc.devRef .tc main_arg0)) (V (Proc.devRef .tc main_arg1)) (V (Proc.devRef .tc main_arg4)))
        (val_main_v11 (F := F) (V (Proc.devRef .tc main_arg2)) (V (Proc.devRef .tc main_arg3)) (V (Proc.devRef .tc main_arg4)))
        (V (Proc.devRef .tc main_arg5)) (V (Proc.devRef .tc main_arg6)) := by
  rw [after_ops, t_loss, pre_P, pre_Rf, pre_arg V (r := main_arg5) (by decide), pre_arg V (r := main_arg6) (by decide)]

/-- THE DIVERGENCE METRIC at the end. -/
theorem ops_kl : StableHlo.after (Cert.ReferenceIdeal.ValueQ.ops (F := F)) V (Proc.devRef .tc main_v43)
    = kl (F := F)
        (val_main_v4 (F := F) (V (Proc.devRef .tc main_arg0)) (V (Proc.devRef .tc main_arg1)) (V (Proc.devRef .tc main_arg4)))
        (val_main_v11 (F := F) (V (Proc.devRef .tc main_arg2)) (V (Proc.devRef .tc main_arg3)) (V (Proc.devRef .tc main_arg4)))
        (V (Proc.devRef .tc main_arg5)) := by
  rw [after_ops, t_kl, pre_P, pre_Rf, pre_arg V (r := main_arg5) (by decide)]

/-- THE MEAN of the policy's log-probabilities at the end. -/
theorem ops_meanP : StableHlo.after (Cert.ReferenceIdeal.ValueQ.ops (F := F)) V (Proc.devRef .tc main_v45)
    = meanRows (F := F)
        (val_main_v4 (F := F) (V (Proc.devRef .tc main_arg0)) (V (Proc.devRef .tc main_arg1)) (V (Proc.devRef .tc main_arg4))) := by
  rw [after_ops, t_meanP, pre_P]

/-- The mean of all log-probabilities at the end. -/
theorem ops_lp : StableHlo.after (Cert.ReferenceIdeal.ValueQ.ops (F := F)) V (Proc.devRef .tc main_v6)
    = val_main_v6 (F := F) (V (Proc.devRef .tc main_arg0)) (V (Proc.devRef .tc main_arg1)) := by
  rw [after_ops, t_keep _ (r := main_v6) (by decide), b_keep _ (r := main_v6) (by decide), a_lp]

/-- No operation writes an argument. -/
theorem ops_arg {r : Ref sig .tc} (h : r ∈ argRefs) :
    StableHlo.after (Cert.ReferenceIdeal.ValueQ.ops (F := F)) V (Proc.devRef .tc r) = V (Proc.devRef .tc r) := by
  rw [after_ops, t_keep _ (List.mem_cons_of_mem _ h), pre_arg V h]

end All

/-! ## The run -/

section Run

variable (m : (ℓ : Loc nD τ sig) → Buf (Elt F) ℓ) (c : Dev nD)

/-- The second program's per-token log-probabilities of the policy, from the launch memory … -/
def refP : FVec F ShRows .f32 :=
  val_main_v4 (F := F) (m ((c.tc : Thread nD τ).loc main_arg0)) (m ((c.tc : Thread nD τ).loc main_arg1)) (m ((c.tc : Thread nD τ).loc main_arg4))
/-- … and of the reference model. -/
def refRf : FVec F ShRows .f32 :=
  val_main_v11 (F := F) (m ((c.tc : Thread nD τ).loc main_arg2)) (m ((c.tc : Thread nD τ).loc main_arg3)) (m ((c.tc : Thread nD τ).loc main_arg4))

end Run

set_option maxRecDepth 8192 in
/-- Every weakly fair execution of the second program, from any memory with zero counters, terminates with the loss, the
    mean of the policy's log-probabilities and the divergence metric at the tail's functions of its two arrays, the mean of
    all log-probabilities at its stage, and the arguments unchanged. -/
theorem run_tail (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
          = loss (F := F) (refP m c) (refRf m c) (m ((c.tc : Thread nD τ).loc main_arg5)) (m ((c.tc : Thread nD τ).loc main_arg6))
      ∧ r.2.mem ((c.tc : Thread nD τ).loc main_v45) = meanRows (F := F) (refP m c)
      ∧ r.2.mem ((c.tc : Thread nD τ).loc main_v6)
          = val_main_v6 (F := F) (m ((c.tc : Thread nD τ).loc main_arg0)) (m ((c.tc : Thread nD τ).loc main_arg1))
      ∧ r.2.mem ((c.tc : Thread nD τ).loc main_v43) = kl (F := F) (refP m c) (refRf m c) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v36).trans (ops_loss _),
        (h c main_v45).trans (ops_meanP _),
        (h c main_v6).trans (ops_lp _),
        (h c main_v43).trans (ops_kl _),
        (h c main_arg0).trans (ops_arg _ (by decide)),
        (h c main_arg1).trans (ops_arg _ (by decide)),
        (h c main_arg2).trans (ops_arg _ (by decide)),
        (h c main_arg3).trans (ops_arg _ (by decide)),
        (h c main_arg4).trans (ops_arg _ (by decide)),
        (h c main_arg5).trans (ops_arg _ (by decide)),
        (h c main_arg6).trans (ops_arg _ (by decide))⟩)
    (run_seq Cert.ReferenceIdeal.ValueQ.scopedRefs_eq Cert.ReferenceIdeal.ValueQ.scopedSems_eq defs main
      (fun _ => Cert.ReferenceIdeal.ValueQ.ops) Cert.ReferenceIdeal.ValueQ.main_eq (fun _ => Cert.ReferenceIdeal.ValueQ.ops_sub) m ρ)

end Cert.Tail

end
-- ==== Proof.RefValueA.lean ====
/-
  The operations of the reference whose result at an index is not one element of an operand, each read at an index, and the
  real algebra of one row.

  A maximum over the vocabulary axis, at a row, is the maximum of the row's 32000 entries taken from the initial value. A
  conjunction over an axis of an array of ones, from one, is one. A gather along the vocabulary axis, batched over the
  rows, reads at a row the row's entry at the row's start index, read as a signed integer and clamped into the vocabulary.
  A sum over a rank-3 index set is the triple sum over its coordinates. For a row of real logits, subtracting the row
  maximum and then the logarithm of the sum of the exponentials of the differences leaves the logit minus the logarithm of
  the sum of the exponentials of the row. A 32-bit word below 32000 is not negative as a signed word, lies in the range
  0 .. 31999, and clamps to itself.
-/
import proofs.«417562_j59090160058697_3_alg».proof.Proof.Gen.ReferenceIdeal
import proofs.«417562_j59090160058697_3_alg».proof.Proof.Spec
import proofs.«417562_j59090160058697_3_alg».proof.Proof.LibOnlineSoftmax
import Idealize.ShloMosaic.PureOps.Ideal.Laws
import Idealize.ShloMosaic.PureOps.Reduce
import Idealize.ShloMosaic.Lib.ValueIdx
import Idealize.ShloMosaic.Lib.StableHlo.Predicate

noncomputable section

namespace Cert.RefValue

open Cert.ReferenceIdeal Idealize.ShloMosaic Idealize.ShloMosaic.ValueIdx
open Cert.ReferenceIdeal.Facts₀

/-! ### Sums over a rank-3 index set -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ### Two words -/

/-- The word of minus infinity. -/
theorem ofBits_neg_inf : Ideal.ofBits .f32 0xFF800000#32 = (⊥ : EReal) := by
  simp [Ideal.ofBits, Ideal.ieee]

/-- The word of the number of all log-probabilities, 4 * 1024 * 32000 = 131072000. -/
theorem ofBits_count : Ideal.ofBits .f32 0x4CFA0000#32 = ((131072000 : ℝ) : EReal) := by
  simp [Ideal.ofBits, Ideal.ieee, -EReal.coe_mul]; norm_num

/-! ### The maximum over the vocabulary axis -/

/-- The maximum over the vocabulary axis, at row (b, t), is the maximum of the row's entries taken from the initial value. -/
theorem rowmax_fold (y : S4x1024x32000.Idx → EReal) (init : S_.Idx → EReal) (b : Fin 4) (t : Fin 1024) :
    Host.reduce (FloatOps.maximumf (F := Ideal) (φ := .f32)) y init reducesTo_S4x1024x32000_S4x1024_d2 h_S_ (ix2 b t)
      = (Finset.univ : Finset (Fin 32000)).fold max (init (Shape.Idx.first h_S_)) (fun v => y (ix3 b t v)) := by
  have h : S4x1024x32000.Reduces [2] S4x1024 := by decide
  refine (Host.reduce_eq_fold_single (α := Ideal .f32) (FloatOps.maximumf (F := Ideal) (φ := .f32)) y init
    reducesTo_S4x1024x32000_S4x1024_d2 h h_S_ (ix2 b t)).trans ?_
  have hf : (y ∘ h.lift (ix2 b t)) = fun v : Fin 32000 => y (ix3 b t v) :=
    funext fun k => congrArg y (funext fun c => Fin.ext (by
      match c with
      | ⟨0, _⟩ => rfl
      | ⟨1, _⟩ => rfl
      | ⟨2, _⟩ => rfl))
  exact congrArg (fun f => Finset.fold max (init (Shape.Idx.first h_S_)) f (Finset.univ : Finset (Fin 32000))) hf

/-- From minus infinity, over a row of real entries, it is the row's maximum. -/
theorem rowmax_real (y : S4x1024x32000.Idx → EReal) (g : Fin 32000 → ℝ) (b : Fin 4) (t : Fin 1024)
    (hy : ∀ v, y (ix3 b t v) = ((g v : ℝ) : EReal)) :
    Host.reduce (FloatOps.maximumf (F := Ideal) (φ := .f32)) y (constant (F := Ideal) S_ .f32 0xFF800000#32)
        reducesTo_S4x1024x32000_S4x1024_d2 h_S_ (ix2 b t)
      = ((Cert.LibOnline.tileMax g : ℝ) : EReal) := by
  rw [rowmax_fold, show (fun v => y (ix3 b t v)) = fun v => ((g v : ℝ) : EReal) from funext hy, constant_apply, ofBits_neg_inf]
  exact Cert.LibOnline.fold_max_coe g

/-! ### A conjunction of ones -/

/-- A reduction by "and" of an array of ones, from one, is one. -/
theorem reduce_and_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  generalize (((List.finRange s.numel).map s.rowMajor.symm).filter fun i => h.drop i = j) = l
  induction l with
  | nil => rfl
  | cons a l ih => rw [List.foldl_cons, hx a]; exact ih

/-! ### The gather along the vocabulary axis, batched over the rows -/

/-- On the first batching axis the batching coordinate of a result index is its first coordinate. -/
theorem gather_batch0 (j : S4x1024x1.Idx) :
    gather_S4x1024x32000_S4x1024x1x1_S4x1024x1_n_2_01_01_2_3_111.batchCoord j 0 = (j 0).val := by
  unfold GatherDims.batchCoord
  rw [dif_pos (by decide)]
  rfl

/-- On the second batching axis it is the second coordinate. -/
theorem gather_batch1 (j : S4x1024x1.Idx) :
    gather_S4x1024x32000_S4x1024x1x1_S4x1024x1_n_2_01_01_2_3_111.batchCoord j 1 = (j 1).val := by
  unfold GatherDims.batchCoord
  rw [dif_pos (by decide)]
  rfl

/-- The operand index on the batch axis: the result's batch coordinate. -/
theorem gather_axis0 {w : Nat} (j : S4x1024x1.Idx) (idx : IVec S4x1024x1x1 w) :
    gather_S4x1024x32000_S4x1024x1x1_S4x1024x1_n_2_01_01_2_3_111.start j idx 0
      + gather_S4x1024x32000_S4x1024x1x1_S4x1024x1_n_2_01_01_2_3_111.batchCoord j 0
      + gather_S4x1024x32000_S4x1024x1x1_S4x1024x1_n_2_01_01_2_3_111.offCoord j 0 = (j 0).val := by
  rw [GatherDims.start_batching _ _ _ _ (by decide), GatherDims.offCoord_eq_zero _ _ _ (by decide), gather_batch0]
  omega

/-- The operand index on the position axis: the result's position. -/
theorem gather_axis1 {w : Nat} (j : S4x1024x1.Idx) (idx : IVec S4x1024x1x1 w) :
    gather_S4x1024x32000_S4x1024x1x1_S4x1024x1_n_2_01_01_2_3_111.start j idx 1
      + gather_S4x1024x32000_S4x1024x1x1_S4x1024x1_n_2_01_01_2_3_111.batchCoord j 1
      + gather_S4x1024x32000_S4x1024x1x1_S4x1024x1_n_2_01_01_2_3_111.offCoord j 1 = (j 1).val := by
  rw [GatherDims.start_batching _ _ _ _ (by decide), GatherDims.offCoord_eq_zero _ _ _ (by decide), gather_batch1]
  omega

/-- The operand index on the vocabulary axis: the row's start index, read signed and clamped into 0 .. 31999. -/
theorem gather_axis2 {w : Nat} (j : S4x1024x1.Idx) (idx : IVec S4x1024x1x1 w) :
    gather_S4x1024x32000_S4x1024x1x1_S4x1024x1_n_2_01_01_2_3_111.start j idx 2
      + gather_S4x1024x32000_S4x1024x1x1_S4x1024x1_n_2_01_01_2_3_111.batchCoord j 2
      + gather_S4x1024x32000_S4x1024x1x1_S4x1024x1_n_2_01_01_2_3_111.offCoord j 2
      = min (idx (ix4 (j 0) (j 1) (j 2) (0 : Fin 1))).toInt.toNat 31999 := by
  rw [GatherDims.batchCoord_eq_zero _ _ _ (by decide), GatherDims.offCoord_eq_zero _ _ _ (by decide)]
  unfold GatherDims.start
  rw [dif_pos (by decide)]
  have hsi : gather_S4x1024x32000_S4x1024x1x1_S4x1024x1_n_2_01_01_2_3_111.siIdx j
      ⟨List.idxOf (2 : Fin 3) gather_S4x1024x32000_S4x1024x1x1_S4x1024x1_n_2_01_01_2_3_111.startIndexMap,
        List.idxOf_lt_length_iff.2 (by decide)⟩ = ix4 (j 0) (j 1) (j 2) (0 : Fin 1) := by
    funext b; refine Fin.ext ?_
    match b with
    | ⟨0, _⟩ => rfl
    | ⟨1, _⟩ => rfl
    | ⟨2, _⟩ => rfl
    | ⟨3, _⟩ => rfl
  rw [hsi]
  rfl

/-- The gather at row (b, t): the row's entry at the row's start index, read signed and clamped into the vocabulary. -/
theorem gather_row {α : Type} {w : Nat} (y : S4x1024x32000.Idx → α) (idx : IVec S4x1024x1x1 w) (b : Fin 4) (t : Fin 1024)
    (c : Fin 1) :
    Host.gather gather_S4x1024x32000_S4x1024x1x1_S4x1024x1_n_2_01_01_2_3_111 y idx (ix3 b t c)
      = y (ix3 b t ⟨min (idx (ix4 b t c (0 : Fin 1))).toInt.toNat 31999, by omega⟩) := by
  unfold Host.gather
  congr 1
  funext a
  refine Fin.ext ?_
  match a with
  | ⟨0, _⟩ => exact gather_axis0 (ix3 b t c) idx
  | ⟨1, _⟩ => exact gather_axis1 (ix3 b t c) idx
  | ⟨2, _⟩ => exact gather_axis2 (ix3 b t c) idx

/-! ### A row of real logits -/

/-- A logit of a real row minus the row maximum (taken once more against minus infinity) is the real difference. -/
theorem row_shift (g : Fin 32000 → ℝ) (v : Fin 32000) :
    ((g v : ℝ) : EReal) - max (⊥ : EReal) ((Cert.LibOnline.tileMax g : ℝ) : EReal)
      = ((g v - Cert.LibOnline.tileMax g : ℝ) : EReal) := by
  rw [max_eq_right bot_le, ← EReal.coe_sub]

/-- The logarithm of the sum, started from zero, of the exponentials of the shifted row. -/
theorem row_logsum (g : Fin 32000 → ℝ) :
    Ideal.log ((0 : EReal) + ∑ k : Fin 32000, Ideal.exp (((g k - Cert.LibOnline.tileMax g : ℝ) : EReal)))
      = ((Real.log (∑ k : Fin 32000, Real.exp (g k - Cert.LibOnline.tileMax g)) : ℝ) : EReal) := by
  rw [zero_add]
  simp only [Ideal.exp_coe]
  rw [← Cert.LibOnline.coe_sum]
  exact Cert.LibOnline.ideal_log_coe_pos (Finset.sum_pos (fun k _ => Real.exp_pos _) Finset.univ_nonempty)

/-- The log-softmax of a real row: the shifted logit minus that logarithm is the logit minus the logarithm of the sum of
    the exponentials of the row. -/
theorem row_logsoftmax (g : Fin 32000 → ℝ) (v : Fin 32000) :
    ((g v - Cert.LibOnline.tileMax g : ℝ) : EReal)
        - ((Real.log (∑ k : Fin 32000, Real.exp (g k - Cert.LibOnline.tileMax g)) : ℝ) : EReal)
      = ((g v - Real.log (∑ k : Fin 32000, Real.exp (g k)) : ℝ) : EReal) := by
  rw [← EReal.coe_sub, ← Cert.LibOnline.shifted_lse g]
  congr 1
  ring

/-! ### A word below 32000 -/

section Word
variable {id : BitVec 32} (hid : id.toNat < 32000)
include hid

/-- It is not negative as a signed word. -/
theorem word_not_neg : IntOp.cmpi .slt id 0#32 = 0#1 := by
  refine eq_zero_of_ne_one fun h => ?_
  have := (StableHlo.Predicate.slt_iff_toNat (a := id) (b := 0#32) (by omega) (by decide)).1 h
  simp at this

/-- It is at least zero as a signed word. -/
theorem word_ge_zero : IntOp.cmpi .sge id 0#32 = 1#1 :=
  (StableHlo.Predicate.sge_iff_toNat (a := id) (b := 0#32) (by omega) (by decide)).2 (Nat.zero_le _)

/-- It is at most 31999 as a signed word. -/
theorem word_le_last : IntOp.cmpi .sle id 31999#32 = 1#1 :=
  (StableHlo.Predicate.sle_iff_toNat (a := id) (b := 31999#32) (by omega) (by decide)).2
    (by show id.toNat ≤ 31999; omega)

/-- Read signed and clamped into 0 .. 31999 it is itself. -/
theorem word_clamp : min id.toInt.toNat 31999 = id.toNat := by
  rw [StableHlo.Predicate.toInt_eq_toNat_of_lt (a := id) (by omega), Int.toNat_natCast]
  omega

/-- It selects itself. -/
theorem word_sel : (Cert.Spec.sel id).val = id.toNat := Nat.mod_eq_of_lt hid

end Word

end Cert.RefValue

end
-- ==== Proof.RefValue.lean ====
/-
  The reference's values are the closed forms. Per model the reference forms the logits (the inner products of the rows of
  the activations with the rows of the projection), subtracts the row maximum, subtracts the logarithm of the sum of the
  exponentials of the differences, and picks, row by row, the entry the row's word selects; of the policy's log-softmax it
  also takes the mean of all 4 * 1024 * 32000 entries. For real activations and projections the log-softmax at (b, t, v) is
  the logit minus the logarithm of the sum of the exponentials of the row's logits; for words below 32000 the wrap of
  negative indices keeps the word, the range test holds at every row, and the gather reads the entry the word selects. The
  reference model's stages are the policy's stages at the other pair of arguments.
-/
import proofs.«417562_j59090160058697_3_alg».proof.Proof.RefRead
import proofs.«417562_j59090160058697_3_alg».proof.Proof.RefValueA

noncomputable section

namespace Cert.RefValue

open Cert.ReferenceIdeal Cert.ReferenceIdeal.ReadP Idealize.ShloMosaic Idealize.ShloMosaic.ValueIdx Cert.Spec
open Cert.ReferenceIdeal.Facts₀

/-! ### The log-softmax of the logits, entry by entry -/

section Logits
variable (x : XArr) (w : WArr) (hx : IsReal x) (hw : IsReal w)
include hx hw

/-- The logits: the inner products of the rows of the activations with the rows of the projection. -/
theorem logits_apply (b : Fin 4) (t : Fin 1024) (v : Fin 32000) :
    val_main_v0 (F := Ideal) x w (ix3 b t v) = ((lr x w b t v : ℝ) : EReal) := by
  rw [val_main_v0_apply, ← logit_eq_lr hx hw]
  unfold Cert.Spec.logit
  refine Finset.sum_congr rfl fun k _ => ?_
  have el : lidx_main_v0 (ix3 b t v) k = ix3 b t k :=
    funext fun a => Fin.ext (by match a with | ⟨0, _⟩ => rfl | ⟨1, _⟩ => rfl | ⟨2, _⟩ => rfl)
  have er : ridx_main_v0 (ix3 b t v) k = ix2 v k :=
    funext fun a => Fin.ext (by match a with | ⟨0, _⟩ => rfl | ⟨1, _⟩ => rfl)
  rw [el, er]

/-- The row maximum, taken from minus infinity and once more against minus infinity. -/
theorem rowmax_apply (b : Fin 4) (t : Fin 1024) :
    val_main_call0_v2 (F := Ideal) x w (ix2 b t)
      = max (⊥ : EReal) ((Cert.LibOnline.tileMax (fun v => lr x w b t v) : ℝ) : EReal) := by
  have h0 : val_main_call0_v0 (F := Ideal) x w (ix2 b t) = ((Cert.LibOnline.tileMax (fun v => lr x w b t v) : ℝ) : EReal) := by
    unfold val_main_call0_v0 val_main_call0_cst
    exact rowmax_real _ (fun v => lr x w b t v) b t (logits_apply x w hx hw b t)
  rw [val_main_call0_v2_apply, val_main_call0_v1_apply, val_main_call0_cst_0_apply, h0, Ideal.maximumf_def, Ideal.ofBits_def,
    ofBits_neg_inf]

/-- A logit minus the row maximum. -/
theorem shifted_apply (b : Fin 4) (t : Fin 1024) (v : Fin 32000) :
    val_main_call0_v5 (F := Ideal) x w (ix3 b t v)
      = ((lr x w b t v - Cert.LibOnline.tileMax (fun v => lr x w b t v) : ℝ) : EReal) := by
  have ei : idx_main_call0_v3 (idx_main_call0_v4 (ix3 b t v)) = ix2 b t :=
    funext fun a => Fin.ext (by match a with | ⟨0, _⟩ => rfl | ⟨1, _⟩ => rfl)
  rw [val_main_call0_v5_apply, val_main_call0_v4_apply, val_main_call0_v3_apply, ei, rowmax_apply x w hx hw b t,
    logits_apply x w hx hw b t v, Ideal.subf_def]
  exact row_shift (fun v => lr x w b t v) v

/-- The logarithm of the sum of the exponentials of the shifted row. -/
theorem logsum_apply (b : Fin 4) (t : Fin 1024) (c : Fin 1) :
    val_main_call0_v9 (F := Ideal) x w (ix3 b t c)
      = ((Real.log (∑ k : Fin 32000, Real.exp (lr x w b t k - Cert.LibOnline.tileMax (fun v => lr x w b t v))) : ℝ) : EReal) := by
  have ei : idx_main_call0_v8 (ix3 b t c) = ix2 b t :=
    funext fun a => Fin.ext (by match a with | ⟨0, _⟩ => rfl | ⟨1, _⟩ => rfl)
  have ek : ∀ k : Fin 32000, idx_main_call0_v7 (ix2 b t) k = ix3 b t k := fun k =>
    funext fun a => Fin.ext (by match a with | ⟨0, _⟩ => rfl | ⟨1, _⟩ => rfl | ⟨2, _⟩ => rfl)
  rw [val_main_call0_v9_apply, val_main_call0_v8_apply, ei, val_main_call0_v7_apply, val_main_call0_cst_1_apply]
  simp only [ek, val_main_call0_v6_apply, shifted_apply x w hx hw b t]
  rw [Ideal.hostUnary_log_def, Ideal.ofBits_def, Ideal.ofBits_zero_f32]
  simp only [Ideal.hostUnary_exp_def]
  exact row_logsum (fun v => lr x w b t v)

/-- The log-softmax: a logit minus the logarithm of the sum of the exponentials of its row. -/
theorem logsoftmax_apply (b : Fin 4) (t : Fin 1024) (v : Fin 32000) :
    val_main_v1 (F := Ideal) x w (ix3 b t v) = ((lr x w b t v - lse x w b t : ℝ) : EReal) := by
  have ei : idx_main_call0_v10 (ix3 b t v) = ix3 b t (0 : Fin 1) :=
    funext fun a => Fin.ext (by match a with | ⟨0, _⟩ => rfl | ⟨1, _⟩ => rfl | ⟨2, _⟩ => rfl)
  rw [val_main_v1_apply, val_main_call0_v10_apply, ei, shifted_apply x w hx hw b t v, logsum_apply x w hx hw b t 0,
    Ideal.subf_def]
  exact row_logsoftmax (fun v => lr x w b t v) v

end Logits

/-! ### The selected entries -/

section Words
variable (ids : IdArr) (hid : ∀ i, (ids i).toNat < 32000)
include hid

/-- A word below 32000 is not negative, so the wrapped index is the word. -/
theorem wrap_apply (i : S4x1024x1.Idx) : val_main_call1_v4 (F := Ideal) ids i = ids (idx_main_v2 i) := by
  rw [val_main_call1_v4_apply, val_main_call1_v1_apply, val_main_call1_v0_apply, val_main_call1_c_apply, val_main_v2_apply,
    word_not_neg (hid _), select_zero]

/-- The start indices are the words. -/
theorem start_apply (i : S4x1024x1x1.Idx) :
    val_main_call1_v5 (F := Ideal) ids i = ids (idx_main_v2 (idx_main_call1_v5 i)) := by
  rw [val_main_call1_v5_apply, wrap_apply ids hid]

/-- Every start index lies in the range 0 .. 31999. -/
theorem inrange_apply (i : S4x1024x1x1.Idx) : val_main_call1_v11 (F := Ideal) ids i = 1#1 := by
  rw [val_main_call1_v11_apply, val_main_call1_v7_apply, val_main_call1_v10_apply, val_main_call1_v6_apply,
    val_main_call1_c_2_apply, val_main_call1_v9_apply, val_main_call1_v8_apply, val_main_call1_c_1_apply,
    start_apply ids hid, word_ge_zero (hid _), word_le_last (hid _)]
  rfl

/-- So the conjunction over the index vector's axis is one at every row. -/
theorem inrange_all (i : S4x1024x1.Idx) : val_main_call1_v12 (F := Ideal) ids i = 1#1 := by
  unfold val_main_call1_v12
  exact reduce_and_ones _ _ _ _ (inrange_apply ids hid) (fun _ => rfl) i

end Words

/-- The policy's selected log-probabilities are the closed form. -/
theorem ref_ptl (x : XArr) (w : WArr) (ids : IdArr) (hx : IsReal x) (hw : IsReal w) (hid : ∀ i, (ids i).toNat < 32000) :
    val_main_v4 (F := Ideal) x w ids = ptlC x w ids := by
  funext i
  obtain ⟨b, t, rfl⟩ : ∃ (b : Fin 4) (t : Fin 1024), i = ix2 b t := ⟨i 0, i 1, eq_ix2 i⟩
  have ei : idx_main_v4 (ix2 b t) = ix3 b t (0 : Fin 1) :=
    funext fun a => Fin.ext (by
      match a with
      | ⟨0, _⟩ => show (b.val * 1024 + t.val) / 1024 = b.val; omega
      | ⟨1, _⟩ => show (b.val * 1024 + t.val) / 1 % 1024 = t.val; omega
      | ⟨2, _⟩ => rfl)
  have es : idx_main_v2 (idx_main_call1_v5 (ix4 b t (0 : Fin 1) (0 : Fin 1))) = ix2 b t :=
    funext fun a => Fin.ext (by
      match a with
      | ⟨0, _⟩ => show (((b.val * 1024 + t.val) * 1 + 0) * 1 + 0) / 1024 = b.val; omega
      | ⟨1, _⟩ => show (((b.val * 1024 + t.val) * 1 + 0) * 1 + 0) / 1 % 1024 = t.val; omega)
  have key : ∀ N : Fin 32000, N.val = min (val_main_call1_v5 (F := Ideal) ids (ix4 b t (0 : Fin 1) (0 : Fin 1))).toInt.toNat 31999 →
      val_main_v1 (F := Ideal) x w (ix3 b t N) = ptlC x w ids (ix2 b t) := by
    intro N hN
    rw [start_apply ids hid, es, word_clamp (hid _)] at hN
    have eN : N = sel (ids (ix2 b t)) := Fin.ext (by rw [hN, word_sel (hid _)])
    rw [eN, logsoftmax_apply x w hx hw]
    rfl
  rw [val_main_v4_apply, ei, val_main_v3_apply, inrange_all ids hid, select_one]
  unfold val_main_call1_v13
  rw [gather_row]
  exact key _ rfl

/-- The mean of all of the policy's log-probabilities is the closed form. -/
theorem ref_lpmean (x : XArr) (w : WArr) (hx : IsReal x) (hw : IsReal w) :
    val_main_v6 (F := Ideal) x w = fun _ => lpmeanC x w := by
  funext i
  rw [val_main_v6_apply, val_main_v5_apply, val_main_cst_apply, val_main_cst_0_apply,
    sum_idx3 (n0 := 4) (n1 := 1024) (n2 := 32000)]
  simp only [logsoftmax_apply x w hx hw]
  rw [Ideal.hostDivf_def, Ideal.ofBits_def, Ideal.ofBits_def, Ideal.ofBits_zero_f32, ofBits_count, zero_add]
  simp only [← Cert.LibOnline.coe_sum]
  rw [Ideal.div_coe (by norm_num)]
  unfold lpmeanC
  rw [← EReal.coe_mul]
  congr 1
  ring

/-! ### The reference model: the same stages at the other pair of arguments -/

/-- The reference model's log-softmax is the policy's at the reference model's arguments. -/
theorem logsoftmax_swap {F : FTy → Type} [FloatOps F] (rw' : (⟨S32000x2048, .f32⟩ : BufTy).Contents (Elt F))
    (rx : (⟨S4x1024x2048, .f32⟩ : BufTy).Contents (Elt F)) : val_main_v8 (F := F) rw' rx = val_main_v1 (F := F) rx rw' := by
  unfold val_main_v8 val_main_v1 val_main_call2_v10 val_main_call0_v10 val_main_call2_v9 val_main_call0_v9 val_main_call2_v8
    val_main_call0_v8 val_main_call2_v7 val_main_call0_v7 val_main_call2_cst_1 val_main_call0_cst_1 val_main_call2_v6
    val_main_call0_v6 val_main_call2_v5 val_main_call0_v5 val_main_call2_v4 val_main_call0_v4 val_main_call2_v3 val_main_call0_v3
    val_main_call2_v2 val_main_call0_v2 val_main_call2_v1 val_main_call0_v1 val_main_call2_cst_0 val_main_call0_cst_0
    val_main_call2_v0 val_main_call0_v0 val_main_call2_cst val_main_call0_cst val_main_v7 val_main_v0
  with_reducible rfl

/-- The reference model's selected log-probabilities are the policy's at the reference model's arguments. -/
theorem ptl_swap {F : FTy → Type} [FloatOps F] (rw' : (⟨S32000x2048, .f32⟩ : BufTy).Contents (Elt F))
    (rx : (⟨S4x1024x2048, .f32⟩ : BufTy).Contents (Elt F)) (ids : (⟨S4x1024, .i32⟩ : BufTy).Contents (Elt F)) :
    val_main_v11 (F := F) rw' rx ids = val_main_v4 (F := F) rx rw' ids := by
  unfold val_main_v11 val_main_v4 val_main_v10 val_main_v3 val_main_call3_v14 val_main_call1_v14 val_main_call3_cst
    val_main_call1_cst val_main_call3_v13 val_main_call1_v13 val_main_call3_v12 val_main_call1_v12 val_main_call3_c_3
    val_main_call1_c_3 val_main_call3_v11 val_main_call1_v11 val_main_call3_v10 val_main_call1_v10 val_main_call3_v9
    val_main_call1_v9 val_main_call3_v8 val_main_call1_v8 val_main_call3_v7 val_main_call1_v7 val_main_call3_v6 val_main_call1_v6
    val_main_call3_c_2 val_main_call1_c_2 val_main_call3_c_1 val_main_call1_c_1 val_main_call3_v5 val_main_call1_v5
    val_main_call3_v4 val_main_call1_v4 val_main_call3_v3 val_main_call1_v3 val_main_call3_v2 val_main_call1_v2
    val_main_call3_c_0 val_main_call1_c_0 val_main_call3_v1 val_main_call1_v1 val_main_call3_v0 val_main_call1_v0
    val_main_call3_c val_main_call1_c val_main_v9 val_main_v2
  rw [logsoftmax_swap]

/-- The reference model's selected log-probabilities are the closed form at its arguments. -/
theorem ref_ptl' (rx : XArr) (rw' : WArr) (ids : IdArr) (hx : IsReal rx) (hw : IsReal rw') (hid : ∀ i, (ids i).toNat < 32000) :
    val_main_v11 (F := Ideal) rw' rx ids = ptlC rx rw' ids := by
  rw [ptl_swap]
  exact ref_ptl rx rw' ids hx hw hid

end Cert.RefValue

end
-- ==== Proof.MeanRows.lean ====
/-
  The mean over the 4096 rows of the rows' mean log-probability is the mean of all 4 * 1024 * 32000 log-probabilities:
  the sum of the row terms divided by 4096 equals the sum of all terms divided by 131072000 = 4096 * 32000.
  Both sums are sums of real numbers, so the identity is one of real arithmetic, carried to the extended reals.
-/
import proofs.«417562_j59090160058697_3_alg».proof.Proof.Spec
import proofs.«417562_j59090160058697_3_alg».proof.Proof.Tail.Defs
import proofs.«417562_j59090160058697_3_alg».proof.Proof.LibOnlineSoftmax
import Idealize.ShloMosaic.PureOps.Ideal.Laws
import Idealize.ShloMosaic.Lib.ValueIdx

noncomputable section

namespace Cert.MeanRows

open Idealize.ShloMosaic Idealize.ShloMosaic.ValueIdx

/-- The word of `4096.0` denotes the real 4096, and the zero word denotes 0. -/
theorem ofBits_4096 : Ideal.ofBits .f32 0x45800000#32 = ((4096 : ℝ) : EReal) := by
  simp [Ideal.ofBits, Ideal.ieee, -EReal.coe_mul]; norm_num
theorem ofBits_zero : Ideal.ofBits .f32 0x00000000#32 = 0 := by
  simp [Ideal.ofBits, Ideal.ieee]

/-- The mean over all positions of an array of real numbers `g`: the real mean. -/
theorem meanRows_coe (g : (⟨2, ![4, 1024]⟩ : Shape).Idx → ℝ) (j : Cert.Tail.ShOne.Idx) :
    Cert.Tail.meanRows (F := Ideal) (fun i => ((g i : ℝ) : EReal)) j
      = (((∑ b : Fin 4, ∑ t : Fin 1024, g (ix2 b t)) / 4096 : ℝ) : EReal) := by
  unfold Cert.Tail.meanRows
  simp only [Host.divf, Host.reduceAdd, Ideal.hostReduceAdd_def, Ideal.hostDivf_def, constant, Ideal.ofBits_def]
  rw [Ideal.hostReduceAdd_total Cert.Tail.red_rows_one (fun b => b.elim0) _ _ j, ofBits_4096, ofBits_zero, zero_add,
    Ideal.div_coe (by norm_num : (4096 : ℝ) ≠ 0), sum_idx2]
  simp only [← Cert.LibOnline.coe_sum]
  rw [← EReal.coe_mul]
  exact congrArg _ (by ring)

/-- The mean of the rows' mean log-probabilities is the mean of all log-probabilities. -/
theorem meanRows_rowC (x : Cert.Spec.XArr) (w : Cert.Spec.WArr) :
    Cert.Tail.meanRows (F := Ideal) (Cert.Spec.rowC x w) = fun _ => Cert.Spec.lpmeanC x w := by
  funext j
  unfold Cert.Spec.rowC Cert.Spec.lpmeanC
  rw [meanRows_coe (fun i => (∑ v : Fin 32000, Cert.Spec.lr x w (i 0) (i 1) v) / 32000 - Cert.Spec.lse x w (i 0) (i 1)) j]
  exact congrArg _ (Cert.Spec.mean_rows x w)

end Cert.MeanRows

end
-- ==== Proof.Assemble.lean ====
/-
  The five conjuncts of the claim, assembled.
  * Frames. The word-level program and the idealized program run to the end without a fault and leave their argument
    arrays unchanged: the launch over @main's two kernel regions and nine stretches of array operations, each region
    entered at the records of its grid's 100 points. The second program is array operations only; its run is read back.
  * The one rewrite of the idealization names the constant 1/32000.
  * Equal results. Under the precondition every activation and weight is a real number and every selected entry is below
    32000. Then the first program's regions leave, per row, `l_id - log (∑ exp l)` for the policy and for the reference
    model and `(∑ l) / 32000 - log (∑ exp l)` for the policy, and the second program computes the same per-token numbers by
    subtracting the row maximum once. Both programs feed them to the same final array operations, so the loss, the mean
    log-probability of the selected entries and the divergence metric agree; the remaining result, the mean of all
    log-probabilities, is on one side the mean of the 4096 row means and on the other the mean of all 131072000 terms.
-/
import proofs.«417562_j59090160058697_3_alg».proof.Defs
import proofs.«417562_j59090160058697_3_alg».proof.Proof.Gen.Kernel
import proofs.«417562_j59090160058697_3_alg».proof.Proof.Gen.KernelIdeal
import proofs.«417562_j59090160058697_3_alg».proof.Proof.Gen.ReferenceIdeal
import proofs.«417562_j59090160058697_3_alg».proof.Proof.Gen.Pre_finite_inputs
import proofs.«417562_j59090160058697_3_alg».proof.Proof.K.Regs
import proofs.«417562_j59090160058697_3_alg».proof.Proof.Bridge
import proofs.«417562_j59090160058697_3_alg».proof.Proof.Tail.Ref
import proofs.«417562_j59090160058697_3_alg».proof.Proof.RefValue
import proofs.«417562_j59090160058697_3_alg».proof.Proof.MeanRows
import Idealize.ShloMosaic.PureOps.IdealRules

noncomputable section

namespace Cert.Proof.Parts

open Idealize.ShloMosaic Idealize.ShloMosaic.TcCoe Idealize.SL.Sem
open Cert.Bridge

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.Tail.run_tail (F := Ideal) m ρ)

/-- The table gives the name `inv_32000` the value `1/32000`, and the printed constant is that value over the extended reals. -/
theorem preserves : Cert.preserves_Kernel_KernelIdeal :=
  IdealRules.named_const.statement Cert.KernelIdeal.κ "inv_32000" .f32 0x3803126F#32 ((1 / 32000 : ℝ) : EReal) rfl

open Cert.KernelIdeal Cert.KernelIdeal.Gen Cert.KernelIdeal.Hand in
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Tail.loss (F := Ideal) (Cert.Spec.ptlC (xA m c) (wA m c) (idA m c)) (Cert.Spec.ptlC (rxA m c) (rwA m c) (idA m c))
            (m ((c.tc : Thread nD τ).loc main_arg5)) (m ((c.tc : Thread nD τ).loc main_arg6)),
          fun c => Cert.Tail.meanRows (F := Ideal) (Cert.Spec.ptlC (xA m c) (wA m c) (idA m c)),
          fun c => Cert.Tail.meanRows (F := Ideal) (Cert.Spec.rowC (xA m c) (wA m c)),
          fun c => Cert.Tail.kl (F := Ideal) (Cert.Spec.ptlC (xA m c) (wA m c) (idA m c)) (Cert.Spec.ptlC (rxA m c) (rwA m c) (idA m c))
            (m ((c.tc : Thread nD τ).loc main_arg5)), ?_, ?_⟩
  · -- the first program: every unscoped buffer ends at the last valuation, read at the four results and the arguments
    refine (θ_run Cert.KernelIdeal.defs _ _).mono (fun r h c => ?_) (run_vals (F := Ideal) m ρ)
    have hr : ∀ (b : Ref sig .tc) (hb : ¬ (Proc.devRef .tc b : DevRef τ sig).isScoped),
        r.2.mem ((c.tc : Thread nD τ).loc b) = V11 m (outsK m) c b := fun b hb => h c _ (mem_uc b hb)
    refine ⟨(hr main_v29 (by decide)).trans ?_, (hr main_v40 (by decide)).trans ?_, (hr main_v38 (by decide)).trans ?_,
      (hr main_v36 (by decide)).trans ?_,
      (hr main_arg0 (by decide)).trans (V11_main_arg0 m (outsK m) c), (hr main_arg1 (by decide)).trans (V11_main_arg1 m (outsK m) c),
      (hr main_arg2 (by decide)).trans (V11_main_arg2 m (outsK m) c), (hr main_arg3 (by decide)).trans (V11_main_arg3 m (outsK m) c),
      (hr main_arg4 (by decide)).trans (V11_main_arg4 m (outsK m) c), (hr main_arg5 (by decide)).trans (V11_main_arg5 m (outsK m) c),
      (hr main_arg6 (by decide)).trans (V11_main_arg6 m (outsK m) c)⟩
    · rw [Cert.Tail.k_loss, policy_ptl m hpre c, refmodel_ptl m hpre c]
    · rw [Cert.Tail.k_meanP, policy_ptl m hpre c]
    · rw [Cert.Tail.k_meanQ, policy_row m hpre c]
    · rw [Cert.Tail.k_kl, policy_ptl m hpre c, refmodel_ptl m hpre c]
  · -- the second program: its run read back, its two arrays the same closed forms, the arguments agreeing
    refine (θ_run Cert.ReferenceIdeal.defs _ _).mono (fun r h c => ?_) (Cert.Tail.run_tail (F := Ideal) m' ρ')
    obtain ⟨h0, h1, h2, h3, h4, h5, h6⟩ := hagree c
    have hP : Cert.Tail.refP m' c = Cert.Spec.ptlC (xA m c) (wA m c) (idA m c) := by
      unfold Cert.Tail.refP; rw [h0, h1, h4]
      exact Cert.RefValue.ref_ptl (xA m c) (wA m c) (idA m c) (Cert.PreFacts.real_arg0 m hpre c) (Cert.PreFacts.real_arg1 m hpre c)
        (fun i => Cert.PreFacts.ids_lt m hpre c i)
    have hR : Cert.Tail.refRf m' c = Cert.Spec.ptlC (rxA m c) (rwA m c) (idA m c) := by
      unfold Cert.Tail.refRf; rw [h2, h3, h4]
      exact Cert.RefValue.ref_ptl' (rxA m c) (rwA m c) (idA m c) (Cert.PreFacts.real_arg3 m hpre c) (Cert.PreFacts.real_arg2 m hpre c)
        (fun i => Cert.PreFacts.ids_lt m hpre c i)
    refine ⟨(h c).1.trans ?_, (h c).2.1.trans ?_, (h c).2.2.1.trans ?_, (h c).2.2.2.1.trans ?_, (h c).2.2.2.2⟩
    · rw [hP, hR, h5, h6]
    · rw [hP]
    · rw [h0, h1]
      exact (Cert.RefValue.ref_lpmean (xA m c) (wA m c) (Cert.PreFacts.real_arg0 m hpre c) (Cert.PreFacts.real_arg1 m hpre c)).trans
        (Cert.MeanRows.meanRows_rowC (xA m c) (wA m c)).symm
    · rw [hP, hR, h5]

end Cert.Proof.Parts

end
-- ==== Proof.lean ====
/-
  The claim: the word-level program, its idealization and the reference each run to the end, faulting nowhere and
  leaving their arguments unchanged; the idealization rewrites one constant, the reciprocal of the vocabulary size;
  and over the extended reals, for real activations and weights and selected entries inside the vocabulary, the
  idealized program and the reference end with the same four results. The parts are proved in Proof/Assemble.lean.
-/
import proofs.«417562_j59090160058697_3_alg».proof.Proof.Assemble

noncomputable section

namespace Cert.Proof

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves, Parts.algebraic⟩

end Cert.Proof

end
